-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024 : Shape := ⟨2, ![8, 1024]⟩
abbrev S8192x1024 : Shape := ⟨2, ![8192, 1024]⟩
abbrev S4x1024x1024 : Shape := ⟨3, ![4, 1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S8x1024 : S_.BroadcastsInDim S8x1024 (![] : Fin 0 → Fin S8x1024.rank)
  reducesTo_S8x1024_S_d0_1 : S8x1024.ReducesTo [0, 1] S_

variable [Facts]

def fn_part2 {F : FTy → Type} [FloatOps F] (main_v30 : IVec S_ 1) (main_v32 : IVec S8x1024 1) : IVec S_ 1 :=
  let main_c_13 : IVec S_ 1 := constantI S_ 1 1#1
  let main_v33 : IVec S_ 1 := (fun x v => Host.reduce IntOp.andi x v reducesTo_S8x1024_S_d0_1 h_S_) main_v32 main_c_13
  let main_v34 : IVec S_ 1 := andi main_v30 main_v33
  main_v34

def fn_part1 {F : FTy → Type} [FloatOps F] (main_arg0 : IVec S8x1024 32) (main_arg1 : IVec S8x1024 32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_c_6 : IVec S_ 32 := constantI S_ 32 0#32
  let main_v19 : IVec S8x1024 32 := broadcastInDim S8x1024 ![] bcast_S_S8x1024 main_c_6
  let main_v20 : IVec S8x1024 1 := cmpi .sge main_arg0 main_v19
  let main_c_7 : IVec S_ 1 := constantI S_ 1 1#1
  let main_v21 : IVec S_ 1 := (fun x v => Host.reduce IntOp.andi x v reducesTo_S8x1024_S_d0_1 h_S_) main_v20 main_c_7
  let main_v22 : IVec S_ 1 := andi main_v18 main_v21
  let main_c_8 : IVec S_ 32 := constantI S_ 32 8192#32
  let main_v23 : IVec S8x1024 32 := broadcastInDim S8x1024 ![] bcast_S_S8x1024 main_c_8
  let main_v24 : IVec S8x1024 1 := cmpi .slt main_arg0 main_v23
  let main_c_9 : IVec S_ 1 := constantI S_ 1 1#1
  let main_v25 : IVec S_ 1 := (fun x v => Host.reduce IntOp.andi x v reducesTo_S8x1024_S_d0_1 h_S_) main_v24 main_c_9
  let main_v26 : IVec S_ 1 := andi main_v22 main_v25
  let main_c_10 : IVec S_ 32 := constantI S_ 32 0#32
  let main_v27 : IVec S8x1024 32 := broadcastInDim S8x1024 ![] bcast_S_S8x1024 main_c_10
  let main_v28 : IVec S8x1024 1 := cmpi .sge main_arg1 main_v27
  let main_c_11 : IVec S_ 1 := constantI S_ 1 1#1
  let main_v29 : IVec S_ 1 := (fun x v => Host.reduce IntOp.andi x v reducesTo_S8x1024_S_d0_1 h_S_) main_v28 main_c_11
  let main_v30 : IVec S_ 1 := andi main_v26 main_v29
  let main_c_12 : IVec S_ 32 := constantI S_ 32 8192#32
  let main_v31 : IVec S8x1024 32 := broadcastInDim S8x1024 ![] bcast_S_S8x1024 main_c_12
  let main_v32 : IVec S8x1024 1 := cmpi .slt main_arg1 main_v31
  fn_part2 (F := F) main_v30 main_v32

def fn {F : FTy → Type} [FloatOps F] (main_arg0 : IVec S8x1024 32) (main_arg1 : IVec S8x1024 32) (main_arg2 : FVec F S8192x1024 .f32) (main_arg3 : FVec F S4x1024x1024 .f32) (main_arg4 : FVec F S4x1024x1024 .f32) (main_arg5 : FVec F S8192x1024 .f32) : IVec S_ 1 :=
  let main_v0 : FVec F S8192x1024 .f32 := Host.absf main_arg2
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4x1024x1024 .f32 := Host.absf main_arg3
  let main_cst_0 : FVec F S_ .f32 := constant S_ .f32 0x7F800000#32
  let main_v5 : FVec F S4x1024x1024 .f32 := broadcastInDim S4x1024x1024 ![] bcast_S_S4x1024x1024 main_cst_0
  let main_v6 : IVec S4x1024x1024 1 := cmpf .olt main_v4 main_v5
  let main_c_1 : IVec S_ 1 := constantI S_ 1 1#1
  let main_v7 : IVec S_ 1 := (fun x v => Host.reduce IntOp.andi x v reducesTo_S4x1024x1024_S_d0_1_2 h_S_) main_v6 main_c_1
  let main_v8 : IVec S_ 1 := andi main_v3 main_v7
  let main_v9 : FVec F S4x1024x1024 .f32 := Host.absf main_arg4
  let main_cst_2 : FVec F S_ .f32 := constant S_ .f32 0x7F800000#32
  let main_v10 : FVec F S4x1024x1024 .f32 := broadcastInDim S4x1024x1024 ![] bcast_S_S4x1024x1024 main_cst_2
  let main_v11 : IVec S4x1024x1024 1 := cmpf .olt main_v9 main_v10
  let main_c_3 : IVec S_ 1 := constantI S_ 1 1#1
  let main_v12 : IVec S_ 1 := (fun x v => Host.reduce IntOp.andi x v reducesTo_S4x1024x1024_S_d0_1_2 h_S_) main_v11 main_c_3
  let main_v13 : IVec S_ 1 := andi main_v8 main_v12
  let main_v14 : FVec F S8192x1024 .f32 := Host.absf main_arg5
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg0 main_arg1 main_v13 main_v16
-- ==== Kernel.lean ====
abbrev S8x1024 : Shape := ⟨2, ![8, 1024]⟩
abbrev S8192x1024 : Shape := ⟨2, ![8192, 1024]⟩
abbrev S4x1024x1024 : Shape := ⟨3, ![4, 1024, 1024]⟩
abbrev S_ : Shape := ⟨0, ![]⟩
abbrev S8x1024x1 : Shape := ⟨3, ![8, 1024, 1]⟩
abbrev S1 : Shape := ⟨1, ![1]⟩
abbrev S1x1x1 : Shape := ⟨3, ![1, 1, 1]⟩
abbrev S8x1024x1024 : Shape := ⟨3, ![8, 1024, 1024]⟩
abbrev S1x1024x1024 : Shape := ⟨3, ![1, 1024, 1024]⟩
abbrev S1024x1024 : Shape := ⟨2, ![1024, 1024]⟩
abbrev S1x1024 : Shape := ⟨2, ![1, 1024]⟩
abbrev S8x1024x8192 : Shape := ⟨3, ![8, 1024, 8192]⟩
abbrev S1x1024x1 : Shape := ⟨3, ![1, 1024, 1]⟩
abbrev S1x1024x256 : Shape := ⟨3, ![1, 1024, 256]⟩
abbrev S1024x1 : Shape := ⟨2, ![1024, 1]⟩
abbrev S256x1024 : Shape := ⟨2, ![256, 1024]⟩
abbrev S1024x256 : Shape := ⟨2, ![1024, 256]⟩
abbrev S1024 : Shape := ⟨1, ![1024]⟩

abbrev nBuf : Space → Nat
  | .hbm => 44
  | .vmem => 23
  | .smem => 0
  | _ => 0

abbrev bufTy : (tb : Table) → Fin (tcTables nBuf tb) → BufTy
  | .hbm, ⟨0, _⟩ => ⟨S8x1024, .i32⟩
  | .hbm, ⟨1, _⟩ => ⟨S8x1024, .i32⟩
  | .hbm, ⟨2, _⟩ => ⟨S8192x1024, .f32⟩
  | .hbm, ⟨3, _⟩ => ⟨S4x1024x1024, .f32⟩
  | .hbm, ⟨4, _⟩ => ⟨S4x1024x1024, .f32⟩
  | .hbm, ⟨5, _⟩ => ⟨S8192x1024, .f32⟩
  | .hbm, ⟨6, _⟩ => ⟨S_, .i32⟩
  | .hbm, ⟨7, _⟩ => ⟨S8x1024, .i32⟩
  | .hbm, ⟨8, _⟩ => ⟨S8x1024, .i1⟩
  | .hbm, ⟨9, _⟩ => ⟨S_, .i32⟩
  | .hbm, ⟨10, _⟩ => ⟨S8x1024, .i32⟩
  | .hbm, ⟨11, _⟩ => ⟨S8x1024, .i32⟩
  | .hbm, ⟨12, _⟩ => ⟨S8x1024, .i32⟩
  | .hbm, ⟨13, _⟩ => ⟨S8x1024x1, .i32⟩
  | .hbm, ⟨14, _⟩ => ⟨S1, .i32⟩
  | .hbm, ⟨15, _⟩ => ⟨S_, .i32⟩
  | .hbm, ⟨16, _⟩ => ⟨S8x1024x1, .i32⟩
  | .hbm, ⟨17, _⟩ => ⟨S8x1024x1, .i1⟩
  | .hbm, ⟨18, _⟩ => ⟨S1x1x1, .i32⟩
  | .hbm, ⟨19, _⟩ => ⟨S8x1024x1, .i32⟩
  | .hbm, ⟨20, _⟩ => ⟨S8x1024x1, .i1⟩
  | .hbm, ⟨21, _⟩ => ⟨S8x1024x1, .i1⟩
  | .hbm, ⟨22, _⟩ => ⟨S_, .i1⟩
  | .hbm, ⟨23, _⟩ => ⟨S8x1024, .i1⟩
  | .hbm, ⟨24, _⟩ => ⟨S8x1024x1024, .f32⟩
  | .hbm, ⟨25, _⟩ => ⟨S8x1024x1024, .i1⟩
  | .hbm, ⟨26, _⟩ => ⟨S_, .f32⟩
  | .hbm, ⟨27, _⟩ => ⟨S8x1024x1024, .f32⟩
  | .hbm, ⟨28, _⟩ => ⟨S8x1024x1024, .f32⟩
  | .hbm, ⟨29, _⟩ => ⟨S4x1024x1024, .bf16⟩
  | .hbm, ⟨30, _⟩ => ⟨S4x1024x1024, .bf16⟩
  | .hbm, ⟨31, _⟩ => ⟨S8192x1024, .bf16⟩
  | .hbm, ⟨32, _⟩ => ⟨S8x1024x1024, .bf16⟩
  | .hbm, ⟨33, _⟩ => ⟨S8x1024x1, .i32⟩
  | .hbm, ⟨34, _⟩ => ⟨S8x1024x8192, .f32⟩
  | .hbm, ⟨35, _⟩ => ⟨S8x1024x1, .f32⟩
  | .hbm, ⟨36, _⟩ => ⟨S8x1024x1, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .f32⟩
  | .local _ .vmem, ⟨9, _⟩ => ⟨S1x1024x1024, .bf16⟩
  | .local _ .vmem, ⟨10, _⟩ => ⟨S1x1024x1024, .bf16⟩
  | .local _ .vmem, ⟨11, _⟩ => ⟨S8192x1024, .bf16⟩
  | .local _ .vmem, ⟨12, _⟩ => ⟨S1x1024x1, .i32⟩
  | .local _ .vmem, ⟨13, _⟩ => ⟨S1x1024x1, .i32⟩
  | .local _ .vmem, ⟨14, _⟩ => ⟨S1x1024x256, .f32⟩
  | .local _ .vmem, ⟨15, _⟩ => ⟨S1x1024x256, .f32⟩
  | .local _ .vmem, ⟨16, _⟩ => ⟨S1x1024x1, .f32⟩
  | .local _ .vmem, ⟨17, _⟩ => ⟨S1x1024x1, .f32⟩
  | .local _ .vmem, ⟨18, _⟩ => ⟨S1x1024x1, .f32⟩
  | .local _ .vmem, ⟨19, _⟩ => ⟨S1x1024x1, .f32⟩
  | .local _ .vmem, ⟨20, _⟩ => ⟨S1024x1, .f32⟩
  | .local _ .vmem, ⟨21, _⟩ => ⟨S1024x1, .f32⟩
  | .local _ .vmem, ⟨22, _⟩ => ⟨S1024x1, .f32⟩
  | _, _ => ⟨S8x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6_0 : Ref sig .tc := ⟨.hbm, 34, rfl⟩
abbrev main_v6_1 : Ref sig .tc := ⟨.hbm, 35, rfl⟩
abbrev main_v6_2 : Ref sig .tc := ⟨.hbm, 36, rfl⟩
abbrev main_cst : Ref sig .tc := ⟨.hbm, 37, rfl⟩
abbrev main_v7 : Ref sig .tc := ⟨.hbm, 38, rfl⟩
abbrev main_cst_0 : Ref sig .tc := ⟨.hbm, 39, rfl⟩
abbrev main_v8 : Ref sig .tc := ⟨.hbm, 40, rfl⟩
abbrev main_cst_1 : Ref sig .tc := ⟨.hbm, 41, rfl⟩
abbrev main_v9 : Ref sig .tc := ⟨.hbm, 42, rfl⟩
abbrev main_v10 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_15 : BitVec 32 := 0#32
  let v26 : BitVec 1 := Scalar.cmpi .ne v25 c0_i32_15
  v26

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 32], ![false, false]⟩

def k1_mult1 (i : grid1.Coords) : BitVec 32 :=
  let arg1 : BitVec 32 := BitVec.ofNat 32 (i 1).val
  let c256_i32 : BitVec 32 := 256#32
  let v5 : BitVec 32 := Scalar.muli arg1 c256_i32
  v5
def k1_off1 (i : grid1.Coords) : Fin 2 → Nat :=
  let arg1 : BitVec 32 := BitVec.ofNat 32 (i 1).val
  let c256_i32 : BitVec 32 := 256#32
  let v5 : BitVec 32 := Scalar.muli arg1 c256_i32
  let v6 : BitVec 32 := v5
  let v7 : Index := Scalar.indexCast v6
  let c0_3 : Index := 0#32
  ![v7.toNat, 0]
def k1_cond2 (i : grid1.Coords) : BitVec 1 :=
  let arg1 : BitVec 32 := BitVec.ofNat 32 (i 1).val
  let c31_i32 : BitVec 32 := 31#32
  let v52 : BitVec 1 := Scalar.cmpi .eq arg1 c31_i32
  let v53 : BitVec 32 := Scalar.extui v52
  let c0_i32_28 : BitVec 32 := 0#32
  let v54 : BitVec 1 := Scalar.cmpi .ne v53 c0_i32_28
  v54

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8192x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S1_S1x1x1_2 : S1.BroadcastsInDim S1x1x1 (![2] : Fin 1 → Fin S1x1x1.rank)
  bcast_S1x1x1_S8x1024x1_0_1_2 : S1x1x1.BroadcastsInDim S8x1024x1 (![0, 1, 2] : Fin 3 → Fin S8x1024x1.rank)
  reducesTo_S8x1024x1_S8x1024_d2 : S8x1024x1.ReducesTo [2] S8x1024
  h_S_ : 0 < S_.numel
  bcast_S8x1024_S8x1024x1024_0_1 : S8x1024.BroadcastsInDim S8x1024x1024 (![0, 1] : Fin 2 → Fin S8x1024x1024.rank)
  bcast_S_S8x1024x1024 : S_.BroadcastsInDim S8x1024x1024 (![] : Fin 0 → Fin S8x1024x1024.rank)
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  slices_S1024x1024_o1_0_S1x1024 : S1024x1024.Slices ![1, 0] S1x1024
  shapeCasts_S1x1024_S1x1024 : S1x1024.ShapeCasts S1x1024
  broadcasts_S1x1024_S1024x1024 : S1x1024.Broadcasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  shapeCasts_S8x1024_S8x1024x1 : S8x1024.ShapeCasts S8x1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S256x1024 : 0 < S256x1024.numel
  shapeCasts_S256x1024_S256x1024 : S256x1024.ShapeCasts S256x1024
  transposes_S256x1024_p1_0_S1024x256 : S256x1024.Transposes [1, 0] S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  iota_S1024x256_d1_w32 : S1024x256.Iotas .tc 32 [1]
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  broadcasts_S1024x1_S1024x256 : S1024x1.Broadcasts S1024x256
  reduces_S1024x256_S1024 : S1024x256.Reduces [1] S1024
  shapeCasts_S1024_S1024x1 : S1024.ShapeCasts S1024x1
  natLt_1_32 : 1 < 32
  shapeCasts_S1024x1_S1x1024x1 : S1024x1.ShapeCasts S1x1024x1
  reducesTo_S8x1024x1_S_d0_1_2 : S8x1024x1.ReducesTo [0, 1, 2] S_
  gather_S8192x1024_S8x1024x1_S8x1024x1024_2_0_n_n_0_2_11024_wf : GatherDims.WF S8192x1024 S8x1024x1 S8x1024x1024 [2] [0] [] [0] [] 2 ![1, 1024]
  dot_S1024x1024_S1024x1024_S1024x1024_1_0_0_1_n_n_wf : DotDims.WF S1024x1024 S1024x1024 S1024x1024 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x1024x1024.size a
  hwx0_0 : ∀ i : grid0.Coords, EltTy.bits .f32 = 32 ∨ (Rect.block (s := S8x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S4x1024x1024.size a
  hwx0_1 : ∀ i : grid0.Coords, EltTy.bits .bf16 = 32 ∨ (Rect.block (s := S4x1024x1024) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S4x1024x1024.size a
  hwx0_2 : ∀ i : grid0.Coords, EltTy.bits .bf16 = 32 ∨ (Rect.block (s := S4x1024x1024) S1x1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x1024x1024.size a
  hwx0_3 : ∀ i : grid0.Coords, EltTy.bits .bf16 = 32 ∨ (Rect.block (s := S8x1024x1024) S1x1024x1024.size (cc0_transform_3 i) (hinb0_3 i)).WholeWords (EltTy.packing .bf16)
  hrank1 : 0 < grid1.rank
  k1_mult1_dvd : ∀ i : grid1.Coords, 256 ∣ (k1_mult1 i).toNat
  k1_off1_inb : ∀ i : grid1.Coords, ∀ a, (k1_off1 i) a + S256x1024.size a ≤ S8192x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x1024x1024.size a
  hwx1_0 : ∀ i : grid1.Coords, EltTy.bits .bf16 = 32 ∨ (Rect.block (s := S8x1024x1024) S1x1024x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x1024.size a ≤ S8192x1024.size a
  hwx1_1 : ∀ i : grid1.Coords, EltTy.bits .bf16 = 32 ∨ (Rect.block (s := S8192x1024) S8192x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1.size a ≤ S8x1024x1.size a
  hwx1_2 : ∀ i : grid1.Coords, EltTy.bits .i32 = 32 ∨ (Rect.block (s := S8x1024x1) S1x1024x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x256.size a ≤ S8x1024x8192.size a
  hwx1_3 : ∀ i : grid1.Coords, EltTy.bits .f32 = 32 ∨ (Rect.block (s := S8x1024x8192) S1x1024x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1.size a ≤ S8x1024x1.size a
  hwx1_4 : ∀ i : grid1.Coords, EltTy.bits .f32 = 32 ∨ (Rect.block (s := S8x1024x1) S1x1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x1.size a ≤ S8x1024x1.size a
  hwx1_5 : ∀ i : grid1.Coords, EltTy.bits .f32 = 32 ∨ (Rect.block (s := S8x1024x1) S1x1024x1.size (cc1_transform_5 i) (hinb1_5 i)).WholeWords (EltTy.packing .f32)

variable [Facts₀]

def gather_S8192x1024_S8x1024x1_S8x1024x1024_2_0_n_n_0_2_11024 : GatherDims S8192x1024 S8x1024x1 S8x1024x1024 where
  offsetDims := [2]
  collapsedSliceDims := [0]
  operandBatchingDims := []
  startIndicesBatchingDims := []
  startIndexMap := [0]
  indexVectorDim := 2
  sliceSizes := ![1, 1024]
  wf := gather_S8192x1024_S8x1024x1_S8x1024x1024_2_0_n_n_0_2_11024_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v4) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8192x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6_0) S1x1024x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6_1) S1x1024x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6_2) S1x1024x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8x1024 : Shape := ⟨2, ![8, 1024]⟩
abbrev S8192x1024 : Shape := ⟨2, ![8192, 1024]⟩
abbrev S4x1024x1024 : Shape := ⟨3, ![4, 1024, 1024]⟩
abbrev S_ : Shape := ⟨0, ![]⟩
abbrev S8x1024x1 : Shape := ⟨3, ![8, 1024, 1]⟩
abbrev S8x1024x1024 : Shape := ⟨3, ![8, 1024, 1024]⟩
abbrev S1x1024x1024 : Shape := ⟨3, ![1, 1024, 1024]⟩
abbrev S1024x1024 : Shape := ⟨2, ![1024, 1024]⟩
abbrev S8x1x1024 : Shape := ⟨3, ![8, 1, 1024]⟩
abbrev S8x1024x8192 : Shape := ⟨3, ![8, 1024, 8192]⟩
abbrev S8x1024x1x1 : Shape := ⟨4, ![8, 1024, 1, 1]⟩
abbrev S1 : Shape := ⟨1, ![1]⟩
abbrev S1x1x1x1 : Shape := ⟨4, ![1, 1, 1, 1]⟩

abbrev nBuf : Space → Nat
  | .hbm => 104
  | .vmem => 0
  | .smem => 0
  | _ => 0

abbrev bufTy : (tb : Table) → Fin (tcTables nBuf tb) → BufTy
  | .hbm, ⟨0, _⟩ => ⟨S8x1024, .i32⟩
  | .hbm, ⟨1, _⟩ => ⟨S8x1024, .i32⟩
  | .hbm, ⟨2, _⟩ => ⟨S8192x1024, .f32⟩
  | .hbm, ⟨3, _⟩ => ⟨S4x1024x1024, .f32⟩
  | .hbm, ⟨4, _⟩ => ⟨S4x1024x1024, .f32⟩
  | .hbm, ⟨5, _⟩ => ⟨S8192x1024, .f32⟩
  | .hbm, ⟨6, _⟩ => ⟨S_, .i32⟩
  | .hbm, ⟨7, _⟩ => ⟨S8x1024, .i32⟩
  | .hbm, ⟨8, _⟩ => ⟨S8x1024, .i1⟩
  | .hbm, ⟨9, _⟩ => ⟨S_, .i32⟩
  | .hbm, ⟨10, _⟩ => ⟨S8x1024, .i32⟩
  | .hbm, ⟨11, _⟩ => ⟨S8x1024, .i32⟩
  | .hbm, ⟨12, _⟩ => ⟨S8x1024, .i32⟩
  | .hbm, ⟨13, _⟩ => ⟨S8x1024x1, .i32⟩
  | .hbm, ⟨14, _⟩ => ⟨S8x1024x1024, .f32⟩
  | .hbm, ⟨15, _⟩ => ⟨S1x1024x1024, .f32⟩
  | .hbm, ⟨16, _⟩ => ⟨S1024x1024, .f32⟩
  | .hbm, ⟨17, _⟩ => ⟨S8x1024x1024, .f32⟩
  | .hbm, ⟨18, _⟩ => ⟨S8x1x1024, .f32⟩
  | .hbm, ⟨19, _⟩ => ⟨S8x1024x1024, .f32⟩
  | .hbm, ⟨20, _⟩ => ⟨S1x1024x1024, .f32⟩
  | .hbm, ⟨21, _⟩ => ⟨S1024x1024, .f32⟩
  | .hbm, ⟨22, _⟩ => ⟨S8x1024x1024, .f32⟩
  | .hbm, ⟨23, _⟩ => ⟨S8x1024x1024, .f32⟩
  | .hbm, ⟨24, _⟩ => ⟨S1x1024x1024, .f32⟩
  | .hbm, ⟨25, _⟩ => ⟨S1024x1024, .f32⟩
  | .hbm, ⟨26, _⟩ => ⟨S8x1024x1024, .f32⟩
  | .hbm, ⟨27, _⟩ => ⟨S8x1x1024, .f32⟩
  | .hbm, ⟨28, _⟩ => ⟨S8x1024x1024, .f32⟩
  | .hbm, ⟨29, _⟩ => ⟨S1x1024x1024, .f32⟩
  | .hbm, ⟨30, _⟩ => ⟨S1024x1024, .f32⟩
  | .hbm, ⟨31, _⟩ => ⟨S8x1024x1024, .f32⟩
  | .hbm, ⟨32, _⟩ => ⟨S8x1024x1024, .f32⟩
  | .hbm, ⟨33, _⟩ => ⟨S1x1024x1024, .f32⟩
  | .hbm, ⟨34, _⟩ => ⟨S1024x1024, .f32⟩
  | .hbm, ⟨35, _⟩ => ⟨S8x1024x1024, .f32⟩
  | .hbm, ⟨36, _⟩ => ⟨S8x1x1024, .f32⟩
  | .hbm, ⟨37, _⟩ => ⟨S8x1024x1024, .f32⟩
  | .hbm, ⟨38, _⟩ => ⟨S1x1024x1024, .f32⟩
  | .hbm, ⟨39, _⟩ => ⟨S1024x1024, .f32⟩
  | .hbm, ⟨40, _⟩ => ⟨S8x1024x1024, .f32⟩
  | .hbm, ⟨41, _⟩ => ⟨S8x1024x1024, .f32⟩
  | .hbm, ⟨42, _⟩ => ⟨S1x1024x1024, .f32⟩
  | .hbm, ⟨43, _⟩ => ⟨S1024x1024, .f32⟩
  | .hbm, ⟨44, _⟩ => ⟨S8x1024x1024, .f32⟩
  | .hbm, ⟨45, _⟩ => ⟨S8x1x1024, .f32⟩
  | .hbm, ⟨46, _⟩ => ⟨S8x1024x1024, .f32⟩
  | .hbm, ⟨47, _⟩ => ⟨S1x1024x1024, .f32⟩
  | .hbm, ⟨48, _⟩ => ⟨S1024x1024, .f32⟩
  | .hbm, ⟨49, _⟩ => ⟨S8x1024x1024, .f32⟩
  | .hbm, ⟨50, _⟩ => ⟨S8x1024x1024, .f32⟩
  | .hbm, ⟨51, _⟩ => ⟨S8x1024x8192, .f32⟩
  | .hbm, ⟨52, _⟩ => ⟨S_, .f32⟩
  | .hbm, ⟨53, _⟩ => ⟨S8x1024, .f32⟩
  | .hbm, ⟨54, _⟩ => ⟨S_, .f32⟩
  | .hbm, ⟨55, _⟩ => ⟨S8x1024, .f32⟩
  | .hbm, ⟨56, _⟩ => ⟨S8x1024, .f32⟩
  | .hbm, ⟨57, _⟩ => ⟨S8x1024x1, .f32⟩
  | .hbm, ⟨58, _⟩ => ⟨S8x1024x8192, .f32⟩
  | .hbm, ⟨59, _⟩ => ⟨S8x1024x8192, .f32⟩
  | .hbm, ⟨60, _⟩ => ⟨S8x1024x8192, .f32⟩
  | .hbm, ⟨61, _⟩ => ⟨S_, .f32⟩
  | .hbm, ⟨62, _⟩ => ⟨S8x1024, .f32⟩
  | .hbm, ⟨63, _⟩ => ⟨S8x1024x1, .f32⟩
  | .hbm, ⟨64, _⟩ => ⟨S8x1024x1, .f32⟩
  | .hbm, ⟨65, _⟩ => ⟨S8x1024x8192, .f32⟩
  | .hbm, ⟨66, _⟩ => ⟨S8x1024x8192, .f32⟩
  | .hbm, ⟨67, _⟩ => ⟨S8x1024x1, .i32⟩
  | .hbm, ⟨68, _⟩ => ⟨S_, .i32⟩
  | .hbm, ⟨69, _⟩ => ⟨S8x1024x1, .i32⟩
  | .hbm, ⟨70, _⟩ => ⟨S8x1024x1, .i1⟩
  | .hbm, ⟨71, _⟩ => ⟨S_, .i32⟩
  | .hbm, ⟨72, _⟩ => ⟨S8x1024x1, .i32⟩
  | .hbm, ⟨73, _⟩ => ⟨S8x1024x1, .i32⟩
  | .hbm, ⟨74, _⟩ => ⟨S8x1024x1, .i32⟩
  | .hbm, ⟨75, _⟩ => ⟨S8x1024x1x1, .i32⟩
  | .hbm, ⟨76, _⟩ => ⟨S1, .i32⟩
  | .hbm, ⟨77, _⟩ => ⟨S_, .i32⟩
  | .hbm, ⟨78, _⟩ => ⟨S8x1024x1x1, .i32⟩
  | .hbm, ⟨79, _⟩ => ⟨S8x1024x1x1, .i1⟩
  | .hbm, ⟨80, _⟩ => ⟨S1x1x1x1, .i32⟩
  | .hbm, ⟨81, _⟩ => ⟨S8x1024x1x1, .i32⟩
  | .hbm, ⟨82, _⟩ => ⟨S8x1024x1x1, .i1⟩
  | .hbm, ⟨83, _⟩ => ⟨S8x1024x1x1, .i1⟩
  | .hbm, ⟨84, _⟩ => ⟨S_, .i1⟩
  | .hbm, ⟨85, _⟩ => ⟨S8x1024x1, .i1⟩
  | .hbm, ⟨86, _⟩ => ⟨S8x1024x1, .f32⟩
  | .hbm, ⟨87, _⟩ => ⟨S_, .f32⟩
  | .hbm, ⟨88, _⟩ => ⟨S8x1024x1, .f32⟩
  | .hbm, ⟨89, _⟩ => ⟨S8x1024x1, .f32⟩
  | .hbm, ⟨90, _⟩ => ⟨S8x1024, .f32⟩
  | .hbm, ⟨91, _⟩ => ⟨S8x1024, .f32⟩
  | .hbm, ⟨92, _⟩ => ⟨S_, .i32⟩
  | .hbm, ⟨93, _⟩ => ⟨S8x1024, .i32⟩
  | .hbm, ⟨94, _⟩ => ⟨S8x1024, .i1⟩
  | .hbm, ⟨95, _⟩ => ⟨S8x1024, .f32⟩
  | .hbm, ⟨96, _⟩ => ⟨S8x1024, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | _, _ => ⟨S8x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_call0_cst : Ref sig .tc := ⟨.hbm, 52, rfl⟩
abbrev main_call0_v0 : Ref sig .tc := ⟨.hbm, 53, rfl⟩
abbrev main_call0_cst_0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_cst_1 : Ref sig .tc := ⟨.hbm, 61, rfl⟩
abbrev main_call0_v7 : Ref sig .tc := ⟨.hbm, 62, rfl⟩
abbrev main_call0_v8 : Ref sig .tc := ⟨.hbm, 63, rfl⟩
abbrev main_call0_v9 : Ref sig .tc := ⟨.hbm, 64, rfl⟩
abbrev main_call0_v10 : Ref sig .tc := ⟨.hbm, 65, rfl⟩
abbrev main_v44 : Ref sig .tc := ⟨.hbm, 66, rfl⟩
abbrev main_v45 : Ref sig .tc := ⟨.hbm, 67, rfl⟩
abbrev main_call1_c : Ref sig .tc := ⟨.hbm, 68, rfl⟩
abbrev main_call1_v0 : Ref sig .tc := ⟨.hbm, 69, rfl⟩
abbrev main_call1_v1 : Ref sig .tc := ⟨.hbm, 70, rfl⟩
abbrev main_call1_c_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_c_1 : Ref sig .tc := ⟨.hbm, 76, rfl⟩
abbrev main_call1_c_2 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_c_3 : Ref sig .tc := ⟨.hbm, 84, rfl⟩
abbrev main_call1_v12 : Ref sig .tc := ⟨.hbm, 85, rfl⟩
abbrev main_call1_v13 : Ref sig .tc := ⟨.hbm, 86, rfl⟩
abbrev main_call1_cst : Ref sig .tc := ⟨.hbm, 87, rfl⟩
abbrev main_call1_v14 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_c_1 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst : Ref sig .tc := ⟨.hbm, 97, rfl⟩
abbrev main_v53 : Ref sig .tc := ⟨.hbm, 98, rfl⟩
abbrev main_cst_2 : Ref sig .tc := ⟨.hbm, 99, rfl⟩
abbrev main_v54 : Ref sig .tc := ⟨.hbm, 100, rfl⟩
abbrev main_cst_3 : Ref sig .tc := ⟨.hbm, 101, rfl⟩
abbrev main_v55 : Ref sig .tc := ⟨.hbm, 102, rfl⟩
abbrev main_v56 : Ref sig .tc := ⟨.hbm, 103, rfl⟩

abbrev nD : Nat := 1
abbrev τ : Topo := Topo.v7x

variable {F : FTy → Type} [FloatOps F]

class Facts₀ : Prop where
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  slices_S4x1024x1024_S1x1024x1024_0_0_0 : S4x1024x1024.Slices ![0, 0, 0] S1x1024x1024
  shapeCasts_S1x1024x1024_S1024x1024 : S1x1024x1024.ShapeCasts S1024x1024
  slices_S8x1024x1024_S8x1x1024_0_1_0 : S8x1024x1024.Slices ![0, 1, 0] S8x1x1024
  bcast_S8x1x1024_S8x1024x1024_0_1_2 : S8x1x1024.BroadcastsInDim S8x1024x1024 (![0, 1, 2] : Fin 3 → Fin S8x1024x1024.rank)
  slices_S4x1024x1024_S1x1024x1024_1_0_0 : S4x1024x1024.Slices ![1, 0, 0] S1x1024x1024
  slices_S4x1024x1024_S1x1024x1024_2_0_0 : S4x1024x1024.Slices ![2, 0, 0] S1x1024x1024
  slices_S4x1024x1024_S1x1024x1024_3_0_0 : S4x1024x1024.Slices ![3, 0, 0] S1x1024x1024
  reducesTo_S8x1024x8192_S8x1024_d2 : S8x1024x8192.ReducesTo [2] S8x1024
  h_S_ : 0 < S_.numel
  bcast_S8x1024x1_S8x1024x8192_0_1_2 : S8x1024x1.BroadcastsInDim S8x1024x8192 (![0, 1, 2] : Fin 3 → Fin S8x1024x8192.rank)
  bcast_S_S8x1024x1 : S_.BroadcastsInDim S8x1024x1 (![] : Fin 0 → Fin S8x1024x1.rank)
  shapeCasts_S8x1024x1_S8x1024x1x1 : S8x1024x1.ShapeCasts S8x1024x1x1
  bcast_S_S8x1024x1x1 : S_.BroadcastsInDim S8x1024x1x1 (![] : Fin 0 → Fin S8x1024x1x1.rank)
  bcast_S1_S1x1x1x1_3 : S1.BroadcastsInDim S1x1x1x1 (![3] : Fin 1 → Fin S1x1x1x1.rank)
  bcast_S1x1x1x1_S8x1024x1x1_0_1_2_3 : S1x1x1x1.BroadcastsInDim S8x1024x1x1 (![0, 1, 2, 3] : Fin 4 → Fin S8x1024x1x1.rank)
  reducesTo_S8x1024x1x1_S8x1024x1_d3 : S8x1024x1x1.ReducesTo [3] S8x1024x1
  shapeCasts_S8x1024x1_S8x1024 : S8x1024x1.ShapeCasts S8x1024
  reducesTo_S8x1024_S_d0_1 : S8x1024.ReducesTo [0, 1] S_
  gather_S8192x1024_S8x1024x1_S8x1024x1024_2_0_n_n_0_2_11024_wf : GatherDims.WF S8192x1024 S8x1024x1 S8x1024x1024 [2] [0] [] [0] [] 2 ![1, 1024]
  dot_S8x1024x1024_S1024x1024_S8x1024x1024_2_1_01_0_n_n_wf : DotDims.WF S8x1024x1024 S1024x1024 S8x1024x1024 [2] [1] [0, 1] [0] [] []
  dot_S8x1024x1024_S8192x1024_S8x1024x8192_2_1_01_0_n_n_wf : DotDims.WF S8x1024x1024 S8192x1024 S8x1024x8192 [2] [1] [0, 1] [0] [] []
  gather_S8x1024x8192_S8x1024x1x1_S8x1024x1_n_2_01_01_2_3_111_wf : GatherDims.WF S8x1024x8192 S8x1024x1x1 S8x1024x1 [] [2] [0, 1] [2] [0, 1] 3 ![1, 1, 1]

variable [Facts₀]

def gather_S8192x1024_S8x1024x1_S8x1024x1024_2_0_n_n_0_2_11024 : GatherDims S8192x1024 S8x1024x1 S8x1024x1024 where
  offsetDims := [2]
  collapsedSliceDims := [0]
  operandBatchingDims := []
  startIndicesBatchingDims := []
  startIndexMap := [0]
  indexVectorDim := 2
  sliceSizes := ![1, 1024]
  wf := gather_S8192x1024_S8x1024x1_S8x1024x1024_2_0_n_n_0_2_11024_wf
def dot_S8x1024x1024_S1024x1024_S8x1024x1024_2_1_01_0_n_n : DotDims S8x1024x1024 S1024x1024 S8x1024x1024 where
  lhsContracting := [2]
  rhsContracting := [1]
  lhsNonContracting := [0, 1]
  rhsNonContracting := [0]
  lhsBatch := []
  rhsBatch := []
  wf := dot_S8x1024x1024_S1024x1024_S8x1024x1024_2_1_01_0_n_n_wf
def dot_S8x1024x1024_S8192x1024_S8x1024x8192_2_1_01_0_n_n : DotDims S8x1024x1024 S8192x1024 S8x1024x8192 where
  lhsContracting := [2]
  rhsContracting := [1]
  lhsNonContracting := [0, 1]
  rhsNonContracting := [0]
  lhsBatch := []
  rhsBatch := []
  wf := dot_S8x1024x1024_S8192x1024_S8x1024x8192_2_1_01_0_n_n_wf
def gather_S8x1024x8192_S8x1024x1x1_S8x1024x1_n_2_01_01_2_3_111 : GatherDims S8x1024x8192 S8x1024x1x1 S8x1024x1 where
  offsetDims := []
  collapsedSliceDims := [2]
  operandBatchingDims := [0, 1]
  startIndicesBatchingDims := [0, 1]
  startIndexMap := [2]
  indexVectorDim := 3
  sliceSizes := ![1, 1, 1]
  wf := gather_S8x1024x8192_S8x1024x1x1_S8x1024x1_n_2_01_01_2_3_111_wf

class Facts : Prop extends Facts₀ where

variable [Facts]
-- ==== Proof.K.LayersDefs.lean ====
/-
  Region 0 of the kernel (the four transformer layers; grid (8, 4): a batch row b, then the layer l,
  the layer axis innermost), stated over the skeleton's payloads.

  At grid point t = 4 b + l the body holds the batch row's embedding block, layer l's value and feed-forward
  weights, and a scratch s carried from the point before. Where l = 0 the scratch is first overwritten with
  the embedding block. Then the scratch becomes  s · wmᵀ + (row 1 of s · wvᵀ, repeated down the rows)  — one
  layer —, and where l = 3 the output block is the scratch narrowed to bf16. `accAt` is the scratch after
  each point, by recursion on the point.
-/
import proofs.«401600_j86689619903517_2_alg».proof.Proof.Gen.Kernel.Skeleton
import proofs.«401600_j86689619903517_2_alg».proof.Proof.Gen.Kernel.Launch
import proofs.«401600_j86689619903517_2_alg».proof.Proof.Gen.Kernel.Points
import Idealize.ShloMosaic.Lib.Pipeline.FrameBody

noncomputable section

namespace Cert.Kernel.Layers

open Idealize.ShloMosaic Idealize.ShloMosaic.TcCoe Idealize.SL.Sem
open Cert.Kernel Cert.Kernel.Gen

variable {F : FTy → Type} [FloatOps F]
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- One layer on the scratch: the feed-forward product, plus row 1 of the value product on every row. -/
def step (s : Vec F S1024x1024 .f32) (wv wm : Vec F S1x1024x1024 .bf16) : Vec F S1024x1024 .f32 :=
  k0_pay4 s wv (k0_pay3 s wm)

/-- The scratch after the body at position `n`: reset from the embedding block where the layer index is 0,
    else continued from the point before. -/
def accAt (c : Dev nD) : (n : ℕ) → n < cfg0.N → Vec F S1024x1024 .f32
  | 0, hn => step (k0_pay1 (iblk0 V c 0 ⟨0, hn⟩)) (iblk0 V c 1 ⟨0, hn⟩) (iblk0 V c 2 ⟨0, hn⟩)
  | n + 1, hn =>
    if (n + 1) % 4 = 0 then
      step (k0_pay1 (iblk0 V c 0 ⟨n + 1, hn⟩)) (iblk0 V c 1 ⟨n + 1, hn⟩) (iblk0 V c 2 ⟨n + 1, hn⟩)
    else
      step (accAt c n (Nat.lt_of_succ_lt hn)) (iblk0 V c 1 ⟨n + 1, hn⟩) (iblk0 V c 2 ⟨n + 1, hn⟩)

/-- At a point whose layer index is 0 the scratch restarts from the embedding block. -/
theorem accAt_reset (c : Dev nD) (t : Fin cfg0.N) (h : t.val % 4 = 0) :
    accAt V c t.val t.isLt = step (k0_pay1 (iblk0 V c 0 t)) (iblk0 V c 1 t) (iblk0 V c 2 t) := by
  obtain ⟨n, hn⟩ := t
  cases n with
  | zero => rfl
  | succ n => exact if_pos h

/-- At any other point it continues from what the point before left. -/
theorem accAt_step (c : Dev nD) (t : Fin cfg0.N) (h : ¬ t.val % 4 = 0) :
    accAt V c t.val t.isLt
      = step (accAt V c (t.val - 1) (Nat.lt_of_le_of_lt (Nat.sub_le _ _) t.isLt)) (iblk0 V c 1 t) (iblk0 V c 2 t) := by
  obtain ⟨n, hn⟩ := t
  cases n with
  | zero => exact absurd (Nat.zero_mod _) h
  | succ n => exact if_neg h

/-- What the output block holds after a point whose layer index is 3: the scratch narrowed to bf16. -/
def outAt (c : Dev nD) (t : Fin cfg0.N) : Vec F S1x1024x1024 .bf16 := k0_pay5 (accAt V c t.val t.isLt)

end Cert.Kernel.Layers

end
-- ==== Proof.K.LayersFrame.lean ====
/-
  Region 0's proof data and body obligation: at every grid point the layer body, run on the blocks the
  pipeline staged and on the scratch as the point before left it, ends with the scratch at `accAt` and, where
  the layer index is 3, the output block at `outAt`; elsewhere the output block is left untouched.
-/
import proofs.«401600_j86689619903517_2_alg».proof.Proof.K.LayersDefs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions of the body, in closed form over the grid -/

/-- The layer index is 0: the condition of the body's first branch, as the body computes it from the grid
    coordinates. -/
abbrev isFirst (i : grid0.Coords) : Prop :=
  (Scalar.cmpi .ne (Scalar.extui (Scalar.cmpi .eq (BitVec.ofNat 32 (i 1).val) 0#32)) 0#32) = 1#1

/-- It holds exactly at the points 4 b. -/
theorem isFirst_iff : ∀ t : Fin cfg0.N, isFirst (grid0.coords t) ↔ t.val % 4 = 0 :=
  (by decide +kernel : ∀ t : Fin grid0.N, isFirst (grid0.coords t) ↔ t.val % 4 = 0)

/-- The layer index is 3: the condition of the body's last branch. -/
abbrev isLast (i : grid0.Coords) : Prop := k0_cond2 i = 1#1

/-- It holds exactly at the points 4 b + 3. -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live_x : ∀ t : Fin cfg0.N, cfg0.idle 0 (grid0.coords t) = false := by decide +kernel
theorem live_wv : ∀ t : Fin cfg0.N, cfg0.idle 1 (grid0.coords t) = false := by decide +kernel
theorem live_wm : ∀ t : Fin cfg0.N, cfg0.idle 2 (grid0.coords t) = false := by decide +kernel
/-- Off the last layer the output window is idle, -/
theorem idle_out : ∀ t : Fin cfg0.N, ¬isLast (grid0.coords t) → cfg0.idle 3 (grid0.coords t) = true := by decide +kernel
/-- and its block is not written back there; -/
theorem noFlush_out : ∀ t : Fin cfg0.N, ¬isLast (grid0.coords t) → (cfg0.win 3).flush t = false := by decide +kernel
/-- at the last layer it is live. -/
theorem live_out : ∀ t : Fin cfg0.N, isLast (grid0.coords t) → cfg0.idle 3 (grid0.coords t) = false := by decide +kernel

/-! ## The region's invariant -/

/-- The scratch the body carries from point to point, as a memref: the whole of its buffer. -/
abbrev scr : Memref sig .tc .vmem S1024x1024 .f32 := Memref.whole cc0_scratch0

/-- A scoped buffer of core `c`, whole, at some contents. -/
abbrev someAt (c : Dev nD) (b : Ref sig .tc) : sProp 𝕄 :=
  iprop(∃ f : Buf (Elt F) ((c : Thread nD τ).loc b), ((c : Thread nD τ).loc b) ↦{fullShare} f)

/-- The fourteen scoped buffers of the core that belong to the other region (its staging buffers and its three
    scratch columns): this region never touches them, each is at some contents throughout. -/
abbrev others (c : Dev nD) : sProp 𝕄 :=
  iprop(someAt (F := F) c cc1_stg0_0 ∗ someAt (F := F) c cc1_stg0_1 ∗ someAt (F := F) c cc1_stg1_0 ∗ someAt (F := F) c cc1_stg2_0
    ∗ someAt (F := F) c cc1_stg2_1 ∗ someAt (F := F) c cc1_stg3_0 ∗ someAt (F := F) c cc1_stg3_1 ∗ someAt (F := F) c cc1_stg4_0
    ∗ someAt (F := F) c cc1_stg4_1 ∗ someAt (F := F) c cc1_stg5_0 ∗ someAt (F := F) c cc1_stg5_1 ∗ someAt (F := F) c cc1_scratch0
    ∗ someAt (F := F) c cc1_scratch1 ∗ someAt (F := F) c cc1_scratch2)

/-- What the launch hands the region, with the scratch as a memref owned at some contents. -/
theorem PhiA_eq (c : Dev nD) :
    (Pipeline.ΦA spec0 c : sProp 𝕄)
      = iprop(iprop((∃ d, owns (c : Thread nD τ) scr fullShare d) ∗ others (F := F) c) ∗ (∃ r, prngReg c r)) := by
  unfold Pipeline.ΦA; rw [scopedRest0_eq]; simp only [scr, owns_whole]; try rfl

variable (V : (c : Dev nD) → (b : Ref sig .tc) → Buf (Elt F) ((c : Thread nD τ).loc b))

/-- The region's invariant before position `n`: before the first point every scoped buffer no window stages at
    anything; afterwards the scratch at what the point before left (`accAt`), the others at anything. -/
def PhiS (c : Dev nD) : (n : ℕ) → n ≤ cfg0.N → sProp 𝕄
  | 0, _ => Pipeline.ΦA spec0 c
  | n + 1, hn => iprop(iprop(owns (c : Thread nD τ) scr fullShare (accAt V c n hn) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn
      = iprop(iprop(owns (c : Thread nD τ) scr fullShare (accAt V c n hn) ∗ others (F := F) c) ∗ (∃ r, prngReg c r)) := rfl

theorem PhiS_pos (c : Dev nD) (n : ℕ) (h : n ≤ cfg0.N) (hz : n ≠ 0) :
    PhiS V c n h
      = iprop(iprop(owns (c : Thread nD τ) scr fullShare (accAt V c (n - 1) (by omega)) ∗ others (F := F) c) ∗ (∃ r, prngReg c r)) := by
  cases n with
  | zero => exact absurd rfl hz
  | succ n => rfl

/-- The proof data of region 0 on core `c`, over the contents `V` the region is entered with. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt V c t := by dsimp only [dat0]

/-! ## What the body finds in the three input windows -/

/-- The invariant at a point's start, restated at the point's position. -/
theorem Phi_castSucc (c : Dev nD) (t : Fin cfg0.N) :
    (dat0 V c).Φ t.castSucc = PhiS V c t.val (Nat.le_of_lt t.isLt) := by
  dsimp only [dat0]; simp only [Fin.coe_castSucc]

/-- The embedding block's buffer holds the batch row's block at every point of the row, fetched there or not
    (it is fetched at the row's first point only: the block index does not move along a row). -/
theorem before_x (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The value weights' buffer holds layer `l`'s block. -/
theorem before_wv (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The feed-forward weights' buffer holds layer `l`'s block. -/
theorem before_wm (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body, case by case

The body loads and stores whole blocks only, each through the rectangle at zero offsets of the block's own
extents; so a load reads the buffer's contents and the last store into a buffer leaves its payload. -/

theorem zeros2 : (![0, 0] : Fin S1024x1024.rank → ℕ) = fun _ => 0 := by funext a; fin_cases a <;> rfl
theorem zeros3 : (![0, 0, 0] : Fin S1x1024x1024.rank → ℕ) = fun _ => 0 := by funext a; fin_cases a <;> rfl

set_option maxHeartbeats 1000000 in
/-- A point whose layer index is 0: from the embedding block `x0`, the weights' blocks `x1`, `x2` and the scratch
    at anything, the body runs to the scratch at one layer applied to the embedding block (widened to the
    scratch's shape); the three input buffers are as they were, and it touches nothing else. -/
theorem runFirst (c : Dev nD) (i : grid0.Coords)
    (arg2 : Memref sig .tc .vmem S1x1024x1024 .f32) (harg2 : arg2.IsWhole)
    (arg3 : Memref sig .tc .vmem S1x1024x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1024x1024 .f32) (harg6 : arg6.IsWhole)
    (hc0 : isFirst i) (hc1 : ¬isLast i)
    (x0 : Vec F S1x1024x1024 .f32) (x1 x2 : Vec F S1x1024x1024 .bf16)
    (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg6 fullShare d)
        ∗ (iprop(owns (c : Thread nD τ) arg2 fullShare x0 ∗ owns (c : Thread nD τ) arg3 fullShare x1
            ∗ owns (c : Thread nD τ) arg4 fullShare x2
            ∗ owns (c : Thread nD τ) arg6 fullShare (step (k0_pay1 x0) x1 x2)) -∗ K ⟨⟩))
      ⊢ wp frame (wpE (defs₀ (F := F)) Variants.none c none) E
          (cc0__layer_kernel i arg2 harg2 arg3 harg3 arg4 harg4 arg5 harg5 arg6 harg6) K := by
  simp only [cc0__layer_kernel_eq_skeleton]; unfold cc0__layer_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_words
  rw [View.read_writes_eq_canon _ _ _ (fun y => ⟨_, List.mem_cons_self .., View.mem_set_unit_zero zeros2 inb_S1024x1024_S1024x1024_0_0 y⟩),
    View.canon_cons_unit_zero zeros2]
  simp only [View.readAt_eq_ld, harg2.read_unread, harg3.read_unread, harg4.read_unread, harg6.read_unread,
    View.ld_unit_zero (S := S1024x1024) zeros2, View.ld_unit_zero (S := S1x1024x1024) zeros3,
    View.readCov_unit_zero (S := S1024x1024) _ zeros2, View.readCov_cons_toLoadRect]
  rfl

set_option maxHeartbeats 1000000 in
/-- A point whose layer index is neither 0 nor 3: from the weights' blocks `x1`, `x2` and the scratch at `xs` the
    body runs to the scratch at one layer applied to `xs`; it touches nothing else. -/
theorem runMid (c : Dev nD) (i : grid0.Coords)
    (arg2 : Memref sig .tc .vmem S1x1024x1024 .f32) (harg2 : arg2.IsWhole)
    (arg3 : Memref sig .tc .vmem S1x1024x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1024x1024 .f32) (harg6 : arg6.IsWhole)
    (hc0 : ¬isFirst i) (hc1 : ¬isLast i)
    (x1 x2 : Vec F S1x1024x1024 .bf16) (xs : Vec F S1024x1024 .f32)
    (E : Set ℕ) (K : PUnit → sProp 𝕄) :
    iprop(owns (c : Thread nD τ) arg3 fullShare x1 ∗ owns (c : Thread nD τ) arg4 fullShare x2
        ∗ owns (c : Thread nD τ) arg6 fullShare xs
        ∗ (iprop(owns (c : Thread nD τ) arg3 fullShare x1 ∗ owns (c : Thread nD τ) arg4 fullShare x2
            ∗ owns (c : Thread nD τ) arg6 fullShare (step xs x1 x2)) -∗ K ⟨⟩))
      ⊢ wp frame (wpE (defs₀ (F := F)) Variants.none c none) E
          (cc0__layer_kernel i arg2 harg2 arg3 harg3 arg4 harg4 arg5 harg5 arg6 harg6) K := by
  simp only [cc0__layer_kernel_eq_skeleton]; unfold cc0__layer_kernel_skel
  unfold owns
  iintro ⟨⟨%f1, %hf1, H1⟩, ⟨%f2, %hf2, H2⟩, ⟨%fs, %hfs, HS⟩, Hk⟩
  obtain rfl := harg3.eq_unread hf1; obtain rfl := harg4.eq_unread hf2; obtain rfl := harg6.eq_unread hfs
  sl_exec (disch := first | exact hc0 | exact hc1)
  sl_step
  iapply Hk
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_words
  rw [View.read_writes_eq_canon _ _ _ (fun y => ⟨_, List.mem_cons_self .., View.mem_set_unit_zero zeros2 inb_S1024x1024_S1024x1024_0_0 y⟩),
    View.canon_cons_unit_zero zeros2]
  simp only [View.readAt_eq_ld, harg2.read_unread, harg3.read_unread, harg4.read_unread, harg6.read_unread,
    View.ld_unit_zero (S := S1024x1024) zeros2, View.ld_unit_zero (S := S1x1024x1024) zeros3,
    View.readCov_unit_zero (S := S1024x1024) _ zeros2, View.readCov_cons_toLoadRect]
  rfl

set_option maxHeartbeats 1000000 in
/-- A point whose layer index is 3: as the middle case, and then the output block, whatever it held, is stored
    whole with the new scratch narrowed to bf16. -/
theorem runLast (c : Dev nD) (i : grid0.Coords)
    (arg2 : Memref sig .tc .vmem S1x1024x1024 .f32) (harg2 : arg2.IsWhole)
    (arg3 : Memref sig .tc .vmem S1x1024x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1024x1024 .f32) (harg6 : arg6.IsWhole)
    (hc0 : ¬isFirst i) (hc1 : isLast i)
    (x1 x2 : Vec F S1x1024x1024 .bf16) (xs : Vec F S1024x1024 .f32)
    (E : Set ℕ) (K : PUnit → sProp 𝕄) :
    iprop(owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg3 fullShare x1 ∗ owns (c : Thread nD τ) arg4 fullShare x2
            ∗ owns (c : Thread nD τ) arg5 fullShare (k0_pay5 (step xs x1 x2))
            ∗ owns (c : Thread nD τ) arg6 fullShare (step xs x1 x2)) -∗ K ⟨⟩))
      ⊢ wp frame (wpE (defs₀ (F := F)) Variants.none c none) E
          (cc0__layer_kernel i arg2 harg2 arg3 harg3 arg4 harg4 arg5 harg5 arg6 harg6) K := by
  simp only [cc0__layer_kernel_eq_skeleton]; unfold cc0__layer_kernel_skel
  unfold owns
  iintro ⟨⟨%f1, %hf1, H1⟩, ⟨%f2, %hf2, H2⟩, ⟨%d3, %f3, -, H3⟩, ⟨%fs, %hfs, HS⟩, Hk⟩
  obtain rfl := harg3.eq_unread hf1; obtain rfl := harg4.eq_unread hf2; obtain rfl := harg6.eq_unread hfs
  sl_exec (disch := first | exact hc0 | exact hc1)
  sl_step
  iapply Hk
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (fun y => ⟨_, List.mem_cons_self .., View.mem_set_unit_zero zeros3 inb_S1x1024x1024_S1x1024x1024_0_0_0 y⟩),
      View.canon_cons_unit_zero zeros3]
    simp only [View.readAt_eq_ld, harg2.read_unread, harg3.read_unread, harg4.read_unread, harg6.read_unread,
      View.ld_unit_zero (S := S1024x1024) zeros2, View.ld_unit_zero (S := S1x1024x1024) zeros3,
      View.readCov_unit_zero (S := S1024x1024) _ zeros2, View.readCov_cons_toLoadRect]
    rfl
  iexists _; isplitr
  swap; · iexact HS
  ipureintro
  sl_unfold_words
  rw [View.read_writes_eq_canon _ _ _ (fun y => ⟨_, List.mem_cons_self .., View.mem_set_unit_zero zeros2 inb_S1024x1024_S1024x1024_0_0 y⟩),
    View.canon_cons_unit_zero zeros2]
  simp only [View.readAt_eq_ld, harg2.read_unread, harg3.read_unread, harg4.read_unread, harg6.read_unread,
    View.ld_unit_zero (S := S1024x1024) zeros2, View.ld_unit_zero (S := S1x1024x1024) zeros3,
    View.readCov_unit_zero (S := S1024x1024) _ zeros2, View.readCov_cons_toLoadRect]
  rfl

/-! ## The body obligation, at a generic point -/

/-- Each window's current staging memref at point `t`, as the pipeline passes it to the body, and its wholeness. -/
abbrev sx (t : Fin cfg0.N) : Memref sig .tc .vmem S1x1024x1024 .f32 := win0_0.stage (cfg0.slots t 0)
abbrev hsx (t : Fin cfg0.N) : (sx t).IsWhole := hstage0_0 ((cfg0.slots t 0).cast nbuf0_0)
abbrev swv (t : Fin cfg0.N) : Memref sig .tc .vmem S1x1024x1024 .bf16 := win0_1.stage (cfg0.slots t 1)
abbrev hswv (t : Fin cfg0.N) : (swv t).IsWhole := hstage0_1 ((cfg0.slots t 1).cast nbuf0_1)
abbrev swm (t : Fin cfg0.N) : Memref sig .tc .vmem S1x1024x1024 .bf16 := win0_2.stage (cfg0.slots t 2)
abbrev hswm (t : Fin cfg0.N) : (swm t).IsWhole := hstage0_2 ((cfg0.slots t 2).cast nbuf0_2)
abbrev sout (t : Fin cfg0.N) : Memref sig .tc .vmem S1x1024x1024 .bf16 := win0_3.stage (cfg0.slots t 3)
abbrev hsout (t : Fin cfg0.N) : (sout t).IsWhole := hstage0_3 ((cfg0.slots t 3).cast nbuf0_3)

/-- What the body is called with at point `t`: the invariant, what the core owes, and each window's current
    buffer at what it then holds, -/
def bodyPre (c : Dev nD) (t : Fin cfg0.N) : sProp 𝕄 :=
  iprop((dat0 V c).Φ t.castSucc ∗ (dat0 V c).owesAt () t.castSucc
    ∗ (∃ d, owns (c : Thread nD τ) (sx t) fullShare ((dat0 V c).before 0 t d))
    ∗ (∃ d, owns (c : Thread nD τ) (swv t) fullShare ((dat0 V c).before 1 t d))
    ∗ (∃ d, owns (c : Thread nD τ) (swm t) fullShare ((dat0 V c).before 2 t d))
    ∗ (∃ d, owns (c : Thread nD τ) (sout t) fullShare ((dat0 V c).before 3 t d)))

/-- and what it returns. -/
def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t
    ∗ (dat0 V c).leavesExact 2 t ∗ (dat0 V c).leavesExact 3 t)

set_option maxHeartbeats 4800000 in
/-- The body at any point. The three input buffers hold their blocks (`before_x`, `before_wv`, `before_wm`) and
    are left as they were. The layer index decides the case. At layer 0 the invariant hands over the scratch at
    anything (at the very first point as the launch left it, later at the previous row's last value, which is
    forgotten) and takes it back at one layer applied to the embedding block: `accAt_reset`. At the other layers
    it hands the scratch over at what the point before left and takes it back one layer further: `accAt_step`.
    The output buffer is handed back untouched off layer 3, where the window is idle and not written back; at
    layer 3 it is taken at anything and returned at the new scratch narrowed to bf16 (`outAt`). The fourteen
    buffers of the other region and the generator register pass through; the core owes nothing throughout. -/
theorem sound_body (c : Dev nD) (t : Fin cfg0.N) :
    bodyPre V c t ⊢ wp frame (wpE (defs₀ (F := F)) Variants.none c none) Set.univ (bodyAt0 t)
      (fun _ => bodyPost V c t) := by
  unfold bodyPre bodyPost bodyAt0
  simp only [before_x, before_wv, before_wm]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (sx t) fullShare ((dat0 V c).after 0 t) from by
    unfold Dat.leavesExact; rw [live_x t], after0_0]
  rw [show (dat0 V c).leavesExact 1 t = owns (c : Thread nD τ) (swv t) fullShare ((dat0 V c).after 1 t) from by
    unfold Dat.leavesExact; rw [live_wv t], after0_1]
  rw [show (dat0 V c).leavesExact 2 t = owns (c : Thread nD τ) (swm t) fullShare ((dat0 V c).after 2 t) from by
    unfold Dat.leavesExact; rw [live_wm t], after0_2]
  by_cases h0 : t.val % 4 = 0
  · have hl : ¬isLast (grid0.coords t) := fun h => by have := (isLast_iff t).mp h; omega
    rw [Dat.leavesExact_idle (dat0 V c) 3 t (idle_out t hl) (noFlush_out t hl)]
    rw [accAt_reset V c t h0]
    by_cases hz : t.val = 0
    · rw [Phi_castSucc V c t, PhiS_zero V c _ _ hz, PhiA_eq]
      iintro ⟨⟨⟨HS, Hoth⟩, Hg⟩, Ho, ⟨%d0, H0⟩, ⟨%d1, H1⟩, ⟨%d2, H2⟩, ⟨%d3, H3⟩⟩
      iapply (runFirst c (grid0.coords t) _ _ _ _ _ _ _ _ _ _ ((isFirst_iff t).mpr h0) hl
        (iblk0 V c 0 t) (iblk0 V c 1 t) (iblk0 V c 2 t) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
    · rw [Phi_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply (runFirst c (grid0.coords t) _ _ _ _ _ _ _ _ _ _ ((isFirst_iff t).mpr h0) hl
        (iblk0 V c 0 t) (iblk0 V c 1 t) (iblk0 V c 2 t) Set.univ _)
      isplitl [H0]; · iexact H0
      isplitl [H1]; · iexact H1
      isplitl [H2]; · iexact H2
      isplitl [HS]; · iexists _; iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
  · have hf : ¬isFirst (grid0.coords t) := fun h => h0 ((isFirst_iff t).mp h)
    have hz : t.val ≠ 0 := fun h => h0 (by rw [h])
    rw [accAt_step V c t h0]
    rw [Phi_castSucc V c t, PhiS_pos V c _ _ hz]
    by_cases h3 : t.val % 4 = 3
    · have hl : isLast (grid0.coords t) := (isLast_iff t).mpr h3
      rw [show (dat0 V c).leavesExact 3 t = owns (c : Thread nD τ) (sout t) fullShare ((dat0 V c).after 3 t) from by
        unfold Dat.leavesExact; rw [live_out t hl], after0_3]
      unfold outAt
      rw [accAt_step V c t h0]
      iintro ⟨⟨⟨HS, Hoth⟩, Hg⟩, Ho, ⟨%d0, H0⟩, ⟨%d1, H1⟩, ⟨%d2, H2⟩, ⟨%d3, H3⟩⟩
      iapply (runLast c (grid0.coords t) _ _ _ _ _ _ _ _ _ _ hf hl (iblk0 V c 1 t) (iblk0 V c 2 t)
        (accAt V c (t.val - 1) (Nat.lt_of_le_of_lt (Nat.sub_le _ _) t.isLt)) Set.univ _)
      isplitl [H1]; · iexact H1
      isplitl [H2]; · iexact H2
      isplitl [H3]; · iexists _; iexact H3
      isplitl [HS]; · iexact HS
      iintro ⟨H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · have hl : ¬isLast (grid0.coords t) := fun h => h3 ((isLast_iff t).mp h)
      rw [Dat.leavesExact_idle (dat0 V c) 3 t (idle_out t hl) (noFlush_out t hl)]
      iintro ⟨⟨⟨HS, Hoth⟩, Hg⟩, Ho, ⟨%d0, H0⟩, ⟨%d1, H1⟩, ⟨%d2, H2⟩, ⟨%d3, H3⟩⟩
      iapply (runMid c (grid0.coords t) _ _ _ _ _ _ _ _ _ _ hf hl (iblk0 V c 1 t) (iblk0 V c 2 t)
        (accAt V c (t.val - 1) (Nat.lt_of_le_of_lt (Nat.sub_le _ _) t.isLt)) Set.univ _)
      isplitl [H1]; · iexact H1
      isplitl [H2]; · iexact H2
      isplitl [HS]; · iexact HS
      iintro ⟨H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) :
    BodyObligation (dat0 (F := F) V c) (defs₀ (F := F)) Variants.none () Set.univ := fun t => by
  rw [bigSep_W0, bigSep_W0]
  exact sound_body V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]

/-- After any point the invariant entails what the launch handed over: what the scratch holds is forgotten. -/
theorem Phi_forget (c : Dev nD) (t : Fin (cfg0.N + 1)) (ht : t.val ≠ 0) :
    (dat0 V c).Φ t ⊢ (Pipeline.ΦA spec0 c : sProp 𝕄) := by
  rw [show (dat0 V c).Φ t = PhiS V c t.val (Nat.le_of_lt_succ t.isLt) from rfl, PhiS_pos V c _ _ ht, PhiA_eq]
  iintro ⟨⟨HS, Ho⟩, Hg⟩
  isplitl [HS Ho]
  · isplitl [HS]
    · iexists _; iexact HS
    iexact Ho
  iexact Hg

/-- After the last point the invariant gives it back, the scratch's contents forgotten. -/
theorem hout0 (c : Dev nD) : (dat0 V c).Φ (Fin.last cfg0.N) ⊢ (Pipeline.ΦA spec0 c : sProp 𝕄) :=
  Phi_forget V c _ (by rw [Fin.val_last]; have : cfg0.N = 32 := N_0; omega)

end Cert.Kernel.Layers

end
-- ==== Proof.K.HeadDefs.lean ====
/-
  Region 1 of the kernel (the vocabulary projection with an online soft-max; grid (8, 32): a batch
  row b, then a block v of 256 vocabulary columns, the block axis innermost), over the skeleton's payloads.

  At grid point t = 32 b + v the body holds the batch row's hidden block x, the whole projection weight (of
  which it reads rows 256 v … 256 v + 255), the row's targets, and three scratch columns carried from the
  point before: the running maximum m, the running sum l of exponentials taken relative to m, and the
  accumulated target logit a. Where v = 0 they are first reset (m to a large negative constant, l and a to 0).
  The block of logits  x · wᵀ  is stored; then  a  gains the logit at the target column where that column lies
  in this block, m becomes  max m (row maximum of the block),  and  l  becomes
  exp (m_old − m_new) · l + Σ exp (logit − m_new).  Where v = 31 the row's masked negative log-likelihood
  (m + log l − a) · [target ≠ 0]  and the mask itself are stored.  `scrAt` is the three columns after each
  point, by recursion on the point.
-/
import proofs.«401600_j86689619903517_2_alg».proof.Proof.Gen.Kernel.Skeleton
import proofs.«401600_j86689619903517_2_alg».proof.Proof.Gen.Kernel.Launch
import proofs.«401600_j86689619903517_2_alg».proof.Proof.Gen.Kernel.Points
import Idealize.ShloMosaic.Lib.Pipeline.FrameBody

noncomputable section

namespace Cert.Kernel.Head

open Idealize.ShloMosaic Idealize.ShloMosaic.TcCoe Idealize.SL.Sem
open Cert.Kernel Cert.Kernel.Gen

variable {F : FTy → Type} [FloatOps F]
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The 256 rows of the resident projection weight that the step at coordinates `i` multiplies. -/
def wrows (i : grid1.Coords) (w : Vec F S8192x1024 .bf16) : Vec F S256x1024 .bf16 :=
  View.ld w (Rect.unit (s := S8192x1024) (k1_off1 i) S256x1024.size (k1_off1_inb i))

/-- The three carried columns: running maximum, running sum, accumulated target logit. -/
abbrev Cols (F : FTy → Type) : Type := Vec F S1024x1 .f32 × Vec F S1024x1 .f32 × Vec F S1024x1 .f32

/-- Their reset values. -/
def cols0 : Cols F := (k1_pay7 (F := F), k1_pay8 (F := F), k1_pay9 (F := F))

/-- One step of the online soft-max on the carried columns. -/
def stepH (i : grid1.Coords) (x : Vec F S1x1024x1024 .bf16) (w8 : Vec F S256x1024 .bf16) (tg : Vec F S1x1024x1 .i32)
    (s : Cols F) : Cols F :=
  (k1_pay3 (k1_pay13 x w8) s.1,
   k1_pay2 (k1_pay10 x w8) (k1_pay13 x w8) s.1 s.1 s.2.1,
   k1_pay12 i x w8 tg s.2.2)

/-- The step at point `t` over its blocks. -/
def stepAt (c : Dev nD) (t : Fin cfg1.N) (s : Cols F) : Cols F :=
  stepH (grid1.coords t) (iblk1 V c 0 t) (wrows (grid1.coords t) (iblk1 V c 1 t)) (iblk1 V c 2 t) s

/-- The carried columns after the body at position `n`: reset where the block index is 0, else continued. -/
def scrAt (c : Dev nD) : (n : ℕ) → n < cfg1.N → Cols F
  | 0, hn => stepAt V c ⟨0, hn⟩ cols0
  | n + 1, hn =>
    if (n + 1) % 32 = 0 then stepAt V c ⟨n + 1, hn⟩ cols0
    else stepAt V c ⟨n + 1, hn⟩ (scrAt c n (Nat.lt_of_succ_lt hn))

theorem scrAt_reset (c : Dev nD) (t : Fin cfg1.N) (h : t.val % 32 = 0) :
    scrAt V c t.val t.isLt = stepAt V c t cols0 := by
  obtain ⟨n, hn⟩ := t
  cases n with
  | zero => rfl
  | succ n => exact if_pos h

theorem scrAt_step (c : Dev nD) (t : Fin cfg1.N) (h : ¬ t.val % 32 = 0) :
    scrAt V c t.val t.isLt
      = stepAt V c t (scrAt V c (t.val - 1) (Nat.lt_of_le_of_lt (Nat.sub_le _ _) t.isLt)) := by
  obtain ⟨n, hn⟩ := t
  cases n with
  | zero => exact absurd (Nat.zero_mod _) h
  | succ n => exact if_neg h

/-- The block of logits the body stores at point `t`. -/
def logitsAt (c : Dev nD) (t : Fin cfg1.N) : Vec F S1x1024x256 .f32 :=
  k1_pay11 (iblk1 V c 0 t) (wrows (grid1.coords t) (iblk1 V c 1 t))

/-- The masked negative log-likelihood column stored after a point whose block index is 31. -/
def nllAt (c : Dev nD) (t : Fin cfg1.N) : Vec F S1x1024x1 .f32 :=
  k1_pay5 (scrAt V c t.val t.isLt).1 (scrAt V c t.val t.isLt).2.1 (scrAt V c t.val t.isLt).2.2 (iblk1 V c 2 t)

/-- The mask column stored there. -/
def maskAt (c : Dev nD) (t : Fin cfg1.N) : Vec F S1x1024x1 .f32 := k1_pay6 (iblk1 V c 2 t)

end Cert.Kernel.Head

end
-- ==== Proof.K.HeadFrame.lean ====
/-
  Region 1's proof data and body obligation: at every grid point the projection body, run on the blocks the
  pipeline staged and on the three carried columns as the point before left them, stores the block of logits
  (`logitsAt`), ends with the columns at `scrAt` and, where the block index is 31, the two per-row result
  columns at `nllAt` and `maskAt`; elsewhere those two blocks are left untouched.
-/
import proofs.«401600_j86689619903517_2_alg».proof.Proof.K.HeadDefs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two branch conditions, in closed form over the grid -/

/-- The reset branch's condition (the scalar chain on the block coordinate, as the printed part spells it). -/
abbrev cond1_0 (i : grid1.Coords) : Prop :=
  (Scalar.cmpi .ne (Scalar.extui (Scalar.cmpi .eq (BitVec.ofNat 32 (i 1).val) 0#32)) 0#32) = 1#1
/-- It holds exactly where the block index is 0. -/
theorem hcond1_0 : ∀ t : Fin cfg1.N, cond1_0 (grid1.coords t) ↔ t.val % 32 = 0 :=
  (by decide +kernel : ∀ t : Fin grid1.N, cond1_0 (grid1.coords t) ↔ t.val % 32 = 0)

/-- The final branch's condition. -/
abbrev cond1_1 (i : grid1.Coords) : Prop := k1_cond2 i = 1#1
/-- It holds exactly where the block index is 31. -/
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are live and where idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Off the last block of a row the two per-row result columns are idle and are not written back; -/
theorem idleAt1_4 : ∀ t : Fin cfg1.N, ¬cond1_1 (grid1.coords t) → cfg1.idle 4 (grid1.coords t) = true := by decide +kernel
theorem idleAt1_5 : ∀ t : Fin cfg1.N, ¬cond1_1 (grid1.coords t) → cfg1.idle 5 (grid1.coords t) = true := by decide +kernel
theorem noFlush1_4 : ∀ t : Fin cfg1.N, ¬cond1_1 (grid1.coords t) → (cfg1.win 4).flush t = false := by decide +kernel
theorem noFlush1_5 : ∀ t : Fin cfg1.N, ¬cond1_1 (grid1.coords t) → (cfg1.win 5).flush t = false := by decide +kernel
/-- on it they are live. -/
theorem liveAt1_4 : ∀ t : Fin cfg1.N, cond1_1 (grid1.coords t) → cfg1.idle 4 (grid1.coords t) = false := by decide +kernel
theorem liveAt1_5 : ∀ t : Fin cfg1.N, cond1_1 (grid1.coords t) → cfg1.idle 5 (grid1.coords t) = false := by decide +kernel

/-! ## The memrefs the body is called with -/

/-- Each window's current staging memref at point `t`, spelled as the pipeline passes it, and its wholeness. -/
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x1 .f32 := win1_5.stage (cfg1.slots t 5)
abbrev hs1_5 (t : Fin cfg1.N) : (ms1_5 t).IsWhole := hstage1_5 ((cfg1.slots t 5).cast nbuf1_5)
/-- The three carried columns, whole scoped buffers of the kernel's own: running maximum, running sum, target logit. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1 .f32 := Memref.whole cc1_scratch2

/-! ## The region's invariant -/

/-- The scoped buffers the body never touches (the first region's staging buffers and its scratch), each at some
    contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_scratch0), ((c : Thread nD τ).loc cc0_scratch0) ↦{fullShare} f))

/-- The invariant with the three carried columns at named contents `s`: the untouched buffers at anything, the columns
    owned whole at `s`, the generator register at some state. -/
def PhiAt (c : Dev nD) (s : Cols F) : sProp 𝕄 :=
  iprop(others (F := F) c
    ∗ owns (c : Thread nD τ) scM1_0 fullShare s.1
    ∗ owns (c : Thread nD τ) scM1_1 fullShare s.2.1
    ∗ owns (c : Thread nD τ) scM1_2 fullShare s.2.2
    ∗ (∃ r, prngReg c r))

/-- What the launch hands the region, with the three columns as memrefs owned at some contents. -/
theorem PhiA1_eq (c : Dev nD) :
    (Pipeline.ΦA spec1 c : sProp 𝕄)
      = iprop(others (F := F) c
          ∗ (∃ d, owns (c : Thread nD τ) scM1_0 fullShare d)
          ∗ (∃ d, owns (c : Thread nD τ) scM1_1 fullShare d)
          ∗ (∃ d, owns (c : Thread nD τ) scM1_2 fullShare d)
          ∗ (∃ r, prngReg c r)) := by
  unfold Pipeline.ΦA others; rw [scopedRest1_eq]; simp only [scM1_0, scM1_1, scM1_2, owns_whole]
  refine BI.equiv_iff.mp ⟨?_, ?_⟩
  · show (_ : sProp 𝕄) ⊢ _
    iintro ⟨⟨H1, H2, H3, H4, H5, H6, H7, H8, H9, S0, S1, S2⟩, Hg⟩
    isplitl [H1 H2 H3 H4 H5 H6 H7 H8 H9]
    · iframe
    iframe
  · show (_ : sProp 𝕄) ⊢ _
    iintro ⟨⟨H1, H2, H3, H4, H5, H6, H7, H8, H9⟩, S0, S1, S2, Hg⟩
    isplitr [Hg]
    · iframe
    iexact Hg

/-- The region's invariant before position `n`: before the first point every scoped buffer no window stages at
    anything; afterwards the three carried columns at what the point before left (`scrAt`), the others at anything. -/
def PhiS (c : Dev nD) : (n : ℕ) → n ≤ cfg1.N → sProp 𝕄
  | 0, _ => Pipeline.ΦA spec1 c
  | n + 1, hn => PhiAt c (scrAt V c n hn)

theorem PhiS_zero (c : Dev nD) (n : ℕ) (h : n ≤ cfg1.N) (hz : n = 0) : PhiS V c n h = Pipeline.ΦA spec1 c := by
  subst hz; rfl

/-- After point `n` (before point `n + 1`): the carried columns at that point's contents. -/
theorem PhiS_succ (c : Dev nD) (n : ℕ) (hn : n < cfg1.N) : PhiS V c (n + 1) hn = PhiAt c (scrAt V c n hn) := rfl

/-- Before a point that is not the first: the carried columns at what the point before left. -/
theorem PhiS_pos (c : Dev nD) (n : ℕ) (h : n ≤ cfg1.N) (hz : n ≠ 0) :
    PhiS V c n h = PhiAt c (scrAt V c (n - 1) (by omega)) := by
  cases n with
  | zero => exact absurd rfl hz
  | succ n => rfl

/-- The proof data of region 1 on core `c`, over the contents `V` the region is entered with. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => logitsAt V c t
    | ⟨4, _⟩ => nllAt V c t
    | ⟨5, _⟩ => maskAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = logitsAt V c t := by dsimp only [dat1]
theorem after1_4 (c : Dev nD) (t : Fin cfg1.N) : (dat1 V c).after 4 t = nllAt V c t := by dsimp only [dat1]
theorem after1_5 (c : Dev nD) (t : Fin cfg1.N) : (dat1 V c).after 5 t = maskAt V c t := by dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; simp only [Fin.coe_castSucc]

/-- Each input window's current staging buffer holds its block at every point, fetched there or not: unfetched, the
    block index has not moved since the fetch, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## Reading back what the body's loads and stores leave

Every load of the body but one reads a whole buffer through the unit rectangle at zero offsets, and every store
overwrites a whole buffer through it: such a load reads the contents, and after such a store — whatever was stored
before — the buffer reads the payload. The remaining load reads 256 rows of the resident weight. -/

theorem hz2 : (![0, 0] : Fin 2 → Nat) = fun _ => 0 := funext fun a => by fin_cases a <;> rfl
theorem hz3 : (![0, 0, 0] : Fin 3 → Nat) = fun _ => 0 := funext fun a => by fin_cases a <;> rfl

/-- A whole-shape load of a whole memref that reads `X` reads `X`. -/
theorem readAt_unread_zero {sp : Space} {S : Shape} {e : EltTy} {m : Memref sig .tc sp S e} (h : m.IsWhole)
    (X : S.Idx → Elt F e) {off : Fin S.rank → Nat} (hz : off = fun _ => 0) (inb : ∀ a, off a + S.size a ≤ S.size a) :
    m.view.readAt (Elt F) (Rect.unit off S.size inb).toLoadRect (h.unread X) = X := by
  rw [View.readAt_eq_ld, h.read_unread, View.ld_unit_zero hz]

/-- The load of the step's 256 weight rows. -/
theorem readAt_unread_rows {m : Memref sig .tc .vmem S8192x1024 .bf16} (h : m.IsWhole) (i : grid1.Coords)
    (w : Vec F S8192x1024 .bf16) :
    m.view.readAt (Elt F) (Rect.unit (s := S8192x1024) (k1_off1 i) S256x1024.size (k1_off1_inb i)).toLoadRect (h.unread w)
      = wrows i w := by
  rw [View.readAt_eq_ld, h.read_unread]; rfl

/-- After a whole-shape store, last of any list of stores, the buffer reads that store's payload. -/
theorem read_writes_head_zero {sp : Space} {S : Shape} {e : EltTy} (v : View sig .tc sp S e) (f : v.ty.Contents (Elt F))
    {off : Fin S.rank → Nat} (hz : off = fun _ => 0) (inb : ∀ a, off a + S.size a ≤ S.size a)
    (p : S.Idx → Elt F e) (L : List (View.Piece (Elt F) S e)) :
    v.read (Elt F) (v.writes (Elt F) f ((⟨Rect.unit off S.size inb, p⟩ : View.Piece (Elt F) S e) :: L)) = p := by
  rw [View.read_writes_eq_canon v f _ (fun y => ⟨_, List.mem_cons_self, View.mem_set_unit_zero hz inb y⟩),
    View.canon_cons_unit_zero hz]

/-- A whole-shape load after a whole-shape store reads the store's payload. -/
theorem readCov_head_zero {sp : Space} {S : Shape} {e : EltTy} (v : View sig .tc sp S e)
    {off : Fin S.rank → Nat} (hz : off = fun _ => 0) (inb : ∀ a, off a + S.size a ≤ S.size a)
    (p : S.Idx → Elt F e) (L : List (View.Piece (Elt F) S e)) :
    v.readCov ((⟨Rect.unit off S.size inb, p⟩ : View.Piece (Elt F) S e) :: L) (Rect.unit off S.size inb).toLoadRect = p :=
  View.readCov_cons_toLoadRect v (Rect.unit off S.size inb) p L

/-! ## The body's triple, case by case -/

set_option maxHeartbeats 1000000 in
/-- The body at the first block of a row (the reset branch taken, the final one not). On whole memrefs — the three
    inputs at their contents, the logits buffer and the three carried columns at anything, the two per-row result
    buffers at contents handed back untouched — it runs to the continuation holding the inputs as they were, the logits
    buffer at the block's logits, and the columns at one step from their reset values. -/
theorem run_first (c : Dev nD) (i : grid1.Coords)
    (arg2 : Memref sig .tc .vmem S1x1024x1024 .bf16) (harg2 : arg2.IsWhole)
    (arg3 : Memref sig .tc .vmem S8192x1024 .bf16) (harg3 : arg3.IsWhole)
    (arg4 : Memref sig .tc .vmem S1x1024x1 .i32) (harg4 : arg4.IsWhole)
    (arg5 : Memref sig .tc .vmem S1x1024x256 .f32) (harg5 : arg5.IsWhole)
    (arg6 : Memref sig .tc .vmem S1x1024x1 .f32) (harg6 : arg6.IsWhole)
    (arg7 : Memref sig .tc .vmem S1x1024x1 .f32) (harg7 : arg7.IsWhole)
    (arg8 : Memref sig .tc .vmem S1024x1 .f32) (harg8 : arg8.IsWhole)
    (arg9 : Memref sig .tc .vmem S1024x1 .f32) (harg9 : arg9.IsWhole)
    (arg10 : Memref sig .tc .vmem S1024x1 .f32) (harg10 : arg10.IsWhole)
    (hc0 : cond1_0 i) (hc1 : ¬cond1_1 i)
    (x : Vec F S1x1024x1024 .bf16) (w : Vec F S8192x1024 .bf16) (tg : Vec F S1x1024x1 .i32)
    (xi4 xi5 : Vec F S1x1024x1 .f32) (E : Set ℕ) (K : PUnit → sProp 𝕄) :
    iprop(owns (c : Thread nD τ) arg2 fullShare x ∗ owns (c : Thread nD τ) arg3 fullShare w ∗ owns (c : Thread nD τ) arg4 fullShare tg
        ∗ (∃ d, owns (c : Thread nD τ) arg5 fullShare d)
        ∗ owns (c : Thread nD τ) arg6 fullShare xi4 ∗ owns (c : Thread nD τ) arg7 fullShare xi5
        ∗ (∃ d, owns (c : Thread nD τ) arg8 fullShare d) ∗ (∃ d, owns (c : Thread nD τ) arg9 fullShare d)
        ∗ (∃ d, owns (c : Thread nD τ) arg10 fullShare d)
        ∗ (iprop(owns (c : Thread nD τ) arg2 fullShare x ∗ owns (c : Thread nD τ) arg3 fullShare w ∗ owns (c : Thread nD τ) arg4 fullShare tg
            ∗ owns (c : Thread nD τ) arg5 fullShare (k1_pay11 x (wrows i w))
            ∗ owns (c : Thread nD τ) arg6 fullShare xi4 ∗ owns (c : Thread nD τ) arg7 fullShare xi5
            ∗ owns (c : Thread nD τ) arg8 fullShare (stepH i x (wrows i w) tg cols0).1
            ∗ owns (c : Thread nD τ) arg9 fullShare (stepH i x (wrows i w) tg cols0).2.1
            ∗ owns (c : Thread nD τ) arg10 fullShare (stepH i x (wrows i w) tg cols0).2.2) -∗ K ⟨⟩))
      ⊢ wp frame (wpE (defs₀ (F := F)) Variants.none c none) E (cc1__lmhead_kernel i arg2 harg2 arg3 harg3 arg4 harg4 arg5 harg5 arg6 harg6 arg7 harg7 arg8 harg8 arg9 harg9 arg10 harg10) K := by
  simp only [cc1__lmhead_kernel_eq_skeleton]; unfold cc1__lmhead_kernel_skel
  simp only [k1_part1_eq_skeleton]; unfold k1_part1_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, ⟨%d10, %f10, -, H10⟩, Hk⟩
  obtain rfl := harg2.eq_unread hf2; obtain rfl := harg3.eq_unread hf3; obtain rfl := harg4.eq_unread hf4
  obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (read_writes_head_zero _ _ hz3 _ _ _).trans ?_
    simp only [readAt_unread_zero harg2 x hz3, readAt_unread_rows harg3 i w]
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    refine (read_writes_head_zero _ _ hz2 _ _ _).trans ?_
    sl_unfold_run_names
    simp only [readAt_unread_zero harg2 x hz3, readAt_unread_rows harg3 i w, readCov_head_zero (S := S1024x1) _ hz2]
    rfl
  isplitl [H9]
  · iexists _; isplitr
    swap; · iexact H9
    ipureintro
    refine (read_writes_head_zero _ _ hz2 _ _ _).trans ?_
    sl_unfold_run_names
    simp only [readAt_unread_zero harg2 x hz3, readAt_unread_rows harg3 i w, readCov_head_zero (S := S1024x1) _ hz2]
    rfl
  · iexists _; isplitr
    swap; · iexact H10
    ipureintro
    refine (read_writes_head_zero _ _ hz2 _ _ _).trans ?_
    sl_unfold_run_names
    simp only [readAt_unread_zero harg2 x hz3, readAt_unread_rows harg3 i w, readAt_unread_zero harg4 tg hz3,
      readCov_head_zero (S := S1024x1) _ hz2]
    rfl

set_option maxHeartbeats 1000000 in
/-- The body at a block strictly inside a row (neither branch taken): as at the first block, but the carried
    columns, found at `s`, are left at one step from `s`. The running sum is updated from the OLD running maximum:
    both loads of the maximum precede its store. -/
theorem run_mid (c : Dev nD) (i : grid1.Coords)
    (arg2 : Memref sig .tc .vmem S1x1024x1024 .bf16) (harg2 : arg2.IsWhole)
    (arg3 : Memref sig .tc .vmem S8192x1024 .bf16) (harg3 : arg3.IsWhole)
    (arg4 : Memref sig .tc .vmem S1x1024x1 .i32) (harg4 : arg4.IsWhole)
    (arg5 : Memref sig .tc .vmem S1x1024x256 .f32) (harg5 : arg5.IsWhole)
    (arg6 : Memref sig .tc .vmem S1x1024x1 .f32) (harg6 : arg6.IsWhole)
    (arg7 : Memref sig .tc .vmem S1x1024x1 .f32) (harg7 : arg7.IsWhole)
    (arg8 : Memref sig .tc .vmem S1024x1 .f32) (harg8 : arg8.IsWhole)
    (arg9 : Memref sig .tc .vmem S1024x1 .f32) (harg9 : arg9.IsWhole)
    (arg10 : Memref sig .tc .vmem S1024x1 .f32) (harg10 : arg10.IsWhole)
    (hc0 : ¬cond1_0 i) (hc1 : ¬cond1_1 i)
    (x : Vec F S1x1024x1024 .bf16) (w : Vec F S8192x1024 .bf16) (tg : Vec F S1x1024x1 .i32) (s : Cols F)
    (xi4 xi5 : Vec F S1x1024x1 .f32) (E : Set ℕ) (K : PUnit → sProp 𝕄) :
    iprop(owns (c : Thread nD τ) arg2 fullShare x ∗ owns (c : Thread nD τ) arg3 fullShare w ∗ owns (c : Thread nD τ) arg4 fullShare tg
        ∗ (∃ d, owns (c : Thread nD τ) arg5 fullShare d)
        ∗ owns (c : Thread nD τ) arg6 fullShare xi4 ∗ owns (c : Thread nD τ) arg7 fullShare xi5
        ∗ owns (c : Thread nD τ) arg8 fullShare s.1 ∗ owns (c : Thread nD τ) arg9 fullShare s.2.1 ∗ owns (c : Thread nD τ) arg10 fullShare s.2.2
        ∗ (iprop(owns (c : Thread nD τ) arg2 fullShare x ∗ owns (c : Thread nD τ) arg3 fullShare w ∗ owns (c : Thread nD τ) arg4 fullShare tg
            ∗ owns (c : Thread nD τ) arg5 fullShare (k1_pay11 x (wrows i w))
            ∗ owns (c : Thread nD τ) arg6 fullShare xi4 ∗ owns (c : Thread nD τ) arg7 fullShare xi5
            ∗ owns (c : Thread nD τ) arg8 fullShare (stepH i x (wrows i w) tg s).1
            ∗ owns (c : Thread nD τ) arg9 fullShare (stepH i x (wrows i w) tg s).2.1
            ∗ owns (c : Thread nD τ) arg10 fullShare (stepH i x (wrows i w) tg s).2.2) -∗ K ⟨⟩))
      ⊢ wp frame (wpE (defs₀ (F := F)) Variants.none c none) E (cc1__lmhead_kernel i arg2 harg2 arg3 harg3 arg4 harg4 arg5 harg5 arg6 harg6 arg7 harg7 arg8 harg8 arg9 harg9 arg10 harg10) K := by
  simp only [cc1__lmhead_kernel_eq_skeleton]; unfold cc1__lmhead_kernel_skel
  simp only [k1_part1_eq_skeleton]; unfold k1_part1_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg6.eq_unread hf6; obtain rfl := harg7.eq_unread hf7
  obtain rfl := harg8.eq_unread hf8; obtain rfl := harg9.eq_unread hf9; obtain rfl := harg10.eq_unread hf10
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (read_writes_head_zero _ _ hz3 _ _ _).trans ?_
    simp only [readAt_unread_zero harg2 x hz3, readAt_unread_rows harg3 i w]
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    refine (read_writes_head_zero _ _ hz2 _ _ _).trans ?_
    simp only [readAt_unread_zero harg2 x hz3, readAt_unread_rows harg3 i w, readAt_unread_zero harg8 s.1 hz2]
    rfl
  isplitl [H9]
  · iexists _; isplitr
    swap; · iexact H9
    ipureintro
    refine (read_writes_head_zero _ _ hz2 _ _ _).trans ?_
    simp only [readAt_unread_zero harg2 x hz3, readAt_unread_rows harg3 i w, readAt_unread_zero harg8 s.1 hz2,
      readAt_unread_zero harg9 s.2.1 hz2]
    rfl
  · iexists _; isplitr
    swap; · iexact H10
    ipureintro
    refine (read_writes_head_zero _ _ hz2 _ _ _).trans ?_
    simp only [readAt_unread_zero harg2 x hz3, readAt_unread_rows harg3 i w, readAt_unread_zero harg4 tg hz3,
      readAt_unread_zero harg10 s.2.2 hz2]
    rfl

set_option maxHeartbeats 1000000 in
/-- The body at the last block of a row (the final branch taken): the columns, found at `s`, are left at one step
    from `s`, and the two per-row result buffers, found at anything, are stored: the masked negative log-likelihood
    read off the stepped columns, and the mask. -/
theorem run_last (c : Dev nD) (i : grid1.Coords)
    (arg2 : Memref sig .tc .vmem S1x1024x1024 .bf16) (harg2 : arg2.IsWhole)
    (arg3 : Memref sig .tc .vmem S8192x1024 .bf16) (harg3 : arg3.IsWhole)
    (arg4 : Memref sig .tc .vmem S1x1024x1 .i32) (harg4 : arg4.IsWhole)
    (arg5 : Memref sig .tc .vmem S1x1024x256 .f32) (harg5 : arg5.IsWhole)
    (arg6 : Memref sig .tc .vmem S1x1024x1 .f32) (harg6 : arg6.IsWhole)
    (arg7 : Memref sig .tc .vmem S1x1024x1 .f32) (harg7 : arg7.IsWhole)
    (arg8 : Memref sig .tc .vmem S1024x1 .f32) (harg8 : arg8.IsWhole)
    (arg9 : Memref sig .tc .vmem S1024x1 .f32) (harg9 : arg9.IsWhole)
    (arg10 : Memref sig .tc .vmem S1024x1 .f32) (harg10 : arg10.IsWhole)
    (hc0 : ¬cond1_0 i) (hc1 : cond1_1 i)
    (x : Vec F S1x1024x1024 .bf16) (w : Vec F S8192x1024 .bf16) (tg : Vec F S1x1024x1 .i32) (s : Cols F)
    (E : Set ℕ) (K : PUnit → sProp 𝕄) :
    iprop(owns (c : Thread nD τ) arg2 fullShare x ∗ owns (c : Thread nD τ) arg3 fullShare w ∗ owns (c : Thread nD τ) arg4 fullShare tg
        ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare s.1 ∗ owns (c : Thread nD τ) arg9 fullShare s.2.1 ∗ owns (c : Thread nD τ) arg10 fullShare s.2.2
        ∗ (iprop(owns (c : Thread nD τ) arg2 fullShare x ∗ owns (c : Thread nD τ) arg3 fullShare w ∗ owns (c : Thread nD τ) arg4 fullShare tg
            ∗ owns (c : Thread nD τ) arg5 fullShare (k1_pay11 x (wrows i w))
            ∗ owns (c : Thread nD τ) arg6 fullShare
                (k1_pay5 (stepH i x (wrows i w) tg s).1 (stepH i x (wrows i w) tg s).2.1 (stepH i x (wrows i w) tg s).2.2 tg)
            ∗ owns (c : Thread nD τ) arg7 fullShare (k1_pay6 (F := F) tg)
            ∗ owns (c : Thread nD τ) arg8 fullShare (stepH i x (wrows i w) tg s).1
            ∗ owns (c : Thread nD τ) arg9 fullShare (stepH i x (wrows i w) tg s).2.1
            ∗ owns (c : Thread nD τ) arg10 fullShare (stepH i x (wrows i w) tg s).2.2) -∗ K ⟨⟩))
      ⊢ wp frame (wpE (defs₀ (F := F)) Variants.none c none) E (cc1__lmhead_kernel i arg2 harg2 arg3 harg3 arg4 harg4 arg5 harg5 arg6 harg6 arg7 harg7 arg8 harg8 arg9 harg9 arg10 harg10) K := by
  simp only [cc1__lmhead_kernel_eq_skeleton]; unfold cc1__lmhead_kernel_skel
  simp only [k1_part1_eq_skeleton]; unfold k1_part1_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg8.eq_unread hf8; obtain rfl := harg9.eq_unread hf9; obtain rfl := harg10.eq_unread hf10
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (read_writes_head_zero _ _ hz3 _ _ _).trans ?_
    simp only [readAt_unread_zero harg2 x hz3, readAt_unread_rows harg3 i w]
  isplitl [H6]
  · iexists _; isplitr
    swap; · iexact H6
    ipureintro
    refine (read_writes_head_zero _ _ hz3 _ _ _).trans ?_
    sl_unfold_run_names
    simp only [readCov_head_zero (S := S1024x1) _ hz2, readAt_unread_zero harg2 x hz3, readAt_unread_rows harg3 i w,
      readAt_unread_zero harg4 tg hz3, readAt_unread_zero harg8 s.1 hz2, readAt_unread_zero harg9 s.2.1 hz2,
      readAt_unread_zero harg10 s.2.2 hz2]
    rfl
  isplitl [H7]
  · iexists _; isplitr
    swap; · iexact H7
    ipureintro
    refine (read_writes_head_zero _ _ hz3 _ _ _).trans ?_
    simp only [readAt_unread_zero harg4 tg hz3]
  isplitl [H8]
  · iexists _; isplitr
    swap; · iexact H8
    ipureintro
    refine (read_writes_head_zero _ _ hz2 _ _ _).trans ?_
    simp only [readAt_unread_zero harg2 x hz3, readAt_unread_rows harg3 i w, readAt_unread_zero harg8 s.1 hz2]
    rfl
  isplitl [H9]
  · iexists _; isplitr
    swap; · iexact H9
    ipureintro
    refine (read_writes_head_zero _ _ hz2 _ _ _).trans ?_
    simp only [readAt_unread_zero harg2 x hz3, readAt_unread_rows harg3 i w, readAt_unread_zero harg8 s.1 hz2,
      readAt_unread_zero harg9 s.2.1 hz2]
    rfl
  · iexists _; isplitr
    swap; · iexact H10
    ipureintro
    refine (read_writes_head_zero _ _ hz2 _ _ _).trans ?_
    simp only [readAt_unread_zero harg2 x hz3, readAt_unread_rows harg3 i w, readAt_unread_zero harg4 tg hz3,
      readAt_unread_zero harg10 s.2.2 hz2]
    rfl

/-! ## The body obligation, at a generic point -/

/-- What the body is called with at point `t` (the windows one by one), -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The three inputs' memrefs hold their blocks; the block index of the point says which of
    the three control cases it is in. The invariant hands the body the three carried columns at what the point
    before left (at anything before the first point of the grid, and the reset overwrites them at the first block of
    every row), and takes them back at this point's contents; the logits block is stored at every point; the two
    per-row result columns are stored at a row's last block and handed back untouched elsewhere. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  unfold logitsAt
  by_cases h0 : t.val % 32 = 0
  · by_cases h1 : t.val % 32 = 31
    · exfalso; omega
    · -- the first block of a row: the columns are reset, then stepped
      have hc0 : cond1_0 (grid1.coords t) := (hcond1_0 t).mpr h0
      have hc1 : ¬cond1_1 (grid1.coords t) := fun h => h1 ((hcond1_1 t).mp h)
      rw [Dat.leavesExact_idle (dat1 V c) 4 t (idleAt1_4 t hc1) (noFlush1_4 t hc1)]
      rw [Dat.leavesExact_idle (dat1 V c) 5 t (idleAt1_5 t hc1) (noFlush1_5 t hc1)]
      rw [scrAt_reset V c t h0]; unfold stepAt
      by_cases hz : t.val = 0
      · rw [PhiS_castSucc V c t, PhiS_zero V c _ _ hz, PhiA1_eq]; unfold PhiAt
        iintro ⟨⟨Hr, S0, S1, S2, Hg⟩, Ho, ⟨%d0, H0⟩, ⟨%d1, H1⟩, ⟨%d2, H2⟩, ⟨%d3, H3⟩, ⟨%d4, H4⟩, ⟨%d5, H5⟩⟩
        iapply (run_first c (grid1.coords t) _ _ _ _ _ _ _ _ _ _ _ _ _ _ _ _ _ _ hc0 hc1 (iblk1 V c 0 t) (iblk1 V c 1 t) (iblk1 V c 2 t) _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [S0]; · iexact S0
        isplitl [S1]; · iexact S1
        isplitl [S2]; · iexact S2
        iintro ⟨H0, H1, H2, H3, H4, H5, S0, S1, S2⟩
        isplitl [Hr S0 S1 S2 Hg]
        · isplitl [Hr]; · iexact Hr
          isplitl [S0]; · iexact S0
          isplitl [S1]; · iexact S1
          isplitl [S2]; · iexact S2
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      · rw [PhiS_castSucc V c t, PhiS_pos V c _ _ hz]; unfold PhiAt
        iintro ⟨⟨Hr, S0, S1, S2, Hg⟩, Ho, ⟨%d0, H0⟩, ⟨%d1, H1⟩, ⟨%d2, H2⟩, ⟨%d3, H3⟩, ⟨%d4, H4⟩, ⟨%d5, H5⟩⟩
        iapply (run_first c (grid1.coords t) _ _ _ _ _ _ _ _ _ _ _ _ _ _ _ _ _ _ hc0 hc1 (iblk1 V c 0 t) (iblk1 V c 1 t) (iblk1 V c 2 t) _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [S0]; · iexists _; iexact S0
        isplitl [S1]; · iexists _; iexact S1
        isplitl [S2]; · iexists _; iexact S2
        iintro ⟨H0, H1, H2, H3, H4, H5, S0, S1, S2⟩
        isplitl [Hr S0 S1 S2 Hg]
        · isplitl [Hr]; · iexact Hr
          isplitl [S0]; · iexact S0
          isplitl [S1]; · iexact S1
          isplitl [S2]; · iexact S2
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
  · have hz : t.val ≠ 0 := fun e => h0 (by rw [e])
    have hc0 : ¬cond1_0 (grid1.coords t) := fun h => h0 ((hcond1_0 t).mp h)
    by_cases h1 : t.val % 32 = 31
    · -- the last block of a row: the columns are stepped, then the two per-row results stored
      have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [show (dat1 V c).leavesExact 5 t = owns (c : Thread nD τ) (ms1_5 t) fullShare ((dat1 V c).after 5 t) from by
        unfold Dat.leavesExact; rw [liveAt1_5 t hc1], after1_5]
      unfold nllAt maskAt
      rw [scrAt_step V c t h0]; unfold stepAt
      rw [PhiS_castSucc V c t, PhiS_pos V c _ _ hz]; unfold PhiAt
      iintro ⟨⟨Hr, S0, S1, S2, Hg⟩, Ho, ⟨%d0, H0⟩, ⟨%d1, H1⟩, ⟨%d2, H2⟩, ⟨%d3, H3⟩, ⟨%d4, H4⟩, ⟨%d5, H5⟩⟩
      iapply (run_last c (grid1.coords t) _ _ _ _ _ _ _ _ _ _ _ _ _ _ _ _ _ _ hc0 hc1 (iblk1 V c 0 t) (iblk1 V c 1 t) (iblk1 V c 2 t)
        (scrAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [S0]; · iexact S0
      isplitl [S1]; · iexact S1
      isplitl [S2]; · iexact S2
      iintro ⟨H0, H1, H2, H3, H4, H5, S0, S1, S2⟩
      isplitl [Hr S0 S1 S2 Hg]
      · isplitl [Hr]; · iexact Hr
        isplitl [S0]; · iexact S0
        isplitl [S1]; · iexact S1
        isplitl [S2]; · iexact S2
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a block strictly inside a row: the columns are stepped
      have hc1 : ¬cond1_1 (grid1.coords t) := fun h => h1 ((hcond1_1 t).mp h)
      rw [Dat.leavesExact_idle (dat1 V c) 4 t (idleAt1_4 t hc1) (noFlush1_4 t hc1)]
      rw [Dat.leavesExact_idle (dat1 V c) 5 t (idleAt1_5 t hc1) (noFlush1_5 t hc1)]
      rw [scrAt_step V c t h0]; unfold stepAt
      rw [PhiS_castSucc V c t, PhiS_pos V c _ _ hz]; unfold PhiAt
      iintro ⟨⟨Hr, S0, S1, S2, Hg⟩, Ho, ⟨%d0, H0⟩, ⟨%d1, H1⟩, ⟨%d2, H2⟩, ⟨%d3, H3⟩, ⟨%d4, H4⟩, ⟨%d5, H5⟩⟩
      iapply (run_mid c (grid1.coords t) _ _ _ _ _ _ _ _ _ _ _ _ _ _ _ _ _ _ hc0 hc1 (iblk1 V c 0 t) (iblk1 V c 1 t) (iblk1 V c 2 t)
        (scrAt V c (t.val - 1) (Nat.lt_of_le_of_lt (Nat.sub_le _ _) t.isLt)) _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [S0]; · iexact S0
      isplitl [S1]; · iexact S1
      isplitl [S2]; · iexact S2
      iintro ⟨H0, H1, H2, H3, H4, H5, S0, S1, S2⟩
      isplitl [Hr S0 S1 S2 Hg]
      · isplitl [Hr]; · iexact Hr
        isplitl [S0]; · iexact S0
        isplitl [S1]; · iexact S1
        isplitl [S2]; · iexact S2
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation1 (c : Dev nD) :
    BodyObligation (dat1 (F := F) V c) (defs₀ (F := F)) Variants.none () Set.univ := by
  intro t
  rw [bigSep_W1, bigSep_W1]
  exact sound_body V c t

/-- What the launch hands the region is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]

/-- After any point but the first the invariant gives the launch's back: the columns' named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS V c t.val (Nat.le_of_lt_succ t.isLt) from rfl, PhiS_pos V c _ _ ht, PhiA1_eq]
  unfold PhiAt
  iintro ⟨Hr, S0, S1, S2, Hg⟩
  isplitl [Hr]; · iexact Hr
  isplitl [S0]; · iexists _; iexact S0
  isplitl [S1]; · iexists _; iexact S1
  isplitl [S2]; · iexists _; iexact S2
  iexact Hg

/-- After the last point the invariant gives it back, the columns' contents forgotten. -/
theorem hout1 (c : Dev nD) : (dat1 V c).Φ (Fin.last cfg1.N) ⊢ (Pipeline.ΦA spec1 c : sProp 𝕄) := by
  exact Phi_out1 V c _ (by rw [Fin.val_last]; have : cfg1.N = 256 := N_1; omega)

end Cert.Kernel.Head

end
-- ==== Proof.K.Fold.lean ====
/-
  The contents of the program's buffers at each boundary between the items of @main: the launch memory, then
  each stretch of host operations applied, each region replacing its windows' arrays by what its pipeline
  leaves (the proof data's `arrAt` at the last point).
-/
import proofs.«401600_j86689619903517_2_alg».proof.Proof.K.LayersFrame
import proofs.«401600_j86689619903517_2_alg».proof.Proof.K.HeadFrame
import Idealize.ShloMosaic.Lib.Pipeline.Regions

noncomputable section

namespace Cert.Kernel.Whole

open Idealize.ShloMosaic Idealize.ShloMosaic.TcCoe Idealize.SL.Sem
open Idealize.ShloMosaic.Pipeline (Dat)
open Cert.Kernel Cert.Kernel.Gen Cert.Kernel.Layers Cert.Kernel.Head

variable {F : FTy → Type} [FloatOps F]
variable (m : (ℓ : Loc nD τ sig) → Buf (Elt F) ℓ)

/-- Core `c`'s buffers at launch. -/
abbrev W0 : Dev nD → Valuation τ sig (Elt F) := fun c b => m (c, b)
/-- After the token look-up (`hostOps0`). -/
abbrev W1 : Dev nD → Valuation τ sig (Elt F) := fun c => StableHlo.after hostOps0 (W0 m c)
/-- After the three weight conversions (`hostOps0_1`): region 0's entry. -/
abbrev W2 : Dev nD → Valuation τ sig (Elt F) := fun c => StableHlo.after hostOps0_1 (W1 m c)
/-- The same read at the TensorCore's references (what region 0's proof data take). -/
abbrev V2 : (c : Dev nD) → (b : Ref sig .tc) → Buf (Elt F) ((c : Thread nD τ).loc b) := fun c b => W2 m c b
/-- At region 0's exit: its arrays at what the pipeline leaves, every other buffer as entered. -/
def W3 (c : Dev nD) : Valuation τ sig (Elt F) :=
  Pipeline.withArrays spec0 c (W2 m c) fun w => (dat0 (V2 m) c).arrAt w cfg0.N
/-- After the targets' reshape (`hostOps1`): region 1's entry. -/
abbrev W4 : Dev nD → Valuation τ sig (Elt F) := fun c => StableHlo.after hostOps1 (W3 m c)
abbrev V4 : (c : Dev nD) → (b : Ref sig .tc) → Buf (Elt F) ((c : Thread nD τ).loc b) := fun c b => W4 m c b
/-- At region 1's exit. -/
def W5 (c : Dev nD) : Valuation τ sig (Elt F) :=
  Pipeline.withArrays spec1 c (W4 m c) fun w => (dat1 (V4 m) c).arrAt w cfg1.N
/-- After the final sums and the quotient (`hostOps2`): the end. -/
abbrev W6 : Dev nD → Valuation τ sig (Elt F) := fun c => StableHlo.after hostOps2 (W5 m c)

theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb

end Cert.Kernel.Whole

end
-- ==== Proof.K.Whole.lean ====
/-
  The whole run of the kernel's program. @main is six items in order: the token look-up, the three
  weight conversions, the pallas_call of the four layers, the targets' reshape, the pallas_call of the
  projection with its online soft-max, and the final sums with the quotient. Between two items every unscoped
  buffer of the core is held whole at the contents the fold `W0 … W6` names; beside them ride the generator
  register, at some state, and the core's dues, at nothing. A stretch of host operations moves the buffers from
  one valuation to the next; a region takes its windows' arrays out of them, runs its pipeline on the proof data
  stated at the entry contents, and puts the arrays back at what the pipeline leaves. At the end the last
  valuation is read against the final memory: every unscoped buffer holds `W6`, and in particular each argument
  array holds what it was launched with, since no item writes one.
-/
import proofs.«401600_j86689619903517_2_alg».proof.Proof.K.Fold
import proofs.«401600_j86689619903517_2_alg».proof.Proof.Gen.Kernel.Regions
import Idealize.ShloMosaic.Lib.Pipeline.Regions
import Idealize.ShloMosaic.Lib.Pipeline.RegionsLoop
import Idealize.ShloMosaic.Lib.Pipeline.Kit
import Idealize.ShloMosaic.Lib.Pipeline.FrameSuffix
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen Cert.Kernel.Layers Cert.Kernel.Head

variable {F : FTy → Type} [FloatOps F]
variable (m : (ℓ : Loc nD τ sig) → Buf (Elt F) ℓ)

local notation "𝕄" => MT nD τ sig Unit (Elt F) ℕ (UR sig nD τ) ℕ

variable (ρ : Dev nD → PrngReg)

/-! ## The proof data of the two pipelines, and what rides beside the buffers -/

/-- Each pipeline's proof data at the contents its region is entered with: region 0 after the weight
    conversions (`V2`), region 1 after the targets' reshape (`V4`). A literal case split on the pipeline's index, so
    that the configuration pinned at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V2 m) c
  | ⟨1, _⟩ => fun c => dat1 (V4 m) c

/-- No variant beyond the library's own. -/
abbrev 𝒱₀ : Variants := Variants.none
/-- No core waits on another: no pair carries a level. -/
abbrev L : GSem nD τ sig → Finset Unit := fun _ => ∅
abbrev lv : GSem nD τ sig → Unit → ℕ := fun _ _ => 0

/-- Beside the unscoped buffers, through every item: the core's generator register at some state, and the core
    owing nothing. -/
abbrev R (c : Dev nD) : sProp 𝕄 :=
  iprop((∃ r, prngReg c r) ∗ ∃ W, owes (c : Thread nD τ) (0 : CellTallies nD τ sig Unit) W)

/-- The state between two items at the contents `W`: every unscoped buffer whole at `W`, and `R`. -/
abbrev At (W : Dev nD → Valuation τ sig (Elt F)) (c : Dev nD) : sProp 𝕄 :=
  iprop(StableHlo.held (c : Thread nD τ) (Pipeline.ucRefs τ sig) (W c) ∗ R c)

/-- A stretch of host operations from the contents `W`: it leaves the buffers at `StableHlo.after ops (W c)`, which
    is the next valuation of the fold by name. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the TensorCore is among the buffers the state between items holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## What a region's exit valuation holds -/

theorem exit0_arr (c : Dev nD) (w : Fin cfg0.W) :
    (pdats m 0 c).arrAt w cfg0.N = (fun b : Ref sig .tc => W3 m c b) (Pipeline.arrRef spec0 w) :=
  (W3_arr m c w).symm
theorem exit0_rest (c : Dev nD) :
    ∀ b, b ∉ Finset.univ.image (Pipeline.arrRef spec0) → (fun b : Ref sig .tc => W3 m c b) b = V2 m c b :=
  fun b hb => W3_of_ne m c b fun w e => hb (Finset.mem_image.mpr ⟨w, Finset.mem_univ _, e⟩)
theorem exit1_arr (c : Dev nD) (w : Fin cfg1.W) :
    (pdats m 1 c).arrAt w cfg1.N = (fun b : Ref sig .tc => W5 m c b) (Pipeline.arrRef spec1 w) :=
  (W5_arr m c w).symm
theorem exit1_rest (c : Dev nD) :
    ∀ b, b ∉ Finset.univ.image (Pipeline.arrRef spec1) → (fun b : Ref sig .tc => W5 m c b) b = V4 m c b :=
  fun b hb => W5_of_ne m c b fun w e => hb (Finset.mem_image.mpr ⟨w, Finset.mem_univ _, e⟩)

/-! ## The two regions -/

set_option backward.isDefEq.respectTransparency.types false in
/-- The pallas_call of the layers: entered with the buffers at `W2`, left with them at `W3`. Its four arrays (the embedded tokens, the two stacks of weights, the output) leave the unscoped buffers at entry and return at what the pipeline's write-backs leave; the generator register passes through the class's invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ L lv 0 fun _ _ => rfl
  pre := At (W2 m)
  post := At (W3 m)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    -- the windows' arrays leave the unscoped buffers at the entry contents; the rest bypasses the region
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    rw [Pipeline.ownSems0_none]
    iintro ⟨⟨Hbufs, Hreg, Hdue⟩, -, -⟩
    ihave Hparts := hsplit $$ Hbufs
    icases Hparts with ⟨Harr, Hrest⟩
    imodintro
    isplitl [Harr]; · iexact Harr
    isplitr
    · -- the pipeline prefetches no table
      unfold Pipeline.prefHeld
      rw [show (Finset.univ : Finset (Fin 0)) = ∅ from rfl, BI.bigSep_empty]; iempintro
    isplitl [Hdue]
    · -- nothing owed is within any bound
      unfold Pipeline.Dat.owesAt Pipeline.owesWithin
      icases Hdue with ⟨%W, Hdue⟩
      iexists W
      isplitr; · ipureintro; exact fun _ _ => Or.inl trivial
      iexact Hdue
    isplitl [Hreg]; · iexact Hreg
    iexact Hrest
  hin c := by
    -- the generator register and the scoped buffers no window stages are the class's invariant, which the
    -- region's invariant before the first point follows from
    refine BIBase.Entails.trans ?_ (hin0 (V2 m) c)
    unfold Pipeline.ΦA
    iintro ⟨Hreg, -, Hscoped⟩
    isplitl [Hscoped]; · iexact Hscoped
    iexact Hreg
  hout c := by
    -- after the last point the region's invariant gives the class's back, which is those two parts again
    refine (hout0 (V2 m) c).trans ?_
    rw [Pipeline.ownSems0_none]; unfold Pipeline.ΦA
    iintro ⟨Hscoped, Hreg⟩
    isplitl [Hreg]; · iexact Hreg
    isplitr; · iempintro
    iexact Hscoped
  hexit c := by
    -- the arrays at what the pipeline leaves and the bypassed rest are the unscoped buffers at the exit contents
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (fun b => W3 m c b) ((pdats m 0 c).arrAt · cfg0.N) (exit0_arr m c) (exit0_rest m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

set_option backward.isDefEq.respectTransparency.types false in
/-- The pallas_call of the projection: entered with the buffers at `W4`, left with them at `W5`. Its six arrays (the hidden states, the projection weights, the targets, and the three results: logits, per-row loss, per-row mask) leave and return in the same way. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre := At (W4 m)
  post := At (W5 m)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    -- the windows' arrays leave the unscoped buffers at the entry contents; the rest bypasses the region
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    rw [Pipeline.ownSems0_none]
    iintro ⟨⟨Hbufs, Hreg, Hdue⟩, -, -⟩
    ihave Hparts := hsplit $$ Hbufs
    icases Hparts with ⟨Harr, Hrest⟩
    imodintro
    isplitl [Harr]; · iexact Harr
    isplitr
    · -- the pipeline prefetches no table
      unfold Pipeline.prefHeld
      rw [show (Finset.univ : Finset (Fin 0)) = ∅ from rfl, BI.bigSep_empty]; iempintro
    isplitl [Hdue]
    · -- nothing owed is within any bound
      unfold Pipeline.Dat.owesAt Pipeline.owesWithin
      icases Hdue with ⟨%W, Hdue⟩
      iexists W
      isplitr; · ipureintro; exact fun _ _ => Or.inl trivial
      iexact Hdue
    isplitl [Hreg]; · iexact Hreg
    iexact Hrest
  hin c := by
    -- the generator register and the scoped buffers no window stages are the class's invariant, which the
    -- region's invariant before the first point follows from
    refine BIBase.Entails.trans ?_ (hin1 (V4 m) c)
    unfold Pipeline.ΦA
    iintro ⟨Hreg, -, Hscoped⟩
    isplitl [Hscoped]; · iexact Hscoped
    iexact Hreg
  hout c := by
    -- after the last point the region's invariant gives the class's back, which is those two parts again
    refine (hout1 (V4 m) c).trans ?_
    rw [Pipeline.ownSems0_none]; unfold Pipeline.ΦA
    iintro ⟨Hscoped, Hreg⟩
    isplitl [Hreg]; · iexact Hreg
    isplitr; · iempintro
    iexact Hscoped
  hexit c := by
    -- the arrays at what the pipeline leaves and the bypassed rest are the unscoped buffers at the exit contents
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (fun b => W5 m c b) ((pdats m 1 c).arrAt · cfg1.N) (exit1_arr m c) (exit1_rest m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

/-! ## @main as its six items, and the launch -/

/-- The items in order, each host stretch from the fold's valuation before it. -/
abbrev items : List (Pipeline.Seg (pcfgs (F := F)) adm (pdats m) () defs₀ 𝒱₀ L lv) :=
  [ .host (stretch hostOps0 hostOps0_sub hostOps0_fresh (W0 m)),
    .host (stretch hostOps0_1 hostOps0_1_sub hostOps0_1_fresh (W1 m)),
    .region (reg0 m),
    .host (stretch hostOps1 hostOps1_sub hostOps1_fresh (W3 m)),
    .region (reg1 m),
    .host (stretch hostOps2 hostOps2_sub hostOps2_fresh (W5 m)) ]

/-- @main is the run of the items: it is the chain of their programs, and so is the items' run. -/
theorem main_run (c : Dev nD) : main (F := F) c = Pipeline.Seg.run (items m) :=
  (main_chain c).trans (by chain_rfl)

set_option backward.isDefEq.respectTransparency.types false in
/-- THE RUN, at any claim about the final memory that follows from every unscoped buffer holding `W6`: from any
    memory with zero counters, every weakly fair execution of @main on the TensorCores terminates, nothing
    faulting, and the final memory satisfies the claim. -/
theorem run_of {Q : PUnit × MemSt nD τ sig (Elt F) → Prop}
    (hQ : ∀ s : MemSt nD τ sig (Elt F),
      (∀ c : Dev nD, ∀ b ∈ Pipeline.ucRefs τ sig, s.mem ((c : Thread nD τ).1, b) = W6 m c b) → Q (⟨⟩, s)) :
    θ_run defs (onTc (τ := τ) (main (F := F))) ⟨m, fun _ => 0, ρ⟩ Q := by
  refine Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?launchElt)
    (T₀ := At (W0 m))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun c => ?last⟩)
    (hinit := ?first)
    (QY := fun c s => ∀ b ∈ Pipeline.ucRefs τ sig, s.mem ((c : Thread nD τ).1, b) = W6 m c b)
    (hfin := fun c s' => ?read)
    (hQ := hQ)
  case launchElt =>
    -- the launch element is the pipelines' own; no core gets a ghost resource besides
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case last =>
    -- after the last stretch: the buffers at `W6` and the register, beside the core owing nothing
    show (At (W6 m) c : sProp 𝕄) ⊢ _
    iintro ⟨Hbufs, Hreg, Hdue⟩
    isplitl [Hbufs Hreg]
    · isplitl [Hbufs] <;> iassumption
    iexact Hdue
  case first =>
    -- the launch deals each core its unscoped buffers at the launch memory, its register and its dues at nothing
    refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hbufs, -, Hdue, -, Hreg, -⟩, -⟩
    imodintro
    isplitl [Hbufs]; · iexact Hbufs
    isplitl [Hreg]; · iexists _; iexact Hreg
    iexists ∅; iexact Hdue
  case read =>
    -- the buffers held at `W6`, against the final state
    iintro ⟨⟨Hbufs, -⟩, HSI⟩
    unfold StableHlo.held
    imodintro
    iapply (pointsTo_read_all (Pipeline.ucRefs τ sig) (fun b => ((c : Thread nD τ).1, b)) (W6 m c) s')
    isplitl [Hbufs] <;> iassumption

/-! ## The interface: the run, with every unscoped buffer named at the end -/

theorem run_all :
    θ_run defs (onTc (τ := τ) (main (F := F))) ⟨m, fun _ => 0, ρ⟩
      (fun r => ∀ c : Dev nD, ∀ b ∈ Pipeline.ucRefs τ sig, r.2.mem ((c : Thread nD τ).1, b) = W6 m c b) :=
  run_of m ρ fun _ h => h

/-! ## Reading the last valuation -/

/-- A buffer that no stretch of host operations writes and that is no array of either region's windows holds at
    the end what it was launched with. -/
theorem W6_untouched (c : Dev nD) (r : Ref sig .tc)
    (h0 : r ∉ hostOps0_W) (h1 : r ∉ hostOps0_1_W) (h3 : ∀ w, Pipeline.arrRef spec0 w ≠ r)
    (h4 : r ∉ hostOps1_W) (h5 : ∀ w, Pipeline.arrRef spec1 w ≠ r) (h6 : r ∉ hostOps2_W) :
    W6 m c (Proc.devRef .tc r) = m ((c : Thread nD τ).loc r) :=
  calc W6 m c (Proc.devRef .tc r)
    _ = W5 m c (Proc.devRef .tc r) := StableHlo.after_of_writes_sub hostOps2 _ hostOps2_writes h6
    _ = W4 m c (Proc.devRef .tc r) := W5_of_ne m c r h5
    _ = W3 m c (Proc.devRef .tc r) := StableHlo.after_of_writes_sub hostOps1 _ hostOps1_writes h4
    _ = W2 m c (Proc.devRef .tc r) := W3_of_ne m c r h3
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

/-! ### The arguments: no stretch writes one, no window's array is one -/

/-- `main_arg0` ends as launched. -/
theorem W6_main_arg0 (c : Dev nD) : W6 m c (Proc.devRef .tc main_arg0) = m ((c : Thread nD τ).loc main_arg0) :=
  W6_untouched m c main_arg0 (by decide) (by decide) (by decide) (by decide) (by decide) (by decide)
/-- `main_arg1` ends as launched. -/
theorem W6_main_arg1 (c : Dev nD) : W6 m c (Proc.devRef .tc main_arg1) = m ((c : Thread nD τ).loc main_arg1) :=
  W6_untouched m c main_arg1 (by decide) (by decide) (by decide) (by decide) (by decide) (by decide)
/-- `main_arg2` ends as launched. -/
theorem W6_main_arg2 (c : Dev nD) : W6 m c (Proc.devRef .tc main_arg2) = m ((c : Thread nD τ).loc main_arg2) :=
  W6_untouched m c main_arg2 (by decide) (by decide) (by decide) (by decide) (by decide) (by decide)
/-- `main_arg3` ends as launched. -/
theorem W6_main_arg3 (c : Dev nD) : W6 m c (Proc.devRef .tc main_arg3) = m ((c : Thread nD τ).loc main_arg3) :=
  W6_untouched m c main_arg3 (by decide) (by decide) (by decide) (by decide) (by decide) (by decide)
/-- `main_arg4` ends as launched. -/
theorem W6_main_arg4 (c : Dev nD) : W6 m c (Proc.devRef .tc main_arg4) = m ((c : Thread nD τ).loc main_arg4) :=
  W6_untouched m c main_arg4 (by decide) (by decide) (by decide) (by decide) (by decide) (by decide)
/-- `main_arg5` ends as launched. -/
theorem W6_main_arg5 (c : Dev nD) : W6 m c (Proc.devRef .tc main_arg5) = m ((c : Thread nD τ).loc main_arg5) :=
  W6_untouched m c main_arg5 (by decide) (by decide) (by decide) (by decide) (by decide) (by decide)

/-! ### The results -/

/-- The logits: region 1's fourth array, which the final sums do not write. -/
theorem W6_logits (c : Dev nD) : W6 m c (Proc.devRef .tc main_v6_0) = (dat1 (V4 m) c).arrAt 3 cfg1.N :=
  (StableHlo.after_of_writes_sub hostOps2 _ hostOps2_writes (by decide)).trans (W5_arr m c 3)

/-- The loss: what the final sums and the quotient leave in `main_v10`, computed from region 1's exit contents. -/
theorem W6_loss (c : Dev nD) :
    W6 m c (Proc.devRef .tc main_v10) = StableHlo.after hostOps2 (W5 m c) (Proc.devRef .tc main_v10) := rfl

/-! ## The frame claim's post -/

/-- Every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_of m ρ fun s h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c)⟩

end Cert.Kernel.Whole

end
-- ==== Proof.KI.LayersDefs.lean ====
/-
  Region 0 of the idealized kernel (the four transformer layers; grid (8, 4): a batch row b, then the layer l,
  the layer axis innermost), stated over the skeleton's payloads.

  At grid point t = 4 b + l the body holds the batch row's embedding block, layer l's value and feed-forward
  weights, and a scratch s carried from the point before. Where l = 0 the scratch is first overwritten with
  the embedding block. Then the scratch becomes  s · wmᵀ + (row 1 of s · wvᵀ, repeated down the rows)  — one
  layer —, and where l = 3 the output block is the scratch narrowed to bf16. `accAt` is the scratch after
  each point, by recursion on the point.
-/
import proofs.«401600_j86689619903517_2_alg».proof.Proof.Gen.KernelIdeal.Skeleton
import proofs.«401600_j86689619903517_2_alg».proof.Proof.Gen.KernelIdeal.Launch
import proofs.«401600_j86689619903517_2_alg».proof.Proof.Gen.KernelIdeal.Points
import Idealize.ShloMosaic.Lib.Pipeline.FrameBody

noncomputable section

namespace Cert.KernelIdeal.Layers

open Idealize.ShloMosaic Idealize.ShloMosaic.TcCoe Idealize.SL.Sem
open Cert.KernelIdeal Cert.KernelIdeal.Gen

variable {F : FTy → Type} [FloatOps F]
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- One layer on the scratch: the feed-forward product, plus row 1 of the value product on every row. -/
def step (s : Vec F S1024x1024 .f32) (wv wm : Vec F S1x1024x1024 .bf16) : Vec F S1024x1024 .f32 :=
  k0_pay4 s wv (k0_pay3 s wm)

/-- The scratch after the body at position `n`: reset from the embedding block where the layer index is 0,
    else continued from the point before. -/
def accAt (c : Dev nD) : (n : ℕ) → n < cfg0.N → Vec F S1024x1024 .f32
  | 0, hn => step (k0_pay1 (iblk0 V c 0 ⟨0, hn⟩)) (iblk0 V c 1 ⟨0, hn⟩) (iblk0 V c 2 ⟨0, hn⟩)
  | n + 1, hn =>
    if (n + 1) % 4 = 0 then
      step (k0_pay1 (iblk0 V c 0 ⟨n + 1, hn⟩)) (iblk0 V c 1 ⟨n + 1, hn⟩) (iblk0 V c 2 ⟨n + 1, hn⟩)
    else
      step (accAt c n (Nat.lt_of_succ_lt hn)) (iblk0 V c 1 ⟨n + 1, hn⟩) (iblk0 V c 2 ⟨n + 1, hn⟩)

/-- At a point whose layer index is 0 the scratch restarts from the embedding block. -/
theorem accAt_reset (c : Dev nD) (t : Fin cfg0.N) (h : t.val % 4 = 0) :
    accAt V c t.val t.isLt = step (k0_pay1 (iblk0 V c 0 t)) (iblk0 V c 1 t) (iblk0 V c 2 t) := by
  obtain ⟨n, hn⟩ := t
  cases n with
  | zero => rfl
  | succ n => exact if_pos h

/-- At any other point it continues from what the point before left. -/
theorem accAt_step (c : Dev nD) (t : Fin cfg0.N) (h : ¬ t.val % 4 = 0) :
    accAt V c t.val t.isLt
      = step (accAt V c (t.val - 1) (Nat.lt_of_le_of_lt (Nat.sub_le _ _) t.isLt)) (iblk0 V c 1 t) (iblk0 V c 2 t) := by
  obtain ⟨n, hn⟩ := t
  cases n with
  | zero => exact absurd (Nat.zero_mod _) h
  | succ n => exact if_neg h

/-- What the output block holds after a point whose layer index is 3: the scratch narrowed to bf16. -/
def outAt (c : Dev nD) (t : Fin cfg0.N) : Vec F S1x1024x1024 .bf16 := k0_pay5 (accAt V c t.val t.isLt)

end Cert.KernelIdeal.Layers

end
-- ==== Proof.KI.LayersFrame.lean ====
/-
  Region 0's proof data and body obligation: at every grid point the layer body, run on the blocks the
  pipeline staged and on the scratch as the point before left it, ends with the scratch at `accAt` and, where
  the layer index is 3, the output block at `outAt`; elsewhere the output block is left untouched.
-/
import proofs.«401600_j86689619903517_2_alg».proof.Proof.KI.LayersDefs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions of the body, in closed form over the grid -/

/-- The layer index is 0: the condition of the body's first branch, as the body computes it from the grid
    coordinates. -/
abbrev isFirst (i : grid0.Coords) : Prop :=
  (Scalar.cmpi .ne (Scalar.extui (Scalar.cmpi .eq (BitVec.ofNat 32 (i 1).val) 0#32)) 0#32) = 1#1

/-- It holds exactly at the points 4 b. -/
theorem isFirst_iff : ∀ t : Fin cfg0.N, isFirst (grid0.coords t) ↔ t.val % 4 = 0 :=
  (by decide +kernel : ∀ t : Fin grid0.N, isFirst (grid0.coords t) ↔ t.val % 4 = 0)

/-- The layer index is 3: the condition of the body's last branch. -/
abbrev isLast (i : grid0.Coords) : Prop := k0_cond2 i = 1#1

/-- It holds exactly at the points 4 b + 3. -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live_x : ∀ t : Fin cfg0.N, cfg0.idle 0 (grid0.coords t) = false := by decide +kernel
theorem live_wv : ∀ t : Fin cfg0.N, cfg0.idle 1 (grid0.coords t) = false := by decide +kernel
theorem live_wm : ∀ t : Fin cfg0.N, cfg0.idle 2 (grid0.coords t) = false := by decide +kernel
/-- Off the last layer the output window is idle, -/
theorem idle_out : ∀ t : Fin cfg0.N, ¬isLast (grid0.coords t) → cfg0.idle 3 (grid0.coords t) = true := by decide +kernel
/-- and its block is not written back there; -/
theorem noFlush_out : ∀ t : Fin cfg0.N, ¬isLast (grid0.coords t) → (cfg0.win 3).flush t = false := by decide +kernel
/-- at the last layer it is live. -/
theorem live_out : ∀ t : Fin cfg0.N, isLast (grid0.coords t) → cfg0.idle 3 (grid0.coords t) = false := by decide +kernel

/-! ## The region's invariant -/

/-- The scratch the body carries from point to point, as a memref: the whole of its buffer. -/
abbrev scr : Memref sig .tc .vmem S1024x1024 .f32 := Memref.whole cc0_scratch0

/-- A scoped buffer of core `c`, whole, at some contents. -/
abbrev someAt (c : Dev nD) (b : Ref sig .tc) : sProp 𝕄 :=
  iprop(∃ f : Buf (Elt F) ((c : Thread nD τ).loc b), ((c : Thread nD τ).loc b) ↦{fullShare} f)

/-- The fourteen scoped buffers of the core that belong to the other region (its staging buffers and its three
    scratch columns): this region never touches them, each is at some contents throughout. -/
abbrev others (c : Dev nD) : sProp 𝕄 :=
  iprop(someAt (F := F) c cc1_stg0_0 ∗ someAt (F := F) c cc1_stg0_1 ∗ someAt (F := F) c cc1_stg1_0 ∗ someAt (F := F) c cc1_stg2_0
    ∗ someAt (F := F) c cc1_stg2_1 ∗ someAt (F := F) c cc1_stg3_0 ∗ someAt (F := F) c cc1_stg3_1 ∗ someAt (F := F) c cc1_stg4_0
    ∗ someAt (F := F) c cc1_stg4_1 ∗ someAt (F := F) c cc1_stg5_0 ∗ someAt (F := F) c cc1_stg5_1 ∗ someAt (F := F) c cc1_scratch0
    ∗ someAt (F := F) c cc1_scratch1 ∗ someAt (F := F) c cc1_scratch2)

/-- What the launch hands the region, with the scratch as a memref owned at some contents. -/
theorem PhiA_eq (c : Dev nD) :
    (Pipeline.ΦA spec0 c : sProp 𝕄)
      = iprop(iprop((∃ d, owns (c : Thread nD τ) scr fullShare d) ∗ others (F := F) c) ∗ (∃ r, prngReg c r)) := by
  unfold Pipeline.ΦA; rw [scopedRest0_eq]; simp only [scr, owns_whole]; try rfl

variable (V : (c : Dev nD) → (b : Ref sig .tc) → Buf (Elt F) ((c : Thread nD τ).loc b))

/-- The region's invariant before position `n`: before the first point every scoped buffer no window stages at
    anything; afterwards the scratch at what the point before left (`accAt`), the others at anything. -/
def PhiS (c : Dev nD) : (n : ℕ) → n ≤ cfg0.N → sProp 𝕄
  | 0, _ => Pipeline.ΦA spec0 c
  | n + 1, hn => iprop(iprop(owns (c : Thread nD τ) scr fullShare (accAt V c n hn) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn
      = iprop(iprop(owns (c : Thread nD τ) scr fullShare (accAt V c n hn) ∗ others (F := F) c) ∗ (∃ r, prngReg c r)) := rfl

theorem PhiS_pos (c : Dev nD) (n : ℕ) (h : n ≤ cfg0.N) (hz : n ≠ 0) :
    PhiS V c n h
      = iprop(iprop(owns (c : Thread nD τ) scr fullShare (accAt V c (n - 1) (by omega)) ∗ others (F := F) c) ∗ (∃ r, prngReg c r)) := by
  cases n with
  | zero => exact absurd rfl hz
  | succ n => rfl

/-- The proof data of region 0 on core `c`, over the contents `V` the region is entered with. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt V c t := by dsimp only [dat0]

/-! ## What the body finds in the three input windows -/

/-- The invariant at a point's start, restated at the point's position. -/
theorem Phi_castSucc (c : Dev nD) (t : Fin cfg0.N) :
    (dat0 V c).Φ t.castSucc = PhiS V c t.val (Nat.le_of_lt t.isLt) := by
  dsimp only [dat0]; simp only [Fin.coe_castSucc]

/-- The embedding block's buffer holds the batch row's block at every point of the row, fetched there or not
    (it is fetched at the row's first point only: the block index does not move along a row). -/
theorem before_x (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The value weights' buffer holds layer `l`'s block. -/
theorem before_wv (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The feed-forward weights' buffer holds layer `l`'s block. -/
theorem before_wm (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body, case by case

The body loads and stores whole blocks only, each through the rectangle at zero offsets of the block's own
extents; so a load reads the buffer's contents and the last store into a buffer leaves its payload. -/

theorem zeros2 : (![0, 0] : Fin S1024x1024.rank → ℕ) = fun _ => 0 := by funext a; fin_cases a <;> rfl
theorem zeros3 : (![0, 0, 0] : Fin S1x1024x1024.rank → ℕ) = fun _ => 0 := by funext a; fin_cases a <;> rfl

set_option maxHeartbeats 1000000 in
/-- A point whose layer index is 0: from the embedding block `x0`, the weights' blocks `x1`, `x2` and the scratch
    at anything, the body runs to the scratch at one layer applied to the embedding block (widened to the
    scratch's shape); the three input buffers are as they were, and it touches nothing else. -/
theorem runFirst (c : Dev nD) (i : grid0.Coords)
    (arg2 : Memref sig .tc .vmem S1x1024x1024 .f32) (harg2 : arg2.IsWhole)
    (arg3 : Memref sig .tc .vmem S1x1024x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1024x1024 .f32) (harg6 : arg6.IsWhole)
    (hc0 : isFirst i) (hc1 : ¬isLast i)
    (x0 : Vec F S1x1024x1024 .f32) (x1 x2 : Vec F S1x1024x1024 .bf16)
    (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg6 fullShare d)
        ∗ (iprop(owns (c : Thread nD τ) arg2 fullShare x0 ∗ owns (c : Thread nD τ) arg3 fullShare x1
            ∗ owns (c : Thread nD τ) arg4 fullShare x2
            ∗ owns (c : Thread nD τ) arg6 fullShare (step (k0_pay1 x0) x1 x2)) -∗ K ⟨⟩))
      ⊢ wp frame (wpE (defs₀ (F := F)) Variants.none c none) E
          (cc0__layer_kernel i arg2 harg2 arg3 harg3 arg4 harg4 arg5 harg5 arg6 harg6) K := by
  simp only [cc0__layer_kernel_eq_skeleton]; unfold cc0__layer_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_words
  rw [View.read_writes_eq_canon _ _ _ (fun y => ⟨_, List.mem_cons_self .., View.mem_set_unit_zero zeros2 inb_S1024x1024_S1024x1024_0_0 y⟩),
    View.canon_cons_unit_zero zeros2]
  simp only [View.readAt_eq_ld, harg2.read_unread, harg3.read_unread, harg4.read_unread, harg6.read_unread,
    View.ld_unit_zero (S := S1024x1024) zeros2, View.ld_unit_zero (S := S1x1024x1024) zeros3,
    View.readCov_unit_zero (S := S1024x1024) _ zeros2, View.readCov_cons_toLoadRect]
  rfl

set_option maxHeartbeats 1000000 in
/-- A point whose layer index is neither 0 nor 3: from the weights' blocks `x1`, `x2` and the scratch at `xs` the
    body runs to the scratch at one layer applied to `xs`; it touches nothing else. -/
theorem runMid (c : Dev nD) (i : grid0.Coords)
    (arg2 : Memref sig .tc .vmem S1x1024x1024 .f32) (harg2 : arg2.IsWhole)
    (arg3 : Memref sig .tc .vmem S1x1024x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1024x1024 .f32) (harg6 : arg6.IsWhole)
    (hc0 : ¬isFirst i) (hc1 : ¬isLast i)
    (x1 x2 : Vec F S1x1024x1024 .bf16) (xs : Vec F S1024x1024 .f32)
    (E : Set ℕ) (K : PUnit → sProp 𝕄) :
    iprop(owns (c : Thread nD τ) arg3 fullShare x1 ∗ owns (c : Thread nD τ) arg4 fullShare x2
        ∗ owns (c : Thread nD τ) arg6 fullShare xs
        ∗ (iprop(owns (c : Thread nD τ) arg3 fullShare x1 ∗ owns (c : Thread nD τ) arg4 fullShare x2
            ∗ owns (c : Thread nD τ) arg6 fullShare (step xs x1 x2)) -∗ K ⟨⟩))
      ⊢ wp frame (wpE (defs₀ (F := F)) Variants.none c none) E
          (cc0__layer_kernel i arg2 harg2 arg3 harg3 arg4 harg4 arg5 harg5 arg6 harg6) K := by
  simp only [cc0__layer_kernel_eq_skeleton]; unfold cc0__layer_kernel_skel
  unfold owns
  iintro ⟨⟨%f1, %hf1, H1⟩, ⟨%f2, %hf2, H2⟩, ⟨%fs, %hfs, HS⟩, Hk⟩
  obtain rfl := harg3.eq_unread hf1; obtain rfl := harg4.eq_unread hf2; obtain rfl := harg6.eq_unread hfs
  sl_exec (disch := first | exact hc0 | exact hc1)
  sl_step
  iapply Hk
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_words
  rw [View.read_writes_eq_canon _ _ _ (fun y => ⟨_, List.mem_cons_self .., View.mem_set_unit_zero zeros2 inb_S1024x1024_S1024x1024_0_0 y⟩),
    View.canon_cons_unit_zero zeros2]
  simp only [View.readAt_eq_ld, harg2.read_unread, harg3.read_unread, harg4.read_unread, harg6.read_unread,
    View.ld_unit_zero (S := S1024x1024) zeros2, View.ld_unit_zero (S := S1x1024x1024) zeros3,
    View.readCov_unit_zero (S := S1024x1024) _ zeros2, View.readCov_cons_toLoadRect]
  rfl

set_option maxHeartbeats 1000000 in
/-- A point whose layer index is 3: as the middle case, and then the output block, whatever it held, is stored
    whole with the new scratch narrowed to bf16. -/
theorem runLast (c : Dev nD) (i : grid0.Coords)
    (arg2 : Memref sig .tc .vmem S1x1024x1024 .f32) (harg2 : arg2.IsWhole)
    (arg3 : Memref sig .tc .vmem S1x1024x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1024x1024 .f32) (harg6 : arg6.IsWhole)
    (hc0 : ¬isFirst i) (hc1 : isLast i)
    (x1 x2 : Vec F S1x1024x1024 .bf16) (xs : Vec F S1024x1024 .f32)
    (E : Set ℕ) (K : PUnit → sProp 𝕄) :
    iprop(owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg3 fullShare x1 ∗ owns (c : Thread nD τ) arg4 fullShare x2
            ∗ owns (c : Thread nD τ) arg5 fullShare (k0_pay5 (step xs x1 x2))
            ∗ owns (c : Thread nD τ) arg6 fullShare (step xs x1 x2)) -∗ K ⟨⟩))
      ⊢ wp frame (wpE (defs₀ (F := F)) Variants.none c none) E
          (cc0__layer_kernel i arg2 harg2 arg3 harg3 arg4 harg4 arg5 harg5 arg6 harg6) K := by
  simp only [cc0__layer_kernel_eq_skeleton]; unfold cc0__layer_kernel_skel
  unfold owns
  iintro ⟨⟨%f1, %hf1, H1⟩, ⟨%f2, %hf2, H2⟩, ⟨%d3, %f3, -, H3⟩, ⟨%fs, %hfs, HS⟩, Hk⟩
  obtain rfl := harg3.eq_unread hf1; obtain rfl := harg4.eq_unread hf2; obtain rfl := harg6.eq_unread hfs
  sl_exec (disch := first | exact hc0 | exact hc1)
  sl_step
  iapply Hk
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (fun y => ⟨_, List.mem_cons_self .., View.mem_set_unit_zero zeros3 inb_S1x1024x1024_S1x1024x1024_0_0_0 y⟩),
      View.canon_cons_unit_zero zeros3]
    simp only [View.readAt_eq_ld, harg2.read_unread, harg3.read_unread, harg4.read_unread, harg6.read_unread,
      View.ld_unit_zero (S := S1024x1024) zeros2, View.ld_unit_zero (S := S1x1024x1024) zeros3,
      View.readCov_unit_zero (S := S1024x1024) _ zeros2, View.readCov_cons_toLoadRect]
    rfl
  iexists _; isplitr
  swap; · iexact HS
  ipureintro
  sl_unfold_words
  rw [View.read_writes_eq_canon _ _ _ (fun y => ⟨_, List.mem_cons_self .., View.mem_set_unit_zero zeros2 inb_S1024x1024_S1024x1024_0_0 y⟩),
    View.canon_cons_unit_zero zeros2]
  simp only [View.readAt_eq_ld, harg2.read_unread, harg3.read_unread, harg4.read_unread, harg6.read_unread,
    View.ld_unit_zero (S := S1024x1024) zeros2, View.ld_unit_zero (S := S1x1024x1024) zeros3,
    View.readCov_unit_zero (S := S1024x1024) _ zeros2, View.readCov_cons_toLoadRect]
  rfl

/-! ## The body obligation, at a generic point -/

/-- Each window's current staging memref at point `t`, as the pipeline passes it to the body, and its wholeness. -/
abbrev sx (t : Fin cfg0.N) : Memref sig .tc .vmem S1x1024x1024 .f32 := win0_0.stage (cfg0.slots t 0)
abbrev hsx (t : Fin cfg0.N) : (sx t).IsWhole := hstage0_0 ((cfg0.slots t 0).cast nbuf0_0)
abbrev swv (t : Fin cfg0.N) : Memref sig .tc .vmem S1x1024x1024 .bf16 := win0_1.stage (cfg0.slots t 1)
abbrev hswv (t : Fin cfg0.N) : (swv t).IsWhole := hstage0_1 ((cfg0.slots t 1).cast nbuf0_1)
abbrev swm (t : Fin cfg0.N) : Memref sig .tc .vmem S1x1024x1024 .bf16 := win0_2.stage (cfg0.slots t 2)
abbrev hswm (t : Fin cfg0.N) : (swm t).IsWhole := hstage0_2 ((cfg0.slots t 2).cast nbuf0_2)
abbrev sout (t : Fin cfg0.N) : Memref sig .tc .vmem S1x1024x1024 .bf16 := win0_3.stage (cfg0.slots t 3)
abbrev hsout (t : Fin cfg0.N) : (sout t).IsWhole := hstage0_3 ((cfg0.slots t 3).cast nbuf0_3)

/-- What the body is called with at point `t`: the invariant, what the core owes, and each window's current
    buffer at what it then holds, -/
def bodyPre (c : Dev nD) (t : Fin cfg0.N) : sProp 𝕄 :=
  iprop((dat0 V c).Φ t.castSucc ∗ (dat0 V c).owesAt () t.castSucc
    ∗ (∃ d, owns (c : Thread nD τ) (sx t) fullShare ((dat0 V c).before 0 t d))
    ∗ (∃ d, owns (c : Thread nD τ) (swv t) fullShare ((dat0 V c).before 1 t d))
    ∗ (∃ d, owns (c : Thread nD τ) (swm t) fullShare ((dat0 V c).before 2 t d))
    ∗ (∃ d, owns (c : Thread nD τ) (sout t) fullShare ((dat0 V c).before 3 t d)))

/-- and what it returns. -/
def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t
    ∗ (dat0 V c).leavesExact 2 t ∗ (dat0 V c).leavesExact 3 t)

set_option maxHeartbeats 4800000 in
/-- The body at any point. The three input buffers hold their blocks (`before_x`, `before_wv`, `before_wm`) and
    are left as they were. The layer index decides the case. At layer 0 the invariant hands over the scratch at
    anything (at the very first point as the launch left it, later at the previous row's last value, which is
    forgotten) and takes it back at one layer applied to the embedding block: `accAt_reset`. At the other layers
    it hands the scratch over at what the point before left and takes it back one layer further: `accAt_step`.
    The output buffer is handed back untouched off layer 3, where the window is idle and not written back; at
    layer 3 it is taken at anything and returned at the new scratch narrowed to bf16 (`outAt`). The fourteen
    buffers of the other region and the generator register pass through; the core owes nothing throughout. -/
theorem sound_body (c : Dev nD) (t : Fin cfg0.N) :
    bodyPre V c t ⊢ wp frame (wpE (defs₀ (F := F)) Variants.none c none) Set.univ (bodyAt0 t)
      (fun _ => bodyPost V c t) := by
  unfold bodyPre bodyPost bodyAt0
  simp only [before_x, before_wv, before_wm]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (sx t) fullShare ((dat0 V c).after 0 t) from by
    unfold Dat.leavesExact; rw [live_x t], after0_0]
  rw [show (dat0 V c).leavesExact 1 t = owns (c : Thread nD τ) (swv t) fullShare ((dat0 V c).after 1 t) from by
    unfold Dat.leavesExact; rw [live_wv t], after0_1]
  rw [show (dat0 V c).leavesExact 2 t = owns (c : Thread nD τ) (swm t) fullShare ((dat0 V c).after 2 t) from by
    unfold Dat.leavesExact; rw [live_wm t], after0_2]
  by_cases h0 : t.val % 4 = 0
  · have hl : ¬isLast (grid0.coords t) := fun h => by have := (isLast_iff t).mp h; omega
    rw [Dat.leavesExact_idle (dat0 V c) 3 t (idle_out t hl) (noFlush_out t hl)]
    rw [accAt_reset V c t h0]
    by_cases hz : t.val = 0
    · rw [Phi_castSucc V c t, PhiS_zero V c _ _ hz, PhiA_eq]
      iintro ⟨⟨⟨HS, Hoth⟩, Hg⟩, Ho, ⟨%d0, H0⟩, ⟨%d1, H1⟩, ⟨%d2, H2⟩, ⟨%d3, H3⟩⟩
      iapply (runFirst c (grid0.coords t) _ _ _ _ _ _ _ _ _ _ ((isFirst_iff t).mpr h0) hl
        (iblk0 V c 0 t) (iblk0 V c 1 t) (iblk0 V c 2 t) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
    · rw [Phi_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply (runFirst c (grid0.coords t) _ _ _ _ _ _ _ _ _ _ ((isFirst_iff t).mpr h0) hl
        (iblk0 V c 0 t) (iblk0 V c 1 t) (iblk0 V c 2 t) Set.univ _)
      isplitl [H0]; · iexact H0
      isplitl [H1]; · iexact H1
      isplitl [H2]; · iexact H2
      isplitl [HS]; · iexists _; iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
  · have hf : ¬isFirst (grid0.coords t) := fun h => h0 ((isFirst_iff t).mp h)
    have hz : t.val ≠ 0 := fun h => h0 (by rw [h])
    rw [accAt_step V c t h0]
    rw [Phi_castSucc V c t, PhiS_pos V c _ _ hz]
    by_cases h3 : t.val % 4 = 3
    · have hl : isLast (grid0.coords t) := (isLast_iff t).mpr h3
      rw [show (dat0 V c).leavesExact 3 t = owns (c : Thread nD τ) (sout t) fullShare ((dat0 V c).after 3 t) from by
        unfold Dat.leavesExact; rw [live_out t hl], after0_3]
      unfold outAt
      rw [accAt_step V c t h0]
      iintro ⟨⟨⟨HS, Hoth⟩, Hg⟩, Ho, ⟨%d0, H0⟩, ⟨%d1, H1⟩, ⟨%d2, H2⟩, ⟨%d3, H3⟩⟩
      iapply (runLast c (grid0.coords t) _ _ _ _ _ _ _ _ _ _ hf hl (iblk0 V c 1 t) (iblk0 V c 2 t)
        (accAt V c (t.val - 1) (Nat.lt_of_le_of_lt (Nat.sub_le _ _) t.isLt)) Set.univ _)
      isplitl [H1]; · iexact H1
      isplitl [H2]; · iexact H2
      isplitl [H3]; · iexists _; iexact H3
      isplitl [HS]; · iexact HS
      iintro ⟨H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · have hl : ¬isLast (grid0.coords t) := fun h => h3 ((isLast_iff t).mp h)
      rw [Dat.leavesExact_idle (dat0 V c) 3 t (idle_out t hl) (noFlush_out t hl)]
      iintro ⟨⟨⟨HS, Hoth⟩, Hg⟩, Ho, ⟨%d0, H0⟩, ⟨%d1, H1⟩, ⟨%d2, H2⟩, ⟨%d3, H3⟩⟩
      iapply (runMid c (grid0.coords t) _ _ _ _ _ _ _ _ _ _ hf hl (iblk0 V c 1 t) (iblk0 V c 2 t)
        (accAt V c (t.val - 1) (Nat.lt_of_le_of_lt (Nat.sub_le _ _) t.isLt)) Set.univ _)
      isplitl [H1]; · iexact H1
      isplitl [H2]; · iexact H2
      isplitl [HS]; · iexact HS
      iintro ⟨H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) :
    BodyObligation (dat0 (F := F) V c) (defs₀ (F := F)) Variants.none () Set.univ := fun t => by
  rw [bigSep_W0, bigSep_W0]
  exact sound_body V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]

/-- After any point the invariant entails what the launch handed over: what the scratch holds is forgotten. -/
theorem Phi_forget (c : Dev nD) (t : Fin (cfg0.N + 1)) (ht : t.val ≠ 0) :
    (dat0 V c).Φ t ⊢ (Pipeline.ΦA spec0 c : sProp 𝕄) := by
  rw [show (dat0 V c).Φ t = PhiS V c t.val (Nat.le_of_lt_succ t.isLt) from rfl, PhiS_pos V c _ _ ht, PhiA_eq]
  iintro ⟨⟨HS, Ho⟩, Hg⟩
  isplitl [HS Ho]
  · isplitl [HS]
    · iexists _; iexact HS
    iexact Ho
  iexact Hg

/-- After the last point the invariant gives it back, the scratch's contents forgotten. -/
theorem hout0 (c : Dev nD) : (dat0 V c).Φ (Fin.last cfg0.N) ⊢ (Pipeline.ΦA spec0 c : sProp 𝕄) :=
  Phi_forget V c _ (by rw [Fin.val_last]; have : cfg0.N = 32 := N_0; omega)

end Cert.KernelIdeal.Layers

end
-- ==== Proof.KI.HeadDefs.lean ====
/-
  Region 1 of the idealized kernel (the vocabulary projection with an online soft-max; grid (8, 32): a batch
  row b, then a block v of 256 vocabulary columns, the block axis innermost), over the skeleton's payloads.

  At grid point t = 32 b + v the body holds the batch row's hidden block x, the whole projection weight (of
  which it reads rows 256 v … 256 v + 255), the row's targets, and three scratch columns carried from the
  point before: the running maximum m, the running sum l of exponentials taken relative to m, and the
  accumulated target logit a. Where v = 0 they are first reset (m to a large negative constant, l and a to 0).
  The block of logits  x · wᵀ  is stored; then  a  gains the logit at the target column where that column lies
  in this block, m becomes  max m (row maximum of the block),  and  l  becomes
  exp (m_old − m_new) · l + Σ exp (logit − m_new).  Where v = 31 the row's masked negative log-likelihood
  (m + log l − a) · [target ≠ 0]  and the mask itself are stored.  `scrAt` is the three columns after each
  point, by recursion on the point.
-/
import proofs.«401600_j86689619903517_2_alg».proof.Proof.Gen.KernelIdeal.Skeleton
import proofs.«401600_j86689619903517_2_alg».proof.Proof.Gen.KernelIdeal.Launch
import proofs.«401600_j86689619903517_2_alg».proof.Proof.Gen.KernelIdeal.Points
import Idealize.ShloMosaic.Lib.Pipeline.FrameBody

noncomputable section

namespace Cert.KernelIdeal.Head

open Idealize.ShloMosaic Idealize.ShloMosaic.TcCoe Idealize.SL.Sem
open Cert.KernelIdeal Cert.KernelIdeal.Gen

variable {F : FTy → Type} [FloatOps F]
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The 256 rows of the resident projection weight that the step at coordinates `i` multiplies. -/
def wrows (i : grid1.Coords) (w : Vec F S8192x1024 .bf16) : Vec F S256x1024 .bf16 :=
  View.ld w (Rect.unit (s := S8192x1024) (k1_off1 i) S256x1024.size (k1_off1_inb i))

/-- The three carried columns: running maximum, running sum, accumulated target logit. -/
abbrev Cols (F : FTy → Type) : Type := Vec F S1024x1 .f32 × Vec F S1024x1 .f32 × Vec F S1024x1 .f32

/-- Their reset values. -/
def cols0 : Cols F := (k1_pay7 (F := F), k1_pay8 (F := F), k1_pay9 (F := F))

/-- One step of the online soft-max on the carried columns. -/
def stepH (i : grid1.Coords) (x : Vec F S1x1024x1024 .bf16) (w8 : Vec F S256x1024 .bf16) (tg : Vec F S1x1024x1 .i32)
    (s : Cols F) : Cols F :=
  (k1_pay3 (k1_pay13 x w8) s.1,
   k1_pay2 (k1_pay10 x w8) (k1_pay13 x w8) s.1 s.1 s.2.1,
   k1_pay12 i x w8 tg s.2.2)

/-- The step at point `t` over its blocks. -/
def stepAt (c : Dev nD) (t : Fin cfg1.N) (s : Cols F) : Cols F :=
  stepH (grid1.coords t) (iblk1 V c 0 t) (wrows (grid1.coords t) (iblk1 V c 1 t)) (iblk1 V c 2 t) s

/-- The carried columns after the body at position `n`: reset where the block index is 0, else continued. -/
def scrAt (c : Dev nD) : (n : ℕ) → n < cfg1.N → Cols F
  | 0, hn => stepAt V c ⟨0, hn⟩ cols0
  | n + 1, hn =>
    if (n + 1) % 32 = 0 then stepAt V c ⟨n + 1, hn⟩ cols0
    else stepAt V c ⟨n + 1, hn⟩ (scrAt c n (Nat.lt_of_succ_lt hn))

theorem scrAt_reset (c : Dev nD) (t : Fin cfg1.N) (h : t.val % 32 = 0) :
    scrAt V c t.val t.isLt = stepAt V c t cols0 := by
  obtain ⟨n, hn⟩ := t
  cases n with
  | zero => rfl
  | succ n => exact if_pos h

theorem scrAt_step (c : Dev nD) (t : Fin cfg1.N) (h : ¬ t.val % 32 = 0) :
    scrAt V c t.val t.isLt
      = stepAt V c t (scrAt V c (t.val - 1) (Nat.lt_of_le_of_lt (Nat.sub_le _ _) t.isLt)) := by
  obtain ⟨n, hn⟩ := t
  cases n with
  | zero => exact absurd (Nat.zero_mod _) h
  | succ n => exact if_neg h

/-- The block of logits the body stores at point `t`. -/
def logitsAt (c : Dev nD) (t : Fin cfg1.N) : Vec F S1x1024x256 .f32 :=
  k1_pay11 (iblk1 V c 0 t) (wrows (grid1.coords t) (iblk1 V c 1 t))

/-- The masked negative log-likelihood column stored after a point whose block index is 31. -/
def nllAt (c : Dev nD) (t : Fin cfg1.N) : Vec F S1x1024x1 .f32 :=
  k1_pay5 (scrAt V c t.val t.isLt).1 (scrAt V c t.val t.isLt).2.1 (scrAt V c t.val t.isLt).2.2 (iblk1 V c 2 t)

/-- The mask column stored there. -/
def maskAt (c : Dev nD) (t : Fin cfg1.N) : Vec F S1x1024x1 .f32 := k1_pay6 (iblk1 V c 2 t)

end Cert.KernelIdeal.Head

end
-- ==== Proof.KI.HeadFrame.lean ====
/-
  Region 1's proof data and body obligation: at every grid point the projection body, run on the blocks the
  pipeline staged and on the three carried columns as the point before left them, stores the block of logits
  (`logitsAt`), ends with the columns at `scrAt` and, where the block index is 31, the two per-row result
  columns at `nllAt` and `maskAt`; elsewhere those two blocks are left untouched.
-/
import proofs.«401600_j86689619903517_2_alg».proof.Proof.KI.HeadDefs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two branch conditions, in closed form over the grid -/

/-- The reset branch's condition (the scalar chain on the block coordinate, as the printed part spells it). -/
abbrev cond1_0 (i : grid1.Coords) : Prop :=
  (Scalar.cmpi .ne (Scalar.extui (Scalar.cmpi .eq (BitVec.ofNat 32 (i 1).val) 0#32)) 0#32) = 1#1
/-- It holds exactly where the block index is 0. -/
theorem hcond1_0 : ∀ t : Fin cfg1.N, cond1_0 (grid1.coords t) ↔ t.val % 32 = 0 :=
  (by decide +kernel : ∀ t : Fin grid1.N, cond1_0 (grid1.coords t) ↔ t.val % 32 = 0)

/-- The final branch's condition. -/
abbrev cond1_1 (i : grid1.Coords) : Prop := k1_cond2 i = 1#1
/-- It holds exactly where the block index is 31. -/
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are live and where idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Off the last block of a row the two per-row result columns are idle and are not written back; -/
theorem idleAt1_4 : ∀ t : Fin cfg1.N, ¬cond1_1 (grid1.coords t) → cfg1.idle 4 (grid1.coords t) = true := by decide +kernel
theorem idleAt1_5 : ∀ t : Fin cfg1.N, ¬cond1_1 (grid1.coords t) → cfg1.idle 5 (grid1.coords t) = true := by decide +kernel
theorem noFlush1_4 : ∀ t : Fin cfg1.N, ¬cond1_1 (grid1.coords t) → (cfg1.win 4).flush t = false := by decide +kernel
theorem noFlush1_5 : ∀ t : Fin cfg1.N, ¬cond1_1 (grid1.coords t) → (cfg1.win 5).flush t = false := by decide +kernel
/-- on it they are live. -/
theorem liveAt1_4 : ∀ t : Fin cfg1.N, cond1_1 (grid1.coords t) → cfg1.idle 4 (grid1.coords t) = false := by decide +kernel
theorem liveAt1_5 : ∀ t : Fin cfg1.N, cond1_1 (grid1.coords t) → cfg1.idle 5 (grid1.coords t) = false := by decide +kernel

/-! ## The memrefs the body is called with -/

/-- Each window's current staging memref at point `t`, spelled as the pipeline passes it, and its wholeness. -/
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x1 .f32 := win1_5.stage (cfg1.slots t 5)
abbrev hs1_5 (t : Fin cfg1.N) : (ms1_5 t).IsWhole := hstage1_5 ((cfg1.slots t 5).cast nbuf1_5)
/-- The three carried columns, whole scoped buffers of the kernel's own: running maximum, running sum, target logit. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1 .f32 := Memref.whole cc1_scratch2

/-! ## The region's invariant -/

/-- The scoped buffers the body never touches (the first region's staging buffers and its scratch), each at some
    contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_scratch0), ((c : Thread nD τ).loc cc0_scratch0) ↦{fullShare} f))

/-- The invariant with the three carried columns at named contents `s`: the untouched buffers at anything, the columns
    owned whole at `s`, the generator register at some state. -/
def PhiAt (c : Dev nD) (s : Cols F) : sProp 𝕄 :=
  iprop(others (F := F) c
    ∗ owns (c : Thread nD τ) scM1_0 fullShare s.1
    ∗ owns (c : Thread nD τ) scM1_1 fullShare s.2.1
    ∗ owns (c : Thread nD τ) scM1_2 fullShare s.2.2
    ∗ (∃ r, prngReg c r))

/-- What the launch hands the region, with the three columns as memrefs owned at some contents. -/
theorem PhiA1_eq (c : Dev nD) :
    (Pipeline.ΦA spec1 c : sProp 𝕄)
      = iprop(others (F := F) c
          ∗ (∃ d, owns (c : Thread nD τ) scM1_0 fullShare d)
          ∗ (∃ d, owns (c : Thread nD τ) scM1_1 fullShare d)
          ∗ (∃ d, owns (c : Thread nD τ) scM1_2 fullShare d)
          ∗ (∃ r, prngReg c r)) := by
  unfold Pipeline.ΦA others; rw [scopedRest1_eq]; simp only [scM1_0, scM1_1, scM1_2, owns_whole]
  refine BI.equiv_iff.mp ⟨?_, ?_⟩
  · show (_ : sProp 𝕄) ⊢ _
    iintro ⟨⟨H1, H2, H3, H4, H5, H6, H7, H8, H9, S0, S1, S2⟩, Hg⟩
    isplitl [H1 H2 H3 H4 H5 H6 H7 H8 H9]
    · iframe
    iframe
  · show (_ : sProp 𝕄) ⊢ _
    iintro ⟨⟨H1, H2, H3, H4, H5, H6, H7, H8, H9⟩, S0, S1, S2, Hg⟩
    isplitr [Hg]
    · iframe
    iexact Hg

/-- The region's invariant before position `n`: before the first point every scoped buffer no window stages at
    anything; afterwards the three carried columns at what the point before left (`scrAt`), the others at anything. -/
def PhiS (c : Dev nD) : (n : ℕ) → n ≤ cfg1.N → sProp 𝕄
  | 0, _ => Pipeline.ΦA spec1 c
  | n + 1, hn => PhiAt c (scrAt V c n hn)

theorem PhiS_zero (c : Dev nD) (n : ℕ) (h : n ≤ cfg1.N) (hz : n = 0) : PhiS V c n h = Pipeline.ΦA spec1 c := by
  subst hz; rfl

/-- After point `n` (before point `n + 1`): the carried columns at that point's contents. -/
theorem PhiS_succ (c : Dev nD) (n : ℕ) (hn : n < cfg1.N) : PhiS V c (n + 1) hn = PhiAt c (scrAt V c n hn) := rfl

/-- Before a point that is not the first: the carried columns at what the point before left. -/
theorem PhiS_pos (c : Dev nD) (n : ℕ) (h : n ≤ cfg1.N) (hz : n ≠ 0) :
    PhiS V c n h = PhiAt c (scrAt V c (n - 1) (by omega)) := by
  cases n with
  | zero => exact absurd rfl hz
  | succ n => rfl

/-- The proof data of region 1 on core `c`, over the contents `V` the region is entered with. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => logitsAt V c t
    | ⟨4, _⟩ => nllAt V c t
    | ⟨5, _⟩ => maskAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = logitsAt V c t := by dsimp only [dat1]
theorem after1_4 (c : Dev nD) (t : Fin cfg1.N) : (dat1 V c).after 4 t = nllAt V c t := by dsimp only [dat1]
theorem after1_5 (c : Dev nD) (t : Fin cfg1.N) : (dat1 V c).after 5 t = maskAt V c t := by dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; simp only [Fin.coe_castSucc]

/-- Each input window's current staging buffer holds its block at every point, fetched there or not: unfetched, the
    block index has not moved since the fetch, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## Reading back what the body's loads and stores leave

Every load of the body but one reads a whole buffer through the unit rectangle at zero offsets, and every store
overwrites a whole buffer through it: such a load reads the contents, and after such a store — whatever was stored
before — the buffer reads the payload. The remaining load reads 256 rows of the resident weight. -/

theorem hz2 : (![0, 0] : Fin 2 → Nat) = fun _ => 0 := funext fun a => by fin_cases a <;> rfl
theorem hz3 : (![0, 0, 0] : Fin 3 → Nat) = fun _ => 0 := funext fun a => by fin_cases a <;> rfl

/-- A whole-shape load of a whole memref that reads `X` reads `X`. -/
theorem readAt_unread_zero {sp : Space} {S : Shape} {e : EltTy} {m : Memref sig .tc sp S e} (h : m.IsWhole)
    (X : S.Idx → Elt F e) {off : Fin S.rank → Nat} (hz : off = fun _ => 0) (inb : ∀ a, off a + S.size a ≤ S.size a) :
    m.view.readAt (Elt F) (Rect.unit off S.size inb).toLoadRect (h.unread X) = X := by
  rw [View.readAt_eq_ld, h.read_unread, View.ld_unit_zero hz]

/-- The load of the step's 256 weight rows. -/
theorem readAt_unread_rows {m : Memref sig .tc .vmem S8192x1024 .bf16} (h : m.IsWhole) (i : grid1.Coords)
    (w : Vec F S8192x1024 .bf16) :
    m.view.readAt (Elt F) (Rect.unit (s := S8192x1024) (k1_off1 i) S256x1024.size (k1_off1_inb i)).toLoadRect (h.unread w)
      = wrows i w := by
  rw [View.readAt_eq_ld, h.read_unread]; rfl

/-- After a whole-shape store, last of any list of stores, the buffer reads that store's payload. -/
theorem read_writes_head_zero {sp : Space} {S : Shape} {e : EltTy} (v : View sig .tc sp S e) (f : v.ty.Contents (Elt F))
    {off : Fin S.rank → Nat} (hz : off = fun _ => 0) (inb : ∀ a, off a + S.size a ≤ S.size a)
    (p : S.Idx → Elt F e) (L : List (View.Piece (Elt F) S e)) :
    v.read (Elt F) (v.writes (Elt F) f ((⟨Rect.unit off S.size inb, p⟩ : View.Piece (Elt F) S e) :: L)) = p := by
  rw [View.read_writes_eq_canon v f _ (fun y => ⟨_, List.mem_cons_self, View.mem_set_unit_zero hz inb y⟩),
    View.canon_cons_unit_zero hz]

/-- A whole-shape load after a whole-shape store reads the store's payload. -/
theorem readCov_head_zero {sp : Space} {S : Shape} {e : EltTy} (v : View sig .tc sp S e)
    {off : Fin S.rank → Nat} (hz : off = fun _ => 0) (inb : ∀ a, off a + S.size a ≤ S.size a)
    (p : S.Idx → Elt F e) (L : List (View.Piece (Elt F) S e)) :
    v.readCov ((⟨Rect.unit off S.size inb, p⟩ : View.Piece (Elt F) S e) :: L) (Rect.unit off S.size inb).toLoadRect = p :=
  View.readCov_cons_toLoadRect v (Rect.unit off S.size inb) p L

/-! ## The body's triple, case by case -/

set_option maxHeartbeats 1000000 in
/-- The body at the first block of a row (the reset branch taken, the final one not). On whole memrefs — the three
    inputs at their contents, the logits buffer and the three carried columns at anything, the two per-row result
    buffers at contents handed back untouched — it runs to the continuation holding the inputs as they were, the logits
    buffer at the block's logits, and the columns at one step from their reset values. -/
theorem run_first (c : Dev nD) (i : grid1.Coords)
    (arg2 : Memref sig .tc .vmem S1x1024x1024 .bf16) (harg2 : arg2.IsWhole)
    (arg3 : Memref sig .tc .vmem S8192x1024 .bf16) (harg3 : arg3.IsWhole)
    (arg4 : Memref sig .tc .vmem S1x1024x1 .i32) (harg4 : arg4.IsWhole)
    (arg5 : Memref sig .tc .vmem S1x1024x256 .f32) (harg5 : arg5.IsWhole)
    (arg6 : Memref sig .tc .vmem S1x1024x1 .f32) (harg6 : arg6.IsWhole)
    (arg7 : Memref sig .tc .vmem S1x1024x1 .f32) (harg7 : arg7.IsWhole)
    (arg8 : Memref sig .tc .vmem S1024x1 .f32) (harg8 : arg8.IsWhole)
    (arg9 : Memref sig .tc .vmem S1024x1 .f32) (harg9 : arg9.IsWhole)
    (arg10 : Memref sig .tc .vmem S1024x1 .f32) (harg10 : arg10.IsWhole)
    (hc0 : cond1_0 i) (hc1 : ¬cond1_1 i)
    (x : Vec F S1x1024x1024 .bf16) (w : Vec F S8192x1024 .bf16) (tg : Vec F S1x1024x1 .i32)
    (xi4 xi5 : Vec F S1x1024x1 .f32) (E : Set ℕ) (K : PUnit → sProp 𝕄) :
    iprop(owns (c : Thread nD τ) arg2 fullShare x ∗ owns (c : Thread nD τ) arg3 fullShare w ∗ owns (c : Thread nD τ) arg4 fullShare tg
        ∗ (∃ d, owns (c : Thread nD τ) arg5 fullShare d)
        ∗ owns (c : Thread nD τ) arg6 fullShare xi4 ∗ owns (c : Thread nD τ) arg7 fullShare xi5
        ∗ (∃ d, owns (c : Thread nD τ) arg8 fullShare d) ∗ (∃ d, owns (c : Thread nD τ) arg9 fullShare d)
        ∗ (∃ d, owns (c : Thread nD τ) arg10 fullShare d)
        ∗ (iprop(owns (c : Thread nD τ) arg2 fullShare x ∗ owns (c : Thread nD τ) arg3 fullShare w ∗ owns (c : Thread nD τ) arg4 fullShare tg
            ∗ owns (c : Thread nD τ) arg5 fullShare (k1_pay11 x (wrows i w))
            ∗ owns (c : Thread nD τ) arg6 fullShare xi4 ∗ owns (c : Thread nD τ) arg7 fullShare xi5
            ∗ owns (c : Thread nD τ) arg8 fullShare (stepH i x (wrows i w) tg cols0).1
            ∗ owns (c : Thread nD τ) arg9 fullShare (stepH i x (wrows i w) tg cols0).2.1
            ∗ owns (c : Thread nD τ) arg10 fullShare (stepH i x (wrows i w) tg cols0).2.2) -∗ K ⟨⟩))
      ⊢ wp frame (wpE (defs₀ (F := F)) Variants.none c none) E (cc1__lmhead_kernel i arg2 harg2 arg3 harg3 arg4 harg4 arg5 harg5 arg6 harg6 arg7 harg7 arg8 harg8 arg9 harg9 arg10 harg10) K := by
  simp only [cc1__lmhead_kernel_eq_skeleton]; unfold cc1__lmhead_kernel_skel
  simp only [k1_part1_eq_skeleton]; unfold k1_part1_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, ⟨%d10, %f10, -, H10⟩, Hk⟩
  obtain rfl := harg2.eq_unread hf2; obtain rfl := harg3.eq_unread hf3; obtain rfl := harg4.eq_unread hf4
  obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (read_writes_head_zero _ _ hz3 _ _ _).trans ?_
    simp only [readAt_unread_zero harg2 x hz3, readAt_unread_rows harg3 i w]
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    refine (read_writes_head_zero _ _ hz2 _ _ _).trans ?_
    sl_unfold_run_names
    simp only [readAt_unread_zero harg2 x hz3, readAt_unread_rows harg3 i w, readCov_head_zero (S := S1024x1) _ hz2]
    rfl
  isplitl [H9]
  · iexists _; isplitr
    swap; · iexact H9
    ipureintro
    refine (read_writes_head_zero _ _ hz2 _ _ _).trans ?_
    sl_unfold_run_names
    simp only [readAt_unread_zero harg2 x hz3, readAt_unread_rows harg3 i w, readCov_head_zero (S := S1024x1) _ hz2]
    rfl
  · iexists _; isplitr
    swap; · iexact H10
    ipureintro
    refine (read_writes_head_zero _ _ hz2 _ _ _).trans ?_
    sl_unfold_run_names
    simp only [readAt_unread_zero harg2 x hz3, readAt_unread_rows harg3 i w, readAt_unread_zero harg4 tg hz3,
      readCov_head_zero (S := S1024x1) _ hz2]
    rfl

set_option maxHeartbeats 1000000 in
/-- The body at a block strictly inside a row (neither branch taken): as at the first block, but the carried
    columns, found at `s`, are left at one step from `s`. The running sum is updated from the OLD running maximum:
    both loads of the maximum precede its store. -/
theorem run_mid (c : Dev nD) (i : grid1.Coords)
    (arg2 : Memref sig .tc .vmem S1x1024x1024 .bf16) (harg2 : arg2.IsWhole)
    (arg3 : Memref sig .tc .vmem S8192x1024 .bf16) (harg3 : arg3.IsWhole)
    (arg4 : Memref sig .tc .vmem S1x1024x1 .i32) (harg4 : arg4.IsWhole)
    (arg5 : Memref sig .tc .vmem S1x1024x256 .f32) (harg5 : arg5.IsWhole)
    (arg6 : Memref sig .tc .vmem S1x1024x1 .f32) (harg6 : arg6.IsWhole)
    (arg7 : Memref sig .tc .vmem S1x1024x1 .f32) (harg7 : arg7.IsWhole)
    (arg8 : Memref sig .tc .vmem S1024x1 .f32) (harg8 : arg8.IsWhole)
    (arg9 : Memref sig .tc .vmem S1024x1 .f32) (harg9 : arg9.IsWhole)
    (arg10 : Memref sig .tc .vmem S1024x1 .f32) (harg10 : arg10.IsWhole)
    (hc0 : ¬cond1_0 i) (hc1 : ¬cond1_1 i)
    (x : Vec F S1x1024x1024 .bf16) (w : Vec F S8192x1024 .bf16) (tg : Vec F S1x1024x1 .i32) (s : Cols F)
    (xi4 xi5 : Vec F S1x1024x1 .f32) (E : Set ℕ) (K : PUnit → sProp 𝕄) :
    iprop(owns (c : Thread nD τ) arg2 fullShare x ∗ owns (c : Thread nD τ) arg3 fullShare w ∗ owns (c : Thread nD τ) arg4 fullShare tg
        ∗ (∃ d, owns (c : Thread nD τ) arg5 fullShare d)
        ∗ owns (c : Thread nD τ) arg6 fullShare xi4 ∗ owns (c : Thread nD τ) arg7 fullShare xi5
        ∗ owns (c : Thread nD τ) arg8 fullShare s.1 ∗ owns (c : Thread nD τ) arg9 fullShare s.2.1 ∗ owns (c : Thread nD τ) arg10 fullShare s.2.2
        ∗ (iprop(owns (c : Thread nD τ) arg2 fullShare x ∗ owns (c : Thread nD τ) arg3 fullShare w ∗ owns (c : Thread nD τ) arg4 fullShare tg
            ∗ owns (c : Thread nD τ) arg5 fullShare (k1_pay11 x (wrows i w))
            ∗ owns (c : Thread nD τ) arg6 fullShare xi4 ∗ owns (c : Thread nD τ) arg7 fullShare xi5
            ∗ owns (c : Thread nD τ) arg8 fullShare (stepH i x (wrows i w) tg s).1
            ∗ owns (c : Thread nD τ) arg9 fullShare (stepH i x (wrows i w) tg s).2.1
            ∗ owns (c : Thread nD τ) arg10 fullShare (stepH i x (wrows i w) tg s).2.2) -∗ K ⟨⟩))
      ⊢ wp frame (wpE (defs₀ (F := F)) Variants.none c none) E (cc1__lmhead_kernel i arg2 harg2 arg3 harg3 arg4 harg4 arg5 harg5 arg6 harg6 arg7 harg7 arg8 harg8 arg9 harg9 arg10 harg10) K := by
  simp only [cc1__lmhead_kernel_eq_skeleton]; unfold cc1__lmhead_kernel_skel
  simp only [k1_part1_eq_skeleton]; unfold k1_part1_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg6.eq_unread hf6; obtain rfl := harg7.eq_unread hf7
  obtain rfl := harg8.eq_unread hf8; obtain rfl := harg9.eq_unread hf9; obtain rfl := harg10.eq_unread hf10
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (read_writes_head_zero _ _ hz3 _ _ _).trans ?_
    simp only [readAt_unread_zero harg2 x hz3, readAt_unread_rows harg3 i w]
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    refine (read_writes_head_zero _ _ hz2 _ _ _).trans ?_
    simp only [readAt_unread_zero harg2 x hz3, readAt_unread_rows harg3 i w, readAt_unread_zero harg8 s.1 hz2]
    rfl
  isplitl [H9]
  · iexists _; isplitr
    swap; · iexact H9
    ipureintro
    refine (read_writes_head_zero _ _ hz2 _ _ _).trans ?_
    simp only [readAt_unread_zero harg2 x hz3, readAt_unread_rows harg3 i w, readAt_unread_zero harg8 s.1 hz2,
      readAt_unread_zero harg9 s.2.1 hz2]
    rfl
  · iexists _; isplitr
    swap; · iexact H10
    ipureintro
    refine (read_writes_head_zero _ _ hz2 _ _ _).trans ?_
    simp only [readAt_unread_zero harg2 x hz3, readAt_unread_rows harg3 i w, readAt_unread_zero harg4 tg hz3,
      readAt_unread_zero harg10 s.2.2 hz2]
    rfl

set_option maxHeartbeats 1000000 in
/-- The body at the last block of a row (the final branch taken): the columns, found at `s`, are left at one step
    from `s`, and the two per-row result buffers, found at anything, are stored: the masked negative log-likelihood
    read off the stepped columns, and the mask. -/
theorem run_last (c : Dev nD) (i : grid1.Coords)
    (arg2 : Memref sig .tc .vmem S1x1024x1024 .bf16) (harg2 : arg2.IsWhole)
    (arg3 : Memref sig .tc .vmem S8192x1024 .bf16) (harg3 : arg3.IsWhole)
    (arg4 : Memref sig .tc .vmem S1x1024x1 .i32) (harg4 : arg4.IsWhole)
    (arg5 : Memref sig .tc .vmem S1x1024x256 .f32) (harg5 : arg5.IsWhole)
    (arg6 : Memref sig .tc .vmem S1x1024x1 .f32) (harg6 : arg6.IsWhole)
    (arg7 : Memref sig .tc .vmem S1x1024x1 .f32) (harg7 : arg7.IsWhole)
    (arg8 : Memref sig .tc .vmem S1024x1 .f32) (harg8 : arg8.IsWhole)
    (arg9 : Memref sig .tc .vmem S1024x1 .f32) (harg9 : arg9.IsWhole)
    (arg10 : Memref sig .tc .vmem S1024x1 .f32) (harg10 : arg10.IsWhole)
    (hc0 : ¬cond1_0 i) (hc1 : cond1_1 i)
    (x : Vec F S1x1024x1024 .bf16) (w : Vec F S8192x1024 .bf16) (tg : Vec F S1x1024x1 .i32) (s : Cols F)
    (E : Set ℕ) (K : PUnit → sProp 𝕄) :
    iprop(owns (c : Thread nD τ) arg2 fullShare x ∗ owns (c : Thread nD τ) arg3 fullShare w ∗ owns (c : Thread nD τ) arg4 fullShare tg
        ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare s.1 ∗ owns (c : Thread nD τ) arg9 fullShare s.2.1 ∗ owns (c : Thread nD τ) arg10 fullShare s.2.2
        ∗ (iprop(owns (c : Thread nD τ) arg2 fullShare x ∗ owns (c : Thread nD τ) arg3 fullShare w ∗ owns (c : Thread nD τ) arg4 fullShare tg
            ∗ owns (c : Thread nD τ) arg5 fullShare (k1_pay11 x (wrows i w))
            ∗ owns (c : Thread nD τ) arg6 fullShare
                (k1_pay5 (stepH i x (wrows i w) tg s).1 (stepH i x (wrows i w) tg s).2.1 (stepH i x (wrows i w) tg s).2.2 tg)
            ∗ owns (c : Thread nD τ) arg7 fullShare (k1_pay6 (F := F) tg)
            ∗ owns (c : Thread nD τ) arg8 fullShare (stepH i x (wrows i w) tg s).1
            ∗ owns (c : Thread nD τ) arg9 fullShare (stepH i x (wrows i w) tg s).2.1
            ∗ owns (c : Thread nD τ) arg10 fullShare (stepH i x (wrows i w) tg s).2.2) -∗ K ⟨⟩))
      ⊢ wp frame (wpE (defs₀ (F := F)) Variants.none c none) E (cc1__lmhead_kernel i arg2 harg2 arg3 harg3 arg4 harg4 arg5 harg5 arg6 harg6 arg7 harg7 arg8 harg8 arg9 harg9 arg10 harg10) K := by
  simp only [cc1__lmhead_kernel_eq_skeleton]; unfold cc1__lmhead_kernel_skel
  simp only [k1_part1_eq_skeleton]; unfold k1_part1_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg8.eq_unread hf8; obtain rfl := harg9.eq_unread hf9; obtain rfl := harg10.eq_unread hf10
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (read_writes_head_zero _ _ hz3 _ _ _).trans ?_
    simp only [readAt_unread_zero harg2 x hz3, readAt_unread_rows harg3 i w]
  isplitl [H6]
  · iexists _; isplitr
    swap; · iexact H6
    ipureintro
    refine (read_writes_head_zero _ _ hz3 _ _ _).trans ?_
    sl_unfold_run_names
    simp only [readCov_head_zero (S := S1024x1) _ hz2, readAt_unread_zero harg2 x hz3, readAt_unread_rows harg3 i w,
      readAt_unread_zero harg4 tg hz3, readAt_unread_zero harg8 s.1 hz2, readAt_unread_zero harg9 s.2.1 hz2,
      readAt_unread_zero harg10 s.2.2 hz2]
    rfl
  isplitl [H7]
  · iexists _; isplitr
    swap; · iexact H7
    ipureintro
    refine (read_writes_head_zero _ _ hz3 _ _ _).trans ?_
    simp only [readAt_unread_zero harg4 tg hz3]
  isplitl [H8]
  · iexists _; isplitr
    swap; · iexact H8
    ipureintro
    refine (read_writes_head_zero _ _ hz2 _ _ _).trans ?_
    simp only [readAt_unread_zero harg2 x hz3, readAt_unread_rows harg3 i w, readAt_unread_zero harg8 s.1 hz2]
    rfl
  isplitl [H9]
  · iexists _; isplitr
    swap; · iexact H9
    ipureintro
    refine (read_writes_head_zero _ _ hz2 _ _ _).trans ?_
    simp only [readAt_unread_zero harg2 x hz3, readAt_unread_rows harg3 i w, readAt_unread_zero harg8 s.1 hz2,
      readAt_unread_zero harg9 s.2.1 hz2]
    rfl
  · iexists _; isplitr
    swap; · iexact H10
    ipureintro
    refine (read_writes_head_zero _ _ hz2 _ _ _).trans ?_
    simp only [readAt_unread_zero harg2 x hz3, readAt_unread_rows harg3 i w, readAt_unread_zero harg4 tg hz3,
      readAt_unread_zero harg10 s.2.2 hz2]
    rfl

/-! ## The body obligation, at a generic point -/

/-- What the body is called with at point `t` (the windows one by one), -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The three inputs' memrefs hold their blocks; the block index of the point says which of
    the three control cases it is in. The invariant hands the body the three carried columns at what the point
    before left (at anything before the first point of the grid, and the reset overwrites them at the first block of
    every row), and takes them back at this point's contents; the logits block is stored at every point; the two
    per-row result columns are stored at a row's last block and handed back untouched elsewhere. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  unfold logitsAt
  by_cases h0 : t.val % 32 = 0
  · by_cases h1 : t.val % 32 = 31
    · exfalso; omega
    · -- the first block of a row: the columns are reset, then stepped
      have hc0 : cond1_0 (grid1.coords t) := (hcond1_0 t).mpr h0
      have hc1 : ¬cond1_1 (grid1.coords t) := fun h => h1 ((hcond1_1 t).mp h)
      rw [Dat.leavesExact_idle (dat1 V c) 4 t (idleAt1_4 t hc1) (noFlush1_4 t hc1)]
      rw [Dat.leavesExact_idle (dat1 V c) 5 t (idleAt1_5 t hc1) (noFlush1_5 t hc1)]
      rw [scrAt_reset V c t h0]; unfold stepAt
      by_cases hz : t.val = 0
      · rw [PhiS_castSucc V c t, PhiS_zero V c _ _ hz, PhiA1_eq]; unfold PhiAt
        iintro ⟨⟨Hr, S0, S1, S2, Hg⟩, Ho, ⟨%d0, H0⟩, ⟨%d1, H1⟩, ⟨%d2, H2⟩, ⟨%d3, H3⟩, ⟨%d4, H4⟩, ⟨%d5, H5⟩⟩
        iapply (run_first c (grid1.coords t) _ _ _ _ _ _ _ _ _ _ _ _ _ _ _ _ _ _ hc0 hc1 (iblk1 V c 0 t) (iblk1 V c 1 t) (iblk1 V c 2 t) _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [S0]; · iexact S0
        isplitl [S1]; · iexact S1
        isplitl [S2]; · iexact S2
        iintro ⟨H0, H1, H2, H3, H4, H5, S0, S1, S2⟩
        isplitl [Hr S0 S1 S2 Hg]
        · isplitl [Hr]; · iexact Hr
          isplitl [S0]; · iexact S0
          isplitl [S1]; · iexact S1
          isplitl [S2]; · iexact S2
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      · rw [PhiS_castSucc V c t, PhiS_pos V c _ _ hz]; unfold PhiAt
        iintro ⟨⟨Hr, S0, S1, S2, Hg⟩, Ho, ⟨%d0, H0⟩, ⟨%d1, H1⟩, ⟨%d2, H2⟩, ⟨%d3, H3⟩, ⟨%d4, H4⟩, ⟨%d5, H5⟩⟩
        iapply (run_first c (grid1.coords t) _ _ _ _ _ _ _ _ _ _ _ _ _ _ _ _ _ _ hc0 hc1 (iblk1 V c 0 t) (iblk1 V c 1 t) (iblk1 V c 2 t) _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [S0]; · iexists _; iexact S0
        isplitl [S1]; · iexists _; iexact S1
        isplitl [S2]; · iexists _; iexact S2
        iintro ⟨H0, H1, H2, H3, H4, H5, S0, S1, S2⟩
        isplitl [Hr S0 S1 S2 Hg]
        · isplitl [Hr]; · iexact Hr
          isplitl [S0]; · iexact S0
          isplitl [S1]; · iexact S1
          isplitl [S2]; · iexact S2
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
  · have hz : t.val ≠ 0 := fun e => h0 (by rw [e])
    have hc0 : ¬cond1_0 (grid1.coords t) := fun h => h0 ((hcond1_0 t).mp h)
    by_cases h1 : t.val % 32 = 31
    · -- the last block of a row: the columns are stepped, then the two per-row results stored
      have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [show (dat1 V c).leavesExact 5 t = owns (c : Thread nD τ) (ms1_5 t) fullShare ((dat1 V c).after 5 t) from by
        unfold Dat.leavesExact; rw [liveAt1_5 t hc1], after1_5]
      unfold nllAt maskAt
      rw [scrAt_step V c t h0]; unfold stepAt
      rw [PhiS_castSucc V c t, PhiS_pos V c _ _ hz]; unfold PhiAt
      iintro ⟨⟨Hr, S0, S1, S2, Hg⟩, Ho, ⟨%d0, H0⟩, ⟨%d1, H1⟩, ⟨%d2, H2⟩, ⟨%d3, H3⟩, ⟨%d4, H4⟩, ⟨%d5, H5⟩⟩
      iapply (run_last c (grid1.coords t) _ _ _ _ _ _ _ _ _ _ _ _ _ _ _ _ _ _ hc0 hc1 (iblk1 V c 0 t) (iblk1 V c 1 t) (iblk1 V c 2 t)
        (scrAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [S0]; · iexact S0
      isplitl [S1]; · iexact S1
      isplitl [S2]; · iexact S2
      iintro ⟨H0, H1, H2, H3, H4, H5, S0, S1, S2⟩
      isplitl [Hr S0 S1 S2 Hg]
      · isplitl [Hr]; · iexact Hr
        isplitl [S0]; · iexact S0
        isplitl [S1]; · iexact S1
        isplitl [S2]; · iexact S2
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a block strictly inside a row: the columns are stepped
      have hc1 : ¬cond1_1 (grid1.coords t) := fun h => h1 ((hcond1_1 t).mp h)
      rw [Dat.leavesExact_idle (dat1 V c) 4 t (idleAt1_4 t hc1) (noFlush1_4 t hc1)]
      rw [Dat.leavesExact_idle (dat1 V c) 5 t (idleAt1_5 t hc1) (noFlush1_5 t hc1)]
      rw [scrAt_step V c t h0]; unfold stepAt
      rw [PhiS_castSucc V c t, PhiS_pos V c _ _ hz]; unfold PhiAt
      iintro ⟨⟨Hr, S0, S1, S2, Hg⟩, Ho, ⟨%d0, H0⟩, ⟨%d1, H1⟩, ⟨%d2, H2⟩, ⟨%d3, H3⟩, ⟨%d4, H4⟩, ⟨%d5, H5⟩⟩
      iapply (run_mid c (grid1.coords t) _ _ _ _ _ _ _ _ _ _ _ _ _ _ _ _ _ _ hc0 hc1 (iblk1 V c 0 t) (iblk1 V c 1 t) (iblk1 V c 2 t)
        (scrAt V c (t.val - 1) (Nat.lt_of_le_of_lt (Nat.sub_le _ _) t.isLt)) _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [S0]; · iexact S0
      isplitl [S1]; · iexact S1
      isplitl [S2]; · iexact S2
      iintro ⟨H0, H1, H2, H3, H4, H5, S0, S1, S2⟩
      isplitl [Hr S0 S1 S2 Hg]
      · isplitl [Hr]; · iexact Hr
        isplitl [S0]; · iexact S0
        isplitl [S1]; · iexact S1
        isplitl [S2]; · iexact S2
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation1 (c : Dev nD) :
    BodyObligation (dat1 (F := F) V c) (defs₀ (F := F)) Variants.none () Set.univ := by
  intro t
  rw [bigSep_W1, bigSep_W1]
  exact sound_body V c t

/-- What the launch hands the region is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]

/-- After any point but the first the invariant gives the launch's back: the columns' named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS V c t.val (Nat.le_of_lt_succ t.isLt) from rfl, PhiS_pos V c _ _ ht, PhiA1_eq]
  unfold PhiAt
  iintro ⟨Hr, S0, S1, S2, Hg⟩
  isplitl [Hr]; · iexact Hr
  isplitl [S0]; · iexists _; iexact S0
  isplitl [S1]; · iexists _; iexact S1
  isplitl [S2]; · iexists _; iexact S2
  iexact Hg

/-- After the last point the invariant gives it back, the columns' contents forgotten. -/
theorem hout1 (c : Dev nD) : (dat1 V c).Φ (Fin.last cfg1.N) ⊢ (Pipeline.ΦA spec1 c : sProp 𝕄) := by
  exact Phi_out1 V c _ (by rw [Fin.val_last]; have : cfg1.N = 256 := N_1; omega)

end Cert.KernelIdeal.Head

end
-- ==== Proof.KI.Fold.lean ====
/-
  The contents of the program's buffers at each boundary between the items of @main: the launch memory, then
  each stretch of host operations applied, each region replacing its windows' arrays by what its pipeline
  leaves (the proof data's `arrAt` at the last point).
-/
import proofs.«401600_j86689619903517_2_alg».proof.Proof.KI.LayersFrame
import proofs.«401600_j86689619903517_2_alg».proof.Proof.KI.HeadFrame
import Idealize.ShloMosaic.Lib.Pipeline.Regions

noncomputable section

namespace Cert.KernelIdeal.Whole

open Idealize.ShloMosaic Idealize.ShloMosaic.TcCoe Idealize.SL.Sem
open Idealize.ShloMosaic.Pipeline (Dat)
open Cert.KernelIdeal Cert.KernelIdeal.Gen Cert.KernelIdeal.Layers Cert.KernelIdeal.Head

variable {F : FTy → Type} [FloatOps F]
variable (m : (ℓ : Loc nD τ sig) → Buf (Elt F) ℓ)

/-- Core `c`'s buffers at launch. -/
abbrev W0 : Dev nD → Valuation τ sig (Elt F) := fun c b => m (c, b)
/-- After the token look-up (`hostOps0`). -/
abbrev W1 : Dev nD → Valuation τ sig (Elt F) := fun c => StableHlo.after hostOps0 (W0 m c)
/-- After the three weight conversions (`hostOps0_1`): region 0's entry. -/
abbrev W2 : Dev nD → Valuation τ sig (Elt F) := fun c => StableHlo.after hostOps0_1 (W1 m c)
/-- The same read at the TensorCore's references (what region 0's proof data take). -/
abbrev V2 : (c : Dev nD) → (b : Ref sig .tc) → Buf (Elt F) ((c : Thread nD τ).loc b) := fun c b => W2 m c b
/-- At region 0's exit: its arrays at what the pipeline leaves, every other buffer as entered. -/
def W3 (c : Dev nD) : Valuation τ sig (Elt F) :=
  Pipeline.withArrays spec0 c (W2 m c) fun w => (dat0 (V2 m) c).arrAt w cfg0.N
/-- After the targets' reshape (`hostOps1`): region 1's entry. -/
abbrev W4 : Dev nD → Valuation τ sig (Elt F) := fun c => StableHlo.after hostOps1 (W3 m c)
abbrev V4 : (c : Dev nD) → (b : Ref sig .tc) → Buf (Elt F) ((c : Thread nD τ).loc b) := fun c b => W4 m c b
/-- At region 1's exit. -/
def W5 (c : Dev nD) : Valuation τ sig (Elt F) :=
  Pipeline.withArrays spec1 c (W4 m c) fun w => (dat1 (V4 m) c).arrAt w cfg1.N
/-- After the final sums and the quotient (`hostOps2`): the end. -/
abbrev W6 : Dev nD → Valuation τ sig (Elt F) := fun c => StableHlo.after hostOps2 (W5 m c)

theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb

end Cert.KernelIdeal.Whole

end
-- ==== Proof.KI.Whole.lean ====
/-
  The whole run of the idealized kernel's program. @main is six items in order: the token look-up, the three
  weight conversions, the pallas_call of the four layers, the targets' reshape, the pallas_call of the
  projection with its online soft-max, and the final sums with the quotient. Between two items every unscoped
  buffer of the core is held whole at the contents the fold `W0 … W6` names; beside them ride the generator
  register, at some state, and the core's dues, at nothing. A stretch of host operations moves the buffers from
  one valuation to the next; a region takes its windows' arrays out of them, runs its pipeline on the proof data
  stated at the entry contents, and puts the arrays back at what the pipeline leaves. At the end the last
  valuation is read against the final memory: every unscoped buffer holds `W6`, and in particular each argument
  array holds what it was launched with, since no item writes one.
-/
import proofs.«401600_j86689619903517_2_alg».proof.Proof.KI.Fold
import proofs.«401600_j86689619903517_2_alg».proof.Proof.Gen.KernelIdeal.Regions
import Idealize.ShloMosaic.Lib.Pipeline.Regions
import Idealize.ShloMosaic.Lib.Pipeline.RegionsLoop
import Idealize.ShloMosaic.Lib.Pipeline.Kit
import Idealize.ShloMosaic.Lib.Pipeline.FrameSuffix
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen Cert.KernelIdeal.Layers Cert.KernelIdeal.Head

variable {F : FTy → Type} [FloatOps F]
variable (m : (ℓ : Loc nD τ sig) → Buf (Elt F) ℓ)

local notation "𝕄" => MT nD τ sig Unit (Elt F) ℕ (UR sig nD τ) ℕ

variable (ρ : Dev nD → PrngReg)

/-! ## The proof data of the two pipelines, and what rides beside the buffers -/

/-- Each pipeline's proof data at the contents its region is entered with: region 0 after the weight
    conversions (`V2`), region 1 after the targets' reshape (`V4`). A literal case split on the pipeline's index, so
    that the configuration pinned at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V2 m) c
  | ⟨1, _⟩ => fun c => dat1 (V4 m) c

/-- No variant beyond the library's own. -/
abbrev 𝒱₀ : Variants := Variants.none
/-- No core waits on another: no pair carries a level. -/
abbrev L : GSem nD τ sig → Finset Unit := fun _ => ∅
abbrev lv : GSem nD τ sig → Unit → ℕ := fun _ _ => 0

/-- Beside the unscoped buffers, through every item: the core's generator register at some state, and the core
    owing nothing. -/
abbrev R (c : Dev nD) : sProp 𝕄 :=
  iprop((∃ r, prngReg c r) ∗ ∃ W, owes (c : Thread nD τ) (0 : CellTallies nD τ sig Unit) W)

/-- The state between two items at the contents `W`: every unscoped buffer whole at `W`, and `R`. -/
abbrev At (W : Dev nD → Valuation τ sig (Elt F)) (c : Dev nD) : sProp 𝕄 :=
  iprop(StableHlo.held (c : Thread nD τ) (Pipeline.ucRefs τ sig) (W c) ∗ R c)

/-- A stretch of host operations from the contents `W`: it leaves the buffers at `StableHlo.after ops (W c)`, which
    is the next valuation of the fold by name. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the TensorCore is among the buffers the state between items holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## What a region's exit valuation holds -/

theorem exit0_arr (c : Dev nD) (w : Fin cfg0.W) :
    (pdats m 0 c).arrAt w cfg0.N = (fun b : Ref sig .tc => W3 m c b) (Pipeline.arrRef spec0 w) :=
  (W3_arr m c w).symm
theorem exit0_rest (c : Dev nD) :
    ∀ b, b ∉ Finset.univ.image (Pipeline.arrRef spec0) → (fun b : Ref sig .tc => W3 m c b) b = V2 m c b :=
  fun b hb => W3_of_ne m c b fun w e => hb (Finset.mem_image.mpr ⟨w, Finset.mem_univ _, e⟩)
theorem exit1_arr (c : Dev nD) (w : Fin cfg1.W) :
    (pdats m 1 c).arrAt w cfg1.N = (fun b : Ref sig .tc => W5 m c b) (Pipeline.arrRef spec1 w) :=
  (W5_arr m c w).symm
theorem exit1_rest (c : Dev nD) :
    ∀ b, b ∉ Finset.univ.image (Pipeline.arrRef spec1) → (fun b : Ref sig .tc => W5 m c b) b = V4 m c b :=
  fun b hb => W5_of_ne m c b fun w e => hb (Finset.mem_image.mpr ⟨w, Finset.mem_univ _, e⟩)

/-! ## The two regions -/

set_option backward.isDefEq.respectTransparency.types false in
/-- The pallas_call of the layers: entered with the buffers at `W2`, left with them at `W3`. Its four arrays (the embedded tokens, the two stacks of weights, the output) leave the unscoped buffers at entry and return at what the pipeline's write-backs leave; the generator register passes through the class's invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ L lv 0 fun _ _ => rfl
  pre := At (W2 m)
  post := At (W3 m)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    -- the windows' arrays leave the unscoped buffers at the entry contents; the rest bypasses the region
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    rw [Pipeline.ownSems0_none]
    iintro ⟨⟨Hbufs, Hreg, Hdue⟩, -, -⟩
    ihave Hparts := hsplit $$ Hbufs
    icases Hparts with ⟨Harr, Hrest⟩
    imodintro
    isplitl [Harr]; · iexact Harr
    isplitr
    · -- the pipeline prefetches no table
      unfold Pipeline.prefHeld
      rw [show (Finset.univ : Finset (Fin 0)) = ∅ from rfl, BI.bigSep_empty]; iempintro
    isplitl [Hdue]
    · -- nothing owed is within any bound
      unfold Pipeline.Dat.owesAt Pipeline.owesWithin
      icases Hdue with ⟨%W, Hdue⟩
      iexists W
      isplitr; · ipureintro; exact fun _ _ => Or.inl trivial
      iexact Hdue
    isplitl [Hreg]; · iexact Hreg
    iexact Hrest
  hin c := by
    -- the generator register and the scoped buffers no window stages are the class's invariant, which the
    -- region's invariant before the first point follows from
    refine BIBase.Entails.trans ?_ (hin0 (V2 m) c)
    unfold Pipeline.ΦA
    iintro ⟨Hreg, -, Hscoped⟩
    isplitl [Hscoped]; · iexact Hscoped
    iexact Hreg
  hout c := by
    -- after the last point the region's invariant gives the class's back, which is those two parts again
    refine (hout0 (V2 m) c).trans ?_
    rw [Pipeline.ownSems0_none]; unfold Pipeline.ΦA
    iintro ⟨Hscoped, Hreg⟩
    isplitl [Hreg]; · iexact Hreg
    isplitr; · iempintro
    iexact Hscoped
  hexit c := by
    -- the arrays at what the pipeline leaves and the bypassed rest are the unscoped buffers at the exit contents
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (fun b => W3 m c b) ((pdats m 0 c).arrAt · cfg0.N) (exit0_arr m c) (exit0_rest m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

set_option backward.isDefEq.respectTransparency.types false in
/-- The pallas_call of the projection: entered with the buffers at `W4`, left with them at `W5`. Its six arrays (the hidden states, the projection weights, the targets, and the three results: logits, per-row loss, per-row mask) leave and return in the same way. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre := At (W4 m)
  post := At (W5 m)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    -- the windows' arrays leave the unscoped buffers at the entry contents; the rest bypasses the region
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    rw [Pipeline.ownSems0_none]
    iintro ⟨⟨Hbufs, Hreg, Hdue⟩, -, -⟩
    ihave Hparts := hsplit $$ Hbufs
    icases Hparts with ⟨Harr, Hrest⟩
    imodintro
    isplitl [Harr]; · iexact Harr
    isplitr
    · -- the pipeline prefetches no table
      unfold Pipeline.prefHeld
      rw [show (Finset.univ : Finset (Fin 0)) = ∅ from rfl, BI.bigSep_empty]; iempintro
    isplitl [Hdue]
    · -- nothing owed is within any bound
      unfold Pipeline.Dat.owesAt Pipeline.owesWithin
      icases Hdue with ⟨%W, Hdue⟩
      iexists W
      isplitr; · ipureintro; exact fun _ _ => Or.inl trivial
      iexact Hdue
    isplitl [Hreg]; · iexact Hreg
    iexact Hrest
  hin c := by
    -- the generator register and the scoped buffers no window stages are the class's invariant, which the
    -- region's invariant before the first point follows from
    refine BIBase.Entails.trans ?_ (hin1 (V4 m) c)
    unfold Pipeline.ΦA
    iintro ⟨Hreg, -, Hscoped⟩
    isplitl [Hscoped]; · iexact Hscoped
    iexact Hreg
  hout c := by
    -- after the last point the region's invariant gives the class's back, which is those two parts again
    refine (hout1 (V4 m) c).trans ?_
    rw [Pipeline.ownSems0_none]; unfold Pipeline.ΦA
    iintro ⟨Hscoped, Hreg⟩
    isplitl [Hreg]; · iexact Hreg
    isplitr; · iempintro
    iexact Hscoped
  hexit c := by
    -- the arrays at what the pipeline leaves and the bypassed rest are the unscoped buffers at the exit contents
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (fun b => W5 m c b) ((pdats m 1 c).arrAt · cfg1.N) (exit1_arr m c) (exit1_rest m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

/-! ## @main as its six items, and the launch -/

/-- The items in order, each host stretch from the fold's valuation before it. -/
abbrev items : List (Pipeline.Seg (pcfgs (F := F)) adm (pdats m) () defs₀ 𝒱₀ L lv) :=
  [ .host (stretch hostOps0 hostOps0_sub hostOps0_fresh (W0 m)),
    .host (stretch hostOps0_1 hostOps0_1_sub hostOps0_1_fresh (W1 m)),
    .region (reg0 m),
    .host (stretch hostOps1 hostOps1_sub hostOps1_fresh (W3 m)),
    .region (reg1 m),
    .host (stretch hostOps2 hostOps2_sub hostOps2_fresh (W5 m)) ]

/-- @main is the run of the items: it is the chain of their programs, and so is the items' run. -/
theorem main_run (c : Dev nD) : main (F := F) c = Pipeline.Seg.run (items m) :=
  (main_chain c).trans (by chain_rfl)

set_option backward.isDefEq.respectTransparency.types false in
/-- THE RUN, at any claim about the final memory that follows from every unscoped buffer holding `W6`: from any
    memory with zero counters, every weakly fair execution of @main on the TensorCores terminates, nothing
    faulting, and the final memory satisfies the claim. -/
theorem run_of {Q : PUnit × MemSt nD τ sig (Elt F) → Prop}
    (hQ : ∀ s : MemSt nD τ sig (Elt F),
      (∀ c : Dev nD, ∀ b ∈ Pipeline.ucRefs τ sig, s.mem ((c : Thread nD τ).1, b) = W6 m c b) → Q (⟨⟩, s)) :
    θ_run defs (onTc (τ := τ) (main (F := F))) ⟨m, fun _ => 0, ρ⟩ Q := by
  refine Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?launchElt)
    (T₀ := At (W0 m))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun c => ?last⟩)
    (hinit := ?first)
    (QY := fun c s => ∀ b ∈ Pipeline.ucRefs τ sig, s.mem ((c : Thread nD τ).1, b) = W6 m c b)
    (hfin := fun c s' => ?read)
    (hQ := hQ)
  case launchElt =>
    -- the launch element is the pipelines' own; no core gets a ghost resource besides
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case last =>
    -- after the last stretch: the buffers at `W6` and the register, beside the core owing nothing
    show (At (W6 m) c : sProp 𝕄) ⊢ _
    iintro ⟨Hbufs, Hreg, Hdue⟩
    isplitl [Hbufs Hreg]
    · isplitl [Hbufs] <;> iassumption
    iexact Hdue
  case first =>
    -- the launch deals each core its unscoped buffers at the launch memory, its register and its dues at nothing
    refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hbufs, -, Hdue, -, Hreg, -⟩, -⟩
    imodintro
    isplitl [Hbufs]; · iexact Hbufs
    isplitl [Hreg]; · iexists _; iexact Hreg
    iexists ∅; iexact Hdue
  case read =>
    -- the buffers held at `W6`, against the final state
    iintro ⟨⟨Hbufs, -⟩, HSI⟩
    unfold StableHlo.held
    imodintro
    iapply (pointsTo_read_all (Pipeline.ucRefs τ sig) (fun b => ((c : Thread nD τ).1, b)) (W6 m c) s')
    isplitl [Hbufs] <;> iassumption

/-! ## The interface: the run, with every unscoped buffer named at the end -/

theorem run_all :
    θ_run defs (onTc (τ := τ) (main (F := F))) ⟨m, fun _ => 0, ρ⟩
      (fun r => ∀ c : Dev nD, ∀ b ∈ Pipeline.ucRefs τ sig, r.2.mem ((c : Thread nD τ).1, b) = W6 m c b) :=
  run_of m ρ fun _ h => h

/-! ## Reading the last valuation -/

/-- A buffer that no stretch of host operations writes and that is no array of either region's windows holds at
    the end what it was launched with. -/
theorem W6_untouched (c : Dev nD) (r : Ref sig .tc)
    (h0 : r ∉ hostOps0_W) (h1 : r ∉ hostOps0_1_W) (h3 : ∀ w, Pipeline.arrRef spec0 w ≠ r)
    (h4 : r ∉ hostOps1_W) (h5 : ∀ w, Pipeline.arrRef spec1 w ≠ r) (h6 : r ∉ hostOps2_W) :
    W6 m c (Proc.devRef .tc r) = m ((c : Thread nD τ).loc r) :=
  calc W6 m c (Proc.devRef .tc r)
    _ = W5 m c (Proc.devRef .tc r) := StableHlo.after_of_writes_sub hostOps2 _ hostOps2_writes h6
    _ = W4 m c (Proc.devRef .tc r) := W5_of_ne m c r h5
    _ = W3 m c (Proc.devRef .tc r) := StableHlo.after_of_writes_sub hostOps1 _ hostOps1_writes h4
    _ = W2 m c (Proc.devRef .tc r) := W3_of_ne m c r h3
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

/-! ### The arguments: no stretch writes one, no window's array is one -/

/-- `main_arg0` ends as launched. -/
theorem W6_main_arg0 (c : Dev nD) : W6 m c (Proc.devRef .tc main_arg0) = m ((c : Thread nD τ).loc main_arg0) :=
  W6_untouched m c main_arg0 (by decide) (by decide) (by decide) (by decide) (by decide) (by decide)
/-- `main_arg1` ends as launched. -/
theorem W6_main_arg1 (c : Dev nD) : W6 m c (Proc.devRef .tc main_arg1) = m ((c : Thread nD τ).loc main_arg1) :=
  W6_untouched m c main_arg1 (by decide) (by decide) (by decide) (by decide) (by decide) (by decide)
/-- `main_arg2` ends as launched. -/
theorem W6_main_arg2 (c : Dev nD) : W6 m c (Proc.devRef .tc main_arg2) = m ((c : Thread nD τ).loc main_arg2) :=
  W6_untouched m c main_arg2 (by decide) (by decide) (by decide) (by decide) (by decide) (by decide)
/-- `main_arg3` ends as launched. -/
theorem W6_main_arg3 (c : Dev nD) : W6 m c (Proc.devRef .tc main_arg3) = m ((c : Thread nD τ).loc main_arg3) :=
  W6_untouched m c main_arg3 (by decide) (by decide) (by decide) (by decide) (by decide) (by decide)
/-- `main_arg4` ends as launched. -/
theorem W6_main_arg4 (c : Dev nD) : W6 m c (Proc.devRef .tc main_arg4) = m ((c : Thread nD τ).loc main_arg4) :=
  W6_untouched m c main_arg4 (by decide) (by decide) (by decide) (by decide) (by decide) (by decide)
/-- `main_arg5` ends as launched. -/
theorem W6_main_arg5 (c : Dev nD) : W6 m c (Proc.devRef .tc main_arg5) = m ((c : Thread nD τ).loc main_arg5) :=
  W6_untouched m c main_arg5 (by decide) (by decide) (by decide) (by decide) (by decide) (by decide)

/-! ### The results -/

/-- The logits: region 1's fourth array, which the final sums do not write. -/
theorem W6_logits (c : Dev nD) : W6 m c (Proc.devRef .tc main_v6_0) = (dat1 (V4 m) c).arrAt 3 cfg1.N :=
  (StableHlo.after_of_writes_sub hostOps2 _ hostOps2_writes (by decide)).trans (W5_arr m c 3)

/-- The loss: what the final sums and the quotient leave in `main_v10`, computed from region 1's exit contents. -/
theorem W6_loss (c : Dev nD) :
    W6 m c (Proc.devRef .tc main_v10) = StableHlo.after hostOps2 (W5 m c) (Proc.devRef .tc main_v10) := rfl

/-! ## The frame claim's post -/

/-- Every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_of m ρ fun s h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c)⟩

end Cert.KernelIdeal.Whole

end
-- ==== Proof.Spec.lean ====
/-
  The computation both programs perform, as plain functions on extended reals, and the laws that join the
  kernel's arrangement of it to the reference's.

  A batch row's hidden block x (1024 positions × 1024 channels) goes through four layers, each
      x ↦ x · wmᵀ + (row 1 of x · wvᵀ, on every row),
  and then to logits  z = x · lm_wᵀ  (8192 columns). The loss is the mean over the rows whose target is
  not 0 of  −log_softmax(z)[target].

  The reference takes the row maximum M over all 8192 columns and forms (z[g] − M) − log Σ exp(z − M).
  The kernel walks the columns in 32 blocks of 256 carrying a running maximum m (started at a large negative
  constant, not at −∞) and a running sum l of exponentials relative to m, and ends with (m + log l) − z[g].
  Over finite reals  s + log Σ exp(z − s)  does not depend on the shift s  (exp (a + b) = exp a · exp b and
  log (exp a · S) = a + log S for S > 0), so both are  log Σ exp z − z[g]  and the starting constant cancels.
-/
import Idealize.ShloMosaic.PureOps.Ideal
import Idealize.ShloMosaic.PureOps.Ideal.Laws
import Idealize.ShloMosaic.Lib.ValueIdx

noncomputable section

namespace Cert.Spec

open Idealize.ShloMosaic

/-! ## The functions -/

/-- One layer on a batch row's block: the feed-forward product plus row 1 of the value product on every row. -/
def layer (wv wm : Fin 1024 → Fin 1024 → EReal) (x : Fin 1024 → Fin 1024 → EReal) : Fin 1024 → Fin 1024 → EReal :=
  fun t d => (∑ c : Fin 1024, x t c * wm d c) + (∑ c : Fin 1024, x 1 c * wv d c)

/-- The four layers in order. -/
def hidden4 (wv wm : Fin 4 → Fin 1024 → Fin 1024 → EReal) (x : Fin 1024 → Fin 1024 → EReal) : Fin 1024 → Fin 1024 → EReal :=
  layer (wv 3) (wm 3) (layer (wv 2) (wm 2) (layer (wv 1) (wm 1) (layer (wv 0) (wm 0) x)))

/-- A row's logits. -/
def logit (lmw : Fin 8192 → Fin 1024 → EReal) (h : Fin 1024 → Fin 1024 → EReal) (t : Fin 1024) (v : Fin 8192) : EReal :=
  ∑ c : Fin 1024, h t c * lmw v c

/-- The maximum of a row, as the fold both programs' reductions are. -/
def rowMax {n : ℕ} (z : Fin n → EReal) : EReal := (Finset.univ : Finset (Fin n)).fold max ⊥ z

/-- log_softmax of a row at a column, in the reference's arrangement. -/
def lsm {n : ℕ} (z : Fin n → EReal) (k : Fin n) : EReal :=
  (z k - rowMax z) - Ideal.log (∑ j : Fin n, Ideal.exp (z j - rowMax z))

/-- The loss mask of a target word: 0 at the ignored class 0, else 1. -/
def maskOf (g : BitVec 32) : EReal := if g = 0#32 then 0 else 1

/-- The mean masked negative log-likelihood. `gi` is the target as a column, `g` the target word. -/
def loss (z : Fin 8 → Fin 1024 → Fin 8192 → EReal) (g : Fin 8 → Fin 1024 → BitVec 32) (gi : Fin 8 → Fin 1024 → Fin 8192) : EReal :=
  Ideal.div (∑ b : Fin 8, ∑ t : Fin 1024, (-(lsm (z b t) (gi b t))) * maskOf (g b t))
    (max (∑ b : Fin 8, ∑ t : Fin 1024, maskOf (g b t)) 1)

/-! ## The functions over the argument arrays -/

/-- An index array's words lie in [0, 8192): what the added precondition says of the token ids and the targets. -/
def InRange (x : IVec ⟨2, ![8, 1024]⟩ 32) : Prop :=
  ∀ (b : Fin 8) (t : Fin 1024), 0 ≤ (x (ValueIdx.ix2 b t)).toInt ∧ (x (ValueIdx.ix2 b t)).toInt < 8192

/-- A word of an index array as a row of a table of 8192 rows (clamped, as a gather clamps). -/
def tok (x : IVec ⟨2, ![8, 1024]⟩ 32) (b : Fin 8) (t : Fin 1024) : Fin 8192 :=
  ⟨min (x (ValueIdx.ix2 b t)).toInt.toNat 8191, by omega⟩

/-- The embedding block of batch row `b`. -/
def emb (wte : (⟨2, ![8192, 1024]⟩ : Shape).Idx → EReal) (idx : IVec ⟨2, ![8, 1024]⟩ 32) (b : Fin 8) : Fin 1024 → Fin 1024 → EReal :=
  fun t c => wte (ValueIdx.ix2 (tok idx b t) c)

/-- A stack of four weight matrices, curried. -/
def w4 (w : (⟨3, ![4, 1024, 1024]⟩ : Shape).Idx → EReal) : Fin 4 → Fin 1024 → Fin 1024 → EReal :=
  fun l d c => w (ValueIdx.ix3 l d c)

/-- The projection weight, curried. -/
def w2 (w : (⟨2, ![8192, 1024]⟩ : Shape).Idx → EReal) : Fin 8192 → Fin 1024 → EReal := fun v c => w (ValueIdx.ix2 v c)

/-- All logits, from the arguments. -/
def Z (idx : IVec ⟨2, ![8, 1024]⟩ 32) (wte : (⟨2, ![8192, 1024]⟩ : Shape).Idx → EReal)
    (wv wm : (⟨3, ![4, 1024, 1024]⟩ : Shape).Idx → EReal) (lmw : (⟨2, ![8192, 1024]⟩ : Shape).Idx → EReal) :
    Fin 8 → Fin 1024 → Fin 8192 → EReal :=
  fun b t v => logit (w2 lmw) (hidden4 (w4 wv) (w4 wm) (emb wte idx b)) t v

/-- The loss, from the arguments. -/
def LOSS (idx tg : IVec ⟨2, ![8, 1024]⟩ 32) (wte : (⟨2, ![8192, 1024]⟩ : Shape).Idx → EReal)
    (wv wm : (⟨3, ![4, 1024, 1024]⟩ : Shape).Idx → EReal) (lmw : (⟨2, ![8192, 1024]⟩ : Shape).Idx → EReal) : EReal :=
  loss (Z idx wte wv wm lmw) (fun b t => tg (ValueIdx.ix2 b t)) (fun b t => tok tg b t)

/-- The kernel's running maximum and running sum after `n` blocks of 256 columns (`zb n j`: block n, column j),
    started at `(s₀, 0)`. -/
def onl (s₀ : EReal) (zb : ℕ → Fin 256 → EReal) : ℕ → EReal × EReal
  | 0 => (s₀, 0)
  | n + 1 =>
    let p := onl s₀ zb n
    let m' := max p.1 (rowMax (zb n))
    (m', Ideal.exp (p.1 - m') * p.2 + ∑ j : Fin 256, Ideal.exp (zb n j - m'))

/-- The kernel's per-row value once the target logit `a` is known. -/
def onlNll (s₀ : EReal) (zb : ℕ → Fin 256 → EReal) (a : EReal) : EReal :=
  ((onl s₀ zb 32).1 + Ideal.log (onl s₀ zb 32).2) - a

/-! ## Finite values stay finite -/

/-- An extended real that is a real number. -/
def IsReal (x : EReal) : Prop := ∃ r : ℝ, x = (r : EReal)

theorem isReal_add {x y : EReal} (hx : IsReal x) (hy : IsReal y) : IsReal (x + y) := by
  obtain ⟨a, rfl⟩ := hx
  obtain ⟨b, rfl⟩ := hy
  exact ⟨a + b, (EReal.coe_add a b).symm⟩
theorem isReal_mul {x y : EReal} (hx : IsReal x) (hy : IsReal y) : IsReal (x * y) := by
  obtain ⟨a, rfl⟩ := hx
  obtain ⟨b, rfl⟩ := hy
  exact ⟨a * b, (EReal.coe_mul a b).symm⟩
theorem isReal_sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact isReal_add (h a (Finset.mem_insert_self a s)) (ih fun i hi => h i (Finset.mem_insert_of_mem hi))
theorem isReal_layer {wv wm x : Fin 1024 → Fin 1024 → EReal} (hwv : ∀ d c, IsReal (wv d c)) (hwm : ∀ d c, IsReal (wm d c))
    (hx : ∀ t c, IsReal (x t c)) (t d : Fin 1024) : IsReal (layer wv wm x t d) := by
  unfold layer
  exact isReal_add (isReal_sum _ _ fun c _ => isReal_mul (hx t c) (hwm d c))
    (isReal_sum _ _ fun c _ => isReal_mul (hx 1 c) (hwv d c))
theorem isReal_hidden4 {wv wm : Fin 4 → Fin 1024 → Fin 1024 → EReal} {x : Fin 1024 → Fin 1024 → EReal}
    (hwv : ∀ l d c, IsReal (wv l d c)) (hwm : ∀ l d c, IsReal (wm l d c)) (hx : ∀ t c, IsReal (x t c)) (t d : Fin 1024) :
    IsReal (hidden4 wv wm x t d) := by
  unfold hidden4
  exact isReal_layer (hwv 3) (hwm 3)
    (isReal_layer (hwv 2) (hwm 2) (isReal_layer (hwv 1) (hwm 1) (isReal_layer (hwv 0) (hwm 0) hx))) t d
theorem isReal_logit {lmw : Fin 8192 → Fin 1024 → EReal} {h : Fin 1024 → Fin 1024 → EReal}
    (hw : ∀ v c, IsReal (lmw v c)) (hh : ∀ t c, IsReal (h t c)) (t : Fin 1024) (v : Fin 8192) : IsReal (logit lmw h t v) := by
  unfold logit
  exact isReal_sum _ _ fun c _ => isReal_mul (hh t c) (hw v c)

/-- A finite sum of real numbers, taken in the extended reals, is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The larger of two reals is a real. -/
theorem isReal_max {x y : EReal} (hx : IsReal x) (hy : IsReal y) : IsReal (max x y) := by
  rcases max_choice x y with h | h <;> rw [h] <;> assumption

/-- A fold of max from ⊥ over real values is ⊥ (over nothing) or a real. -/
theorem fold_max_bot_or_real {ι : Type} (s : Finset ι) (z : ι → EReal) (hz : ∀ i ∈ s, IsReal (z i)) :
    s.fold max ⊥ z = ⊥ ∨ IsReal (s.fold max ⊥ z) := by
  classical
  induction s using Finset.induction_on with
  | empty => left; rfl
  | insert a s ha ih =>
    right
    rw [Finset.fold_insert ha]
    rcases ih (fun i hi => hz i (Finset.mem_insert_of_mem hi)) with h | h
    · rw [h, max_eq_left bot_le]; exact hz a (Finset.mem_insert_self a s)
    · exact isReal_max (hz a (Finset.mem_insert_self a s)) h

/-- The larger of a real and the maximum of a row of reals (of any length, 0 included) is a real. -/
theorem isReal_max_rowMax {n : ℕ} {x : EReal} (hx : IsReal x) (z : Fin n → EReal) (hz : ∀ k, IsReal (z k)) :
    IsReal (max x (rowMax z)) := by
  rcases fold_max_bot_or_real Finset.univ z (fun i _ => hz i) with h | h
  · unfold rowMax; rw [h, max_eq_left bot_le]; exact hx
  · exact isReal_max hx h

/-- The maximum of a nonempty row of reals is a real: it is at least the row's first entry, so it is not ⊥. -/
theorem isReal_rowMax {n : ℕ} (hn : 0 < n) (z : Fin n → EReal) (hz : ∀ k, IsReal (z k)) : IsReal (rowMax z) := by
  rcases fold_max_bot_or_real Finset.univ z (fun i _ => hz i) with h | h
  · exfalso
    obtain ⟨r, hr⟩ := hz ⟨0, hn⟩
    have : z ⟨0, hn⟩ ≤ (Finset.univ : Finset (Fin n)).fold max ⊥ z :=
      (Finset.le_fold_max _).mpr (Or.inr ⟨⟨0, hn⟩, Finset.mem_univ _, le_rfl⟩)
    rw [h, hr] at this
    exact EReal.coe_ne_bot r (le_bot_iff.mp this)
  · exact h

/-! ## The online log-sum-exp is the reference's -/

/-- Block `n`, column `j` of a row of 8192 columns (0 beyond the 32 blocks). -/
def blocksOf (z : Fin 8192 → EReal) : ℕ → Fin 256 → EReal :=
  fun n j => if h : 256 * n + j.val < 8192 then z ⟨256 * n + j.val, h⟩ else 0

/-- The columns 0 … 8191 are the 32 blocks of 256 columns: k = 256 n + j, through the bijection
    Fin 32 × Fin 256 ≃ Fin 8192. -/
theorem sum_div_mod {M : Type} [AddCommMonoid M] (H : ℕ → M) :
    (∑ n ∈ Finset.range 32, ∑ j : Fin 256, H (256 * n + j.val)) = ∑ k : Fin 8192, H k.val := by
  rw [← Fin.sum_univ_eq_sum_range (fun n => ∑ j : Fin 256, H (256 * n + j.val)) 32]
  rw [← Fintype.sum_prod_type']
  refine Fintype.sum_equiv (finProdFinEquiv (m := 32) (n := 256)) _ _ (fun p => ?_)
  simp [finProdFinEquiv, Nat.add_comm]

/-- A column of one of the 32 blocks is a column of the row. -/
theorem block_lt {n : ℕ} (hn : n < 32) (j : Fin 256) : 256 * n + j.val < 8192 := by
  have := j.isLt
  omega

/-- Inside the 32 blocks, blocksOf reads the row. -/
theorem blocksOf_of_lt (z : Fin 8192 → EReal) {n : ℕ} (hn : n < 32) (j : Fin 256) :
    blocksOf z n j = z ⟨256 * n + j.val, block_lt hn j⟩ := by
  unfold blocksOf
  rw [dif_pos (block_lt hn j)]

/-- Summing a function of the columns block by block is summing it over the row. -/
theorem sum_blocks (z : Fin 8192 → EReal) (f : EReal → EReal) :
    (∑ n ∈ Finset.range 32, ∑ j : Fin 256, f (blocksOf z n j)) = ∑ k : Fin 8192, f (z k) := by
  have h := sum_div_mod (fun k => if h : k < 8192 then f (z ⟨k, h⟩) else 0)
  have hr : (∑ k : Fin 8192, (fun k => if h : k < 8192 then f (z ⟨k, h⟩) else 0) k.val) = ∑ k : Fin 8192, f (z k) :=
    Finset.sum_congr rfl (fun k _ => by simp only [dif_pos k.isLt, Fin.eta])
  rw [← hr, ← h]
  refine Finset.sum_congr rfl (fun n hn => Finset.sum_congr rfl (fun j _ => ?_))
  have hn' : n < 32 := Finset.mem_range.mp hn
  simp only [blocksOf_of_lt z hn' j, dif_pos (block_lt hn' j)]

/-- The one column equal to the target picks out the target's logit. -/
theorem sum_onehot (z : Fin 8192 → EReal) (g : Fin 8192) :
    (∑ n ∈ Finset.range 32, ∑ j : Fin 256, (if 256 * n + j.val = g.val then blocksOf z n j else 0)) = z g := by
  have h := sum_div_mod (fun k => if h : k < 8192 then (if k = g.val then z ⟨k, h⟩ else 0) else 0)
  have hr : (∑ k : Fin 8192, (fun k => if h : k < 8192 then (if k = g.val then z ⟨k, h⟩ else 0) else 0) k.val) = z g := by
    have : ∀ k : Fin 8192, (fun k => if h : k < 8192 then (if k = g.val then z ⟨k, h⟩ else (0 : EReal)) else 0) k.val
        = if k = g then z k else 0 := by
      intro k
      simp only [dif_pos k.isLt, Fin.eta, Fin.val_inj]
    rw [Finset.sum_congr rfl (fun k _ => this k)]
    simp
  rw [← hr, ← h]
  refine Finset.sum_congr rfl (fun n hn => Finset.sum_congr rfl (fun j _ => ?_))
  have hn' : n < 32 := Finset.mem_range.mp hn
  simp only [blocksOf_of_lt z hn' j, dif_pos (block_lt hn' j)]

/-- One step of the recurrence, written out. -/
theorem onl_succ (s₀ : EReal) (zb : ℕ → Fin 256 → EReal) (n : ℕ) :
    onl s₀ zb (n + 1) =
      (max (onl s₀ zb n).1 (rowMax (zb n)),
        Ideal.exp ((onl s₀ zb n).1 - max (onl s₀ zb n).1 (rowMax (zb n))) * (onl s₀ zb n).2
          + ∑ j : Fin 256, Ideal.exp (zb n j - max (onl s₀ zb n).1 (rowMax (zb n)))) := rfl

/-- After n blocks of real columns the running pair (m, l) is a pair of reals with
    exp m · l = Σ over the first n blocks of exp z. The step multiplies the old sum by exp (m − m') and adds
    the new block's exponentials relative to m'; since exp m' · exp (x − m') = exp x, the product exp m · l
    gains exactly the new block's Σ exp z, whatever real the new maximum m' is. -/
theorem onl_real (s : ℝ) (rb : ℕ → Fin 256 → ℝ) (n : ℕ) :
    ∃ m l : ℝ, onl (s : EReal) (fun i j => (rb i j : EReal)) n = ((m : EReal), (l : EReal)) ∧
      Real.exp m * l = ∑ i ∈ Finset.range n, ∑ j : Fin 256, Real.exp (rb i j) := by
  induction n with
  | zero => exact ⟨s, 0, rfl, by simp⟩
  | succ n ih =>
    obtain ⟨m, l, h, hinv⟩ := ih
    obtain ⟨m', hm'⟩ := isReal_max_rowMax ⟨m, rfl⟩ (fun j => (rb n j : EReal)) (fun j => ⟨rb n j, rfl⟩)
    refine ⟨m', Real.exp (m - m') * l + ∑ j : Fin 256, Real.exp (rb n j - m'), ?_, ?_⟩
    · rw [onl_succ, h]
      simp only
      rw [hm']
      simp only [← EReal.coe_sub, Ideal.exp_coe, coe_sum, ← EReal.coe_mul, ← EReal.coe_add]
    · rw [Finset.sum_range_succ, ← hinv, mul_add, ← mul_assoc, ← Real.exp_add, Finset.mul_sum]
      congr 1
      · congr 2; ring
      · refine Finset.sum_congr rfl (fun j _ => ?_)
        rw [← Real.exp_add]; congr 1; ring

/-- THE LAW. For a row of finite logits and any finite start `s₀` of the running maximum, the kernel's value
    (m + log l) − z[g] after the 32 blocks is the reference's −log_softmax(z)[g]. -/
theorem onlNll_eq_neg_lsm (s₀ : EReal) (hs : IsReal s₀) (z : Fin 8192 → EReal) (hz : ∀ k, IsReal (z k)) (g : Fin 8192) :
    onlNll s₀ (blocksOf z) (z g) = -(lsm z g) := by
  obtain ⟨s, rfl⟩ := hs
  choose r hr using hz
  -- the blocks, as reals (0 beyond the 32 blocks)
  have hb : blocksOf z = fun n j => (((fun k : ℕ => if h : k < 8192 then r ⟨k, h⟩ else 0) (256 * n + j.val) : ℝ) : EReal) := by
    funext n j
    unfold blocksOf
    by_cases h : 256 * n + j.val < 8192
    · simp only [dif_pos h, hr]
    · simp only [dif_neg h, EReal.coe_zero]
  obtain ⟨m, l, hml, hinv⟩ := onl_real s (fun n j => (fun k : ℕ => if h : k < 8192 then r ⟨k, h⟩ else 0) (256 * n + j.val)) 32
  -- the kernel's side: exp m · l = T := Σ_k exp (z k), so l > 0 and log l = log T − m
  have hT : Real.exp m * l = ∑ k : Fin 8192, Real.exp (r k) := by
    rw [hinv, sum_div_mod (fun k => Real.exp ((fun k : ℕ => if h : k < 8192 then r ⟨k, h⟩ else 0) k))]
    refine Finset.sum_congr rfl (fun k _ => ?_)
    simp only [dif_pos k.isLt, Fin.eta]
  have hTpos : 0 < ∑ k : Fin 8192, Real.exp (r k) :=
    Finset.sum_pos (fun k _ => Real.exp_pos _) ⟨0, Finset.mem_univ _⟩
  have hl : 0 < l := by
    have h0 : 0 < Real.exp m * l := hT ▸ hTpos
    exact (mul_pos_iff_of_pos_left (Real.exp_pos m)).mp h0
  have hlogl : Real.log l = Real.log (∑ k : Fin 8192, Real.exp (r k)) - m := by
    rw [← hT, Real.log_mul (Real.exp_pos m).ne' hl.ne', Real.log_exp]; ring
  -- the reference's side: the row maximum M is a real, Σ_j exp (z j − M) = exp (−M) · T > 0, its log is log T − M
  obtain ⟨mx, hmx⟩ := isReal_rowMax (by norm_num) z (fun k => ⟨r k, hr k⟩)
  have hS : (∑ j : Fin 8192, Real.exp (r j - mx)) = Real.exp (-mx) * ∑ k : Fin 8192, Real.exp (r k) := by
    rw [Finset.mul_sum]
    refine Finset.sum_congr rfl (fun j _ => ?_)
    rw [← Real.exp_add]; congr 1; ring
  have hSpos : 0 < ∑ j : Fin 8192, Real.exp (r j - mx) :=
    Finset.sum_pos (fun k _ => Real.exp_pos _) ⟨0, Finset.mem_univ _⟩
  have hlogS : Real.log (∑ j : Fin 8192, Real.exp (r j - mx)) = Real.log (∑ k : Fin 8192, Real.exp (r k)) - mx := by
    rw [hS, Real.log_mul (Real.exp_pos _).ne' hTpos.ne', Real.log_exp]; ring
  -- both sides are log T − z g
  have key : m + Real.log l - r g = -((r g - mx) - Real.log (∑ j : Fin 8192, Real.exp (r j - mx))) := by
    rw [hlogl, hlogS]; ring
  unfold onlNll lsm
  rw [hb, hml, hmx]
  simp only [hr, ← EReal.coe_sub, Ideal.exp_coe, coe_sum, Ideal.log_coe, if_neg (not_le.mpr hl), if_neg (not_le.mpr hSpos),
    ← EReal.coe_add, ← EReal.coe_neg]
  rw [key]

end Cert.Spec

end
-- ==== Proof.Pre.lean ====
import proofs.«401600_j86689619903517_2_alg».proof.Pre_finite_inputs
import proofs.«401600_j86689619903517_2_alg».proof.Proof.Gen.Pre_finite_inputs
import proofs.«401600_j86689619903517_2_alg».proof.Proof.Spec
import Idealize.ShloMosaic.Lib.ReduceAll
import Idealize.ShloMosaic.Lib.StableHlo.Predicate
import Idealize.ShloMosaic.Lib.ValueIdx

/-!
  The precondition read back. The printed predicate is a conjunction of eight `all`s: four say that every
  entry of a float argument has absolute value below +∞, four say that every word of an integer argument is
  at least 0, respectively below 8192, as a signed number. At the extended reals an entry whose absolute value
  max x (−x) is below ⊤ is neither ⊤ nor ⊥, hence a real; a signed comparison against a constant word is the
  comparison of the signed values.
-/

noncomputable section

namespace Cert.Proof.PreFacts

open Idealize.ShloMosaic
open Cert.Pre_finite_inputs

/-- The rank-0 shape has one index. -/
instance subsingleton_scalar_idx : Subsingleton S_.Idx := ⟨fun a b => funext fun d => d.elim0⟩

/-- The pattern 0x7F800000 denotes +∞. -/
theorem inf_pattern : Ideal.ofBits .f32 0x7F800000#32 = (⊤ : EReal) := by
  simp [Ideal.ofBits, Ideal.ieee]

/-- An extended real whose absolute value max x (−x) is below ⊤ is a real. -/
theorem isReal_of_abs_lt_top (x : EReal) (h : max x (-x) < ⊤) : Cert.Spec.IsReal x := by
  induction x using EReal.rec with
  | bot => exact absurd h (by simp)
  | coe r => exact ⟨r, rfl⟩
  | top => exact absurd h (by simp)

/-- One float conjunct: all |x| < +∞ makes every entry a real. -/
theorem all_real {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant (F := Ideal) S_ .f32 0x7F800000#32)))
        (constantI S_ 1 1#1) hr hu ValueIdx.ix0 = 1#1) (i : s.Idx) : Cert.Spec.IsReal (x i) := by
  have hi := Host.reduce_andi_all _ _ hr hu _ e i
  have hi' : Ideal.cmp .olt (max (x i) (-(x i))) (Ideal.ofBits .f32 0x7F800000#32) = 1#1 := hi
  rw [inf_pattern] at hi'
  unfold Ideal.cmp at hi'
  rw [StableHlo.Predicate.ofBool_eq_one_iff] at hi'
  exact isReal_of_abs_lt_top _ (of_decide_eq_true hi')

/-- One integer conjunct: all x ≥ 0 signed. -/
theorem all_nonneg {s : Shape} {axes : List (Fin s.rank)} (x : IVec s 32) (hb : S_.BroadcastsInDim s (![] : Fin 0 → Fin s.rank))
    (hr : s.ReducesTo axes S_) (hu : 0 < S_.numel)
    (e : Host.reduce IntOp.andi (cmpi .sge x (broadcastInDim s ![] hb (constantI S_ 32 0#32)))
        (constantI S_ 1 1#1) hr hu ValueIdx.ix0 = 1#1) (i : s.Idx) : 0 ≤ (x i).toInt := by
  have hi := Host.reduce_andi_all _ _ hr hu _ e i
  have hi' : IntOp.cmpi .sge (x i) (0#32) = 1#1 := hi
  rw [IntOp.cmpi_sge] at hi'
  exact hi'

/-- One integer conjunct: all x < 8192 signed. -/
theorem all_lt {s : Shape} {axes : List (Fin s.rank)} (x : IVec s 32) (hb : S_.BroadcastsInDim s (![] : Fin 0 → Fin s.rank))
    (hr : s.ReducesTo axes S_) (hu : 0 < S_.numel)
    (e : Host.reduce IntOp.andi (cmpi .slt x (broadcastInDim s ![] hb (constantI S_ 32 8192#32)))
        (constantI S_ 1 1#1) hr hu ValueIdx.ix0 = 1#1) (i : s.Idx) : (x i).toInt < 8192 := by
  have hi := Host.reduce_andi_all _ _ hr hu _ e i
  have hi' : IntOp.cmpi .slt (x i) (8192#32) = 1#1 := hi
  rw [IntOp.cmpi_slt] at hi'
  have h8 : (8192#32 : BitVec 32).toInt = 8192 := by decide
  rw [h8] at hi'
  exact hi'

/-- THE PRECONDITION DECODED: the four float arguments hold reals, the two integer arguments words in [0, 8192). -/
theorem pre_facts (a0 a1 : IVec S8x1024 32) (a2 : FVec Ideal S8192x1024 .f32) (a3 a4 : FVec Ideal S4x1024x1024 .f32)
    (a5 : FVec Ideal S8192x1024 .f32)
    (h : Cert.Pre_finite_inputs.fn (F := Ideal) a0 a1 a2 a3 a4 a5 = fun _ => 1#1) :
    (∀ i, Cert.Spec.IsReal (a2 i)) ∧ (∀ i, Cert.Spec.IsReal (a3 i)) ∧ (∀ i, Cert.Spec.IsReal (a4 i)) ∧ (∀ i, Cert.Spec.IsReal (a5 i))
      ∧ Cert.Spec.InRange a0 ∧ Cert.Spec.InRange a1 := by
  have e := congrFun h ValueIdx.ix0
  dsimp only [fn, fn_part1, fn_part2] at e
  simp only [andi, IntOp.andi_eq_one] at e
  obtain ⟨⟨⟨⟨⟨⟨⟨e2, e3⟩, e4⟩, e5⟩, e0l⟩, e0u⟩, e1l⟩, e1u⟩ := e
  exact ⟨all_real a2 _ _ _ e2, all_real a3 _ _ _ e3, all_real a4 _ _ _ e4, all_real a5 _ _ _ e5,
    fun b t => ⟨all_nonneg a0 _ _ _ e0l _, all_lt a0 _ _ _ e0u _⟩,
    fun b t => ⟨all_nonneg a1 _ _ _ e1l _, all_lt a1 _ _ _ e1u _⟩⟩

end Cert.Proof.PreFacts

end
-- ==== Proof.KI.LayersValue.lean ====
/-
  What region 0 (the four layers) leaves in its output array, over the extended reals.

  Grid point t = 4 b + l holds batch row b's embedding block, layer l's value and feed-forward weights, and a scratch
  carried along l. One step of the body sends the scratch s to  s · wmᵀ + (row 1 of s · wvᵀ, on every row):  entry (p, q) is
      Σₖ s(p, k) · wm(q, k)  +  Σₖ s(1, k) · wv(q, k),
  which is the specification's `layer` term by term: a format change is the identity on extended reals; the transpose,
  followed by the contraction of axis 1 of the left operand with axis 0 of the right, puts the channel index last in
  both factors; the row slice and its broadcast read row 1 at every row.

  So after point 4 b + l the scratch is layers 0 … l of batch row b's block (induction on l; at l = 0 the body first
  overwrites the scratch with the block), the output block written back at 4 b + 3 is all four layers, those eight blocks
  tile the [8, 1024, 1024] array, and the array ends holding `hidden4` of every batch row.
-/
import proofs.«401600_j86689619903517_2_alg».proof.Proof.KI.LayersFrame
import proofs.«401600_j86689619903517_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LayersValue

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Layers

variable (V : (c : Dev nD) → (b : Ref sig .tc) → Buf (Elt Ideal) ((c : Thread nD τ).loc b))

/-! ## The layout operations of the body, read at explicit coordinates -/

/-- Dropping the leading unit axis of a [1, 1024, 1024] block reads (0, p, q) at (p, q). -/
theorem dropUnit_apply {α : Type} (x : S1x1024x1024.Idx → α) (p q : Fin 1024) :
    shapeCast S1024x1024 x shapeCasts_S1x1024x1024_S1024x1024 (ix2 p q) = x (ix3 0 p q) := by
  refine shapeCast_apply x _ (ix2 p q) (ix3 0 p q) ?_
  rw [Shape.rowMajor_val_three, Shape.rowMajor_val_two]
  show ((0 : Nat) * 1024 + p.val) * 1024 + q.val = p.val * 1024 + q.val
  omega

/-- Adding a leading unit axis to a [1024, 1024] value reads (p, q) at (0, p, q). -/
theorem addUnit_apply {α : Type} (x : S1024x1024.Idx → α) (p q : Fin 1024) :
    shapeCast S1x1024x1024 x shapeCasts_S1024x1024_S1x1024x1024 (ix3 0 p q) = x (ix2 p q) := by
  refine shapeCast_apply x _ (ix3 0 p q) (ix2 p q) ?_
  rw [Shape.rowMajor_val_three, Shape.rowMajor_val_two]
  show p.val * 1024 + q.val = ((0 : Nat) * 1024 + p.val) * 1024 + q.val
  omega

/-- The transpose of a square block reads (q, k) at (k, q). -/
theorem transpose_apply' {α : Type} (x : S1024x1024.Idx → α) (k q : Fin 1024) :
    transpose S1024x1024 [1, 0] x transposes_S1024x1024_p1_0_S1024x1024 (ix2 k q) = x (ix2 q k) := by
  refine transpose_apply _ x _ (ix2 k q) (ix2 q k) fun b => ?_
  match b with
  | ⟨0, _⟩ => rfl
  | ⟨1, _⟩ => rfl

/-! ## The body's matrix product at an index -/

theorem lhs_axis0 (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_axis1 (i : S1024x1024.Idx) (k : dot_S1024x1024_S1024x1024_S1024x1024_1_0_0_1_n_n.contr.Idx) :
    (dot_S1024x1024_S1024x1024_S1024x1024_1_0_0_1_n_n.lhsIdx i k 1).val = (k ⟨0, by decide⟩).val :=
  dot_S1024x1024_S1024x1024_S1024x1024_1_0_0_1_n_n.lhsIdx_val_of_single rfl i k
theorem rhs_axis0 (i : S1024x1024.Idx) (k : dot_S1024x1024_S1024x1024_S1024x1024_1_0_0_1_n_n.contr.Idx) :
    (dot_S1024x1024_S1024x1024_S1024x1024_1_0_0_1_n_n.rhsIdx i k 0).val = (k ⟨0, by decide⟩).val :=
  dot_S1024x1024_S1024x1024_S1024x1024_1_0_0_1_n_n.rhsIdx_val_of_single rfl i k
theorem rhs_axis1 (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product of two square blocks into the zero accumulator: entry (p, q) is Σₖ a(p, k) · b(k, q). -/
theorem matmul_apply' (a b : FVec Ideal S1024x1024 .bf16) (p q : Fin 1024) :
    matmul dot_S1024x1024_S1024x1024_S1024x1024_1_0_0_1_n_n none a b (constant (F := Ideal) S1024x1024 .f32 0x00000000#32) (ix2 p q)
      = ∑ k : Fin 1024, a (ix2 p k) * b (ix2 k q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-! ## The body's payloads at an index (extended reals: a format change is the identity) -/

/-- The reset value: the embedding block with its unit axis dropped. -/
theorem pay1_apply (x : Vec Ideal S1x1024x1024 .f32) (p q : Fin 1024) :
    k0_pay1 (F := Ideal) x (ix2 p q) = x (ix3 0 p q) := by
  unfold k0_pay1
  refine (congrFun (shapeCast_self _ _) _).trans ?_
  exact dropUnit_apply x p q

/-- The feed-forward product: entry (p, q) is Σₖ s(p, k) · wm(0, q, k). -/
theorem pay3_apply (s : Vec Ideal S1024x1024 .f32) (wm : Vec Ideal S1x1024x1024 .bf16) (p q : Fin 1024) :
    k0_pay3 (F := Ideal) s wm (ix2 p q) = ∑ k : Fin 1024, s (ix2 p k) * wm (ix3 0 q k) := by
  unfold k0_pay3
  refine (congrFun (shapeCast_self _ _) _).trans ?_
  refine (matmul_apply' _ _ p q).trans ?_
  refine Finset.sum_congr rfl fun k _ => ?_
  refine congrArg (s (ix2 p k) * ·) ?_
  refine (transpose_apply' _ k q).trans ?_
  exact dropUnit_apply wm q k

/-- The value product's row 1, repeated down the rows, added to what the scratch holds:
    entry (p, q) is acc(p, q) + Σₖ s(1, k) · wv(0, q, k). -/
theorem pay4_apply (s : Vec Ideal S1024x1024 .f32) (wv : Vec Ideal S1x1024x1024 .bf16) (acc : Vec Ideal S1024x1024 .f32)
    (p q : Fin 1024) :
    k0_pay4 (F := Ideal) s wv acc (ix2 p q) = acc (ix2 p q) + ∑ k : Fin 1024, s (ix2 1 k) * wv (ix3 0 q k) := by
  unfold k0_pay4
  refine (congrFun (shapeCast_self _ _) _).trans ?_
  refine congrArg (acc (ix2 p q) + ·) ?_
  refine (broadcastTo_apply _ _ (ix2 p q) (ix2 0 q) fun a => ?_).trans ?_
  · match a with
    | ⟨0, _⟩ => rfl
    | ⟨1, _⟩ => rfl
  refine (congrFun (shapeCast_self _ _) _).trans ?_
  refine (extractStridedSlice_apply _ _ _ (ix2 0 q) (ix2 1 q) fun a => ?_).trans ?_
  · match a with
    | ⟨0, _⟩ => rfl
    | ⟨1, _⟩ => show q.val = 0 + q.val; omega
  refine (matmul_apply' _ _ 1 q).trans ?_
  refine Finset.sum_congr rfl fun k _ => ?_
  refine congrArg (s (ix2 1 k) * ·) ?_
  refine (transpose_apply' _ k q).trans ?_
  exact dropUnit_apply wv q k

/-- The output block: the scratch with a unit axis added. -/
theorem pay5_apply (a : Vec Ideal S1024x1024 .f32) (p q : Fin 1024) :
    k0_pay5 (F := Ideal) a (ix3 0 p q) = a (ix2 p q) := by
  unfold k0_pay5
  exact addUnit_apply _ p q

/-- One step of the body on the scratch, at an index. -/
theorem step_apply (s : Vec Ideal S1024x1024 .f32) (wv wm : Vec Ideal S1x1024x1024 .bf16) (p q : Fin 1024) :
    step (F := Ideal) s wv wm (ix2 p q)
      = (∑ k : Fin 1024, s (ix2 p k) * wm (ix3 0 q k)) + ∑ k : Fin 1024, s (ix2 1 k) * wv (ix3 0 q k) := by
  unfold step
  refine (pay4_apply s wv _ p q).trans ?_
  exact congrArg (· + ∑ k : Fin 1024, s (ix2 1 k) * wv (ix3 0 q k)) (pay3_apply s wm p q)

/-! ## The blocks: which part of its array each window holds at a grid point -/

/-- The printed index maps over the 32 grid points (point t = 4·(batch row) + layer): the embedding window and the
    output window sit on batch row t / 4, the two weight windows on layer t % 4; every other block index is 0. -/
theorem index_facts : ∀ t : Fin cfg0.N,
    win0_0.index t (0 : Fin 3) = t.val / 4 ∧ win0_0.index t (1 : Fin 3) = 0 ∧ win0_0.index t (2 : Fin 3) = 0
    ∧ win0_1.index t (0 : Fin 3) = t.val % 4 ∧ win0_1.index t (1 : Fin 3) = 0 ∧ win0_1.index t (2 : Fin 3) = 0
    ∧ win0_2.index t (0 : Fin 3) = t.val % 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

/-- The embedding window's block at point t is batch row t / 4 of its array. -/
theorem iblk0_0_apply (c : Dev nD) (t : Fin cfg0.N) (b : Fin 8) (hb : b.val = t.val / 4) (p q : Fin 1024) :
    (iblk0 V c 0 t : Vec Ideal S1x1024x1024 .f32) (ix3 0 p q) = (V c main_v0 : S8x1024x1024.Idx → EReal) (ix3 b p q) := by
  obtain ⟨e0, e1, e2, -⟩ := index_facts t
  unfold iblk0
  rw [View.read_apply]
  show V c main_v0 _ = V c main_v0 _
  congr 1
  funext a
  apply Fin.ext
  match a with
  | ⟨0, _⟩ => show win0_0.index t (0 : Fin 3) * 1 + 1 * 0 = b.val; rw [e0, hb]; omega
  | ⟨1, _⟩ => show win0_0.index t (1 : Fin 3) * 1024 + 1 * p.val = p.val; rw [e1]; omega
  | ⟨2, _⟩ => show win0_0.index t (2 : Fin 3) * 1024 + 1 * q.val = q.val; rw [e2]; omega

/-- The value-weight window's block at point t is layer t % 4 of its array. -/
theorem iblk0_1_apply (c : Dev nD) (t : Fin cfg0.N) (l : Fin 4) (hl : l.val = t.val % 4) (p q : Fin 1024) :
    (iblk0 V c 1 t : Vec Ideal S1x1024x1024 .bf16) (ix3 0 p q) = (V c main_v1 : S4x1024x1024.Idx → EReal) (ix3 l p q) := by
  obtain ⟨-, -, -, e0, e1, e2, -⟩ := index_facts t
  unfold iblk0
  rw [View.read_apply]
  show V c main_v1 _ = V c main_v1 _
  congr 1
  funext a
  apply Fin.ext
  match a with
  | ⟨0, _⟩ => show win0_1.index t (0 : Fin 3) * 1 + 1 * 0 = l.val; rw [e0, hl]; omega
  | ⟨1, _⟩ => show win0_1.index t (1 : Fin 3) * 1024 + 1 * p.val = p.val; rw [e1]; omega
  | ⟨2, _⟩ => show win0_1.index t (2 : Fin 3) * 1024 + 1 * q.val = q.val; rw [e2]; omega

/-- The feed-forward-weight window's block at point t is layer t % 4 of its array. -/
theorem iblk0_2_apply (c : Dev nD) (t : Fin cfg0.N) (l : Fin 4) (hl : l.val = t.val % 4) (p q : Fin 1024) :
    (iblk0 V c 2 t : Vec Ideal S1x1024x1024 .bf16) (ix3 0 p q) = (V c main_v2 : S4x1024x1024.Idx → EReal) (ix3 l p q) := by
  obtain ⟨-, -, -, -, -, -, e0, e1, e2, -⟩ := index_facts t
  unfold iblk0
  rw [View.read_apply]
  show V c main_v2 _ = V c main_v2 _
  congr 1
  funext a
  apply Fin.ext
  match a with
  | ⟨0, _⟩ => show win0_2.index t (0 : Fin 3) * 1 + 1 * 0 = l.val; rw [e0, hl]; omega
  | ⟨1, _⟩ => show win0_2.index t (1 : Fin 3) * 1024 + 1 * p.val = p.val; rw [e1]; omega
  | ⟨2, _⟩ => show win0_2.index t (2 : Fin 3) * 1024 + 1 * q.val = q.val; rw [e2]; omega

/-! ## The scratch along a batch row's four points -/

/-- The specification's layers 0 … l applied to a block. -/
def layersUpTo (wv wm : Fin 4 → Fin 1024 → Fin 1024 → EReal) (x : Fin 1024 → Fin 1024 → EReal) :
    ℕ → Fin 1024 → Fin 1024 → EReal
  | 0 => Cert.Spec.layer (wv 0) (wm 0) x
  | l + 1 => Cert.Spec.layer (wv ⟨(l + 1) % 4, Nat.mod_lt _ (by decide)⟩) (wm ⟨(l + 1) % 4, Nat.mod_lt _ (by decide)⟩)
      (layersUpTo wv wm x l)

theorem layersUpTo_zero (wv wm : Fin 4 → Fin 1024 → Fin 1024 → EReal) (x : Fin 1024 → Fin 1024 → EReal) :
    layersUpTo wv wm x 0 = Cert.Spec.layer (wv 0) (wm 0) x := rfl

theorem layersUpTo_succ (wv wm : Fin 4 → Fin 1024 → Fin 1024 → EReal) (x : Fin 1024 → Fin 1024 → EReal) (l : ℕ) :
    layersUpTo wv wm x (l + 1)
      = Cert.Spec.layer (wv ⟨(l + 1) % 4, Nat.mod_lt _ (by decide)⟩) (wm ⟨(l + 1) % 4, Nat.mod_lt _ (by decide)⟩)
          (layersUpTo wv wm x l) := rfl

/-- All four are the specification's hidden state. -/
theorem layersUpTo_three (wv wm : Fin 4 → Fin 1024 → Fin 1024 → EReal) (x : Fin 1024 → Fin 1024 → EReal) :
    layersUpTo wv wm x 3 = Cert.Spec.hidden4 wv wm x := rfl

/-- ONE LAYER AT A POINT. If the scratch holds y, the body's step at point t with the two weight blocks staged there
    leaves the specification's layer t % 4 of y: the same two sums over the channel, term by term. -/
theorem layer_at (c : Dev nD) (t : Fin cfg0.N) (l : Fin 4) (hl : l.val = t.val % 4) (s : Vec Ideal S1024x1024 .f32)
    (y : Fin 1024 → Fin 1024 → EReal) (hs : ∀ p q : Fin 1024, s (ix2 p q) = y p q) (p q : Fin 1024) :
    step (F := Ideal) s (iblk0 V c 1 t) (iblk0 V c 2 t) (ix2 p q)
      = Cert.Spec.layer (Cert.Spec.w4 (V c main_v1 : S4x1024x1024.Idx → EReal) l)
          (Cert.Spec.w4 (V c main_v2 : S4x1024x1024.Idx → EReal) l) y p q := by
  refine (step_apply s (iblk0 V c 1 t) (iblk0 V c 2 t) p q).trans ?_
  unfold Cert.Spec.layer Cert.Spec.w4
  refine congrArg₂ (· + ·) (Finset.sum_congr rfl fun k _ => ?_) (Finset.sum_congr rfl fun k _ => ?_)
  · exact congrArg₂ (· * ·) (hs p k) (iblk0_2_apply V c t l hl q k)
  · exact congrArg₂ (· * ·) (hs 1 k) (iblk0_1_apply V c t l hl q k)

theorem N_eq : cfg0.N = 32 := rfl

/-- THE INVARIANT. At point 4 b + l the scratch holds layers 0 … l of batch row b's embedding block: at l = 0 the body
    first overwrites the scratch with that block, and every point applies one layer to what it finds. -/
theorem accAt_eq (c : Dev nD) (b : Fin 8) : ∀ (l : ℕ), l < 4 → ∀ (t : Fin cfg0.N), t.val = 4 * b.val + l →
    ∀ p q : Fin 1024, (accAt V c t.val t.isLt) (ix2 p q)
      = layersUpTo (Cert.Spec.w4 (V c main_v1 : S4x1024x1024.Idx → EReal)) (Cert.Spec.w4 (V c main_v2 : S4x1024x1024.Idx → EReal))
          (fun tt cc => (V c main_v0 : S8x1024x1024.Idx → EReal) (ix3 b tt cc)) l p q
  | 0, _, t, ht, p, q => by
    rw [accAt_reset V c t (by omega), layersUpTo_zero]
    refine layer_at V c t 0 (by show 0 = t.val % 4; omega) _ _ (fun p' q' => ?_) p q
    exact (pay1_apply _ p' q').trans (iblk0_0_apply V c t b (by omega) p' q')
  | l + 1, hl, t, ht, p, q => by
    rw [accAt_step V c t (by omega), layersUpTo_succ]
    have ht' : t.val - 1 < cfg0.N := Nat.lt_of_le_of_lt (Nat.sub_le _ _) t.isLt
    refine layer_at V c t ⟨(l + 1) % 4, Nat.mod_lt _ (by decide)⟩ (by show (l + 1) % 4 = t.val % 4; omega) _ _ (fun p' q' => ?_) p q
    exact accAt_eq c b l (by omega) ⟨t.val - 1, ht'⟩ (by show t.val - 1 = 4 * b.val + l; omega) p' q'

/-! ## From the blocks to the array -/

/-- The output block at a general index of the block: the scratch at the two trailing coordinates. -/
theorem pay5_at (a : Vec Ideal S1024x1024 .f32) (j : S1x1024x1024.Idx) :
    k0_pay5 (F := Ideal) a j = a (ix2 (j 1) (j 2)) := by
  unfold k0_pay5
  refine (shapeCast_addUnit_apply _ _ _ j).trans ?_
  refine congrArg _ (funext fun e => ?_)
  match e with
  | ⟨0, _⟩ => rfl
  | ⟨1, _⟩ => rfl

/-- The specification's hidden state of every batch row, as contents of the output array. -/
def hiddenArr (c : Dev nD) : S8x1024x1024.Idx → EReal := fun i =>
  Cert.Spec.hidden4 (Cert.Spec.w4 (V c main_v1 : S4x1024x1024.Idx → EReal)) (Cert.Spec.w4 (V c main_v2 : S4x1024x1024.Idx → EReal))
    (fun tt cc => (V c main_v0 : S8x1024x1024.Idx → EReal) (ix3 (i 0) tt cc)) (i 1) (i 2)

/-- WHAT A POINT WRITES BACK. The output window is written back at the points 4 b + 3 only; there the output block is
    the scratch after four layers of batch row b, and the block sits on batch row b of the array. -/
theorem flushed_eq (c : Dev nD) (t : Fin cfg0.N) (hf : (cfg0.win 3).flush t = true) :
    (dat0 (F := Ideal) V c).flushed 3 t = ((cfg0.win 3).blk t).view.read (Elt Ideal) (hiddenArr V c) := by
  have h3 : t.val % 4 = 3 := (flush0_3 t).mp hf
  have hN : t.val < 32 := t.isLt
  obtain ⟨-, -, -, -, -, -, -, -, -, e0, e1, e2⟩ := index_facts t
  show (cfg0.win 3).cut (grid0.coords t) ((dat0 (F := Ideal) V c).after 3 t) = _
  rw [after0_3]
  funext j
  show k0_pay5 (F := Ideal) (accAt V c t.val t.isLt) j = hiddenArr V c (((cfg0.win 3).blk t).view.emb j)
  refine (pay5_at _ j).trans ?_
  have hj0 : (j 0).val < 1 := (j 0).isLt
  refine (accAt_eq V c ⟨t.val / 4, by omega⟩ 3 (by decide) t (by show t.val = 4 * (t.val / 4) + 3; omega) (j 1) (j 2)).trans ?_
  rw [layersUpTo_three]
  unfold hiddenArr
  have i0 : ((cfg0.win 3).blk t).view.emb j 0 = (⟨t.val / 4, by omega⟩ : Fin 8) :=
    Fin.ext (by show win0_3.index t (0 : Fin 3) * 1 + 1 * (j 0).val = t.val / 4; rw [e0]; omega)
  have i1 : ((cfg0.win 3).blk t).view.emb j 1 = j 1 :=
    Fin.ext (by show win0_3.index t (1 : Fin 3) * 1024 + 1 * (j 1).val = (j 1).val; rw [e1]; omega)
  have i2 : ((cfg0.win 3).blk t).view.emb j 2 = j 2 :=
    Fin.ext (by show win0_3.index t (2 : Fin 3) * 1024 + 1 * (j 2).val = (j 2).val; rw [e2]; omega)
  rw [i0, i1, i2]

/-- An index of the array is in point t's output block iff each coordinate is in the block's range on its axis. -/
theorem mem_blk (t : Fin cfg0.N) (i : S8x1024x1024.Idx) :
    i ∈ ((cfg0.win 3).blk t).view.set
      ↔ ∀ a : Fin 3, win0_3.index t a * S1x1024x1024.size a ≤ (i a).val ∧ (i a).val < win0_3.index t a * S1x1024x1024.size a + S1x1024x1024.size a := by
  show i ∈ ((View.whole main_v4).slice (win0_3.rect t)).set ↔ _
  rw [View.set_slice_whole, Rect.mem_set_unit]
  exact Iff.rfl

/-- THE ARRAY AFTER THE REGION: the point 4 b + 3 covers batch row b, so the whole output array holds the
    specification's hidden state. -/
theorem final (c : Dev nD) : (dat0 (F := Ideal) V c).arrAt 3 cfg0.N = hiddenArr V c :=
  (dat0 (F := Ideal) V c).arrAt_eq_of_cover 3 (hiddenArr V c) (flushed_eq V c) fun i => by
    have h0 : (i 0).val < 8 := (i 0).isLt
    have h1 : (i 1).val < 1024 := (i 1).isLt
    have h2 : (i 2).val < 1024 := (i 2).isLt
    have hN : 4 * (i 0).val + 3 < cfg0.N := by rw [N_eq]; omega
    obtain ⟨-, -, -, -, -, -, -, -, -, e0, e1, e2⟩ := index_facts ⟨4 * (i 0).val + 3, hN⟩
    refine ⟨⟨4 * (i 0).val + 3, hN⟩, (flush0_3 _).mpr (by show (4 * (i 0).val + 3) % 4 = 3; omega), ?_⟩
    rw [mem_blk]
    intro a
    match a with
    | ⟨0, _⟩ =>
      show win0_3.index ⟨4 * (i 0).val + 3, hN⟩ (0 : Fin 3) * 1 ≤ (i 0).val ∧ (i 0).val < win0_3.index ⟨4 * (i 0).val + 3, hN⟩ (0 : Fin 3) * 1 + 1
      rw [e0]; show (4 * (i 0).val + 3) / 4 * 1 ≤ (i 0).val ∧ (i 0).val < (4 * (i 0).val + 3) / 4 * 1 + 1; omega
    | ⟨1, _⟩ =>
      show win0_3.index ⟨4 * (i 0).val + 3, hN⟩ (1 : Fin 3) * 1024 ≤ (i 1).val ∧ (i 1).val < win0_3.index ⟨4 * (i 0).val + 3, hN⟩ (1 : Fin 3) * 1024 + 1024
      rw [e1]; omega
    | ⟨2, _⟩ =>
      show win0_3.index ⟨4 * (i 0).val + 3, hN⟩ (2 : Fin 3) * 1024 ≤ (i 2).val ∧ (i 2).val < win0_3.index ⟨4 * (i 0).val + 3, hN⟩ (2 : Fin 3) * 1024 + 1024
      rw [e2]; omega

/-- THE RESULT OF REGION 0: entry (b, t, d) of the hidden-state array is the specification's four layers of batch
    row b's embedding block, at (t, d). -/
theorem hidden_value (c : Dev nD) (b : Fin 8) (t d : Fin 1024) :
    ((dat0 (F := Ideal) V c).arrAt 3 cfg0.N : S8x1024x1024.Idx → EReal) (ix3 b t d)
      = Cert.Spec.hidden4 (Cert.Spec.w4 (V c main_v1 : S4x1024x1024.Idx → EReal)) (Cert.Spec.w4 (V c main_v2 : S4x1024x1024.Idx → EReal))
          (fun tt cc => (V c main_v0 : S8x1024x1024.Idx → EReal) (ix3 b tt cc)) t d :=
  congrFun (final V c) (ix3 b t d)

end Cert.KernelIdeal.LayersValue

end
-- ==== Proof.KI.HeadCover.lean ====
/-
  From region 1's blocks to its three output arrays, over the extended reals.

  Grid point t = 32 b + v holds block v (256 vocabulary columns) of batch row b. The logits window's block at t sits
  at block index (b, 0, v) of the [8, 1024, 8192] array and is written back at every point, so entry (b, p, col) of the
  array is the entry (p, col − 256 (col / 256)) of the block stored at point 32 b + col / 256. The two per-row windows
  (the masked negative log-likelihood and the mask, [8, 1024, 1]) sit at block index (b, 0, 0) and are written back only
  at the last block of a row, t % 32 = 31, so row (b, p) is the entry p of the column stored at point 32 b + 31.

  Each statement takes, as its hypothesis, that the stored block agrees entry by entry with one whole-array function G
  at the array index the block's entry lands on, and concludes that the array holds G there after the region: an index
  in a written-back block reads G whatever later write-backs cover it again, because they write the same value.
-/
import proofs.«401600_j86689619903517_2_alg».proof.Proof.KI.HeadFrame
import proofs.«401600_j86689619903517_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HeadCover

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Head

variable (V : (c : Dev nD) → (b : Ref sig .tc) → Buf (Elt Ideal) ((c : Thread nD τ).loc b))

theorem N_eq : cfg1.N = 256 := rfl

/-- The printed index maps of the three output windows over the 256 grid points (point t = 32·(batch row) + block):
    the logits window sits on batch row t / 32 and vocabulary block t % 32, the two per-row columns on batch row t / 32. -/
theorem index_facts : ∀ t : Fin cfg1.N,
    win1_3.index t (0 : Fin 3) = t.val / 32 ∧ win1_3.index t (1 : Fin 3) = 0 ∧ win1_3.index t (2 : Fin 3) = t.val % 32
    ∧ win1_4.index t (0 : Fin 3) = t.val / 32 ∧ win1_4.index t (1 : Fin 3) = 0 ∧ win1_4.index t (2 : Fin 3) = 0
    ∧ win1_5.index t (0 : Fin 3) = t.val / 32 ∧ win1_5.index t (1 : Fin 3) = 0 ∧ win1_5.index t (2 : Fin 3) = 0 :=
  (by decide +kernel : ∀ t : Fin grid1.N, _)

/-! ## The logits array -/

/-- What point t writes back to the logits array is block t of G, when the stored block agrees with G entry by entry. -/
theorem flushed3_eq (c : Dev nD) (G : S8x1024x8192.Idx → EReal)
    (hG : ∀ (t : Fin cfg1.N) (u : Fin 1) (p : Fin 1024) (q : Fin 256) (b : Fin 8) (v : Fin 8192),
      t.val / 32 = b.val → v.val = 256 * (t.val % 32) + q.val → (logitsAt V c t (ix3 u p q) : EReal) = G (ix3 b p v))
    (t : Fin cfg1.N) (hf : (cfg1.win 3).flush t = true) :
    (dat1 (F := Ideal) V c).flushed 3 t = ((cfg1.win 3).blk t).view.read (Elt Ideal) G := by
  have hN : t.val < 256 := t.isLt
  obtain ⟨e0, e1, e2, -⟩ := index_facts t
  show (cfg1.win 3).cut (grid1.coords t) ((dat1 (F := Ideal) V c).after 3 t) = _
  rw [after1_3]
  refine funext fun (y : S1x1024x256.Idx) => ?_
  obtain ⟨u, p, q, rfl⟩ : ∃ (u : Fin 1) (p : Fin 1024) (q : Fin 256), y = ix3 u p q := ⟨y 0, y 1, y 2, eq_ix3 y⟩
  show logitsAt V c t (ix3 u p q) = G (((cfg1.win 3).blk t).view.emb (ix3 u p q))
  have hu : u.val = 0 := by have := u.isLt; omega
  refine (hG t u p q ⟨t.val / 32, by omega⟩ ⟨256 * (t.val % 32) + q.val, by have := q.isLt; omega⟩ rfl rfl).trans ?_
  refine congrArg G (funext fun a => Fin.ext ?_)
  match a with
  | ⟨0, _⟩ => show t.val / 32 = win1_3.index t (0 : Fin 3) * 1 + 1 * u.val; rw [e0, hu]; omega
  | ⟨1, _⟩ => show p.val = win1_3.index t (1 : Fin 3) * 1024 + 1 * p.val; rw [e1]; omega
  | ⟨2, _⟩ => show 256 * (t.val % 32) + q.val = win1_3.index t (2 : Fin 3) * 256 + 1 * q.val; rw [e2]; omega

/-- An index of the logits array is in point t's block iff each coordinate is in the block's range on its axis. -/
theorem mem_blk3 (t : Fin cfg1.N) (i : S8x1024x8192.Idx) :
    i ∈ ((cfg1.win 3).blk t).view.set
      ↔ ∀ a : Fin 3, win1_3.index t a * S1x1024x256.size a ≤ (i a).val ∧ (i a).val < win1_3.index t a * S1x1024x256.size a + S1x1024x256.size a := by
  show i ∈ ((View.whole main_v6_0).slice (win1_3.rect t)).set ↔ _
  rw [View.set_slice_whole, Rect.mem_set_unit]
  exact Iff.rfl

/-- THE LOGITS ARRAY AFTER THE REGION, at an index: entry (b, p, v) lies in the block of point 32 b + v / 256, which is
    written back, and every later write-back that covers it again writes the same value. -/
theorem arr3_of_blocks (c : Dev nD) (G : S8x1024x8192.Idx → EReal)
    (hG : ∀ (t : Fin cfg1.N) (u : Fin 1) (p : Fin 1024) (q : Fin 256) (b : Fin 8) (v : Fin 8192),
      t.val / 32 = b.val → v.val = 256 * (t.val % 32) + q.val → (logitsAt V c t (ix3 u p q) : EReal) = G (ix3 b p v))
    (b : Fin 8) (p : Fin 1024) (v : Fin 8192) :
    (dat1 (F := Ideal) V c).arrAt 3 cfg1.N (ix3 b p v) = G (ix3 b p v) := by
  have hb : b.val < 8 := b.isLt
  have hp : p.val < 1024 := p.isLt
  have hv : v.val < 8192 := v.isLt
  have hN : 32 * b.val + v.val / 256 < cfg1.N := by rw [N_eq]; omega
  obtain ⟨e0, e1, e2, -⟩ := index_facts ⟨32 * b.val + v.val / 256, hN⟩
  refine (dat1 (F := Ideal) V c).arrAt_apply_of_mem 3 G (flushed3_eq V c G hG) cfg1.N ⟨32 * b.val + v.val / 256, hN⟩ (ix3 b p v) hN
    (flush1_3 _) ?_
  rw [mem_blk3]
  intro a
  match a with
  | ⟨0, _⟩ =>
    show win1_3.index ⟨32 * b.val + v.val / 256, hN⟩ (0 : Fin 3) * 1 ≤ b.val ∧ b.val < win1_3.index ⟨32 * b.val + v.val / 256, hN⟩ (0 : Fin 3) * 1 + 1
    rw [e0]; show (32 * b.val + v.val / 256) / 32 * 1 ≤ b.val ∧ b.val < (32 * b.val + v.val / 256) / 32 * 1 + 1; omega
  | ⟨1, _⟩ =>
    show win1_3.index ⟨32 * b.val + v.val / 256, hN⟩ (1 : Fin 3) * 1024 ≤ p.val ∧ p.val < win1_3.index ⟨32 * b.val + v.val / 256, hN⟩ (1 : Fin 3) * 1024 + 1024
    rw [e1]; omega
  | ⟨2, _⟩ =>
    show win1_3.index ⟨32 * b.val + v.val / 256, hN⟩ (2 : Fin 3) * 256 ≤ v.val ∧ v.val < win1_3.index ⟨32 * b.val + v.val / 256, hN⟩ (2 : Fin 3) * 256 + 256
    rw [e2]; show (32 * b.val + v.val / 256) % 32 * 256 ≤ v.val ∧ v.val < (32 * b.val + v.val / 256) % 32 * 256 + 256; omega

/-! ## The negative log-likelihood column -/

/-- What a point whose block index is 31 writes back to the negative log-likelihood array is its block of G, when the stored column
    agrees with G entry by entry. -/
theorem flushed4_eq (c : Dev nD) (G : S8x1024x1.Idx → EReal)
    (hG : ∀ (t : Fin cfg1.N) (u : Fin 1) (p : Fin 1024) (q : Fin 1) (b : Fin 8),
      t.val % 32 = 31 → t.val / 32 = b.val → (nllAt V c t (ix3 u p q) : EReal) = G (ix3 b p (0 : Fin 1)))
    (t : Fin cfg1.N) (hf : (cfg1.win 4).flush t = true) :
    (dat1 (F := Ideal) V c).flushed 4 t = ((cfg1.win 4).blk t).view.read (Elt Ideal) G := by
  have h31 : t.val % 32 = 31 := (flush1_4 t).mp hf
  have hN : t.val < 256 := t.isLt
  obtain ⟨-, -, -, e0, e1, e2, -⟩ := index_facts t
  show (cfg1.win 4).cut (grid1.coords t) ((dat1 (F := Ideal) V c).after 4 t) = _
  rw [after1_4]
  refine funext fun (y : S1x1024x1.Idx) => ?_
  obtain ⟨u, p, q, rfl⟩ : ∃ (u : Fin 1) (p : Fin 1024) (q : Fin 1), y = ix3 u p q := ⟨y 0, y 1, y 2, eq_ix3 y⟩
  show nllAt V c t (ix3 u p q) = G (((cfg1.win 4).blk t).view.emb (ix3 u p q))
  have hu : u.val = 0 := by have := u.isLt; omega
  have hq : q.val = 0 := by have := q.isLt; omega
  refine (hG t u p q ⟨t.val / 32, by omega⟩ h31 rfl).trans ?_
  refine congrArg G (funext fun a => Fin.ext ?_)
  match a with
  | ⟨0, _⟩ => show t.val / 32 = win1_4.index t (0 : Fin 3) * 1 + 1 * u.val; rw [e0, hu]; omega
  | ⟨1, _⟩ => show p.val = win1_4.index t (1 : Fin 3) * 1024 + 1 * p.val; rw [e1]; omega
  | ⟨2, _⟩ => show 0 = win1_4.index t (2 : Fin 3) * 1 + 1 * q.val; rw [e2, hq]

/-- An index of the negative log-likelihood array is in point t's block iff each coordinate is in the block's range on its axis. -/
theorem mem_blk4 (t : Fin cfg1.N) (i : S8x1024x1.Idx) :
    i ∈ ((cfg1.win 4).blk t).view.set
      ↔ ∀ a : Fin 3, win1_4.index t a * S1x1024x1.size a ≤ (i a).val ∧ (i a).val < win1_4.index t a * S1x1024x1.size a + S1x1024x1.size a := by
  show i ∈ ((View.whole main_v6_1).slice (win1_4.rect t)).set ↔ _
  rw [View.set_slice_whole, Rect.mem_set_unit]
  exact Iff.rfl

/-- THE NEGATIVE LOG-LIKELIHOOD ARRAY AFTER THE REGION, at an index: row (b, p) lies in the block of point 32 b + 31, the one point of
    batch row b that writes this window back. -/
theorem arr4_of_blocks (c : Dev nD) (G : S8x1024x1.Idx → EReal)
    (hG : ∀ (t : Fin cfg1.N) (u : Fin 1) (p : Fin 1024) (q : Fin 1) (b : Fin 8),
      t.val % 32 = 31 → t.val / 32 = b.val → (nllAt V c t (ix3 u p q) : EReal) = G (ix3 b p (0 : Fin 1)))
    (b : Fin 8) (p : Fin 1024) :
    (dat1 (F := Ideal) V c).arrAt 4 cfg1.N (ix3 b p (0 : Fin 1)) = G (ix3 b p (0 : Fin 1)) := by
  have hb : b.val < 8 := b.isLt
  have hp : p.val < 1024 := p.isLt
  have hN : 32 * b.val + 31 < cfg1.N := by rw [N_eq]; omega
  obtain ⟨-, -, -, e0, e1, e2, -⟩ := index_facts ⟨32 * b.val + 31, hN⟩
  refine (dat1 (F := Ideal) V c).arrAt_apply_of_mem 4 G (flushed4_eq V c G hG) cfg1.N ⟨32 * b.val + 31, hN⟩ (ix3 b p (0 : Fin 1)) hN
    ((flush1_4 _).mpr (by show (32 * b.val + 31) % 32 = 31; omega)) ?_
  rw [mem_blk4]
  intro a
  match a with
  | ⟨0, _⟩ =>
    show win1_4.index ⟨32 * b.val + 31, hN⟩ (0 : Fin 3) * 1 ≤ b.val ∧ b.val < win1_4.index ⟨32 * b.val + 31, hN⟩ (0 : Fin 3) * 1 + 1
    rw [e0]; show (32 * b.val + 31) / 32 * 1 ≤ b.val ∧ b.val < (32 * b.val + 31) / 32 * 1 + 1; omega
  | ⟨1, _⟩ =>
    show win1_4.index ⟨32 * b.val + 31, hN⟩ (1 : Fin 3) * 1024 ≤ p.val ∧ p.val < win1_4.index ⟨32 * b.val + 31, hN⟩ (1 : Fin 3) * 1024 + 1024
    rw [e1]; omega
  | ⟨2, _⟩ =>
    show win1_4.index ⟨32 * b.val + 31, hN⟩ (2 : Fin 3) * 1 ≤ 0 ∧ 0 < win1_4.index ⟨32 * b.val + 31, hN⟩ (2 : Fin 3) * 1 + 1
    rw [e2]; omega

/-! ## The mask column -/

/-- What a point whose block index is 31 writes back to the mask array is its block of G, when the stored column
    agrees with G entry by entry. -/
theorem flushed5_eq (c : Dev nD) (G : S8x1024x1.Idx → EReal)
    (hG : ∀ (t : Fin cfg1.N) (u : Fin 1) (p : Fin 1024) (q : Fin 1) (b : Fin 8),
      t.val % 32 = 31 → t.val / 32 = b.val → (maskAt V c t (ix3 u p q) : EReal) = G (ix3 b p (0 : Fin 1)))
    (t : Fin cfg1.N) (hf : (cfg1.win 5).flush t = true) :
    (dat1 (F := Ideal) V c).flushed 5 t = ((cfg1.win 5).blk t).view.read (Elt Ideal) G := by
  have h31 : t.val % 32 = 31 := (flush1_5 t).mp hf
  have hN : t.val < 256 := t.isLt
  obtain ⟨-, -, -, -, -, -, e0, e1, e2⟩ := index_facts t
  show (cfg1.win 5).cut (grid1.coords t) ((dat1 (F := Ideal) V c).after 5 t) = _
  rw [after1_5]
  refine funext fun (y : S1x1024x1.Idx) => ?_
  obtain ⟨u, p, q, rfl⟩ : ∃ (u : Fin 1) (p : Fin 1024) (q : Fin 1), y = ix3 u p q := ⟨y 0, y 1, y 2, eq_ix3 y⟩
  show maskAt V c t (ix3 u p q) = G (((cfg1.win 5).blk t).view.emb (ix3 u p q))
  have hu : u.val = 0 := by have := u.isLt; omega
  have hq : q.val = 0 := by have := q.isLt; omega
  refine (hG t u p q ⟨t.val / 32, by omega⟩ h31 rfl).trans ?_
  refine congrArg G (funext fun a => Fin.ext ?_)
  match a with
  | ⟨0, _⟩ => show t.val / 32 = win1_5.index t (0 : Fin 3) * 1 + 1 * u.val; rw [e0, hu]; omega
  | ⟨1, _⟩ => show p.val = win1_5.index t (1 : Fin 3) * 1024 + 1 * p.val; rw [e1]; omega
  | ⟨2, _⟩ => show 0 = win1_5.index t (2 : Fin 3) * 1 + 1 * q.val; rw [e2, hq]

/-- An index of the mask array is in point t's block iff each coordinate is in the block's range on its axis. -/
theorem mem_blk5 (t : Fin cfg1.N) (i : S8x1024x1.Idx) :
    i ∈ ((cfg1.win 5).blk t).view.set
      ↔ ∀ a : Fin 3, win1_5.index t a * S1x1024x1.size a ≤ (i a).val ∧ (i a).val < win1_5.index t a * S1x1024x1.size a + S1x1024x1.size a := by
  show i ∈ ((View.whole main_v6_2).slice (win1_5.rect t)).set ↔ _
  rw [View.set_slice_whole, Rect.mem_set_unit]
  exact Iff.rfl

/-- THE MASK ARRAY AFTER THE REGION, at an index: row (b, p) lies in the block of point 32 b + 31, the one point of
    batch row b that writes this window back. -/
theorem arr5_of_blocks (c : Dev nD) (G : S8x1024x1.Idx → EReal)
    (hG : ∀ (t : Fin cfg1.N) (u : Fin 1) (p : Fin 1024) (q : Fin 1) (b : Fin 8),
      t.val % 32 = 31 → t.val / 32 = b.val → (maskAt V c t (ix3 u p q) : EReal) = G (ix3 b p (0 : Fin 1)))
    (b : Fin 8) (p : Fin 1024) :
    (dat1 (F := Ideal) V c).arrAt 5 cfg1.N (ix3 b p (0 : Fin 1)) = G (ix3 b p (0 : Fin 1)) := by
  have hb : b.val < 8 := b.isLt
  have hp : p.val < 1024 := p.isLt
  have hN : 32 * b.val + 31 < cfg1.N := by rw [N_eq]; omega
  obtain ⟨-, -, -, -, -, -, e0, e1, e2⟩ := index_facts ⟨32 * b.val + 31, hN⟩
  refine (dat1 (F := Ideal) V c).arrAt_apply_of_mem 5 G (flushed5_eq V c G hG) cfg1.N ⟨32 * b.val + 31, hN⟩ (ix3 b p (0 : Fin 1)) hN
    ((flush1_5 _).mpr (by show (32 * b.val + 31) % 32 = 31; omega)) ?_
  rw [mem_blk5]
  intro a
  match a with
  | ⟨0, _⟩ =>
    show win1_5.index ⟨32 * b.val + 31, hN⟩ (0 : Fin 3) * 1 ≤ b.val ∧ b.val < win1_5.index ⟨32 * b.val + 31, hN⟩ (0 : Fin 3) * 1 + 1
    rw [e0]; show (32 * b.val + 31) / 32 * 1 ≤ b.val ∧ b.val < (32 * b.val + 31) / 32 * 1 + 1; omega
  | ⟨1, _⟩ =>
    show win1_5.index ⟨32 * b.val + 31, hN⟩ (1 : Fin 3) * 1024 ≤ p.val ∧ p.val < win1_5.index ⟨32 * b.val + 31, hN⟩ (1 : Fin 3) * 1024 + 1024
    rw [e1]; omega
  | ⟨2, _⟩ =>
    show win1_5.index ⟨32 * b.val + 31, hN⟩ (2 : Fin 3) * 1 ≤ 0 ∧ 0 < win1_5.index ⟨32 * b.val + 31, hN⟩ (2 : Fin 3) * 1 + 1
    rw [e2]; omega

end Cert.KernelIdeal.HeadCover

end
-- ==== Proof.SpecOnl.lean ====
import proofs.«401600_j86689619903517_2_alg».proof.Proof.Spec

noncomputable section

namespace Cert.Spec

open Idealize.ShloMosaic

/-- The kernel's comparison of the lane's column number with the target word, as a comparison of naturals. -/
theorem word_eq_iff (n : ℕ) (hn : n < 32) (j : Fin 256) (g : BitVec 32) (hg : 0 ≤ g.toInt ∧ g.toInt < 8192) :
    (BitVec.ofNat 32 n * 256#32 + BitVec.ofNat 32 j.val = g) ↔ 256 * n + j.val = min g.toInt.toNat 8191 := by
  have hj := j.isLt
  have hlt := g.isLt
  -- a word whose signed value is not negative has that value as its unsigned value
  have hcond := BitVec.toInt_eq_toNat_cond g
  have hgI : g.toInt = (g.toNat : ℤ) := by
    split at hcond
    · exact hcond
    · omega
  have hgN : g.toInt.toNat = g.toNat := by omega
  have hg8 : g.toNat < 8192 := by omega
  -- 256 n + j < 2^32: neither the product nor the sum wraps
  rw [hgN, ← BitVec.toNat_inj, BitVec.toNat_add, BitVec.toNat_mul, BitVec.toNat_ofNat, BitVec.toNat_ofNat,
    BitVec.toNat_ofNat]
  omega

/-- One block's update of the three carried values of a row: running maximum, running sum, accumulated target logit. -/
def colStep (zb : ℕ → Fin 256 → EReal) (g : ℕ) (n : ℕ) (s : EReal × EReal × EReal) : EReal × EReal × EReal :=
  (max s.1 (rowMax (zb n)),
   Ideal.exp (s.1 - max s.1 (rowMax (zb n))) * s.2.1 + ∑ j : Fin 256, Ideal.exp (zb n j - max s.1 (rowMax (zb n))),
   s.2.2 + ∑ j : Fin 256, (if 256 * n + j.val = g then zb n j else 0))

/-- Iterating the update from (s₀, 0, 0) gives `onl` and the one-hot sums. -/
theorem colStep_iter (s₀ : EReal) (zb : ℕ → Fin 256 → EReal) (g : ℕ) (S : ℕ → EReal × EReal × EReal)
    (h0 : S 0 = colStep zb g 0 (s₀, 0, 0)) (hs : ∀ n, n + 1 < 32 → S (n + 1) = colStep zb g (n + 1) (S n))
    (n : ℕ) (hn : n < 32) :
    S n = ((onl s₀ zb (n + 1)).1, (onl s₀ zb (n + 1)).2,
      ∑ k ∈ Finset.range (n + 1), ∑ j : Fin 256, (if 256 * k + j.val = g then zb k j else 0)) := by
  induction n with
  | zero =>
    rw [h0, Finset.sum_range_succ, Finset.range_zero, Finset.sum_empty]
    rfl
  | succ n ih =>
    rw [hs n hn, ih (Nat.lt_of_succ_lt hn), onl_succ s₀ zb (n + 1), Finset.sum_range_succ _ (n + 1)]
    rfl

/-- After the 32 blocks the carried values give −log_softmax at the target. -/
theorem nll_of_cols (s₀ : EReal) (hs : IsReal s₀) (z : Fin 8192 → EReal) (hz : ∀ k, IsReal (z k)) (g : Fin 8192) :
    ((onl s₀ (blocksOf z) 32).1 + Ideal.log (onl s₀ (blocksOf z) 32).2)
        - (∑ k ∈ Finset.range 32, ∑ j : Fin 256, (if 256 * k + j.val = g.val then blocksOf z k j else 0))
      = -(lsm z g) := by
  rw [sum_onehot z g]
  exact onlNll_eq_neg_lsm s₀ hs z hz g

end Cert.Spec

end
-- ==== Proof.KI.HeadValue.lean ====
/-
  What region 1 (the vocabulary projection with the online soft-max) leaves in its three result arrays, in the
  specification's terms. With x the hidden array (8 batch rows × 1024 positions × 1024 channels), w the projection
  weight (8192 vocabulary columns × 1024 channels) and g the target words:

    logits[b, t, v]  =  Σ_c x[b, t, c] · w[v, c]
    mask[b, t]       =  [g[b, t] ≠ 0]
    nll[b, t]        =  −log_softmax(logits[b, t, ·])[g[b, t]] · mask[b, t]      (finite x and w, g in range).

  The logits block stored at grid point 32 b + n holds columns 256 n … 256 n + 255 of batch row b: its entry (p, j) is
  the product of row p of the hidden block with row 256 n + j of the weight. The three carried columns after that point
  hold, for each position p, the running maximum and the running sum of the online soft-max over the first n + 1 blocks
  of the position's logits, and the sum over those blocks of the one-hot terms [256 k + j = target] · logit; an i32 sum
  256 k + j with k < 32, j < 256 does not wrap, so the word comparison is the comparison of naturals. After block 31
  the one-hot sum is the target's logit, and the specification's law turns (m + log l) − a into −log_softmax.
-/
import proofs.«401600_j86689619903517_2_alg».proof.Proof.KI.HeadFrame
import proofs.«401600_j86689619903517_2_alg».proof.Proof.KI.HeadCover
import proofs.«401600_j86689619903517_2_alg».proof.Proof.Spec
import proofs.«401600_j86689619903517_2_alg».proof.Proof.SpecOnl
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HeadValue

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Head

/-! ## The block product at an index -/

theorem lhs_axis0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide),
    dif_pos (show (0 : Fin S1024x1024.rank) ∈ dot_S1024x1024_S1024x256_S1024x256_1_0_0_1_n_n.lhsNonContracting by decide)]
  rfl
theorem lhs_axis1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_axis0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_axis1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide),
    dif_pos (show (1 : Fin S1024x256.rank) ∈ dot_S1024x1024_S1024x256_S1024x256_1_0_0_1_n_n.rhsNonContracting by decide)]
  rfl

/-- The block of logits at row `p`, column `q` of the block: the row of `x` against row `q` of the 256 weight rows. -/
theorem pay10_apply (x : FVec Ideal S1x1024x1024 .bf16) (w8 : FVec Ideal S256x1024 .bf16) (p : Fin 1024) (q : Fin 256) :
    (k1_pay10 (F := Ideal) x w8 (ix2 p q) : EReal) = ∑ k : Fin 1024, (x (ix3 (0 : Fin 1) p k) : EReal) * (w8 (ix2 q k) : EReal) := by
  unfold k1_pay10
  simp only [matmul, shapeCast_self]
  rw [Ideal.matmul_constant_zero_apply,
    ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 p q)
      ((contrEquiv1 dot_S1024x1024_S1024x256_S1024x256_1_0_0_1_n_n 1024 rfl rfl).symm k) = ix2 p k :=
    funext fun a => Fin.ext (by
      match a with
      | ⟨0, _⟩ => exact lhs_axis0 _ _
      | ⟨1, _⟩ => exact (lhs_axis1 _ _).trans hk)
  have er : dot_S1024x1024_S1024x256_S1024x256_1_0_0_1_n_n.rhsIdx (ix2 p q)
      ((contrEquiv1 dot_S1024x1024_S1024x256_S1024x256_1_0_0_1_n_n 1024 rfl rfl).symm k) = ix2 k q :=
    funext fun a => Fin.ext (by
      match a with
      | ⟨0, _⟩ => exact (rhs_axis0 _ _).trans hk
      | ⟨1, _⟩ => exact rhs_axis1 _ _)
  rw [el, er, shapeCast_1ab_ab_apply, transpose_ix2_apply]

/-! ## Column layouts read at an index -/

/-- A vector cast to a one-lane column reads, at `(p, u)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu]; omega)

/-- A one-lane column broadcast along the lanes reads, at `(p, j)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (j : Fin b) :
    broadcastTo ⟨2, ![a, b]⟩ v h (ix2 p j) = v (ix2 p (0 : Fin 1)) := by
  refine broadcastTo_apply v h (ix2 p j) (ix2 p (0 : Fin 1)) fun ax => ?_
  match ax with
  | ⟨0, _⟩ =>
    show p.val = if a = 1 then 0 else p.val
    split
    · have := p.isLt; omega
    · rfl
  | ⟨1, _⟩ => rfl

/-- The index a lane reduction of a 1024 × 256 block reads at row `p`, lane `k`. -/
theorem lift_row (h : S1024x256.Reduces [1] S1024) (p : Fin 1024) (k : Fin 256) : h.lift (ix1 p) k = ix2 p k :=
  funext fun a => Fin.ext (by match a with | ⟨0, _⟩ => rfl | ⟨1, _⟩ => rfl)

/-! ## The constants -/

/-- The lane maximum starts from −∞. -/
theorem negInf_f32 : Ideal.ofBits .f32 0xFF800000#32 = (⊥ : EReal) := by
  simp [Ideal.ofBits, Ideal.ieee]

/-! ## The two lane reductions, as columns -/

/-- The lane sum of a block, kept as a column: at row `p` the sum of the row's 256 entries. -/
theorem laneSum (src : FVec Ideal S1024x256 .f32) (hφ : FKind.Formats .f32)
    (hacc : (0x00000000#32 : BitVec 32) = FKind.add.neutral .f32 hφ) (p : Fin 1024) (u : Fin 1) :
    (shapeCast S1024x1 (multiReduction .add [1] S1024 src 0x00000000#32 reduces_S1024x256_S1024 hφ hacc)
        shapeCasts_S1024_S1024x1 (ix2 p u) : EReal) = ∑ j : Fin 256, (src (ix2 p j) : EReal) := by
  refine (shapeCast_a_a1_apply _ _ p u).trans ?_
  refine (Ideal.multiReduction_add_single src _ reduces_S1024x256_S1024 hφ hacc (ix1 p)).trans ?_
  exact Finset.sum_congr rfl fun k _ => congrArg src (lift_row _ p k)

/-- The lane maximum of a block, kept as a column: at row `p` the row's maximum. -/
theorem laneMax (src : FVec Ideal S1024x256 .f32) (hφ : FKind.Formats .f32)
    (hacc : (0xFF800000#32 : BitVec 32) = FKind.maximumf.neutral .f32 hφ) (p : Fin 1024) (u : Fin 1) :
    (shapeCast S1024x1 (multiReduction .maximumf [1] S1024 src 0xFF800000#32 reduces_S1024x256_S1024 hφ hacc)
        shapeCasts_S1024_S1024x1 (ix2 p u) : EReal) = Cert.Spec.rowMax (fun j : Fin 256 => (src (ix2 p j) : EReal)) := by
  refine (shapeCast_a_a1_apply _ _ p u).trans ?_
  refine (Ideal.multiReduction_maximumf_single src _ reduces_S1024x256_S1024 hφ hacc (ix1 p)).trans ?_
  unfold Cert.Spec.rowMax
  rw [Ideal.ofBits_def, negInf_f32]
  exact Finset.fold_congr fun k _ => congrArg src (lift_row _ p k)

/-! ## The payloads at an index -/

/-- The stored block of logits is the block product. -/
theorem pay11_apply (x : FVec Ideal S1x1024x1024 .bf16) (w8 : FVec Ideal S256x1024 .bf16) (u : Fin 1) (p : Fin 1024) (q : Fin 256) :
    (k1_pay11 (F := Ideal) x w8 (ix3 u p q) : EReal) = k1_pay10 (F := Ideal) x w8 (ix2 p q) := by
  unfold k1_pay11
  exact shapeCast_ab_1ab_apply _ _ u p q

/-- The block's row maximum. -/
theorem pay13_apply (x : FVec Ideal S1x1024x1024 .bf16) (w8 : FVec Ideal S256x1024 .bf16) (p : Fin 1024) (u : Fin 1) :
    (k1_pay13 (F := Ideal) x w8 (ix2 p u) : EReal)
      = Cert.Spec.rowMax (fun j : Fin 256 => (k1_pay10 (F := Ideal) x w8 (ix2 p j) : EReal)) := by
  unfold k1_pay13
  exact laneMax _ _ _ p u

/-- The running maximum's update: the larger of the carried maximum and the block's row maximum. -/
theorem pay3_apply (bm m : FVec Ideal S1024x1 .f32) (p : Fin 1024) (u : Fin 1) :
    (k1_pay3 (F := Ideal) bm m (ix2 p u) : EReal) = max (m (ix2 p u) : EReal) (bm (ix2 p u)) := by
  unfold k1_pay3 k1_pay1
  rw [shapeCast_self]
  rfl

/-- The running sum's update: the carried sum rescaled to the new maximum, plus the block's exponentials. -/
theorem pay2_apply (z : FVec Ideal S1024x256 .f32) (bm m m2 l : FVec Ideal S1024x1 .f32) (p : Fin 1024) :
    (k1_pay2 (F := Ideal) z bm m m2 l (ix2 p (0 : Fin 1)) : EReal)
      = Ideal.exp ((m2 (ix2 p (0 : Fin 1)) : EReal) - max (m (ix2 p (0 : Fin 1)) : EReal) (bm (ix2 p (0 : Fin 1)))) * (l (ix2 p (0 : Fin 1)) : EReal)
        + ∑ j : Fin 256, Ideal.exp ((z (ix2 p j) : EReal) - max (m (ix2 p (0 : Fin 1)) : EReal) (bm (ix2 p (0 : Fin 1)))) := by
  unfold k1_pay2 k1_pay1
  rw [shapeCast_self]
  refine (addf_apply _ _ _).trans ?_
  refine congrArg₂ (fun a b : EReal => a + b) rfl ?_
  refine (laneSum _ _ _ p 0).trans ?_
  refine Finset.sum_congr rfl fun k _ => ?_
  show Ideal.exp ((z (ix2 p k) : EReal) - broadcastTo S1024x256 (maximumf m bm) broadcasts_S1024x1_S1024x256 (ix2 p k)) = _
  rw [broadcastTo_a1_ab_apply]
  rfl

/-- A select on a word equality is the `if` on it. -/
theorem select_cmpi_eq {α : Type} {w : ℕ} (x y : BitVec w) (A B : α) :
    Scalar.select (IntOp.cmpi .eq x y) A B = if x = y then A else B := by
  unfold Scalar.select
  by_cases h : x = y
  · rw [if_pos h, if_pos]
    subst h; simp [IntOp.cmpi]
  · rw [if_neg h, if_neg]
    have hb : (x == y) = false := beq_eq_false_iff_ne.mpr h
    simp [IntOp.cmpi, hb]

/-- The accumulated target logit's update: the block's entry at the lane whose column number is the target word,
    if there is one. -/
theorem pay12_apply (i : grid1.Coords) (x : FVec Ideal S1x1024x1024 .bf16) (w8 : FVec Ideal S256x1024 .bf16)
    (tg : Vec Ideal S1x1024x1 .i32) (a : FVec Ideal S1024x1 .f32) (p : Fin 1024) :
    (k1_pay12 (F := Ideal) i x w8 tg a (ix2 p (0 : Fin 1)) : EReal)
      = (a (ix2 p (0 : Fin 1)) : EReal)
        + ∑ j : Fin 256, (if BitVec.ofNat 32 (i 1).val * 256#32 + BitVec.ofNat 32 j.val = tg (ix3 (0 : Fin 1) p (0 : Fin 1))
            then (k1_pay10 (F := Ideal) x w8 (ix2 p j) : EReal) else 0) := by
  unfold k1_pay12
  dsimp only
  rw [shapeCast_self]
  refine (addf_apply _ _ _).trans ?_
  refine congrArg₂ (fun a b : EReal => a + b) rfl ?_
  refine (laneSum _ _ _ p 0).trans ?_
  refine Finset.sum_congr rfl fun k _ => ?_
  refine (select_apply _ _ _ _).trans ?_
  show Scalar.select (IntOp.cmpi .eq (BitVec.ofNat 32 (i 1).val * 256#32 + iota .tc S1024x256 32 [1] iota_S1024x256_d1_w32 (ix2 p k))
      (broadcastTo S1024x256 (shapeCast S1024x1 tg shapeCasts_S1x1024x1_S1024x1) broadcasts_S1024x1_S1024x256 (ix2 p k)))
      (k1_pay10 (F := Ideal) x w8 (ix2 p k) : EReal) (Ideal.ofBits .f32 0x00000000#32) = _
  rw [iota_single_apply, broadcastTo_a1_ab_apply, shapeCast_1ab_ab_apply, Ideal.ofBits_zero_f32, select_cmpi_eq]

/-- The loss mask of a target word, as the kernel forms it: the bit "word ≠ 0", widened and converted. -/
theorem mask_word (g : BitVec 32) :
    ((((IntOp.cmpi .ne g 0#32).setWidth 32).toInt : ℝ) : EReal) = Cert.Spec.maskOf g := by
  unfold Cert.Spec.maskOf
  by_cases h : g = 0#32
  · subst h; simp [IntOp.cmpi]
  · rw [if_neg h]
    have hb : (g != 0#32) = true := bne_iff_ne.mpr h
    have e : IntOp.cmpi .ne g 0#32 = 1#1 := by simp [IntOp.cmpi, hb]
    rw [e]
    have e1 : ((1#1 : BitVec 1).setWidth 32).toInt = 1 := by decide
    rw [e1]; simp

theorem pay4_apply (tg : Vec Ideal S1x1024x1 .i32) (p : Fin 1024) :
    (k1_pay4 (F := Ideal) tg (ix2 p (0 : Fin 1)) : EReal) = Cert.Spec.maskOf (tg (ix3 (0 : Fin 1) p (0 : Fin 1))) := by
  unfold k1_pay4
  refine (sitofp_apply _ _).trans ?_
  show ((((IntOp.cmpi .ne (shapeCast S1024x1 tg shapeCasts_S1x1024x1_S1024x1 (ix2 p (0 : Fin 1))) 0#32).setWidth 32).toInt : ℝ) : EReal) = _
  rw [shapeCast_1ab_ab_apply]
  exact mask_word _

/-- The stored mask column. -/
theorem pay6_apply (tg : Vec Ideal S1x1024x1 .i32) (u : Fin 1) (p : Fin 1024) :
    (k1_pay6 (F := Ideal) tg (ix3 u p (0 : Fin 1)) : EReal) = Cert.Spec.maskOf (tg (ix3 (0 : Fin 1) p (0 : Fin 1))) := by
  unfold k1_pay6
  exact (shapeCast_ab_1ab_apply _ _ u p 0).trans (pay4_apply tg p)

/-- The stored per-row value: (m + log l − a) · mask. -/
theorem pay5_apply (m l a : FVec Ideal S1024x1 .f32) (tg : Vec Ideal S1x1024x1 .i32) (u : Fin 1) (p : Fin 1024) :
    (k1_pay5 (F := Ideal) m l a tg (ix3 u p (0 : Fin 1)) : EReal)
      = (((m (ix2 p (0 : Fin 1)) : EReal) + Ideal.log (l (ix2 p (0 : Fin 1)))) - (a (ix2 p (0 : Fin 1)) : EReal))
          * Cert.Spec.maskOf (tg (ix3 (0 : Fin 1) p (0 : Fin 1))) := by
  unfold k1_pay5
  refine (shapeCast_ab_1ab_apply _ _ u p 0).trans ?_
  refine (mulf_apply _ _ _).trans ?_
  rw [pay4_apply]
  rfl

/-- The start of the running maximum: a large negative real. -/
abbrev m₀ : EReal := Ideal.ofBits .f32 0xF149F2CA#32

theorem m₀_real : Cert.Spec.IsReal m₀ := by
  unfold m₀ Ideal.ofBits Ideal.ieee
  simp
  exact ⟨_, rfl⟩

theorem pay7_apply (p : Fin 1024) (u : Fin 1) : ((k1_pay7 (F := Ideal)) (ix2 p u) : EReal) = m₀ := by
  unfold k1_pay7
  rw [shapeCast_self]
  rfl

theorem pay8_apply (p : Fin 1024) (u : Fin 1) : ((k1_pay8 (F := Ideal)) (ix2 p u) : EReal) = 0 := by
  unfold k1_pay8
  rw [shapeCast_self]
  exact Ideal.ofBits_zero_f32

theorem pay9_apply (p : Fin 1024) (u : Fin 1) : ((k1_pay9 (F := Ideal)) (ix2 p u) : EReal) = 0 := by
  unfold k1_pay9
  rw [shapeCast_self]
  exact Ideal.ofBits_zero_f32

/-! ## The blocks at a grid point -/

variable (V : (c : Dev nD) → (b : Ref sig .tc) → Buf (Elt Ideal) ((c : Thread nD τ).loc b))

/-- The hidden block of batch row `b`, curried as the specification takes it. -/
abbrev xrow (c : Dev nD) (b : Fin 8) : Fin 1024 → Fin 1024 → EReal := fun tt cc => V c main_v4 (ix3 b tt cc)

/-- The logits of position `t` of batch row `b`. -/
abbrev zrow (c : Dev nD) (b : Fin 8) (t : Fin 1024) : Fin 8192 → EReal :=
  fun v => Cert.Spec.logit (Cert.Spec.w2 (V c main_v3)) (xrow V c b) t v

/-- The target word of position `t` of batch row `b`. -/
abbrev tgw (c : Dev nD) (b : Fin 8) (t : Fin 1024) : BitVec 32 := V c main_v5 (ix3 b t (0 : Fin 1))

/-- The target as a vocabulary column (clamped, as the specification's `tok` clamps). -/
abbrev tcol (c : Dev nD) (b : Fin 8) (t : Fin 1024) : Fin 8192 := ⟨min (tgw V c b t).toInt.toNat 8191, by omega⟩

/-- The three input blocks at a point, at their literal types. -/
abbrev xblk (c : Dev nD) (t : Fin cfg1.N) : FVec Ideal S1x1024x1024 .bf16 := iblk1 V c 0 t
abbrev wblk (c : Dev nD) (t : Fin cfg1.N) : FVec Ideal S8192x1024 .bf16 := iblk1 V c 1 t
abbrev gblk (c : Dev nD) (t : Fin cfg1.N) : Vec Ideal S1x1024x1 .i32 := iblk1 V c 2 t

/-- The grid point's coordinates: batch row and vocabulary block. -/
theorem coords_facts : ∀ t : Fin cfg1.N, (grid1.coords t 0).val = t.val / 32 ∧ (grid1.coords t 1).val = t.val % 32 :=
  (by decide +kernel : ∀ t : Fin grid1.N, _)

/-- The input windows' block indices over the grid. -/
theorem idx_in : ∀ t : Fin cfg1.N,
    win1_0.index t (0 : Fin 3) = t.val / 32 ∧ win1_0.index t (1 : Fin 3) = 0 ∧ win1_0.index t (2 : Fin 3) = 0
    ∧ win1_1.index t (0 : Fin 2) = 0 ∧ win1_1.index t (1 : Fin 2) = 0
    ∧ win1_2.index t (0 : Fin 3) = t.val / 32 ∧ win1_2.index t (1 : Fin 3) = 0 ∧ win1_2.index t (2 : Fin 3) = 0 :=
  (by decide +kernel : ∀ t : Fin grid1.N, _)

theorem N1 : cfg1.N = 256 := by decide

/-- The hidden block at a point of batch row `b` is that row of the hidden array. -/
theorem xblk_apply (c : Dev nD) (t : Fin cfg1.N) (b : Fin 8) (hb : t.val / 32 = b.val) (u : Fin 1) (p k : Fin 1024) :
    (xblk V c t (ix3 u p k) : EReal) = V c main_v4 (ix3 b p k) := by
  obtain ⟨e0, e1, e2, -⟩ := idx_in t
  show V c main_v4 (((cfg1.win 0).blk t).view.emb (ix3 u p k)) = V c main_v4 (ix3 b p k)
  refine congrArg (V c main_v4) (funext fun a => Fin.ext ?_)
  match a with
  | ⟨0, _⟩ => show win1_0.index t (0 : Fin 3) * 1 + 1 * u.val = b.val; omega
  | ⟨1, _⟩ => show win1_0.index t (1 : Fin 3) * 1024 + 1 * p.val = p.val; omega
  | ⟨2, _⟩ => show win1_0.index t (2 : Fin 3) * 1024 + 1 * k.val = k.val; omega

/-- The weight block at every point is the whole projection weight. -/
theorem wblk_apply (c : Dev nD) (t : Fin cfg1.N) (r : Fin 8192) (k : Fin 1024) :
    (wblk V c t (ix2 r k) : EReal) = V c main_v3 (ix2 r k) := by
  obtain ⟨-, -, -, e0, e1, -⟩ := idx_in t
  show V c main_v3 (((cfg1.win 1).blk t).view.emb (ix2 r k)) = V c main_v3 (ix2 r k)
  refine congrArg (V c main_v3) (funext fun a => Fin.ext ?_)
  match a with
  | ⟨0, _⟩ => show win1_1.index t (0 : Fin 2) * 8192 + 1 * r.val = r.val; omega
  | ⟨1, _⟩ => show win1_1.index t (1 : Fin 2) * 1024 + 1 * k.val = k.val; omega

/-- The target block at a point of batch row `b` is that row of the target array. -/
theorem gblk_apply (c : Dev nD) (t : Fin cfg1.N) (b : Fin 8) (hb : t.val / 32 = b.val) (u : Fin 1) (p : Fin 1024) (q : Fin 1) :
    gblk V c t (ix3 u p q) = tgw V c b p := by
  obtain ⟨-, -, -, -, -, e0, e1, e2⟩ := idx_in t
  show V c main_v5 (((cfg1.win 2).blk t).view.emb (ix3 u p q)) = V c main_v5 (ix3 b p (0 : Fin 1))
  refine congrArg (V c main_v5) (funext fun a => Fin.ext ?_)
  match a with
  | ⟨0, _⟩ => show win1_2.index t (0 : Fin 3) * 1 + 1 * u.val = b.val; omega
  | ⟨1, _⟩ => show win1_2.index t (1 : Fin 3) * 1024 + 1 * p.val = p.val; omega
  | ⟨2, _⟩ => show win1_2.index t (2 : Fin 3) * 1 + 1 * q.val = 0; omega

/-- The 256 weight rows a step multiplies are rows 256 v … 256 v + 255 of the weight. -/
theorem wrows_apply (i : grid1.Coords) (w : FVec Ideal S8192x1024 .bf16) (q : Fin 256) (k : Fin 1024) (r : Fin 8192)
    (hr : r.val = 256 * (i 1).val + q.val) : (wrows (F := Ideal) i w (ix2 q k) : EReal) = w (ix2 r k) := by
  unfold wrows View.ld
  refine congrArg w (funext fun a => Fin.ext ?_)
  have e := k1_off1_eq i
  match a with
  | ⟨0, _⟩ =>
    show k1_off1 i (0 : Fin 2) + 1 * q.val = r.val
    rw [e, hr]; show 256 * (i 1).val + 1 * q.val = _; omega
  | ⟨1, _⟩ =>
    show k1_off1 i (1 : Fin 2) + 1 * k.val = k.val
    rw [e]; show 0 + 1 * k.val = _; omega

/-! ## One step of the carried columns, row by row -/

/-- Row `p` of the three carried columns. -/
abbrev rowOf (s : Cols Ideal) (p : Fin 1024) : EReal × EReal × EReal :=
  (s.1 (ix2 p (0 : Fin 1)), s.2.1 (ix2 p (0 : Fin 1)), s.2.2 (ix2 p (0 : Fin 1)))

/-- The reset values of a row. -/
theorem rowOf_cols0 (p : Fin 1024) : rowOf (cols0 (F := Ideal)) p = (m₀, 0, 0) := by
  unfold rowOf cols0
  exact Prod.ext (pay7_apply p 0) (Prod.ext (pay8_apply p 0) (pay9_apply p 0))

section Step

/- A step at vocabulary block `n`, on blocks given by their entries: the hidden block's row `p` is `X p`, the weight
   is `W`, the row's target word is `g`. -/
variable (i : grid1.Coords) (x : FVec Ideal S1x1024x1024 .bf16) (w : FVec Ideal S8192x1024 .bf16)
  (tg : Vec Ideal S1x1024x1 .i32) (X : Fin 1024 → Fin 1024 → EReal) (W : Fin 8192 → Fin 1024 → EReal) (g : BitVec 32)
  (n : ℕ) (hn : n < 32) (hi : (i 1).val = n) (p : Fin 1024)
  (hx : ∀ k : Fin 1024, (x (ix3 (0 : Fin 1) p k) : EReal) = X p k)
  (hw : ∀ (r : Fin 8192) (k : Fin 1024), (w (ix2 r k) : EReal) = W r k)
  (hg : tg (ix3 (0 : Fin 1) p (0 : Fin 1)) = g)
include hn hi hx hw

/-- The block product's row `p` is block `n` of the row's logits. -/
theorem block_logit (j : Fin 256) :
    (k1_pay10 (F := Ideal) x (wrows (F := Ideal) i w) (ix2 p j) : EReal)
      = Cert.Spec.blocksOf (fun v => Cert.Spec.logit W X p v) n j := by
  have hlt : 256 * n + j.val < 8192 := by have := j.isLt; omega
  refine (pay10_apply x (wrows (F := Ideal) i w) p j).trans ?_
  unfold Cert.Spec.blocksOf
  rw [dif_pos hlt]
  show _ = ∑ k : Fin 1024, X p k * W (⟨256 * n + j.val, hlt⟩ : Fin 8192) k
  refine Finset.sum_congr rfl fun k _ => ?_
  refine congrArg₂ (fun a b : EReal => a * b) (hx k) ?_
  exact (wrows_apply i w j k ⟨256 * n + j.val, hlt⟩ (by show 256 * n + j.val = 256 * (i 1).val + j.val; rw [hi])).trans (hw _ k)

include hg

/-- One step on row `p`: the specification's update with block `n` of the row's logits. -/
theorem step_row (htg : 0 ≤ g.toInt ∧ g.toInt < 8192) (s : Cols Ideal) :
    rowOf (stepH i x (wrows (F := Ideal) i w) tg s) p
      = Cert.Spec.colStep (Cert.Spec.blocksOf (fun v => Cert.Spec.logit W X p v)) (min g.toInt.toNat 8191) n (rowOf s p) := by
  have hbm : (k1_pay13 (F := Ideal) x (wrows (F := Ideal) i w) (ix2 p (0 : Fin 1)) : EReal)
      = Cert.Spec.rowMax (Cert.Spec.blocksOf (fun v => Cert.Spec.logit W X p v) n) :=
    (pay13_apply x (wrows (F := Ideal) i w) p 0).trans
      (congrArg Cert.Spec.rowMax (funext fun j => block_logit i x w X W n hn hi p hx hw j))
  unfold rowOf Cert.Spec.colStep stepH
  refine Prod.ext ?_ (Prod.ext ?_ ?_)
  · refine (pay3_apply _ _ p 0).trans ?_
    rw [hbm]
  · refine (pay2_apply _ _ _ _ _ p).trans ?_
    rw [hbm]
    refine congrArg₂ (fun a b : EReal => a + b) rfl (Finset.sum_congr rfl fun j _ => ?_)
    rw [block_logit i x w X W n hn hi p hx hw j]
  · refine (pay12_apply _ _ _ _ _ p).trans ?_
    refine congrArg₂ (fun a b : EReal => a + b) rfl (Finset.sum_congr rfl fun j _ => ?_)
    rw [block_logit i x w X W n hn hi p hx hw j, hg, hi]
    exact if_congr (Cert.Spec.word_eq_iff n hn j g htg) rfl rfl

end Step

/-- The step at a point of batch row `b`, vocabulary block `n`, on row `p`. -/
theorem stepAt_row (c : Dev nD) (t : Fin cfg1.N) (b : Fin 8) (n : ℕ) (hn : n < 32) (ht : t.val = 32 * b.val + n) (p : Fin 1024)
    (htg : 0 ≤ (tgw V c b p).toInt ∧ (tgw V c b p).toInt < 8192) (s : Cols Ideal) :
    rowOf (stepAt V c t s) p
      = Cert.Spec.colStep (Cert.Spec.blocksOf (zrow V c b p)) (tcol V c b p).val n (rowOf s p) :=
  step_row (grid1.coords t) (xblk V c t) (wblk V c t) (gblk V c t) (xrow V c b) (Cert.Spec.w2 (V c main_v3)) (tgw V c b p)
    n hn (by rw [(coords_facts t).2]; omega) p (fun k => xblk_apply V c t b (by omega) 0 p k)
    (fun r k => wblk_apply V c t r k) (gblk_apply V c t b (by omega) 0 p 0) htg s

/-! ## The carried columns after each point of a batch row -/

/-- The carried columns at equal positions are equal. -/
theorem scrAt_congr (c : Dev nD) {n m : ℕ} (e : n = m) (hn : n < cfg1.N) (hm : m < cfg1.N) :
    scrAt V c n hn = scrAt V c m hm := by
  subst e; rfl

theorem lt_N (b : Fin 8) (k : ℕ) (hk : k < 32) : 32 * b.val + k < cfg1.N := by
  rw [N1]; have := b.isLt; omega

section Rows

variable (c : Dev nD) (b : Fin 8) (p : Fin 1024)

/-- Row `p` of the carried columns after point 32 b + k (k < 32). -/
def rowAt (k : ℕ) : EReal × EReal × EReal :=
  if hk : k < 32 then rowOf (scrAt V c (32 * b.val + k) (lt_N b k hk)) p else (0, 0, 0)

variable (htg : 0 ≤ (tgw V c b p).toInt ∧ (tgw V c b p).toInt < 8192)
include htg

/-- The first point of a batch row resets the columns and takes one step. -/
theorem rowAt_zero :
    rowAt V c b p 0 = Cert.Spec.colStep (Cert.Spec.blocksOf (zrow V c b p)) (tcol V c b p).val 0 (m₀, 0, 0) := by
  unfold rowAt
  rw [dif_pos (by decide : 0 < 32)]
  have h := scrAt_reset V c ⟨32 * b.val + 0, lt_N b 0 (by decide)⟩ (by show (32 * b.val + 0) % 32 = 0; omega)
  refine (congrArg (fun s => rowOf s p) h).trans ?_
  refine (stepAt_row V c ⟨32 * b.val + 0, lt_N b 0 (by decide)⟩ b 0 (by decide) rfl p htg cols0).trans ?_
  rw [rowOf_cols0]

/-- Every later point of the row takes one step from the columns the point before left. -/
theorem rowAt_succ (k : ℕ) (hk : k + 1 < 32) :
    rowAt V c b p (k + 1)
      = Cert.Spec.colStep (Cert.Spec.blocksOf (zrow V c b p)) (tcol V c b p).val (k + 1) (rowAt V c b p k) := by
  unfold rowAt
  rw [dif_pos hk, dif_pos (by omega : k < 32)]
  have h := scrAt_step V c ⟨32 * b.val + (k + 1), lt_N b (k + 1) hk⟩ (by show ¬(32 * b.val + (k + 1)) % 32 = 0; omega)
  refine (congrArg (fun s => rowOf s p) h).trans ?_
  refine (stepAt_row V c ⟨32 * b.val + (k + 1), lt_N b (k + 1) hk⟩ b (k + 1) hk rfl p htg _).trans ?_
  refine congrArg (Cert.Spec.colStep _ _ _) (congrArg (fun s => rowOf s p) (scrAt_congr V c ?_ _ _))
  show 32 * b.val + (k + 1) - 1 = 32 * b.val + k
  omega

/-- So after point 32 b + k the row holds the online soft-max of the first k + 1 blocks and their one-hot sums. -/
theorem rowAt_eq (k : ℕ) (hk : k < 32) :
    rowAt V c b p k
      = ((Cert.Spec.onl m₀ (Cert.Spec.blocksOf (zrow V c b p)) (k + 1)).1,
         (Cert.Spec.onl m₀ (Cert.Spec.blocksOf (zrow V c b p)) (k + 1)).2,
         ∑ n ∈ Finset.range (k + 1), ∑ j : Fin 256,
           (if 256 * n + j.val = (tcol V c b p).val then Cert.Spec.blocksOf (zrow V c b p) n j else 0)) :=
  Cert.Spec.colStep_iter m₀ _ _ (rowAt V c b p) (rowAt_zero V c b p htg) (fun n hn => rowAt_succ V c b p htg n hn) k hk

end Rows

/-! ## The three arrays -/

/-- The logits array, the per-row loss array and the mask array as functions of the arguments. -/
def G3 (c : Dev nD) : S8x1024x8192.Idx → EReal := fun i => zrow V c (i 0) (i 1) (i 2)
def G4 (c : Dev nD) : S8x1024x1.Idx → EReal := fun i =>
  (-(Cert.Spec.lsm (zrow V c (i 0) (i 1)) (tcol V c (i 0) (i 1)))) * Cert.Spec.maskOf (tgw V c (i 0) (i 1))
def G5 (c : Dev nD) : S8x1024x1.Idx → EReal := fun i => Cert.Spec.maskOf (tgw V c (i 0) (i 1))

theorem logits_value (c : Dev nD) (b : Fin 8) (t : Fin 1024) (v : Fin 8192) :
    ((dat1 (F := Ideal) V c).arrAt 3 cfg1.N) (ix3 b t v)
      = Cert.Spec.logit (Cert.Spec.w2 (V c main_v3)) (xrow V c b) t v := by
  refine HeadCover.arr3_of_blocks V c (G3 V c) (fun t' u p q b' v' hb hv => ?_) b t v
  show (k1_pay11 (F := Ideal) (xblk V c t') (wrows (F := Ideal) (grid1.coords t') (wblk V c t')) (ix3 u p q) : EReal) = zrow V c b' p v'
  refine (pay11_apply _ _ u p q).trans ?_
  have hlt : 256 * (t'.val % 32) + q.val < 8192 := by have := q.isLt; omega
  refine (block_logit (grid1.coords t') (xblk V c t') (wblk V c t') (xrow V c b') (Cert.Spec.w2 (V c main_v3)) (t'.val % 32)
    (Nat.mod_lt _ (by decide)) (coords_facts t').2 p (fun k => xblk_apply V c t' b' hb 0 p k) (fun r k => wblk_apply V c t' r k) q).trans ?_
  unfold Cert.Spec.blocksOf
  rw [dif_pos hlt]
  exact congrArg (zrow V c b' p) (Fin.ext hv.symm)

theorem mask_value (c : Dev nD) (b : Fin 8) (t : Fin 1024) :
    ((dat1 (F := Ideal) V c).arrAt 5 cfg1.N) (ix3 b t (0 : Fin 1)) = Cert.Spec.maskOf (tgw V c b t) := by
  refine HeadCover.arr5_of_blocks V c (G5 V c) (fun t' u p q b' h31 hb => ?_) b t
  obtain rfl : q = 0 := Subsingleton.elim _ _
  show (k1_pay6 (F := Ideal) (gblk V c t') (ix3 u p (0 : Fin 1)) : EReal) = Cert.Spec.maskOf (tgw V c b' p)
  refine (pay6_apply _ u p).trans ?_
  rw [gblk_apply V c t' b' hb 0 p 0]

theorem nll_value (c : Dev nD) (hx : ∀ i, Cert.Spec.IsReal (V c main_v4 i)) (hw : ∀ i, Cert.Spec.IsReal (V c main_v3 i))
    (htg : ∀ (b : Fin 8) (t : Fin 1024), 0 ≤ (tgw V c b t).toInt ∧ (tgw V c b t).toInt < 8192)
    (b : Fin 8) (t : Fin 1024) :
    ((dat1 (F := Ideal) V c).arrAt 4 cfg1.N) (ix3 b t (0 : Fin 1))
      = (-(Cert.Spec.lsm (zrow V c b t) (tcol V c b t))) * Cert.Spec.maskOf (tgw V c b t) := by
  refine HeadCover.arr4_of_blocks V c (G4 V c) (fun t' u p q b' h31 hb => ?_) b t
  obtain rfl : q = 0 := Subsingleton.elim _ _
  have ht : t'.val = 32 * b'.val + 31 := by omega
  have hz : ∀ k, Cert.Spec.IsReal (zrow V c b' p k) := fun k =>
    Cert.Spec.isReal_logit (fun v cc => hw _) (fun tt cc => hx _) p k
  have hrow : rowOf (scrAt V c t'.val t'.isLt) p = rowAt V c b' p 31 := by
    unfold rowAt
    rw [dif_pos (by decide : 31 < 32)]
    exact congrArg (fun s => rowOf s p) (scrAt_congr V c ht _ _)
  have h31' := hrow.trans (rowAt_eq V c b' p (htg b' p) 31 (by decide))
  have e1 := congrArg Prod.fst h31'
  have e2 := congrArg (fun r : EReal × EReal × EReal => r.2.1) h31'
  have e3 := congrArg (fun r : EReal × EReal × EReal => r.2.2) h31'
  dsimp only at e1 e2 e3
  show (k1_pay5 (F := Ideal) (scrAt V c t'.val t'.isLt).1 (scrAt V c t'.val t'.isLt).2.1 (scrAt V c t'.val t'.isLt).2.2
      (gblk V c t') (ix3 u p (0 : Fin 1)) : EReal)
    = (-(Cert.Spec.lsm (zrow V c b' p) (tcol V c b' p))) * Cert.Spec.maskOf (tgw V c b' p)
  refine (pay5_apply _ _ _ _ u p).trans ?_
  rw [gblk_apply V c t' b' hb 0 p 0, e1, e2, e3, Cert.Spec.nll_of_cols m₀ m₀_real (zrow V c b' p) hz (tcol V c b' p)]

end Cert.KernelIdeal.HeadValue

end
-- ==== Proof.KI.Host.lean ====
/-
  The host side of the kernel program, and its two results as the specification's functions of the arguments.

  Before region 0 the program looks the tokens up in the embedding table (negative indices wrapped, a range test, a
  gather of rows, a select against a fill value) and converts the three weight arrays to a narrower format; between
  the regions it gives the targets a unit axis; after region 1 it sums the per-row values and the per-row masks and
  divides the first total by the larger of the second and 1.

  On extended reals the format changes are the identity. For token words in [0, 8192) the wrap leaves every word
  alone and the range test passes everywhere, so the look-up is the table's row at each token: region 0 enters with
  the embedding blocks. Its result, the four layers of them, is region 1's hidden input; region 1's logits, masks and
  per-row values are then the specification's, and the tail's two totals over [8, 1024, 1] arrays are double sums
  over batch rows and positions.
-/
import proofs.«401600_j86689619903517_2_alg».proof.Proof.KI.Fold
import proofs.«401600_j86689619903517_2_alg».proof.Proof.KI.LayersValue
import proofs.«401600_j86689619903517_2_alg».proof.Proof.KI.HeadValue
import proofs.«401600_j86689619903517_2_alg».proof.Proof.Spec
import proofs.«401600_j86689619903517_2_alg».proof.Proof.Gen.KernelIdeal.Regions
import Idealize.ShloMosaic.Lib.ValueIdx
import Idealize.ShloMosaic.Lib.IdealHost
import Idealize.ShloMosaic.Lib.Pipeline.Value
import Idealize.ShloMosaic.Lib.Affine
import Idealize.ShloMosaic.PureOps.Reduce

noncomputable section
namespace Cert.KernelIdeal.HostValue
open Idealize.ShloMosaic Idealize.ShloMosaic.TcCoe Idealize.SL.Sem Idealize.ShloMosaic.ValueIdx
open Cert.KernelIdeal Cert.KernelIdeal.Gen Cert.KernelIdeal.Layers Cert.KernelIdeal.Head Cert.KernelIdeal.Whole

/-! ## Words -/

/-- A word that is not negative is left alone by the wrap of negative indices. -/
theorem wrap_word (x : BitVec 32) (h0 : 0 ≤ x.toInt) :
    Scalar.select (IntOp.cmpi .slt x 0#32) (IntOp.addi x 8192#32) x = x := by
  have hn : ¬ IntOp.cmpi .slt x 0#32 = 1#1 := by
    rw [IntOp.cmpi_slt]
    have e0 : (0#32).toInt = 0 := by decide
    rw [e0]; omega
  unfold Scalar.select; exact if_neg hn

/-- A word in [0, 8192) passes the look-up's range test. -/
theorem inrange_word (x : BitVec 32) (h0 : 0 ≤ x.toInt) (h1 : x.toInt < 8192) :
    IntOp.andi (IntOp.cmpi .sge x 0#32) (IntOp.cmpi .sle x 8191#32) = 1#1 := by
  rw [IntOp.andi_eq_one, IntOp.cmpi_sge, IntOp.cmpi_sle]
  have e0 : (0#32).toInt = 0 := by decide
  have e1 : (8191#32).toInt = 8191 := by decide
  rw [e0, e1]; omega

/-- A left fold by `and` from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_one f l _ (IntOp.andi_eq_one.2 ⟨h, hl a List.mem_cons_self⟩) (fun n hn => hl n (List.mem_cons_of_mem _ hn))

/-- A reduction by `and` from 1 of an array whose entries reducing into `j` are all 1 is 1 at `j`. -/
theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, h.drop i = j → x i = 1#1) : Host.reduce IntOp.andi x init h hu j = 1#1 := by
  rw [Host.reduce_eq_foldl]
  refine foldl_andi_one x _ _ hi (fun n hn => hx n ?_)
  have := (List.mem_filter.1 hn).2
  simpa using this

/-! ## Broadcasts at an index -/

theorem bcast_8x1024_8x1024x1_at {α : Type} (h : S8x1024.BroadcastsInDim S8x1024x1 (![0, 1] : Fin 2 → Fin S8x1024x1.rank))
    (x : S8x1024.Idx → α) (b : Fin 8) (t : Fin 1024) (k : Fin 1) :
    broadcastInDim S8x1024x1 ![0, 1] h x (ix3 b t k) = x (ix2 b t) := by
  refine broadcastInDim_apply _ h x _ _ (fun a => ?_)
  match a with
  | ⟨0, _⟩ => rfl
  | ⟨1, _⟩ => rfl

theorem bcast_8x1024_8x1024x1024_at {α : Type} (h : S8x1024.BroadcastsInDim S8x1024x1024 (![0, 1] : Fin 2 → Fin S8x1024x1024.rank))
    (x : S8x1024.Idx → α) (b : Fin 8) (t : Fin 1024) (cc : Fin 1024) :
    broadcastInDim S8x1024x1024 ![0, 1] h x (ix3 b t cc) = x (ix2 b t) := by
  refine broadcastInDim_apply _ h x _ _ (fun a => ?_)
  match a with
  | ⟨0, _⟩ => rfl
  | ⟨1, _⟩ => rfl

theorem bcast_1_1x1x1_at {α : Type} (h : S1.BroadcastsInDim S1x1x1 (![2] : Fin 1 → Fin S1x1x1.rank))
    (x : S1.Idx → α) (j : S1x1x1.Idx) :
    broadcastInDim S1x1x1 ![2] h x j = x (ix1 0) := by
  refine broadcastInDim_apply _ h x _ _ (fun a => ?_)
  match a with
  | ⟨0, _⟩ => rfl

theorem bcast_1x1x1_8x1024x1_at {α : Type} (h : S1x1x1.BroadcastsInDim S8x1024x1 (![0, 1, 2] : Fin 3 → Fin S8x1024x1.rank))
    (x : S1x1x1.Idx → α) (j : S8x1024x1.Idx) :
    broadcastInDim S8x1024x1 ![0, 1, 2] h x j = x (ix3 0 0 0) := by
  refine broadcastInDim_apply _ h x _ _ (fun a => ?_)
  match a with
  | ⟨0, _⟩ => rfl
  | ⟨1, _⟩ => rfl
  | ⟨2, _⟩ => rfl

/-! ## The gather of rows of a table -/

theorem gather_row {α : Type} (x : S8192x1024.Idx → α) (idx : IVec S8x1024x1 32) (b : Fin 8) (t : Fin 1024) (cc : Fin 1024) :
    Host.gather gather_S8192x1024_S8x1024x1_S8x1024x1024_2_0_n_n_0_2_11024 x idx (ix3 b t cc)
      = x (ix2 (⟨min (idx (ix3 b t 0)).toInt.toNat 8191, by omega⟩ : Fin 8192) cc) := by
  unfold Host.gather
  congr 1
  funext a
  refine Fin.ext ?_
  match a with
  | ⟨0, _⟩ =>
    show gather_S8192x1024_S8x1024x1_S8x1024x1024_2_0_n_n_0_2_11024.start (ix3 b t cc) idx 0
      + gather_S8192x1024_S8x1024x1_S8x1024x1024_2_0_n_n_0_2_11024.batchCoord (ix3 b t cc) 0
      + gather_S8192x1024_S8x1024x1_S8x1024x1024_2_0_n_n_0_2_11024.offCoord (ix3 b t cc) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x1024_S8x1024x1_S8x1024x1024_2_0_n_n_0_2_11024.startIndexMap from List.mem_singleton.mpr rfl)]
    have hsi : gather_S8192x1024_S8x1024x1_S8x1024x1024_2_0_n_n_0_2_11024.siIdx (ix3 b t cc)
        ⟨List.idxOf (0 : Fin 2) gather_S8192x1024_S8x1024x1_S8x1024x1024_2_0_n_n_0_2_11024.startIndexMap,
          List.idxOf_lt_length_iff.2 (List.mem_singleton.mpr rfl)⟩ = ix3 b t 0 := by
      funext d; refine Fin.ext ?_
      match d with
      | ⟨0, _⟩ => rfl
      | ⟨1, _⟩ => rfl
      | ⟨2, _⟩ => rfl
    rw [hsi]
    rfl
  | ⟨1, _⟩ =>
    show gather_S8192x1024_S8x1024x1_S8x1024x1024_2_0_n_n_0_2_11024.start (ix3 b t cc) idx 1
      + gather_S8192x1024_S8x1024x1_S8x1024x1024_2_0_n_n_0_2_11024.batchCoord (ix3 b t cc) 1
      + gather_S8192x1024_S8x1024x1_S8x1024x1024_2_0_n_n_0_2_11024.offCoord (ix3 b t cc) 1 = _
    rw [GatherDims.batchCoord_eq_zero _ _ _ List.not_mem_nil]
    have hst : gather_S8192x1024_S8x1024x1_S8x1024x1024_2_0_n_n_0_2_11024.start (ix3 b t cc) idx 1 = 0 := by
      unfold GatherDims.start
      rw [dif_neg (show ¬ (1 : Fin 2) ∈ gather_S8192x1024_S8x1024x1_S8x1024x1024_2_0_n_n_0_2_11024.startIndexMap from by decide)]
    rw [hst]
    simp only [Nat.add_zero, Nat.zero_add]
    rfl

/-! ## Elementwise operations at an index -/

theorem select_one_at {s : Shape} {α : Type} (M : IVec s 1) (G N : s.Idx → α) (i : s.Idx) (h : M i = 1#1) :
    select M G N i = G i := by
  show Scalar.select (M i) (G i) (N i) = _
  rw [h]; exact select_one _ _

/-- The look-up's range test at an index. -/
theorem mask_word_at {s : Shape} (V Z N : IVec s 32) (i : s.Idx) (hz : Z i = 0#32) (hn : N i = 8191#32)
    (h0 : 0 ≤ (V i).toInt) (h1 : (V i).toInt < 8192) : andi (cmpi .sge V Z) (cmpi .sle V N) i = 1#1 := by
  show IntOp.andi (IntOp.cmpi .sge (V i) (Z i)) (IntOp.cmpi .sle (V i) (N i)) = 1#1
  rw [hz, hn]; exact inrange_word _ h0 h1

/-- The look-up's wrapped index array (negative words moved up by the table's height, the result given a unit
    axis) at an index, for words that are not negative: the word itself. -/
theorem wrap_at (h0 : S_.BroadcastsInDim S8x1024 (![] : Fin 0 → Fin S8x1024.rank))
    (h01 : S8x1024.BroadcastsInDim S8x1024x1 (![0, 1] : Fin 2 → Fin S8x1024x1.rank))
    (idx : IVec S8x1024 32) (hidx : Cert.Spec.InRange idx) (b : Fin 8) (t : Fin 1024) (k : Fin 1) :
    broadcastInDim S8x1024x1 ![0, 1] h01
        (select (cmpi .slt idx (broadcastInDim S8x1024 ![] h0 (constantI S_ 32 0#32)))
          (addi idx (broadcastInDim S8x1024 ![] h0 (constantI S_ 32 8192#32))) idx) (ix3 b t k)
      = idx (ix2 b t) := by
  rw [bcast_8x1024_8x1024x1_at]
  exact wrap_word _ (hidx b t).1

variable (m : (ℓ : Loc nD τ sig) → Buf (Elt Ideal) ℓ)

abbrev aIdx (c : Dev nD) : IVec S8x1024 32 := m ((c.tc : Thread nD τ).loc main_arg0)
abbrev aTg (c : Dev nD) : IVec S8x1024 32 := m ((c.tc : Thread nD τ).loc main_arg1)
abbrev aWte (c : Dev nD) : S8192x1024.Idx → EReal := m ((c.tc : Thread nD τ).loc main_arg2)
abbrev aWv (c : Dev nD) : S4x1024x1024.Idx → EReal := m ((c.tc : Thread nD τ).loc main_arg3)
abbrev aWm (c : Dev nD) : S4x1024x1024.Idx → EReal := m ((c.tc : Thread nD τ).loc main_arg4)
abbrev aLmw (c : Dev nD) : S8192x1024.Idx → EReal := m ((c.tc : Thread nD τ).loc main_arg5)

/-! ## The token look-up: region 0's input block -/

set_option maxHeartbeats 1000000 in
/-- After the look-up's operations the embedding buffer holds, at every index, the table's row of the token there. -/
theorem W1_v0_at (c : Dev nD) (hidx : Cert.Spec.InRange (aIdx m c)) (b : Fin 8) (t : Fin 1024) (cc : Fin 1024) :
    (W1 m c (Proc.devRef .tc main_v0) : S8x1024x1024.Idx → EReal) (ix3 b t cc)
      = Cert.Spec.emb (aWte m c) (aIdx m c) b t cc := by
  show StableHlo.after hostOps0 (fun b => m (c, b)) (Proc.devRef .tc main_v0) (ix3 b t cc) = _
  after_results_simp
  simp only [StableHlo.TRef.ofBuf, StableHlo.TRef.toBuf, cast_eq]
  refine (select_one_at _ _ _ _ ?_).trans ?_
  · refine (bcast_8x1024_8x1024x1024_at _ _ b t cc).trans ?_
    refine reduce_andi_one _ _ _ _ _ rfl (fun i _ => ?_)
    obtain ⟨b', t', k', rfl⟩ : ∃ b' t' k', i = ix3 b' t' k' := ⟨_, _, _, eq_ix3 i⟩
    refine mask_word_at _ _ _ _ rfl rfl ?_ ?_
    · rw [wrap_at _ _ _ hidx b' t' k']; exact (hidx b' t').1
    · rw [wrap_at _ _ _ hidx b' t' k']; exact (hidx b' t').2
  · refine (gather_row _ _ b t cc).trans ?_
    show aWte m c (ix2 _ cc) = aWte m c (ix2 (Cert.Spec.tok (aIdx m c) b t) cc)
    refine congrArg (fun r => aWte m c (ix2 r cc)) (Fin.ext ?_)
    show min (_ : BitVec 32).toInt.toNat 8191 = min ((aIdx m c) (ix2 b t)).toInt.toNat 8191
    rw [wrap_at _ _ _ hidx b t 0]

theorem V2_v0_at (c : Dev nD) (hidx : Cert.Spec.InRange (aIdx m c)) (b : Fin 8) (t : Fin 1024) (cc : Fin 1024) :
    (Whole.V2 m c main_v0 : S8x1024x1024.Idx → EReal) (ix3 b t cc) = Cert.Spec.emb (aWte m c) (aIdx m c) b t cc :=
  (congrFun (Gen.V2_of m c main_v0 (by decide)) (ix3 b t cc)).trans (W1_v0_at m c hidx b t cc)

/-! ## The weights: the conversions are the identity on extended reals -/

theorem after01_v1 (V : Valuation τ sig (Elt Ideal)) :
    (StableHlo.after hostOps0_1 V (Proc.devRef .tc main_v1) : S4x1024x1024.Idx → EReal)
      = (V (Proc.devRef .tc main_arg3) : S4x1024x1024.Idx → EReal) := by
  after_results; rfl
theorem after01_v2 (V : Valuation τ sig (Elt Ideal)) :
    (StableHlo.after hostOps0_1 V (Proc.devRef .tc main_v2) : S4x1024x1024.Idx → EReal)
      = (V (Proc.devRef .tc main_arg4) : S4x1024x1024.Idx → EReal) := by
  after_results; rfl
theorem after01_v3 (V : Valuation τ sig (Elt Ideal)) :
    (StableHlo.after hostOps0_1 V (Proc.devRef .tc main_v3) : S8192x1024.Idx → EReal)
      = (V (Proc.devRef .tc main_arg5) : S8192x1024.Idx → EReal) := by
  after_results; rfl

theorem V2_v1 (c : Dev nD) : (Whole.V2 m c main_v1 : S4x1024x1024.Idx → EReal) = aWv m c :=
  (after01_v1 (W1 m c)).trans (Gen.V1_of m c main_arg3 (by decide))
theorem V2_v2 (c : Dev nD) : (Whole.V2 m c main_v2 : S4x1024x1024.Idx → EReal) = aWm m c :=
  (after01_v2 (W1 m c)).trans (Gen.V1_of m c main_arg4 (by decide))
theorem V2_v3 (c : Dev nD) : (Whole.V2 m c main_v3 : S8192x1024.Idx → EReal) = aLmw m c :=
  (after01_v3 (W1 m c)).trans (Gen.V1_of m c main_arg5 (by decide))

/-! ## Region 1's entry -/

theorem V4_of_ne (c : Dev nD) (r : Ref sig .tc) (h : r ∉ hostOps1_W) : Whole.V4 m c r = W3 m c (Proc.devRef .tc r) :=
  StableHlo.after_of_writes_sub hostOps1 _ hostOps1_writes h

theorem V4_v3 (c : Dev nD) : (Whole.V4 m c main_v3 : S8192x1024.Idx → EReal) = aLmw m c :=
  (V4_of_ne m c main_v3 (by decide)).trans ((W3_of_ne m c main_v3 (by decide)).trans (V2_v3 m c))

theorem V4_v4 (c : Dev nD) :
    (Whole.V4 m c main_v4 : S8x1024x1024.Idx → EReal) = ((dat0 (F := Ideal) (Whole.V2 m) c).arrAt 3 cfg0.N : S8x1024x1024.Idx → EReal) :=
  (V4_of_ne m c main_v4 (by decide)).trans (W3_arr m c 3)

/-- The targets' reshape at an index. -/
theorem after1_v5 (V : Valuation τ sig (Elt Ideal)) (b : Fin 8) (t : Fin 1024) :
    (StableHlo.after hostOps1 V (Proc.devRef .tc main_v5) : IVec S8x1024x1 32) (ix3 b t (0 : Fin 1))
      = (V (Proc.devRef .tc main_arg1) : IVec S8x1024 32) (ix2 b t) := by
  after_results
  refine shapeCast_apply _ _ _ (ix2 b t) ?_
  show (S8x1024.rowMajor (ix2 b t)).val = (S8x1024x1.rowMajor (ix3 b t (0 : Fin 1))).val
  rw [Shape.rowMajor_val_two, Shape.rowMajor_val_three]
  show b.val * 1024 + t.val = (b.val * 1024 + t.val) * 1 + 0
  omega

theorem V4_v5_at (c : Dev nD) (b : Fin 8) (t : Fin 1024) :
    (Whole.V4 m c main_v5 : IVec S8x1024x1 32) (ix3 b t (0 : Fin 1)) = aTg m c (ix2 b t) :=
  (after1_v5 (W3 m c) b t).trans (congrFun ((W3_of_ne m c main_arg1 (by decide)).trans
    ((Gen.V2_of m c main_arg1 (by decide)).trans (Gen.V1_of m c main_arg1 (by decide)))) (ix2 b t))

/-! ## The final sums and the quotient -/

/-- The indices of an [8, 1024, 1] array are the pairs of its first two coordinates. -/
def idxEquiv8x1024x1 : S8x1024x1.Idx ≃ Fin 8 × Fin 1024 where
  toFun i := (i 0, i 1)
  invFun p := ix3 p.1 p.2 (0 : Fin 1)
  left_inv i := by
    funext a
    match a with
    | ⟨0, _⟩ => rfl
    | ⟨1, _⟩ => rfl
    | ⟨2, h⟩ =>
      refine Fin.ext ?_
      have h1 : (i ⟨2, h⟩).val < 1 := (i ⟨2, h⟩).isLt
      show 0 = (i ⟨2, h⟩).val
      omega
  right_inv _ := rfl

/-- A sum over such an array is the double sum over the two coordinates. -/
theorem sum_8x1024x1 {M : Type} [AddCommMonoid M] (f : S8x1024x1.Idx → M) :
    ∑ j, f j = ∑ b : Fin 8, ∑ t : Fin 1024, f (ix3 b t (0 : Fin 1)) := by
  rw [← Equiv.sum_comp idxEquiv8x1024x1.symm f, Fintype.sum_prod_type]
  rfl

/-- The program's last operations: the quotient of the first array's total by the larger of the second's total and 1. -/
theorem after2_v10 (V : Valuation τ sig (Elt Ideal)) (x1 x2 : S8x1024x1.Idx → EReal)
    (h1 : (V (Proc.devRef .tc main_v6_1) : S8x1024x1.Idx → EReal) = x1)
    (h2 : (V (Proc.devRef .tc main_v6_2) : S8x1024x1.Idx → EReal) = x2) (i : S_.Idx) :
    (StableHlo.after hostOps2 V (Proc.devRef .tc main_v10) : S_.Idx → EReal) i
      = Ideal.div (0 + ∑ j : S8x1024x1.Idx, x1 j) (max (0 + ∑ j : S8x1024x1.Idx, x2 j) 1) := by
  after_results
  rw [h1, h2, hostDivf_apply, maximumf_apply, hostReduceAdd_apply, hostReduceAdd_apply,
    Ideal.hostReduceAdd_total _ (fun b => b.elim0), Ideal.hostReduceAdd_total _ (fun b => b.elim0),
    constant_apply, constant_apply, Ideal.ofBits_zero_f32, Ideal.ofBits_one_f32]

/-! ## Region 1's inputs, from the arguments -/

/-- Region 1's hidden block of a batch row is the four layers of the row's embedding block. -/
theorem xrow_eq (c : Dev nD) (hidx : Cert.Spec.InRange (aIdx m c)) (b : Fin 8) :
    HeadValue.xrow (Whole.V4 m) c b
      = Cert.Spec.hidden4 (Cert.Spec.w4 (aWv m c)) (Cert.Spec.w4 (aWm m c)) (Cert.Spec.emb (aWte m c) (aIdx m c) b) := by
  funext tt cc
  refine (congrFun (V4_v4 m c) (ix3 b tt cc)).trans ((LayersValue.hidden_value (Whole.V2 m) c b tt cc).trans ?_)
  have e0 : (fun t' c' => (Whole.V2 m c main_v0 : S8x1024x1024.Idx → EReal) (ix3 b t' c')) = Cert.Spec.emb (aWte m c) (aIdx m c) b :=
    funext fun t' => funext fun c' => V2_v0_at m c hidx b t' c'
  rw [V2_v1, V2_v2, e0]

/-- A row's logits, from the arguments. -/
theorem zrow_eq (c : Dev nD) (hidx : Cert.Spec.InRange (aIdx m c)) (b : Fin 8) (t : Fin 1024) :
    HeadValue.zrow (Whole.V4 m) c b t = Cert.Spec.Z (aIdx m c) (aWte m c) (aWv m c) (aWm m c) (aLmw m c) b t := by
  funext v
  show Cert.Spec.logit (Cert.Spec.w2 (Whole.V4 m c main_v3 : S8192x1024.Idx → EReal)) (HeadValue.xrow (Whole.V4 m) c b) t v = _
  rw [V4_v3, xrow_eq m c hidx b]
  rfl

/-! ## The two results -/

/-- THE LOGITS: the program's first result is the specification's logits of its arguments. -/
theorem kernel_logits (c : Dev nD) (hidx : Cert.Spec.InRange (aIdx m c)) (b : Fin 8) (t : Fin 1024) (v : Fin 8192) :
    (W6 m c (Proc.devRef .tc main_v6_0) : S8x1024x8192.Idx → EReal) (ix3 b t v)
      = Cert.Spec.Z (aIdx m c) (aWte m c) (aWv m c) (aWm m c) (aLmw m c) b t v := by
  have e6 : (W6 m c (Proc.devRef .tc main_v6_0) : S8x1024x8192.Idx → EReal)
      = ((dat1 (F := Ideal) (Whole.V4 m) c).arrAt 3 cfg1.N : S8x1024x8192.Idx → EReal) :=
    (StableHlo.after_of_writes_sub hostOps2 (W5 m c) hostOps2_writes (by decide : main_v6_0 ∉ hostOps2_W)).trans (W5_arr m c 3)
  refine (congrFun e6 (ix3 b t v)).trans ((HeadValue.logits_value (Whole.V4 m) c b t v).trans ?_)
  exact congrFun (zrow_eq m c hidx b t) v

/-- Region 1's hidden input is finite when the table and the layer weights are. -/
theorem V4_v4_isReal (c : Dev nD) (hwte : ∀ i, Cert.Spec.IsReal (aWte m c i)) (hwv : ∀ i, Cert.Spec.IsReal (aWv m c i))
    (hwm : ∀ i, Cert.Spec.IsReal (aWm m c i)) (hidx : Cert.Spec.InRange (aIdx m c)) :
    ∀ j, Cert.Spec.IsReal ((Whole.V4 m c main_v4 : S8x1024x1024.Idx → EReal) j) := by
  intro j
  obtain ⟨b, t, d, rfl⟩ : ∃ b t d, j = ix3 b t d := ⟨_, _, _, eq_ix3 j⟩
  have e : (Whole.V4 m c main_v4 : S8x1024x1024.Idx → EReal) (ix3 b t d)
      = Cert.Spec.hidden4 (Cert.Spec.w4 (aWv m c)) (Cert.Spec.w4 (aWm m c)) (Cert.Spec.emb (aWte m c) (aIdx m c) b) t d :=
    congrFun (congrFun (xrow_eq m c hidx b) t) d
  rw [e]
  exact Cert.Spec.isReal_hidden4 (fun l d' c' => hwv (ix3 l d' c')) (fun l d' c' => hwm (ix3 l d' c'))
    (fun t' c' => hwte (ix2 (Cert.Spec.tok (aIdx m c) b t') c')) t d

theorem V4_v3_isReal (c : Dev nD) (hlm : ∀ i, Cert.Spec.IsReal (aLmw m c i)) :
    ∀ j, Cert.Spec.IsReal ((Whole.V4 m c main_v3 : S8192x1024.Idx → EReal) j) := by
  intro j; rw [V4_v3]; exact hlm j

theorem tgw_eq (c : Dev nD) (b : Fin 8) (t : Fin 1024) : HeadValue.tgw (Whole.V4 m) c b t = aTg m c (ix2 b t) := V4_v5_at m c b t

theorem tgw_inRange (c : Dev nD) (htg : Cert.Spec.InRange (aTg m c)) (b : Fin 8) (t : Fin 1024) :
    0 ≤ (HeadValue.tgw (Whole.V4 m) c b t).toInt ∧ (HeadValue.tgw (Whole.V4 m) c b t).toInt < 8192 := by
  rw [tgw_eq m c b t]; exact htg b t

theorem tcol_eq (c : Dev nD) (b : Fin 8) (t : Fin 1024) : HeadValue.tcol (Whole.V4 m) c b t = Cert.Spec.tok (aTg m c) b t := by
  refine Fin.ext ?_
  show min (HeadValue.tgw (Whole.V4 m) c b t).toInt.toNat 8191 = min ((aTg m c) (ix2 b t)).toInt.toNat 8191
  rw [tgw_eq m c b t]

/-- The program's second result: the quotient of the total of region 1's per-row values by the larger of the total
    of its per-row masks and 1, each total as a double sum over batch rows and positions. -/
theorem loss_form (c : Dev nD) (i : S_.Idx) :
    (W6 m c (Proc.devRef .tc main_v10) : S_.Idx → EReal) i
      = Ideal.div (∑ b : Fin 8, ∑ t : Fin 1024, ((dat1 (F := Ideal) (Whole.V4 m) c).arrAt 4 cfg1.N : S8x1024x1.Idx → EReal) (ix3 b t (0 : Fin 1)))
          (max (∑ b : Fin 8, ∑ t : Fin 1024, ((dat1 (F := Ideal) (Whole.V4 m) c).arrAt 5 cfg1.N : S8x1024x1.Idx → EReal) (ix3 b t (0 : Fin 1))) 1) := by
  have e1 : (W5 m c (Proc.devRef .tc main_v6_1) : S8x1024x1.Idx → EReal)
      = ((dat1 (F := Ideal) (Whole.V4 m) c).arrAt 4 cfg1.N : S8x1024x1.Idx → EReal) := W5_arr m c 4
  have e2 : (W5 m c (Proc.devRef .tc main_v6_2) : S8x1024x1.Idx → EReal)
      = ((dat1 (F := Ideal) (Whole.V4 m) c).arrAt 5 cfg1.N : S8x1024x1.Idx → EReal) := W5_arr m c 5
  refine (after2_v10 (W5 m c) _ _ e1 e2 i).trans ?_
  rw [sum_8x1024x1, sum_8x1024x1, zero_add, zero_add]

/-- THE LOSS: the program's second result is the specification's loss of its arguments, for finite tables and
    weights and token and target words in range. -/
theorem kernel_loss (c : Dev nD) (hwte : ∀ i, Cert.Spec.IsReal (aWte m c i)) (hwv : ∀ i, Cert.Spec.IsReal (aWv m c i))
    (hwm : ∀ i, Cert.Spec.IsReal (aWm m c i)) (hlm : ∀ i, Cert.Spec.IsReal (aLmw m c i))
    (hidx : Cert.Spec.InRange (aIdx m c)) (htg : Cert.Spec.InRange (aTg m c)) (i : S_.Idx) :
    (W6 m c (Proc.devRef .tc main_v10) : S_.Idx → EReal) i
      = Cert.Spec.LOSS (aIdx m c) (aTg m c) (aWte m c) (aWv m c) (aWm m c) (aLmw m c) := by
  refine (loss_form m c i).trans ?_
  have hn : ∀ (b : Fin 8) (t : Fin 1024),
      ((dat1 (F := Ideal) (Whole.V4 m) c).arrAt 4 cfg1.N : S8x1024x1.Idx → EReal) (ix3 b t (0 : Fin 1))
        = (-(Cert.Spec.lsm (Cert.Spec.Z (aIdx m c) (aWte m c) (aWv m c) (aWm m c) (aLmw m c) b t) (Cert.Spec.tok (aTg m c) b t)))
            * Cert.Spec.maskOf (aTg m c (ix2 b t)) := by
    intro b t
    rw [HeadValue.nll_value (Whole.V4 m) c (V4_v4_isReal m c hwte hwv hwm hidx) (V4_v3_isReal m c hlm) (tgw_inRange m c htg) b t,
      zrow_eq m c hidx b t, tcol_eq m c b t, tgw_eq m c b t]
  have hk : ∀ (b : Fin 8) (t : Fin 1024),
      ((dat1 (F := Ideal) (Whole.V4 m) c).arrAt 5 cfg1.N : S8x1024x1.Idx → EReal) (ix3 b t (0 : Fin 1))
        = Cert.Spec.maskOf (aTg m c (ix2 b t)) := by
    intro b t
    rw [HeadValue.mask_value (Whole.V4 m) c b t, tgw_eq m c b t]
  simp only [hn, hk]
  rfl

end Cert.KernelIdeal.HostValue
end
-- ==== Proof.Ref.lean ====
/-
  The reference's results as the specification's functions of its arguments.

  The reference embeds the token ids (a table lookup: row `idx[b, t]` of `wte`, the id read signed and clamped into
  the table), applies the four layers  x ↦ x · wmᵀ + (row 1 of x · wvᵀ on every row)  one after the other, each with
  its own slice of the two weight stacks, and multiplies by the projection weight: these are the logits `Spec.Z`.
  For the loss it subtracts each row's maximum M (a fold of `max` from −∞), forms (z − M) − log Σ exp (z − M), picks
  the target's column of that row, negates, multiplies by the mask [target ≠ 0], sums over the 8 × 1024 rows and divides
  by the number of unmasked rows (at least 1): this is `Spec.LOSS`.

  Two hypotheses are used, each only where an integer is turned into a position: every token id lies in [0, 8192)
  (so the wrap-around `id < 0 ? id + 8192 : id` is the identity and the clamp is `Spec.tok`), and every target
  lies in [0, 8192) (likewise, and the in-range test of the column pick is true, so no fill value appears).
  No finiteness is used: the specification's loss follows the reference's own arrangement.
-/
import proofs.«401600_j86689619903517_2_alg».proof.Defs
import proofs.«401600_j86689619903517_2_alg».proof.Proof.RefRunOps
import proofs.«401600_j86689619903517_2_alg».proof.Proof.RefRead
import proofs.«401600_j86689619903517_2_alg».proof.Proof.Spec
import Idealize.ShloMosaic.Lib.ValueIdx
import Idealize.ShloMosaic.Lib.IdealHost
import Idealize.ShloMosaic.PureOps.Reduce
import Idealize.ShloMosaic.PureOps.Ideal.Laws

noncomputable section

namespace Cert.ReferenceIdeal.RefValue

open Idealize.ShloMosaic Idealize.ShloMosaic.TcCoe Idealize.SL.Sem
open Cert.ReferenceIdeal Cert.ReferenceIdeal.Gen Cert.ReferenceIdeal.ReadP
open Idealize.ShloMosaic.ValueIdx

/-! ## Words -/

/-- A word that is not negative, read signed, is not below zero. -/
theorem slt_zero_of_nonneg (g : BitVec 32) (h : 0 ≤ g.toInt) : IntOp.cmpi .slt g 0#32 = 0#1 := by
  unfold IntOp.cmpi
  have : g.slt 0#32 = false := by
    simp [BitVec.slt]; omega
  simp [this]

/-- So the wrap-around `g < 0 ? g + 8192 : g` leaves it as it is. -/
theorem wrap_select_of_nonneg (g : BitVec 32) (h : 0 ≤ g.toInt) :
    Scalar.select (IntOp.cmpi .slt g 0#32) (IntOp.addi g 8192#32) g = g := by
  rw [slt_zero_of_nonneg g h]; exact select_zero _ _

/-- A word in [0, 8192) passes both bounds tests `0 ≤ g` and `g ≤ 8191`. -/
theorem inb_of_range (g : BitVec 32) (h0 : 0 ≤ g.toInt) (h1 : g.toInt < 8192) :
    IntOp.andi (IntOp.cmpi .sge g 0#32) (IntOp.cmpi .sle g 8191#32) = 1#1 := by
  unfold IntOp.cmpi IntOp.andi
  have a : (0#32 : BitVec 32).sle g = true := by simp [BitVec.sle]; omega
  have b : g.sle 8191#32 = true := by simp [BitVec.sle]; omega
  simp [a, b]

/-! ## The two gathers, read at an index -/

/-- The dimension numbers of the embedding lookup `wte[idx]`. -/
abbrev GA := gather_S8192x1024_S8x1024x1_S8x1024x1024_2_0_n_n_0_2_11024
/-- The dimension numbers of `take_along_axis` along the last axis. -/
abbrev GB := gather_S8x1024x8192_S8x1024x1x1_S8x1024x1_n_2_01_01_2_3_111

/-- On the table's row axis the lookup reads the start index, signed and clamped into [0, 8191]. -/
theorem GA_axis0 (idx : IVec S8x1024x1 32) (b : Fin 8) (t c : Fin 1024) :
    (GA.operandIdx (ix3 b t c) idx 0).val = min (idx (ix3 b t 0)).toInt.toNat 8191 := by
  show GA.start (ix3 b t c) idx 0 + GA.batchCoord (ix3 b t c) 0 + GA.offCoord (ix3 b t c) 0 = _
  rw [GatherDims.batchCoord_eq_zero GA (ix3 b t c) 0 (by decide), GatherDims.offCoord_eq_zero GA (ix3 b t c) 0 (by decide)]
  unfold GatherDims.start
  rw [dif_pos (show (0 : Fin S8192x1024.rank) ∈ GA.startIndexMap by decide)]
  have hsi : GA.siIdx (ix3 b t c) ⟨List.idxOf (0 : Fin S8192x1024.rank) GA.startIndexMap,
      List.idxOf_lt_length_iff.2 (show (0 : Fin S8192x1024.rank) ∈ GA.startIndexMap by decide)⟩ = ix3 b t 0 := by
    funext a; refine Fin.ext ?_
    match a with
    | ⟨0, _⟩ => rfl
    | ⟨1, _⟩ => rfl
    | ⟨2, _⟩ => rfl
  rw [hsi]
  rfl

/-- On the table's column axis it reads the result's own column. -/
theorem GA_axis1 (idx : IVec S8x1024x1 32) (b : Fin 8) (t c : Fin 1024) :
    (GA.operandIdx (ix3 b t c) idx 1).val = c.val := by
  show GA.start (ix3 b t c) idx 1 + GA.batchCoord (ix3 b t c) 1 + GA.offCoord (ix3 b t c) 1 = _
  rw [GatherDims.batchCoord_eq_zero GA (ix3 b t c) 1 (by decide)]
  unfold GatherDims.start GatherDims.offCoord
  rw [dif_neg (show ¬ (1 : Fin S8192x1024.rank) ∈ GA.startIndexMap by decide),
    dif_pos (show (1 : Fin S8192x1024.rank) ∈ GA.sKept by decide)]
  simp only [Nat.zero_add]
  rfl

/-- The embedding lookup at (b, t, c): row `idx[b, t, 0]` (read signed, clamped into [0, 8191]) of the table, column c. -/
theorem gatherRows_apply {α : Type} (x : S8192x1024.Idx → α) (idx : IVec S8x1024x1 32) (b : Fin 8) (t c : Fin 1024) :
    Host.gather GA x idx (ix3 b t c) = x (ix2 (⟨min (idx (ix3 b t 0)).toInt.toNat 8191, by omega⟩ : Fin 8192) c) := by
  unfold Host.gather
  refine congrArg x (funext fun a => Fin.ext ?_)
  match a with
  | ⟨0, _⟩ => exact GA_axis0 idx b t c
  | ⟨1, _⟩ => exact GA_axis1 idx b t c

/-- The two leading axes of the operand are batching axes: they read the result's own row coordinates. -/
theorem GB_axis0 (idx : IVec S8x1024x1x1 32) (b : Fin 8) (t : Fin 1024) :
    (GB.operandIdx (ix3 b t (0 : Fin 1)) idx 0).val = b.val := by
  show GB.start (ix3 b t (0 : Fin 1)) idx 0 + GB.batchCoord (ix3 b t (0 : Fin 1)) 0 + GB.offCoord (ix3 b t (0 : Fin 1)) 0 = _
  rw [GatherDims.offCoord_eq_zero GB (ix3 b t (0 : Fin 1)) 0 (by decide)]
  unfold GatherDims.start GatherDims.batchCoord
  rw [dif_neg (show ¬ (0 : Fin S8x1024x8192.rank) ∈ GB.startIndexMap by decide),
    dif_pos (show (0 : Fin S8x1024x8192.rank) ∈ GB.operandBatchingDims by decide)]
  simp only [Nat.zero_add, Nat.add_zero]
  rfl

theorem GB_axis1 (idx : IVec S8x1024x1x1 32) (b : Fin 8) (t : Fin 1024) :
    (GB.operandIdx (ix3 b t (0 : Fin 1)) idx 1).val = t.val := by
  show GB.start (ix3 b t (0 : Fin 1)) idx 1 + GB.batchCoord (ix3 b t (0 : Fin 1)) 1 + GB.offCoord (ix3 b t (0 : Fin 1)) 1 = _
  rw [GatherDims.offCoord_eq_zero GB (ix3 b t (0 : Fin 1)) 1 (by decide)]
  unfold GatherDims.start GatherDims.batchCoord
  rw [dif_neg (show ¬ (1 : Fin S8x1024x8192.rank) ∈ GB.startIndexMap by decide),
    dif_pos (show (1 : Fin S8x1024x8192.rank) ∈ GB.operandBatchingDims by decide)]
  simp only [Nat.zero_add, Nat.add_zero]
  rfl

/-- The last axis reads the start index, signed and clamped into [0, 8191]. -/
theorem GB_axis2 (idx : IVec S8x1024x1x1 32) (b : Fin 8) (t : Fin 1024) :
    (GB.operandIdx (ix3 b t (0 : Fin 1)) idx 2).val = min (idx (ix4 b t (0 : Fin 1) (0 : Fin 1))).toInt.toNat 8191 := by
  show GB.start (ix3 b t (0 : Fin 1)) idx 2 + GB.batchCoord (ix3 b t (0 : Fin 1)) 2 + GB.offCoord (ix3 b t (0 : Fin 1)) 2 = _
  rw [GatherDims.batchCoord_eq_zero GB (ix3 b t (0 : Fin 1)) 2 (by decide),
    GatherDims.offCoord_eq_zero GB (ix3 b t (0 : Fin 1)) 2 (by decide)]
  unfold GatherDims.start
  rw [dif_pos (show (2 : Fin S8x1024x8192.rank) ∈ GB.startIndexMap by decide)]
  have hsi : GB.siIdx (ix3 b t (0 : Fin 1)) ⟨List.idxOf (2 : Fin S8x1024x8192.rank) GB.startIndexMap,
      List.idxOf_lt_length_iff.2 (show (2 : Fin S8x1024x8192.rank) ∈ GB.startIndexMap by decide)⟩
      = ix4 b t (0 : Fin 1) (0 : Fin 1) := by
    funext a; refine Fin.ext ?_
    match a with
    | ⟨0, _⟩ => rfl
    | ⟨1, _⟩ => rfl
    | ⟨2, _⟩ => rfl
    | ⟨3, _⟩ => rfl
  rw [hsi]
  rfl

/-- `take_along_axis` at (b, t, 0): row (b, t) of the operand at column `idx[b, t, 0, 0]` (read signed, clamped). -/
theorem gatherCol_apply {α : Type} (x : S8x1024x8192.Idx → α) (idx : IVec S8x1024x1x1 32) (b : Fin 8) (t : Fin 1024) :
    Host.gather GB x idx (ix3 b t (0 : Fin 1))
      = x (ix3 b t (⟨min (idx (ix4 b t (0 : Fin 1) (0 : Fin 1))).toInt.toNat 8191, by omega⟩ : Fin 8192)) := by
  unfold Host.gather
  refine congrArg x (funext fun a => Fin.ext ?_)
  match a with
  | ⟨0, _⟩ => exact GB_axis0 idx b t
  | ⟨1, _⟩ => exact GB_axis1 idx b t
  | ⟨2, _⟩ => exact GB_axis2 idx b t

/-! ## The two reductions that are folds -/

/-- The row maximum from −∞ is the fold of `max` from ⊥ over the row. -/
theorem rowMax_read (z : S8x1024x8192.Idx → EReal) (b : Fin 8) (t : Fin 1024) :
    Host.reduce (FloatOps.maximumf (F := Ideal) (φ := .f32)) z (constant (F := Ideal) S_ .f32 0xFF800000#32)
        reducesTo_S8x1024x8192_S8x1024_d2 h_S_ (ix2 b t)
      = Cert.Spec.rowMax (fun v : Fin 8192 => z (ix3 b t v)) := by
  have h : S8x1024x8192.Reduces [2] S8x1024 := by decide
  rw [Host.reduce_eq_fold_single (FloatOps.maximumf (F := Ideal) (φ := .f32)) z _ reducesTo_S8x1024x8192_S8x1024_d2 h h_S_]
  have hb : constant (F := Ideal) S_ .f32 0xFF800000#32 (Shape.Idx.first h_S_) = (⊥ : EReal) := by
    show Ideal.ofBits .f32 0xFF800000#32 = ⊥
    simp [Ideal.ofBits, Ideal.ieee]
  have hf : (z ∘ h.lift (ix2 b t)) = fun v : Fin 8192 => z (ix3 b t v) :=
    funext fun k => congrArg z (funext fun c => Fin.ext (by
      match c with
      | ⟨0, _⟩ => rfl
      | ⟨1, _⟩ => rfl
      | ⟨2, _⟩ => rfl))
  rw [hb, hf]
  rfl

/-- A fold of `and` from 1 over entries that are all 1 is 1. -/
theorem fold_andi_ones {ι : Type} (s : Finset ι) :
    s.fold IntOp.andi (1#1 : BitVec 1) (fun _ => (1#1 : BitVec 1)) = 1#1 := by
  classical
  induction s using Finset.induction_on with
  | empty => rfl
  | insert a s ha ih => rw [Finset.fold_insert ha, ih]; rfl

/-- An `and` over an axis of entries that are all 1 is 1. -/
theorem allOnes_read (p : IVec S8x1024x1x1 1) (hp : ∀ i, p i = 1#1) (j : S8x1024x1.Idx) :
    Host.reduce IntOp.andi p (constantI S_ 1 1#1) reducesTo_S8x1024x1x1_S8x1024x1_d3 h_S_ j = 1#1 := by
  have h : S8x1024x1x1.Reduces [3] S8x1024x1 := by decide
  rw [Host.reduce_eq_fold_single IntOp.andi p _ reducesTo_S8x1024x1x1_S8x1024x1_d3 h h_S_]
  have hf : (p ∘ h.lift j) = fun _ => (1#1 : BitVec 1) := funext fun k => hp _
  rw [hf]
  exact fold_andi_ones _

/-! ## The token ids -/

/-- Under the range hypothesis every word of an index array is in range (at any index, not only at `ix2 b t`). -/
theorem inRange_at {x : (⟨S8x1024, .i32⟩ : BufTy).Contents (Elt Ideal)} (h : Cert.Spec.InRange x) (j : S8x1024.Idx) :
    0 ≤ (x j).toInt ∧ (x j).toInt < 8192 := by
  rw [eq_ix2 j]; exact h (j 0) (j 1)

/-- The wrap-around of a negative id does nothing to an id that is not negative. -/
theorem v4_eq (x0 : (⟨S8x1024, .i32⟩ : BufTy).Contents (Elt Ideal)) (h : Cert.Spec.InRange x0) (j : S8x1024.Idx) :
    val_main_v4 (F := Ideal) x0 j = x0 j := by
  rw [val_main_v4_apply, val_main_v1_apply, val_main_v3_apply, val_main_v0_apply, val_main_v2_apply, val_main_c_apply,
    val_main_c_0_apply]
  exact wrap_select_of_nonneg _ (inRange_at h j).1

/-- The embedding lookup is the table's row `tok`. -/
theorem v6_eq (x0 : (⟨S8x1024, .i32⟩ : BufTy).Contents (Elt Ideal)) (x2 : (⟨S8192x1024, .f32⟩ : BufTy).Contents (Elt Ideal)) (h : Cert.Spec.InRange x0) (b : Fin 8) (t c : Fin 1024) :
    val_main_v6 (F := Ideal) x0 x2 (ix3 b t c) = Cert.Spec.emb x2 x0 b t c := by
  unfold val_main_v6
  rw [gatherRows_apply]
  have e : val_main_v5 (F := Ideal) x0 (ix3 b t (0 : Fin 1)) = x0 (ix2 b t) := by
    rw [val_main_v5_apply, v4_eq x0 h]
    exact congrArg x0 (funext fun a => Fin.ext (by match a with | ⟨0, _⟩ => rfl | ⟨1, _⟩ => rfl))
  unfold Cert.Spec.emb Cert.Spec.tok
  refine congrArg x2 (congrArg (fun r : Fin 8192 => ix2 r c) (Fin.ext ?_))
  show min (val_main_v5 (F := Ideal) x0 (ix3 b t (0 : Fin 1))).toInt.toNat 8191 = min (x0 (ix2 b t)).toInt.toNat 8191
  rw [e]

/-! ## The weights: layer l's matrices are the l-th slices -/

theorem v8_eq (x3 : (⟨S4x1024x1024, .f32⟩ : BufTy).Contents (Elt Ideal)) (d c : Fin 1024) :
    val_main_v8 (F := Ideal) x3 (ix2 d c) = Cert.Spec.w4 x3 0 d c := by
  rw [val_main_v8_apply, val_main_v7_apply]
  exact congrArg x3 (funext fun a => Fin.ext (by
    match a with
    | ⟨0, _⟩ => rfl
    | ⟨1, _⟩ => show (d.val * 1024 + c.val) / 1024 % 1024 = d.val; omega
    | ⟨2, _⟩ => show (d.val * 1024 + c.val) % 1024 = c.val; omega))

theorem v13_eq (x4 : (⟨S4x1024x1024, .f32⟩ : BufTy).Contents (Elt Ideal)) (d c : Fin 1024) :
    val_main_v13 (F := Ideal) x4 (ix2 d c) = Cert.Spec.w4 x4 0 d c := by
  rw [val_main_v13_apply, val_main_v12_apply]
  exact congrArg x4 (funext fun a => Fin.ext (by
    match a with
    | ⟨0, _⟩ => rfl
    | ⟨1, _⟩ => show (d.val * 1024 + c.val) / 1024 % 1024 = d.val; omega
    | ⟨2, _⟩ => show (d.val * 1024 + c.val) % 1024 = c.val; omega))

theorem v17_eq (x3 : (⟨S4x1024x1024, .f32⟩ : BufTy).Contents (Elt Ideal)) (d c : Fin 1024) :
    val_main_v17 (F := Ideal) x3 (ix2 d c) = Cert.Spec.w4 x3 1 d c := by
  rw [val_main_v17_apply, val_main_v16_apply]
  exact congrArg x3 (funext fun a => Fin.ext (by
    match a with
    | ⟨0, _⟩ => rfl
    | ⟨1, _⟩ => show (d.val * 1024 + c.val) / 1024 % 1024 = d.val; omega
    | ⟨2, _⟩ => show (d.val * 1024 + c.val) % 1024 = c.val; omega))

theorem v22_eq (x4 : (⟨S4x1024x1024, .f32⟩ : BufTy).Contents (Elt Ideal)) (d c : Fin 1024) :
    val_main_v22 (F := Ideal) x4 (ix2 d c) = Cert.Spec.w4 x4 1 d c := by
  rw [val_main_v22_apply, val_main_v21_apply]
  exact congrArg x4 (funext fun a => Fin.ext (by
    match a with
    | ⟨0, _⟩ => rfl
    | ⟨1, _⟩ => show (d.val * 1024 + c.val) / 1024 % 1024 = d.val; omega
    | ⟨2, _⟩ => show (d.val * 1024 + c.val) % 1024 = c.val; omega))

theorem v26_eq (x3 : (⟨S4x1024x1024, .f32⟩ : BufTy).Contents (Elt Ideal)) (d c : Fin 1024) :
    val_main_v26 (F := Ideal) x3 (ix2 d c) = Cert.Spec.w4 x3 2 d c := by
  rw [val_main_v26_apply, val_main_v25_apply]
  exact congrArg x3 (funext fun a => Fin.ext (by
    match a with
    | ⟨0, _⟩ => rfl
    | ⟨1, _⟩ => show (d.val * 1024 + c.val) / 1024 % 1024 = d.val; omega
    | ⟨2, _⟩ => show (d.val * 1024 + c.val) % 1024 = c.val; omega))

theorem v31_eq (x4 : (⟨S4x1024x1024, .f32⟩ : BufTy).Contents (Elt Ideal)) (d c : Fin 1024) :
    val_main_v31 (F := Ideal) x4 (ix2 d c) = Cert.Spec.w4 x4 2 d c := by
  rw [val_main_v31_apply, val_main_v30_apply]
  exact congrArg x4 (funext fun a => Fin.ext (by
    match a with
    | ⟨0, _⟩ => rfl
    | ⟨1, _⟩ => show (d.val * 1024 + c.val) / 1024 % 1024 = d.val; omega
    | ⟨2, _⟩ => show (d.val * 1024 + c.val) % 1024 = c.val; omega))

theorem v35_eq (x3 : (⟨S4x1024x1024, .f32⟩ : BufTy).Contents (Elt Ideal)) (d c : Fin 1024) :
    val_main_v35 (F := Ideal) x3 (ix2 d c) = Cert.Spec.w4 x3 3 d c := by
  rw [val_main_v35_apply, val_main_v34_apply]
  exact congrArg x3 (funext fun a => Fin.ext (by
    match a with
    | ⟨0, _⟩ => rfl
    | ⟨1, _⟩ => show (d.val * 1024 + c.val) / 1024 % 1024 = d.val; omega
    | ⟨2, _⟩ => show (d.val * 1024 + c.val) % 1024 = c.val; omega))

theorem v40_eq (x4 : (⟨S4x1024x1024, .f32⟩ : BufTy).Contents (Elt Ideal)) (d c : Fin 1024) :
    val_main_v40 (F := Ideal) x4 (ix2 d c) = Cert.Spec.w4 x4 3 d c := by
  rw [val_main_v40_apply, val_main_v39_apply]
  exact congrArg x4 (funext fun a => Fin.ext (by
    match a with
    | ⟨0, _⟩ => rfl
    | ⟨1, _⟩ => show (d.val * 1024 + c.val) / 1024 % 1024 = d.val; omega
    | ⟨2, _⟩ => show (d.val * 1024 + c.val) % 1024 = c.val; omega))

/-! ## The four layers -/

/-- The two products and the broadcast row of one layer, over any arrays read through curried forms. -/
theorem layer_read (P : S8x1024x1024.Idx → EReal) (Wv Wm : S1024x1024.Idx → EReal) (wv wm : Fin 1024 → Fin 1024 → EReal)
    (hv : ∀ d c, Wv (ix2 d c) = wv d c) (hm : ∀ d c, Wm (ix2 d c) = wm d c) (b : Fin 8) (t d : Fin 1024) :
    (∑ k : Fin 1024, P (ix3 b t k) * Wm (ix2 d k)) + (∑ k : Fin 1024, P (ix3 b (1 : Fin 1024) k) * Wv (ix2 d k))
      = Cert.Spec.layer wv wm (fun t c => P (ix3 b t c)) t d := by
  unfold Cert.Spec.layer
  simp only [hv, hm]

/-- Layer 0 of the reference at (b, t, d). -/
theorem layer0_eq (x0 : (⟨S8x1024, .i32⟩ : BufTy).Contents (Elt Ideal)) (x2 : (⟨S8192x1024, .f32⟩ : BufTy).Contents (Elt Ideal)) (x3 x4 : (⟨S4x1024x1024, .f32⟩ : BufTy).Contents (Elt Ideal)) (h : Cert.Spec.InRange x0)
    (b : Fin 8) (t d : Fin 1024) :
    val_main_v15 (F := Ideal) x0 x2 x3 x4 (ix3 b t d) = Cert.Spec.layer (Cert.Spec.w4 x3 0) (Cert.Spec.w4 x4 0) (Cert.Spec.emb x2 x0 b) t d := by
  rw [val_main_v15_apply, val_main_v14_apply, val_main_v11_apply, val_main_v10_apply, val_main_v9_apply]
  have e1 : ∀ k, lidx_main_v14 (ix3 b t d) k = ix3 b t k := fun k => funext fun a => Fin.ext (by match a with | ⟨0, _⟩ => rfl | ⟨1, _⟩ => rfl | ⟨2, _⟩ => rfl)
  have e2 : ∀ k, ridx_main_v14 (ix3 b t d) k = ix2 d k := fun k => funext fun a => Fin.ext (by match a with | ⟨0, _⟩ => rfl | ⟨1, _⟩ => rfl)
  have e3 : ∀ k, lidx_main_v9 (idx_main_v10 (idx_main_v11 (ix3 b t d))) k = ix3 b (1 : Fin 1024) k :=
    fun k => funext fun a => Fin.ext (by match a with | ⟨0, _⟩ => rfl | ⟨1, _⟩ => rfl | ⟨2, _⟩ => rfl)
  have e4 : ∀ k, ridx_main_v9 (idx_main_v10 (idx_main_v11 (ix3 b t d))) k = ix2 d k :=
    fun k => funext fun a => Fin.ext (by match a with | ⟨0, _⟩ => rfl | ⟨1, _⟩ => rfl)
  simp only [e1, e2, e3, e4, Ideal.addf_def]
  refine (layer_read (val_main_v6 (F := Ideal) x0 x2) (val_main_v8 (F := Ideal) x3) (val_main_v13 (F := Ideal) x4)
    (Cert.Spec.w4 x3 0) (Cert.Spec.w4 x4 0) (v8_eq x3) (v13_eq x4) b t d).trans ?_
  exact congrArg (fun P => Cert.Spec.layer (Cert.Spec.w4 x3 0) (Cert.Spec.w4 x4 0) P t d)
    (funext fun t' => funext fun c' => v6_eq x0 x2 h b t' c')

/-- Layer 1 of the reference at (b, t, d). -/
theorem layer1_eq (x0 : (⟨S8x1024, .i32⟩ : BufTy).Contents (Elt Ideal)) (x2 : (⟨S8192x1024, .f32⟩ : BufTy).Contents (Elt Ideal)) (x3 x4 : (⟨S4x1024x1024, .f32⟩ : BufTy).Contents (Elt Ideal)) (h : Cert.Spec.InRange x0)
    (b : Fin 8) (t d : Fin 1024) :
    val_main_v24 (F := Ideal) x0 x2 x3 x4 (ix3 b t d) = Cert.Spec.layer (Cert.Spec.w4 x3 1) (Cert.Spec.w4 x4 1) (Cert.Spec.layer (Cert.Spec.w4 x3 0) (Cert.Spec.w4 x4 0) (Cert.Spec.emb x2 x0 b)) t d := by
  rw [val_main_v24_apply, val_main_v23_apply, val_main_v20_apply, val_main_v19_apply, val_main_v18_apply]
  have e1 : ∀ k, lidx_main_v23 (ix3 b t d) k = ix3 b t k := fun k => funext fun a => Fin.ext (by match a with | ⟨0, _⟩ => rfl | ⟨1, _⟩ => rfl | ⟨2, _⟩ => rfl)
  have e2 : ∀ k, ridx_main_v23 (ix3 b t d) k = ix2 d k := fun k => funext fun a => Fin.ext (by match a with | ⟨0, _⟩ => rfl | ⟨1, _⟩ => rfl)
  have e3 : ∀ k, lidx_main_v18 (idx_main_v19 (idx_main_v20 (ix3 b t d))) k = ix3 b (1 : Fin 1024) k :=
    fun k => funext fun a => Fin.ext (by match a with | ⟨0, _⟩ => rfl | ⟨1, _⟩ => rfl | ⟨2, _⟩ => rfl)
  have e4 : ∀ k, ridx_main_v18 (idx_main_v19 (idx_main_v20 (ix3 b t d))) k = ix2 d k :=
    fun k => funext fun a => Fin.ext (by match a with | ⟨0, _⟩ => rfl | ⟨1, _⟩ => rfl)
  simp only [e1, e2, e3, e4, Ideal.addf_def]
  refine (layer_read (val_main_v15 (F := Ideal) x0 x2 x3 x4) (val_main_v17 (F := Ideal) x3) (val_main_v22 (F := Ideal) x4)
    (Cert.Spec.w4 x3 1) (Cert.Spec.w4 x4 1) (v17_eq x3) (v22_eq x4) b t d).trans ?_
  exact congrArg (fun P => Cert.Spec.layer (Cert.Spec.w4 x3 1) (Cert.Spec.w4 x4 1) P t d)
    (funext fun t' => funext fun c' => layer0_eq x0 x2 x3 x4 h b t' c')

/-- Layer 2 of the reference at (b, t, d). -/
theorem layer2_eq (x0 : (⟨S8x1024, .i32⟩ : BufTy).Contents (Elt Ideal)) (x2 : (⟨S8192x1024, .f32⟩ : BufTy).Contents (Elt Ideal)) (x3 x4 : (⟨S4x1024x1024, .f32⟩ : BufTy).Contents (Elt Ideal)) (h : Cert.Spec.InRange x0)
    (b : Fin 8) (t d : Fin 1024) :
    val_main_v33 (F := Ideal) x0 x2 x3 x4 (ix3 b t d) = Cert.Spec.layer (Cert.Spec.w4 x3 2) (Cert.Spec.w4 x4 2) (Cert.Spec.layer (Cert.Spec.w4 x3 1) (Cert.Spec.w4 x4 1) (Cert.Spec.layer (Cert.Spec.w4 x3 0) (Cert.Spec.w4 x4 0) (Cert.Spec.emb x2 x0 b))) t d := by
  rw [val_main_v33_apply, val_main_v32_apply, val_main_v29_apply, val_main_v28_apply, val_main_v27_apply]
  have e1 : ∀ k, lidx_main_v32 (ix3 b t d) k = ix3 b t k := fun k => funext fun a => Fin.ext (by match a with | ⟨0, _⟩ => rfl | ⟨1, _⟩ => rfl | ⟨2, _⟩ => rfl)
  have e2 : ∀ k, ridx_main_v32 (ix3 b t d) k = ix2 d k := fun k => funext fun a => Fin.ext (by match a with | ⟨0, _⟩ => rfl | ⟨1, _⟩ => rfl)
  have e3 : ∀ k, lidx_main_v27 (idx_main_v28 (idx_main_v29 (ix3 b t d))) k = ix3 b (1 : Fin 1024) k :=
    fun k => funext fun a => Fin.ext (by match a with | ⟨0, _⟩ => rfl | ⟨1, _⟩ => rfl | ⟨2, _⟩ => rfl)
  have e4 : ∀ k, ridx_main_v27 (idx_main_v28 (idx_main_v29 (ix3 b t d))) k = ix2 d k :=
    fun k => funext fun a => Fin.ext (by match a with | ⟨0, _⟩ => rfl | ⟨1, _⟩ => rfl)
  simp only [e1, e2, e3, e4, Ideal.addf_def]
  refine (layer_read (val_main_v24 (F := Ideal) x0 x2 x3 x4) (val_main_v26 (F := Ideal) x3) (val_main_v31 (F := Ideal) x4)
    (Cert.Spec.w4 x3 2) (Cert.Spec.w4 x4 2) (v26_eq x3) (v31_eq x4) b t d).trans ?_
  exact congrArg (fun P => Cert.Spec.layer (Cert.Spec.w4 x3 2) (Cert.Spec.w4 x4 2) P t d)
    (funext fun t' => funext fun c' => layer1_eq x0 x2 x3 x4 h b t' c')

/-- Layer 3 of the reference at (b, t, d). -/
theorem layer3_eq (x0 : (⟨S8x1024, .i32⟩ : BufTy).Contents (Elt Ideal)) (x2 : (⟨S8192x1024, .f32⟩ : BufTy).Contents (Elt Ideal)) (x3 x4 : (⟨S4x1024x1024, .f32⟩ : BufTy).Contents (Elt Ideal)) (h : Cert.Spec.InRange x0)
    (b : Fin 8) (t d : Fin 1024) :
    val_main_v42 (F := Ideal) x0 x2 x3 x4 (ix3 b t d) = Cert.Spec.layer (Cert.Spec.w4 x3 3) (Cert.Spec.w4 x4 3) (Cert.Spec.layer (Cert.Spec.w4 x3 2) (Cert.Spec.w4 x4 2) (Cert.Spec.layer (Cert.Spec.w4 x3 1) (Cert.Spec.w4 x4 1) (Cert.Spec.layer (Cert.Spec.w4 x3 0) (Cert.Spec.w4 x4 0) (Cert.Spec.emb x2 x0 b)))) t d := by
  rw [val_main_v42_apply, val_main_v41_apply, val_main_v38_apply, val_main_v37_apply, val_main_v36_apply]
  have e1 : ∀ k, lidx_main_v41 (ix3 b t d) k = ix3 b t k := fun k => funext fun a => Fin.ext (by match a with | ⟨0, _⟩ => rfl | ⟨1, _⟩ => rfl | ⟨2, _⟩ => rfl)
  have e2 : ∀ k, ridx_main_v41 (ix3 b t d) k = ix2 d k := fun k => funext fun a => Fin.ext (by match a with | ⟨0, _⟩ => rfl | ⟨1, _⟩ => rfl)
  have e3 : ∀ k, lidx_main_v36 (idx_main_v37 (idx_main_v38 (ix3 b t d))) k = ix3 b (1 : Fin 1024) k :=
    fun k => funext fun a => Fin.ext (by match a with | ⟨0, _⟩ => rfl | ⟨1, _⟩ => rfl | ⟨2, _⟩ => rfl)
  have e4 : ∀ k, ridx_main_v36 (idx_main_v37 (idx_main_v38 (ix3 b t d))) k = ix2 d k :=
    fun k => funext fun a => Fin.ext (by match a with | ⟨0, _⟩ => rfl | ⟨1, _⟩ => rfl)
  simp only [e1, e2, e3, e4, Ideal.addf_def]
  refine (layer_read (val_main_v33 (F := Ideal) x0 x2 x3 x4) (val_main_v35 (F := Ideal) x3) (val_main_v40 (F := Ideal) x4)
    (Cert.Spec.w4 x3 3) (Cert.Spec.w4 x4 3) (v35_eq x3) (v40_eq x4) b t d).trans ?_
  exact congrArg (fun P => Cert.Spec.layer (Cert.Spec.w4 x3 3) (Cert.Spec.w4 x4 3) P t d)
    (funext fun t' => funext fun c' => layer2_eq x0 x2 x3 x4 h b t' c')

/-! ## The logits -/

/-- The projection of the fourth layer's output: the specification's logits. -/
theorem logits_eq (x0 : (⟨S8x1024, .i32⟩ : BufTy).Contents (Elt Ideal)) (x2 : (⟨S8192x1024, .f32⟩ : BufTy).Contents (Elt Ideal)) (x3 x4 : (⟨S4x1024x1024, .f32⟩ : BufTy).Contents (Elt Ideal)) (x5 : (⟨S8192x1024, .f32⟩ : BufTy).Contents (Elt Ideal)) (h : Cert.Spec.InRange x0) (b : Fin 8) (t : Fin 1024) (v : Fin 8192) :
    val_main_v43 (F := Ideal) x0 x2 x3 x4 x5 (ix3 b t v) = Cert.Spec.Z x0 x2 x3 x4 x5 b t v := by
  rw [val_main_v43_apply]
  have e1 : ∀ k, lidx_main_v43 (ix3 b t v) k = ix3 b t k := fun k => funext fun a => Fin.ext (by match a with | ⟨0, _⟩ => rfl | ⟨1, _⟩ => rfl | ⟨2, _⟩ => rfl)
  have e2 : ∀ k, ridx_main_v43 (ix3 b t v) k = ix2 v k := fun k => funext fun a => Fin.ext (by match a with | ⟨0, _⟩ => rfl | ⟨1, _⟩ => rfl)
  simp only [e1, e2]
  unfold Cert.Spec.Z Cert.Spec.logit Cert.Spec.w2 Cert.Spec.hidden4
  exact Finset.sum_congr rfl fun k _ => congrArg (· * x5 (ix2 v k)) (layer3_eq x0 x2 x3 x4 h b t k)

/-! ## log_softmax of a row -/

/-- The row maximum the reference subtracts (its `maximum` with a −∞ broadcast does nothing). -/
theorem shift_eq (x0 : (⟨S8x1024, .i32⟩ : BufTy).Contents (Elt Ideal)) (x2 : (⟨S8192x1024, .f32⟩ : BufTy).Contents (Elt Ideal)) (x3 x4 : (⟨S4x1024x1024, .f32⟩ : BufTy).Contents (Elt Ideal)) (x5 : (⟨S8192x1024, .f32⟩ : BufTy).Contents (Elt Ideal)) (b : Fin 8) (t : Fin 1024) :
    val_main_call0_v2 (F := Ideal) x0 x2 x3 x4 x5 (ix2 b t)
      = Cert.Spec.rowMax (fun v : Fin 8192 => val_main_v43 (F := Ideal) x0 x2 x3 x4 x5 (ix3 b t v)) := by
  rw [val_main_call0_v2_apply, val_main_call0_v1_apply, val_main_call0_cst_0_apply]
  unfold val_main_call0_v0 val_main_call0_cst
  rw [rowMax_read]
  have hb : FloatOps.ofBits (F := Ideal) .f32 0xFF800000#32 = (⊥ : EReal) := by
    show Ideal.ofBits .f32 0xFF800000#32 = ⊥
    simp [Ideal.ofBits, Ideal.ieee]
  rw [hb]
  exact max_bot_left _

/-- A logit minus its row's maximum. -/
theorem shifted_eq (x0 : (⟨S8x1024, .i32⟩ : BufTy).Contents (Elt Ideal)) (x2 : (⟨S8192x1024, .f32⟩ : BufTy).Contents (Elt Ideal)) (x3 x4 : (⟨S4x1024x1024, .f32⟩ : BufTy).Contents (Elt Ideal)) (x5 : (⟨S8192x1024, .f32⟩ : BufTy).Contents (Elt Ideal)) (b : Fin 8) (t : Fin 1024) (v : Fin 8192) :
    val_main_call0_v5 (F := Ideal) x0 x2 x3 x4 x5 (ix3 b t v)
      = val_main_v43 (F := Ideal) x0 x2 x3 x4 x5 (ix3 b t v)
        - Cert.Spec.rowMax (fun v : Fin 8192 => val_main_v43 (F := Ideal) x0 x2 x3 x4 x5 (ix3 b t v)) := by
  rw [val_main_call0_v5_apply, val_main_call0_v4_apply, val_main_call0_v3_apply]
  have e : idx_main_call0_v3 (idx_main_call0_v4 (ix3 b t v)) = ix2 b t := funext fun a => Fin.ext (by match a with | ⟨0, _⟩ => rfl | ⟨1, _⟩ => rfl)
  rw [e, shift_eq]
  rfl

/-- The logarithm of the row's sum of exponentials of the shifted logits (the sum starts from 0). -/
theorem logSum_eq (x0 : (⟨S8x1024, .i32⟩ : BufTy).Contents (Elt Ideal)) (x2 : (⟨S8192x1024, .f32⟩ : BufTy).Contents (Elt Ideal)) (x3 x4 : (⟨S4x1024x1024, .f32⟩ : BufTy).Contents (Elt Ideal)) (x5 : (⟨S8192x1024, .f32⟩ : BufTy).Contents (Elt Ideal)) (b : Fin 8) (t : Fin 1024) :
    val_main_call0_v9 (F := Ideal) x0 x2 x3 x4 x5 (ix3 b t (0 : Fin 1))
      = Ideal.log (∑ j : Fin 8192, Ideal.exp (val_main_v43 (F := Ideal) x0 x2 x3 x4 x5 (ix3 b t j)
        - Cert.Spec.rowMax (fun v : Fin 8192 => val_main_v43 (F := Ideal) x0 x2 x3 x4 x5 (ix3 b t v)))) := by
  rw [val_main_call0_v9_apply, val_main_call0_v8_apply]
  have e : idx_main_call0_v8 (ix3 b t (0 : Fin 1)) = ix2 b t := funext fun a => Fin.ext (by match a with | ⟨0, _⟩ => rfl | ⟨1, _⟩ => rfl)
  rw [e, val_main_call0_v7_apply, val_main_call0_cst_1_apply]
  have e7 : ∀ k, idx_main_call0_v7 (ix2 b t) k = ix3 b t k := fun k => funext fun a => Fin.ext (by match a with | ⟨0, _⟩ => rfl | ⟨1, _⟩ => rfl | ⟨2, _⟩ => rfl)
  simp only [e7, val_main_call0_v6_apply, shifted_eq, Ideal.hostUnary_exp_def, Ideal.hostUnary_log_def, Ideal.ofBits_def,
    Ideal.ofBits_zero_f32, zero_add]

/-- log_softmax of the reference at (b, t, g) is the specification's, of the row of logits. -/
theorem lsm_eq (x0 : (⟨S8x1024, .i32⟩ : BufTy).Contents (Elt Ideal)) (x2 : (⟨S8192x1024, .f32⟩ : BufTy).Contents (Elt Ideal)) (x3 x4 : (⟨S4x1024x1024, .f32⟩ : BufTy).Contents (Elt Ideal)) (x5 : (⟨S8192x1024, .f32⟩ : BufTy).Contents (Elt Ideal)) (b : Fin 8) (t : Fin 1024) (g : Fin 8192) :
    val_main_v44 (F := Ideal) x0 x2 x3 x4 x5 (ix3 b t g)
      = Cert.Spec.lsm (fun v : Fin 8192 => val_main_v43 (F := Ideal) x0 x2 x3 x4 x5 (ix3 b t v)) g := by
  rw [val_main_v44_apply, val_main_call0_v10_apply]
  have e : idx_main_call0_v10 (ix3 b t g) = ix3 b t (0 : Fin 1) := funext fun a => Fin.ext (by match a with | ⟨0, _⟩ => rfl | ⟨1, _⟩ => rfl | ⟨2, _⟩ => rfl)
  rw [e, logSum_eq, shifted_eq]
  rfl

/-! ## The target's column -/

/-- The target word as `take_along_axis` sees it (wrapped, reshaped): the word itself when it is not negative. -/
theorem tgt_eq (x1 : (⟨S8x1024, .i32⟩ : BufTy).Contents (Elt Ideal)) (h : Cert.Spec.InRange x1) (i : S8x1024x1x1.Idx) :
    val_main_call1_v5 (F := Ideal) x1 i = x1 (idx_main_v45 (idx_main_call1_v5 i)) := by
  rw [val_main_call1_v5_apply, val_main_call1_v4_apply, val_main_call1_v1_apply, val_main_call1_v3_apply,
    val_main_call1_v0_apply, val_main_call1_v2_apply, val_main_call1_c_apply, val_main_call1_c_0_apply, val_main_v45_apply]
  exact wrap_select_of_nonneg _ (inRange_at h _).1

/-- The in-bounds test of `take_along_axis` holds everywhere. -/
theorem inb_eq (x1 : (⟨S8x1024, .i32⟩ : BufTy).Contents (Elt Ideal)) (h : Cert.Spec.InRange x1) (i : S8x1024x1.Idx) :
    val_main_call1_v12 (F := Ideal) x1 i = 1#1 := by
  unfold val_main_call1_v12 val_main_call1_c_3
  refine allOnes_read _ (fun j => ?_) i
  rw [val_main_call1_v11_apply, val_main_call1_v7_apply, val_main_call1_v10_apply, val_main_call1_v6_apply,
    val_main_call1_c_2_apply, val_main_call1_v9_apply, val_main_call1_v8_apply, val_main_call1_c_1_apply, tgt_eq x1 h]
  exact inb_of_range _ (inRange_at h _).1 (inRange_at h _).2

/-- The gathered log-probability: log_softmax of row (b, t) at the target's column. -/
theorem picked_eq (x0 x1 : (⟨S8x1024, .i32⟩ : BufTy).Contents (Elt Ideal)) (x2 : (⟨S8192x1024, .f32⟩ : BufTy).Contents (Elt Ideal)) (x3 x4 : (⟨S4x1024x1024, .f32⟩ : BufTy).Contents (Elt Ideal)) (x5 : (⟨S8192x1024, .f32⟩ : BufTy).Contents (Elt Ideal)) (h : Cert.Spec.InRange x1) (b : Fin 8) (t : Fin 1024) :
    val_main_v46 (F := Ideal) x0 x1 x2 x3 x4 x5 (ix3 b t (0 : Fin 1))
      = Cert.Spec.lsm (fun v : Fin 8192 => val_main_v43 (F := Ideal) x0 x2 x3 x4 x5 (ix3 b t v)) (Cert.Spec.tok x1 b t) := by
  rw [val_main_v46_apply, inb_eq x1 h, select_one]
  unfold val_main_call1_v13
  rw [gatherCol_apply]
  have e : (⟨min (val_main_call1_v5 (F := Ideal) x1 (ix4 b t (0 : Fin 1) (0 : Fin 1))).toInt.toNat 8191, by omega⟩ : Fin 8192)
      = Cert.Spec.tok x1 b t := by
    refine Fin.ext ?_
    show min (val_main_call1_v5 (F := Ideal) x1 (ix4 b t (0 : Fin 1) (0 : Fin 1))).toInt.toNat 8191
      = min (x1 (ix2 b t)).toInt.toNat 8191
    rw [tgt_eq x1 h]
    exact congrArg (fun j => min (x1 j).toInt.toNat 8191) (funext fun a => Fin.ext (by
      match a with
      | ⟨0, _⟩ => show (((b.val * 1024 + t.val) * 1 + 0) * 1 + 0) / 1024 = b.val; omega
      | ⟨1, _⟩ => show (((b.val * 1024 + t.val) * 1 + 0) * 1 + 0) / 1 % 1024 = t.val; omega))
  rw [e, lsm_eq]

/-! ## The mask and the mean -/

/-- The mask: the bit [target ≠ 0] converted to a float is 0 at the ignored class and 1 elsewhere. -/
theorem mask_eq (x1 : (⟨S8x1024, .i32⟩ : BufTy).Contents (Elt Ideal)) (j : S8x1024.Idx) :
    val_main_v51 (F := Ideal) x1 j = Cert.Spec.maskOf (x1 j) := by
  rw [val_main_v51_apply, val_main_v50_apply, val_main_v49_apply, val_main_c_1_apply]
  show (((IntOp.cmpi .ne (x1 j) 0#32).toNat : ℝ) : EReal) = Cert.Spec.maskOf (x1 j)
  unfold Cert.Spec.maskOf IntOp.cmpi
  by_cases hg : x1 j = 0#32
  · rw [if_pos hg, hg]; simp
  · rw [if_neg hg]
    have : (x1 j != 0#32) = true := by simpa using hg
    rw [this]; simp

/-- One row's term of the loss: the negated picked log-probability times the mask. -/
theorem term_eq (x0 x1 : (⟨S8x1024, .i32⟩ : BufTy).Contents (Elt Ideal)) (x2 : (⟨S8192x1024, .f32⟩ : BufTy).Contents (Elt Ideal)) (x3 x4 : (⟨S4x1024x1024, .f32⟩ : BufTy).Contents (Elt Ideal)) (x5 : (⟨S8192x1024, .f32⟩ : BufTy).Contents (Elt Ideal)) (h : Cert.Spec.InRange x1) (b : Fin 8) (t : Fin 1024) :
    val_main_v52 (F := Ideal) x0 x1 x2 x3 x4 x5 (ix2 b t)
      = (-(Cert.Spec.lsm (fun v : Fin 8192 => val_main_v43 (F := Ideal) x0 x2 x3 x4 x5 (ix3 b t v)) (Cert.Spec.tok x1 b t)))
        * Cert.Spec.maskOf (x1 (ix2 b t)) := by
  rw [val_main_v52_apply, val_main_v48_apply, val_main_v47_apply, mask_eq]
  have e : idx_main_v47 (ix2 b t) = ix3 b t (0 : Fin 1) := funext fun a => Fin.ext (by
    match a with
    | ⟨0, _⟩ => show (b.val * 1024 + t.val) / 1024 = b.val; omega
    | ⟨1, _⟩ => show (b.val * 1024 + t.val) / 1 % 1024 = t.val; omega
    | ⟨2, _⟩ => rfl)
  rw [e, picked_eq x0 x1 x2 x3 x4 x5 h]
  rfl

/-- The reference's loss is the specification's. -/
theorem loss_eq (x0 x1 : (⟨S8x1024, .i32⟩ : BufTy).Contents (Elt Ideal)) (x2 : (⟨S8192x1024, .f32⟩ : BufTy).Contents (Elt Ideal)) (x3 x4 : (⟨S4x1024x1024, .f32⟩ : BufTy).Contents (Elt Ideal)) (x5 : (⟨S8192x1024, .f32⟩ : BufTy).Contents (Elt Ideal)) (h0 : Cert.Spec.InRange x0) (h1 : Cert.Spec.InRange x1) (i : S_.Idx) :
    val_main_v56 (F := Ideal) x0 x1 x2 x3 x4 x5 i = Cert.Spec.LOSS x0 x1 x2 x3 x4 x5 := by
  rw [val_main_v56_apply, val_main_v55_apply, val_main_v53_apply, val_main_v54_apply, val_main_cst_apply,
    val_main_cst_2_apply, val_main_cst_3_apply, sum_idx2, sum_idx2]
  simp only [term_eq x0 x1 x2 x3 x4 x5 h1, mask_eq, Ideal.hostDivf_def, Ideal.maximumf_def, Ideal.ofBits_def,
    Ideal.ofBits_zero_f32, Ideal.ofBits_one_f32, zero_add]
  have hz : ∀ (b : Fin 8) (t : Fin 1024), (fun v : Fin 8192 => val_main_v43 (F := Ideal) x0 x2 x3 x4 x5 (ix3 b t v))
      = Cert.Spec.Z x0 x2 x3 x4 x5 b t := fun b t => funext fun v => logits_eq x0 x2 x3 x4 x5 h0 b t v
  simp only [hz]
  rfl

/-! ## The two results -/

/-- The reference's first result is the logits of the specification. -/
theorem ref_logits (m : (ℓ : Loc nD τ sig) → Buf (Elt Ideal) ℓ) (c : Dev nD)
    (hidx : Cert.Spec.InRange (m ((c.tc : Thread nD τ).loc main_arg0))) (b : Fin 8) (t : Fin 1024) (v : Fin 8192) :
    Cert.ReferenceIdeal.ValueP.res_main_v43 (F := Ideal) m c (ix3 b t v)
      = Cert.Spec.Z (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) b t v := by
  rw [val_main_v43_eq]
  exact logits_eq _ _ _ _ _ hidx b t v

/-- The reference's second result is the loss of the specification. -/
theorem ref_loss (m : (ℓ : Loc nD τ sig) → Buf (Elt Ideal) ℓ) (c : Dev nD)
    (hidx : Cert.Spec.InRange (m ((c.tc : Thread nD τ).loc main_arg0)))
    (htg : Cert.Spec.InRange (m ((c.tc : Thread nD τ).loc main_arg1))) (i : S_.Idx) :
    Cert.ReferenceIdeal.ValueP.res_main_v56 (F := Ideal) m c i
      = Cert.Spec.LOSS (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [val_main_v56_eq]
  exact loss_eq _ _ _ _ _ _ hidx htg i

end Cert.ReferenceIdeal.RefValue

end
-- ==== Proof.RefRunHand.lean ====
/-
  The reference's run, read result by result. @main is a straight line of 98 host operations; every weakly fair
  execution ends with each buffer at the fold of the operations' results over the launch contents. The two results
  are read off that fold in three chunks, cut where few values are live: after the second layer's sum (`main_v24`
  is then the only value, besides the arguments, that later operations read) and after the logits (`main_v43`: then
  only it and the targets are read). Each chunk's result is stated from ANY contents, as a function of the few
  buffers the chunk reads, the layers as one function applied four times; the chunks compose through the fold of a
  concatenation, and the composition is the generated composed term of the arguments.
-/
import proofs.«401600_j86689619903517_2_alg».proof.Proof.RefRunOps
import Idealize.ShloMosaic.Lib.StableHlo.Run

noncomputable section

namespace Cert.ReferenceIdeal.RunH

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-! ## The three chunks of the operations -/

/-- The token look-up and the first two layers: 27 operations, ending with the second layer's sum `main_v24`. -/
abbrev opsA : List (HloOp τ sig (Elt F)) :=
  [ nullary main_c (constantI S_ 32 0#32),
    unary main_c main_v0 (broadcastInDim S8x1024 ![] bcast_S_S8x1024 : (⟨S_, .i32⟩ : BufTy).Contents (Elt F) → (⟨S8x1024, .i32⟩ : BufTy).Contents (Elt F)),
    binary main_arg0 main_v0 main_v1 (cmpi .slt : (⟨S8x1024, .i32⟩ : BufTy).Contents (Elt F) → (⟨S8x1024, .i32⟩ : BufTy).Contents (Elt F) → (⟨S8x1024, .i1⟩ : BufTy).Contents (Elt F)),
    nullary main_c_0 (constantI S_ 32 8192#32),
    unary main_c_0 main_v2 (broadcastInDim S8x1024 ![] bcast_S_S8x1024 : (⟨S_, .i32⟩ : BufTy).Contents (Elt F) → (⟨S8x1024, .i32⟩ : BufTy).Contents (Elt F)),
    binary main_arg0 main_v2 main_v3 (addi : (⟨S8x1024, .i32⟩ : BufTy).Contents (Elt F) → (⟨S8x1024, .i32⟩ : BufTy).Contents (Elt F) → (⟨S8x1024, .i32⟩ : BufTy).Contents (Elt F)),
    ternary main_v1 main_v3 main_arg0 main_v4 (select : (⟨S8x1024, .i1⟩ : BufTy).Contents (Elt F) → (⟨S8x1024, .i32⟩ : BufTy).Contents (Elt F) → (⟨S8x1024, .i32⟩ : BufTy).Contents (Elt F) → (⟨S8x1024, .i32⟩ : BufTy).Contents (Elt F)),
    unary main_v4 main_v5 (broadcastInDim S8x1024x1 ![0, 1] bcast_S8x1024_S8x1024x1_0_1 : (⟨S8x1024, .i32⟩ : BufTy).Contents (Elt F) → (⟨S8x1024x1, .i32⟩ : BufTy).Contents (Elt F)),
    binary main_arg2 main_v5 main_v6 ((fun x i => Host.gather gather_S8192x1024_S8x1024x1_S8x1024x1024_2_0_n_n_0_2_11024 x i) : (⟨S8192x1024, .f32⟩ : BufTy).Contents (Elt F) → (⟨S8x1024x1, .i32⟩ : BufTy).Contents (Elt F) → (⟨S8x1024x1024, .f32⟩ : BufTy).Contents (Elt F)),
    unary main_arg3 main_v7 ((extractStridedSlice S1x1024x1024 ![0, 0, 0] · slices_S4x1024x1024_S1x1024x1024_0_0_0) : (⟨S4x1024x1024, .f32⟩ : BufTy).Contents (Elt F) → (⟨S1x1024x1024, .f32⟩ : BufTy).Contents (Elt F)),
    reshape main_v7 main_v8 rfl shapeCasts_S1x1024x1024_S1024x1024,
    binary main_v6 main_v8 main_v9 ((fun l r => Host.dotGeneral dot_S8x1024x1024_S1024x1024_S8x1024x1024_2_1_01_0_n_n none l r) : (⟨S8x1024x1024, .f32⟩ : BufTy).Contents (Elt F) → (⟨S1024x1024, .f32⟩ : BufTy).Contents (Elt F) → (⟨S8x1024x1024, .f32⟩ : BufTy).Contents (Elt F)),
    unary main_v9 main_v10 ((extractStridedSlice S8x1x1024 ![0, 1, 0] · slices_S8x1024x1024_S8x1x1024_0_1_0) : (⟨S8x1024x1024, .f32⟩ : BufTy).Contents (Elt F) → (⟨S8x1x1024, .f32⟩ : BufTy).Contents (Elt F)),
    unary main_v10 main_v11 (broadcastInDim S8x1024x1024 ![0, 1, 2] bcast_S8x1x1024_S8x1024x1024_0_1_2 : (⟨S8x1x1024, .f32⟩ : BufTy).Contents (Elt F) → (⟨S8x1024x1024, .f32⟩ : BufTy).Contents (Elt F)),
    unary main_arg4 main_v12 ((extractStridedSlice S1x1024x1024 ![0, 0, 0] · slices_S4x1024x1024_S1x1024x1024_0_0_0) : (⟨S4x1024x1024, .f32⟩ : BufTy).Contents (Elt F) → (⟨S1x1024x1024, .f32⟩ : BufTy).Contents (Elt F)),
    reshape main_v12 main_v13 rfl shapeCasts_S1x1024x1024_S1024x1024,
    binary main_v6 main_v13 main_v14 ((fun l r => Host.dotGeneral dot_S8x1024x1024_S1024x1024_S8x1024x1024_2_1_01_0_n_n none l r) : (⟨S8x1024x1024, .f32⟩ : BufTy).Contents (Elt F) → (⟨S1024x1024, .f32⟩ : BufTy).Contents (Elt F) → (⟨S8x1024x1024, .f32⟩ : BufTy).Contents (Elt F)),
    binary main_v14 main_v11 main_v15 (addf : (⟨S8x1024x1024, .f32⟩ : BufTy).Contents (Elt F) → (⟨S8x1024x1024, .f32⟩ : BufTy).Contents (Elt F) → (⟨S8x1024x1024, .f32⟩ : BufTy).Contents (Elt F)),
    unary main_arg3 main_v16 ((extractStridedSlice S1x1024x1024 ![1, 0, 0] · slices_S4x1024x1024_S1x1024x1024_1_0_0) : (⟨S4x1024x1024, .f32⟩ : BufTy).Contents (Elt F) → (⟨S1x1024x1024, .f32⟩ : BufTy).Contents (Elt F)),
    reshape main_v16 main_v17 rfl shapeCasts_S1x1024x1024_S1024x1024,
    binary main_v15 main_v17 main_v18 ((fun l r => Host.dotGeneral dot_S8x1024x1024_S1024x1024_S8x1024x1024_2_1_01_0_n_n none l r) : (⟨S8x1024x1024, .f32⟩ : BufTy).Contents (Elt F) → (⟨S1024x1024, .f32⟩ : BufTy).Contents (Elt F) → (⟨S8x1024x1024, .f32⟩ : BufTy).Contents (Elt F)),
    unary main_v18 main_v19 ((extractStridedSlice S8x1x1024 ![0, 1, 0] · slices_S8x1024x1024_S8x1x1024_0_1_0) : (⟨S8x1024x1024, .f32⟩ : BufTy).Contents (Elt F) → (⟨S8x1x1024, .f32⟩ : BufTy).Contents (Elt F)),
    unary main_v19 main_v20 (broadcastInDim S8x1024x1024 ![0, 1, 2] bcast_S8x1x1024_S8x1024x1024_0_1_2 : (⟨S8x1x1024, .f32⟩ : BufTy).Contents (Elt F) → (⟨S8x1024x1024, .f32⟩ : BufTy).Contents (Elt F)),
    unary main_arg4 main_v21 ((extractStridedSlice S1x1024x1024 ![1, 0, 0] · slices_S4x1024x1024_S1x1024x1024_1_0_0) : (⟨S4x1024x1024, .f32⟩ : BufTy).Contents (Elt F) → (⟨S1x1024x1024, .f32⟩ : BufTy).Contents (Elt F)),
    reshape main_v21 main_v22 rfl shapeCasts_S1x1024x1024_S1024x1024,
    binary main_v15 main_v22 main_v23 ((fun l r => Host.dotGeneral dot_S8x1024x1024_S1024x1024_S8x1024x1024_2_1_01_0_n_n none l r) : (⟨S8x1024x1024, .f32⟩ : BufTy).Contents (Elt F) → (⟨S1024x1024, .f32⟩ : BufTy).Contents (Elt F) → (⟨S8x1024x1024, .f32⟩ : BufTy).Contents (Elt F)),
    binary main_v23 main_v20 main_v24 (addf : (⟨S8x1024x1024, .f32⟩ : BufTy).Contents (Elt F) → (⟨S8x1024x1024, .f32⟩ : BufTy).Contents (Elt F) → (⟨S8x1024x1024, .f32⟩ : BufTy).Contents (Elt F)) ]

/-- The last two layers and the projection: 19 operations, ending with the logits `main_v43`. -/
abbrev opsB : List (HloOp τ sig (Elt F)) :=
  [ unary main_arg3 main_v25 ((extractStridedSlice S1x1024x1024 ![2, 0, 0] · slices_S4x1024x1024_S1x1024x1024_2_0_0) : (⟨S4x1024x1024, .f32⟩ : BufTy).Contents (Elt F) → (⟨S1x1024x1024, .f32⟩ : BufTy).Contents (Elt F)),
    reshape main_v25 main_v26 rfl shapeCasts_S1x1024x1024_S1024x1024,
    binary main_v24 main_v26 main_v27 ((fun l r => Host.dotGeneral dot_S8x1024x1024_S1024x1024_S8x1024x1024_2_1_01_0_n_n none l r) : (⟨S8x1024x1024, .f32⟩ : BufTy).Contents (Elt F) → (⟨S1024x1024, .f32⟩ : BufTy).Contents (Elt F) → (⟨S8x1024x1024, .f32⟩ : BufTy).Contents (Elt F)),
    unary main_v27 main_v28 ((extractStridedSlice S8x1x1024 ![0, 1, 0] · slices_S8x1024x1024_S8x1x1024_0_1_0) : (⟨S8x1024x1024, .f32⟩ : BufTy).Contents (Elt F) → (⟨S8x1x1024, .f32⟩ : BufTy).Contents (Elt F)),
    unary main_v28 main_v29 (broadcastInDim S8x1024x1024 ![0, 1, 2] bcast_S8x1x1024_S8x1024x1024_0_1_2 : (⟨S8x1x1024, .f32⟩ : BufTy).Contents (Elt F) → (⟨S8x1024x1024, .f32⟩ : BufTy).Contents (Elt F)),
    unary main_arg4 main_v30 ((extractStridedSlice S1x1024x1024 ![2, 0, 0] · slices_S4x1024x1024_S1x1024x1024_2_0_0) : (⟨S4x1024x1024, .f32⟩ : BufTy).Contents (Elt F) → (⟨S1x1024x1024, .f32⟩ : BufTy).Contents (Elt F)),
    reshape main_v30 main_v31 rfl shapeCasts_S1x1024x1024_S1024x1024,
    binary main_v24 main_v31 main_v32 ((fun l r => Host.dotGeneral dot_S8x1024x1024_S1024x1024_S8x1024x1024_2_1_01_0_n_n none l r) : (⟨S8x1024x1024, .f32⟩ : BufTy).Contents (Elt F) → (⟨S1024x1024, .f32⟩ : BufTy).Contents (Elt F) → (⟨S8x1024x1024, .f32⟩ : BufTy).Contents (Elt F)),
    binary main_v32 main_v29 main_v33 (addf : (⟨S8x1024x1024, .f32⟩ : BufTy).Contents (Elt F) → (⟨S8x1024x1024, .f32⟩ : BufTy).Contents (Elt F) → (⟨S8x1024x1024, .f32⟩ : BufTy).Contents (Elt F)),
    unary main_arg3 main_v34 ((extractStridedSlice S1x1024x1024 ![3, 0, 0] · slices_S4x1024x1024_S1x1024x1024_3_0_0) : (⟨S4x1024x1024, .f32⟩ : BufTy).Contents (Elt F) → (⟨S1x1024x1024, .f32⟩ : BufTy).Contents (Elt F)),
    reshape main_v34 main_v35 rfl shapeCasts_S1x1024x1024_S1024x1024,
    binary main_v33 main_v35 main_v36 ((fun l r => Host.dotGeneral dot_S8x1024x1024_S1024x1024_S8x1024x1024_2_1_01_0_n_n none l r) : (⟨S8x1024x1024, .f32⟩ : BufTy).Contents (Elt F) → (⟨S1024x1024, .f32⟩ : BufTy).Contents (Elt F) → (⟨S8x1024x1024, .f32⟩ : BufTy).Contents (Elt F)),
    unary main_v36 main_v37 ((extractStridedSlice S8x1x1024 ![0, 1, 0] · slices_S8x1024x1024_S8x1x1024_0_1_0) : (⟨S8x1024x1024, .f32⟩ : BufTy).Contents (Elt F) → (⟨S8x1x1024, .f32⟩ : BufTy).Contents (Elt F)),
    unary main_v37 main_v38 (broadcastInDim S8x1024x1024 ![0, 1, 2] bcast_S8x1x1024_S8x1024x1024_0_1_2 : (⟨S8x1x1024, .f32⟩ : BufTy).Contents (Elt F) → (⟨S8x1024x1024, .f32⟩ : BufTy).Contents (Elt F)),
    unary main_arg4 main_v39 ((extractStridedSlice S1x1024x1024 ![3, 0, 0] · slices_S4x1024x1024_S1x1024x1024_3_0_0) : (⟨S4x1024x1024, .f32⟩ : BufTy).Contents (Elt F) → (⟨S1x1024x1024, .f32⟩ : BufTy).Contents (Elt F)),
    reshape main_v39 main_v40 rfl shapeCasts_S1x1024x1024_S1024x1024,
    binary main_v33 main_v40 main_v41 ((fun l r => Host.dotGeneral dot_S8x1024x1024_S1024x1024_S8x1024x1024_2_1_01_0_n_n none l r) : (⟨S8x1024x1024, .f32⟩ : BufTy).Contents (Elt F) → (⟨S1024x1024, .f32⟩ : BufTy).Contents (Elt F) → (⟨S8x1024x1024, .f32⟩ : BufTy).Contents (Elt F)),
    binary main_v41 main_v38 main_v42 (addf : (⟨S8x1024x1024, .f32⟩ : BufTy).Contents (Elt F) → (⟨S8x1024x1024, .f32⟩ : BufTy).Contents (Elt F) → (⟨S8x1024x1024, .f32⟩ : BufTy).Contents (Elt F)),
    binary main_v42 main_arg5 main_v43 ((fun l r => Host.dotGeneral dot_S8x1024x1024_S8192x1024_S8x1024x8192_2_1_01_0_n_n none l r) : (⟨S8x1024x1024, .f32⟩ : BufTy).Contents (Elt F) → (⟨S8192x1024, .f32⟩ : BufTy).Contents (Elt F) → (⟨S8x1024x8192, .f32⟩ : BufTy).Contents (Elt F)) ]

/-- The log-soft-max, the look-up of the target's entry and the masked mean: 52 operations, ending with the loss `main_v56`. -/
abbrev opsC : List (HloOp τ sig (Elt F)) :=
  [ TRef.nullary (TRef.of (T := ⟨S_, .f32⟩) main_call0_cst) (constant S_ .f32 0xFF800000#32),
    TRef.binary (TRef.of (T := ⟨S8x1024x8192, .f32⟩) main_v43) (TRef.of (T := ⟨S_, .f32⟩) main_call0_cst) (TRef.of (T := ⟨S8x1024, .f32⟩) main_call0_v0) (fun x v => Host.reduce FloatOps.maximumf x v reducesTo_S8x1024x8192_S8x1024_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S8x1024, .f32⟩) main_call0_v1) (broadcastInDim S8x1024 ![] bcast_S_S8x1024),
    TRef.binary (TRef.of (T := ⟨S8x1024, .f32⟩) main_call0_v1) (TRef.of (T := ⟨S8x1024, .f32⟩) main_call0_v0) (TRef.of (T := ⟨S8x1024, .f32⟩) main_call0_v2) maximumf,
    TRef.unary (TRef.of (T := ⟨S8x1024, .f32⟩) main_call0_v2) (TRef.of (T := ⟨S8x1024x1, .f32⟩) main_call0_v3) (broadcastInDim S8x1024x1 ![0, 1] bcast_S8x1024_S8x1024x1_0_1),
    TRef.unary (TRef.of (T := ⟨S8x1024x1, .f32⟩) main_call0_v3) (TRef.of (T := ⟨S8x1024x8192, .f32⟩) main_call0_v4) (broadcastInDim S8x1024x8192 ![0, 1, 2] bcast_S8x1024x1_S8x1024x8192_0_1_2),
    TRef.binary (TRef.of (T := ⟨S8x1024x8192, .f32⟩) main_v43) (TRef.of (T := ⟨S8x1024x8192, .f32⟩) main_call0_v4) (TRef.of (T := ⟨S8x1024x8192, .f32⟩) main_call0_v5) subf,
    TRef.unary (TRef.of (T := ⟨S8x1024x8192, .f32⟩) main_call0_v5) (TRef.of (T := ⟨S8x1024x8192, .f32⟩) main_call0_v6) Host.exp,
    TRef.nullary (TRef.of (T := ⟨S_, .f32⟩) main_call0_cst_1) (constant S_ .f32 0x00000000#32),
    TRef.binary (TRef.of (T := ⟨S8x1024x8192, .f32⟩) main_call0_v6) (TRef.of (T := ⟨S_, .f32⟩) main_call0_cst_1) (TRef.of (T := ⟨S8x1024, .f32⟩) main_call0_v7) (fun x v => Host.reduceAdd x v reducesTo_S8x1024x8192_S8x1024_d2 h_S_),
    TRef.unary (TRef.of (T := ⟨S8x1024, .f32⟩) main_call0_v7) (TRef.of (T := ⟨S8x1024x1, .f32⟩) main_call0_v8) (broadcastInDim S8x1024x1 ![0, 1] bcast_S8x1024_S8x1024x1_0_1),
    TRef.unary (TRef.of (T := ⟨S8x1024x1, .f32⟩) main_call0_v8) (TRef.of (T := ⟨S8x1024x1, .f32⟩) main_call0_v9) Host.log,
    TRef.unary (TRef.of (T := ⟨S8x1024x1, .f32⟩) main_call0_v9) (TRef.of (T := ⟨S8x1024x8192, .f32⟩) main_call0_v10) (broadcastInDim S8x1024x8192 ![0, 1, 2] bcast_S8x1024x1_S8x1024x8192_0_1_2),
    TRef.binary (TRef.of (T := ⟨S8x1024x8192, .f32⟩) main_call0_v5) (TRef.of (T := ⟨S8x1024x8192, .f32⟩) main_call0_v10) (TRef.of (T := ⟨S8x1024x8192, .f32⟩) main_v44) subf,
    unary main_arg1 main_v45 (broadcastInDim S8x1024x1 ![0, 1] bcast_S8x1024_S8x1024x1_0_1 : (⟨S8x1024, .i32⟩ : BufTy).Contents (Elt F) → (⟨S8x1024x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8x1024x1, .i32⟩) main_call1_v0) (broadcastInDim S8x1024x1 ![] bcast_S_S8x1024x1),
    TRef.binary (TRef.of (T := ⟨S8x1024x1, .i32⟩) main_v45) (TRef.of (T := ⟨S8x1024x1, .i32⟩) main_call1_v0) (TRef.of (T := ⟨S8x1024x1, .i1⟩) main_call1_v1) (cmpi .slt),
    TRef.nullary (TRef.of (T := ⟨S_, .i32⟩) main_call1_c_0) (constantI S_ 32 8192#32),
    TRef.unary (TRef.of (T := ⟨S_, .i32⟩) main_call1_c_0) (TRef.of (T := ⟨S8x1024x1, .i32⟩) main_call1_v2) (broadcastInDim S8x1024x1 ![] bcast_S_S8x1024x1),
    TRef.binary (TRef.of (T := ⟨S8x1024x1, .i32⟩) main_v45) (TRef.of (T := ⟨S8x1024x1, .i32⟩) main_call1_v2) (TRef.of (T := ⟨S8x1024x1, .i32⟩) main_call1_v3) addi,
    TRef.ternary (TRef.of (T := ⟨S8x1024x1, .i1⟩) main_call1_v1) (TRef.of (T := ⟨S8x1024x1, .i32⟩) main_call1_v3) (TRef.of (T := ⟨S8x1024x1, .i32⟩) main_v45) (TRef.of (T := ⟨S8x1024x1, .i32⟩) main_call1_v4) select,
    TRef.reshape (TRef.of (T := ⟨S8x1024x1, .i32⟩) main_call1_v4) (TRef.of (T := ⟨S8x1024x1x1, .i32⟩) main_call1_v5) rfl shapeCasts_S8x1024x1_S8x1024x1x1,
    TRef.nullary (TRef.of (T := ⟨S1, .i32⟩) main_call1_c_1) (constantI S1 32 8191#32),
    TRef.nullary (TRef.of (T := ⟨S_, .i32⟩) main_call1_c_2) (constantI S_ 32 0#32),
    TRef.unary (TRef.of (T := ⟨S_, .i32⟩) main_call1_c_2) (TRef.of (T := ⟨S8x1024x1x1, .i32⟩) main_call1_v6) (broadcastInDim S8x1024x1x1 ![] bcast_S_S8x1024x1x1),
    TRef.binary (TRef.of (T := ⟨S8x1024x1x1, .i32⟩) main_call1_v5) (TRef.of (T := ⟨S8x1024x1x1, .i32⟩) main_call1_v6) (TRef.of (T := ⟨S8x1024x1x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S8x1024x1x1, .i32⟩) main_call1_v9) (broadcastInDim S8x1024x1x1 ![0, 1, 2, 3] bcast_S1x1x1x1_S8x1024x1x1_0_1_2_3),
    TRef.binary (TRef.of (T := ⟨S8x1024x1x1, .i32⟩) main_call1_v5) (TRef.of (T := ⟨S8x1024x1x1, .i32⟩) main_call1_v9) (TRef.of (T := ⟨S8x1024x1x1, .i1⟩) main_call1_v10) (cmpi .sle),
    TRef.binary (TRef.of (T := ⟨S8x1024x1x1, .i1⟩) main_call1_v7) (TRef.of (T := ⟨S8x1024x1x1, .i1⟩) main_call1_v10) (TRef.of (T := ⟨S8x1024x1x1, .i1⟩) main_call1_v11) andi,
    TRef.nullary (TRef.of (T := ⟨S_, .i1⟩) main_call1_c_3) (constantI S_ 1 1#1),
    TRef.binary (TRef.of (T := ⟨S8x1024x1x1, .i1⟩) main_call1_v11) (TRef.of (T := ⟨S_, .i1⟩) main_call1_c_3) (TRef.of (T := ⟨S8x1024x1, .i1⟩) main_call1_v12) (fun x v => Host.reduce IntOp.andi x v reducesTo_S8x1024x1x1_S8x1024x1_d3 h_S_),
    TRef.binary (TRef.of (T := ⟨S8x1024x8192, .f32⟩) main_v44) (TRef.of (T := ⟨S8x1024x1x1, .i32⟩) main_call1_v5) (TRef.of (T := ⟨S8x1024x1, .f32⟩) main_call1_v13) (fun x i => Host.gather gather_S8x1024x8192_S8x1024x1x1_S8x1024x1_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S8x1024x1, .f32⟩) main_call1_v14) (broadcastInDim S8x1024x1 ![] bcast_S_S8x1024x1),
    TRef.ternary (TRef.of (T := ⟨S8x1024x1, .i1⟩) main_call1_v12) (TRef.of (T := ⟨S8x1024x1, .f32⟩) main_call1_v13) (TRef.of (T := ⟨S8x1024x1, .f32⟩) main_call1_v14) (TRef.of (T := ⟨S8x1024x1, .f32⟩) main_v46) select,
    reshape main_v46 main_v47 rfl shapeCasts_S8x1024x1_S8x1024,
    unary main_v47 main_v48 (Host.negf : (⟨S8x1024, .f32⟩ : BufTy).Contents (Elt F) → (⟨S8x1024, .f32⟩ : BufTy).Contents (Elt F)),
    nullary main_c_1 (constantI S_ 32 0#32),
    unary main_c_1 main_v49 (broadcastInDim S8x1024 ![] bcast_S_S8x1024 : (⟨S_, .i32⟩ : BufTy).Contents (Elt F) → (⟨S8x1024, .i32⟩ : BufTy).Contents (Elt F)),
    binary main_arg1 main_v49 main_v50 (cmpi .ne : (⟨S8x1024, .i32⟩ : BufTy).Contents (Elt F) → (⟨S8x1024, .i32⟩ : BufTy).Contents (Elt F) → (⟨S8x1024, .i1⟩ : BufTy).Contents (Elt F)),
    unary main_v50 main_v51 (uitofp .f32 : (⟨S8x1024, .i1⟩ : BufTy).Contents (Elt F) → (⟨S8x1024, .f32⟩ : BufTy).Contents (Elt F)),
    binary main_v48 main_v51 main_v52 (mulf : (⟨S8x1024, .f32⟩ : BufTy).Contents (Elt F) → (⟨S8x1024, .f32⟩ : BufTy).Contents (Elt F) → (⟨S8x1024, .f32⟩ : BufTy).Contents (Elt F)),
    nullary main_cst (constant S_ .f32 0x00000000#32),
    binary main_v52 main_cst main_v53 ((fun x v => Host.reduceAdd x v reducesTo_S8x1024_S_d0_1 h_S_) : (⟨S8x1024, .f32⟩ : BufTy).Contents (Elt F) → (⟨S_, .f32⟩ : BufTy).Contents (Elt F) → (⟨S_, .f32⟩ : BufTy).Contents (Elt F)),
    nullary main_cst_2 (constant S_ .f32 0x00000000#32),
    binary main_v51 main_cst_2 main_v54 ((fun x v => Host.reduceAdd x v reducesTo_S8x1024_S_d0_1 h_S_) : (⟨S8x1024, .f32⟩ : BufTy).Contents (Elt F) → (⟨S_, .f32⟩ : BufTy).Contents (Elt F) → (⟨S_, .f32⟩ : BufTy).Contents (Elt F)),
    nullary main_cst_3 (constant S_ .f32 0x3F800000#32),
    binary main_v54 main_cst_3 main_v55 (maximumf : (⟨S_, .f32⟩ : BufTy).Contents (Elt F) → (⟨S_, .f32⟩ : BufTy).Contents (Elt F) → (⟨S_, .f32⟩ : BufTy).Contents (Elt F)),
    binary main_v53 main_v55 main_v56 (Host.divf : (⟨S_, .f32⟩ : BufTy).Contents (Elt F) → (⟨S_, .f32⟩ : BufTy).Contents (Elt F) → (⟨S_, .f32⟩ : BufTy).Contents (Elt F)) ]

/-! ## The stages as functions of what they read -/

/-- One layer's matrix out of the stack of four. -/
def wsl0 (w : (⟨S4x1024x1024, .f32⟩ : BufTy).Contents (Elt F)) : (⟨S1024x1024, .f32⟩ : BufTy).Contents (Elt F) :=
  shapeCast _ (extractStridedSlice S1x1024x1024 ![0, 0, 0] w slices_S4x1024x1024_S1x1024x1024_0_0_0) shapeCasts_S1x1024x1024_S1024x1024
def wsl1 (w : (⟨S4x1024x1024, .f32⟩ : BufTy).Contents (Elt F)) : (⟨S1024x1024, .f32⟩ : BufTy).Contents (Elt F) :=
  shapeCast _ (extractStridedSlice S1x1024x1024 ![1, 0, 0] w slices_S4x1024x1024_S1x1024x1024_1_0_0) shapeCasts_S1x1024x1024_S1024x1024
def wsl2 (w : (⟨S4x1024x1024, .f32⟩ : BufTy).Contents (Elt F)) : (⟨S1024x1024, .f32⟩ : BufTy).Contents (Elt F) :=
  shapeCast _ (extractStridedSlice S1x1024x1024 ![2, 0, 0] w slices_S4x1024x1024_S1x1024x1024_2_0_0) shapeCasts_S1x1024x1024_S1024x1024
def wsl3 (w : (⟨S4x1024x1024, .f32⟩ : BufTy).Contents (Elt F)) : (⟨S1024x1024, .f32⟩ : BufTy).Contents (Elt F) :=
  shapeCast _ (extractStridedSlice S1x1024x1024 ![3, 0, 0] w slices_S4x1024x1024_S1x1024x1024_3_0_0) shapeCasts_S1x1024x1024_S1024x1024

/-- One layer: the product with the second matrix, plus row 1 of the product with the first on every row. -/
def layR (h : (⟨S8x1024x1024, .f32⟩ : BufTy).Contents (Elt F)) (wm wv : (⟨S1024x1024, .f32⟩ : BufTy).Contents (Elt F)) : (⟨S8x1024x1024, .f32⟩ : BufTy).Contents (Elt F) :=
  addf (Host.dotGeneral dot_S8x1024x1024_S1024x1024_S8x1024x1024_2_1_01_0_n_n none h wv)
    (broadcastInDim S8x1024x1024 ![0, 1, 2] bcast_S8x1x1024_S8x1024x1024_0_1_2
      (extractStridedSlice S8x1x1024 ![0, 1, 0] (Host.dotGeneral dot_S8x1024x1024_S1024x1024_S8x1024x1024_2_1_01_0_n_n none h wm) slices_S8x1024x1024_S8x1x1024_0_1_0))

/-- The tokens' rows of the embedding table, a negative token counted from the table's end. -/
def embR (idx : (⟨S8x1024, .i32⟩ : BufTy).Contents (Elt F)) (wte : (⟨S8192x1024, .f32⟩ : BufTy).Contents (Elt F)) : (⟨S8x1024x1024, .f32⟩ : BufTy).Contents (Elt F) :=
  Host.gather gather_S8192x1024_S8x1024x1_S8x1024x1024_2_0_n_n_0_2_11024 wte
    (broadcastInDim S8x1024x1 ![0, 1] bcast_S8x1024_S8x1024x1_0_1
      (select (cmpi .slt idx (broadcastInDim S8x1024 ![] bcast_S_S8x1024 (constantI S_ 32 0#32)))
        (addi idx (broadcastInDim S8x1024 ![] bcast_S_S8x1024 (constantI S_ 32 8192#32))) idx))

/-- The hidden states after the first two layers. -/
def hid2 (idx : (⟨S8x1024, .i32⟩ : BufTy).Contents (Elt F)) (wte : (⟨S8192x1024, .f32⟩ : BufTy).Contents (Elt F)) (w3 w4 : (⟨S4x1024x1024, .f32⟩ : BufTy).Contents (Elt F)) : (⟨S8x1024x1024, .f32⟩ : BufTy).Contents (Elt F) :=
  layR (layR (embR idx wte) (wsl0 w3) (wsl0 w4)) (wsl1 w3) (wsl1 w4)

/-- The logits from the hidden states after two layers: the last two layers, then the projection. -/
def logitsOf (h2 : (⟨S8x1024x1024, .f32⟩ : BufTy).Contents (Elt F)) (w3 w4 : (⟨S4x1024x1024, .f32⟩ : BufTy).Contents (Elt F)) (w5 : (⟨S8192x1024, .f32⟩ : BufTy).Contents (Elt F)) : (⟨S8x1024x8192, .f32⟩ : BufTy).Contents (Elt F) :=
  Host.dotGeneral dot_S8x1024x1024_S8192x1024_S8x1024x8192_2_1_01_0_n_n none
    (layR (layR h2 (wsl2 w3) (wsl2 w4)) (wsl3 w3) (wsl3 w4)) w5

/-! ## The cut -/

theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The operations are the three chunks in order. After `opsA` the only value later operations read, besides the
    arguments, is `main_v24`; after `opsB` it is `main_v43`. -/
theorem ops_cut : (ops : List (HloOp τ sig (Elt F))) = opsA ++ (opsB ++ opsC) := rfl

/-! ## Each chunk from any contents -/

theorem A_out (V : Valuation τ sig (Elt F)) :
    after opsA V (Proc.devRef .tc main_v24) = hid2 (V (Proc.devRef .tc main_arg0)) (V (Proc.devRef .tc main_arg2)) (V (Proc.devRef .tc main_arg3)) (V (Proc.devRef .tc main_arg4)) := by
  after_results_simp <;> rfl
theorem A_keeps_arg1 (V : Valuation τ sig (Elt F)) : after opsA V (Proc.devRef .tc main_arg1) = (V (Proc.devRef .tc main_arg1)) := by
  after_results_simp
theorem A_keeps_arg3 (V : Valuation τ sig (Elt F)) : after opsA V (Proc.devRef .tc main_arg3) = (V (Proc.devRef .tc main_arg3)) := by
  after_results_simp
theorem A_keeps_arg4 (V : Valuation τ sig (Elt F)) : after opsA V (Proc.devRef .tc main_arg4) = (V (Proc.devRef .tc main_arg4)) := by
  after_results_simp
theorem A_keeps_arg5 (V : Valuation τ sig (Elt F)) : after opsA V (Proc.devRef .tc main_arg5) = (V (Proc.devRef .tc main_arg5)) := by
  after_results_simp

theorem B_out (V : Valuation τ sig (Elt F)) :
    after opsB V (Proc.devRef .tc main_v43) = logitsOf (V (Proc.devRef .tc main_v24)) (V (Proc.devRef .tc main_arg3)) (V (Proc.devRef .tc main_arg4)) (V (Proc.devRef .tc main_arg5)) := by
  after_results_simp <;> rfl
theorem B_keeps_arg1 (V : Valuation τ sig (Elt F)) : after opsB V (Proc.devRef .tc main_arg1) = (V (Proc.devRef .tc main_arg1)) := by
  after_results_simp

/-! ## The logits -/

set_option maxRecDepth 8192 in
/-- The generated composed term of the logits is the stages composed. -/
theorem res43_eq (m : (ℓ : Loc nD τ sig) → Buf (Elt F) ℓ) (c : Dev nD) :
    res_main_v43 m c = logitsOf (hid2 (m ((c.tc : Thread nD τ).loc main_arg0)) (m ((c.tc : Thread nD τ).loc main_arg2)) (m ((c.tc : Thread nD τ).loc main_arg3)) (m ((c.tc : Thread nD τ).loc main_arg4))) (m ((c.tc : Thread nD τ).loc main_arg3)) (m ((c.tc : Thread nD τ).loc main_arg4)) (m ((c.tc : Thread nD τ).loc main_arg5)) := by
  unfold res_main_v43; rfl

theorem logitsAB (m : (ℓ : Loc nD τ sig) → Buf (Elt F) ℓ) (c : Dev nD) :
    after opsB (after opsA (launchContents m c)) (Proc.devRef .tc main_v43) = res_main_v43 m c := by
  rw [B_out, A_out, A_keeps_arg3, A_keeps_arg4, A_keeps_arg5, res43_eq]
theorem arg1AB (m : (ℓ : Loc nD τ sig) → Buf (Elt F) ℓ) (c : Dev nD) :
    after opsB (after opsA (launchContents m c)) (Proc.devRef .tc main_arg1) = m ((c.tc : Thread nD τ).loc main_arg1) := by
  rw [B_keeps_arg1, A_keeps_arg1]

/-! ## The loss as stage functions of the logits and the target words -/

/-- The logits minus their row maximum: the maximum (a fold of max from −∞ along the last axis, and once more against
    −∞) is spread back over the row; the logits are read twice. -/
def shiftR (z : (⟨S8x1024x8192, .f32⟩ : BufTy).Contents (Elt F)) : (⟨S8x1024x8192, .f32⟩ : BufTy).Contents (Elt F) :=
  subf (z) (broadcastInDim S8x1024x8192 ![0, 1, 2] bcast_S8x1024x1_S8x1024x8192_0_1_2 (broadcastInDim S8x1024x1 ![0, 1] bcast_S8x1024_S8x1024x1_0_1 (maximumf (broadcastInDim S8x1024 ![] bcast_S_S8x1024 (constant S_ .f32 0xFF800000#32)) (Host.reduce FloatOps.maximumf (z) (constant S_ .f32 0xFF800000#32) reducesTo_S8x1024x8192_S8x1024_d2 h_S_))))

/-- A shifted row minus the logarithm of the sum of its exponentials; the shifted row is read twice. -/
def lsmOfShift (s : (⟨S8x1024x8192, .f32⟩ : BufTy).Contents (Elt F)) : (⟨S8x1024x8192, .f32⟩ : BufTy).Contents (Elt F) :=
  subf (s) (broadcastInDim S8x1024x8192 ![0, 1, 2] bcast_S8x1024x1_S8x1024x8192_0_1_2 (Host.log (broadcastInDim S8x1024x1 ![0, 1] bcast_S8x1024_S8x1024x1_0_1 (Host.reduceAdd (Host.exp (s)) (constant S_ .f32 0x00000000#32) reducesTo_S8x1024x8192_S8x1024_d2 h_S_))))

/-- The log-soft-max of the logits along the last axis. -/
def lsmR (z : (⟨S8x1024x8192, .f32⟩ : BufTy).Contents (Elt F)) : (⟨S8x1024x8192, .f32⟩ : BufTy).Contents (Elt F) :=
  lsmOfShift (shiftR z)

/-- A column of words with the negative ones moved up by 8192, in the look-up's index shape; the column is read three times. -/
def wrapR (t1 : (⟨S8x1024x1, .i32⟩ : BufTy).Contents (Elt F)) : (⟨S8x1024x1x1, .i32⟩ : BufTy).Contents (Elt F) :=
  shapeCast _ (select (cmpi .slt (t1) (broadcastInDim S8x1024x1 ![] bcast_S_S8x1024x1 (constantI S_ 32 0#32))) (addi (t1) (broadcastInDim S8x1024x1 ![] bcast_S_S8x1024x1 (constantI S_ 32 8192#32))) (t1)) shapeCasts_S8x1024x1_S8x1024x1x1

/-- The target words as the look-up's indices. -/
def ixR (tg : (⟨S8x1024, .i32⟩ : BufTy).Contents (Elt F)) : (⟨S8x1024x1x1, .i32⟩ : BufTy).Contents (Elt F) :=
  wrapR (broadcastInDim S8x1024x1 ![0, 1] bcast_S8x1024_S8x1024x1_0_1 (tg))

/-- The entry of each row at its index where the index lies in [0, 8191], a fill value elsewhere; the indices are read three times. -/
def pickR (ls : (⟨S8x1024x8192, .f32⟩ : BufTy).Contents (Elt F)) (ix : (⟨S8x1024x1x1, .i32⟩ : BufTy).Contents (Elt F)) : (⟨S8x1024x1, .f32⟩ : BufTy).Contents (Elt F) :=
  select (Host.reduce IntOp.andi (andi (cmpi .sge (ix) (broadcastInDim S8x1024x1x1 ![] bcast_S_S8x1024x1x1 (constantI S_ 32 0#32))) (cmpi .sle (ix) (broadcastInDim S8x1024x1x1 ![0, 1, 2, 3] bcast_S1x1x1x1_S8x1024x1x1_0_1_2_3 (broadcastInDim S1x1x1x1 ![3] bcast_S1_S1x1x1x1_3 (constantI S1 32 8191#32))))) (constantI S_ 1 1#1) reducesTo_S8x1024x1x1_S8x1024x1_d3 h_S_) (Host.gather gather_S8x1024x8192_S8x1024x1x1_S8x1024x1_n_2_01_01_2_3_111 (ls) (ix)) (broadcastInDim S8x1024x1 ![] bcast_S_S8x1024x1 (constant S_ .f32 0x7FC00000#32))

/-- The mask of the rows whose target word is not 0, as 0 and 1. -/
def maskR (tg : (⟨S8x1024, .i32⟩ : BufTy).Contents (Elt F)) : (⟨S8x1024, .f32⟩ : BufTy).Contents (Elt F) :=
  uitofp .f32 (cmpi .ne (tg) (broadcastInDim S8x1024 ![] bcast_S_S8x1024 (constantI S_ 32 0#32)))

/-- The sum of the negated, masked picked entries over the sum of the mask, that sum at least 1; the mask is read twice. -/
def meanR (p : (⟨S8x1024x1, .f32⟩ : BufTy).Contents (Elt F)) (mk : (⟨S8x1024, .f32⟩ : BufTy).Contents (Elt F)) : (⟨S_, .f32⟩ : BufTy).Contents (Elt F) :=
  Host.divf (Host.reduceAdd (mulf (Host.negf (shapeCast _ (p) shapeCasts_S8x1024x1_S8x1024)) (mk)) (constant S_ .f32 0x00000000#32) reducesTo_S8x1024_S_d0_1 h_S_) (maximumf (Host.reduceAdd (mk) (constant S_ .f32 0x00000000#32) reducesTo_S8x1024_S_d0_1 h_S_) (constant S_ .f32 0x3F800000#32))

/-- The loss of the logits and the target words. -/
def lossR (lg : (⟨S8x1024x8192, .f32⟩ : BufTy).Contents (Elt F)) (tg : (⟨S8x1024, .i32⟩ : BufTy).Contents (Elt F)) : (⟨S_, .f32⟩ : BufTy).Contents (Elt F) :=
  meanR (pickR (lsmR lg) (ixR tg)) (maskR tg)

/-- The log-soft-max: 15 operations, ending with `main_v44`. -/
abbrev opsC1 : List (HloOp τ sig (Elt F)) :=
  [ TRef.nullary (TRef.of (T := ⟨S_, .f32⟩) main_call0_cst) (constant S_ .f32 0xFF800000#32),
    TRef.binary (TRef.of (T := ⟨S8x1024x8192, .f32⟩) main_v43) (TRef.of (T := ⟨S_, .f32⟩) main_call0_cst) (TRef.of (T := ⟨S8x1024, .f32⟩) main_call0_v0) (fun x v => Host.reduce FloatOps.maximumf x v reducesTo_S8x1024x8192_S8x1024_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S8x1024, .f32⟩) main_call0_v1) (broadcastInDim S8x1024 ![] bcast_S_S8x1024),
    TRef.binary (TRef.of (T := ⟨S8x1024, .f32⟩) main_call0_v1) (TRef.of (T := ⟨S8x1024, .f32⟩) main_call0_v0) (TRef.of (T := ⟨S8x1024, .f32⟩) main_call0_v2) maximumf,
    TRef.unary (TRef.of (T := ⟨S8x1024, .f32⟩) main_call0_v2) (TRef.of (T := ⟨S8x1024x1, .f32⟩) main_call0_v3) (broadcastInDim S8x1024x1 ![0, 1] bcast_S8x1024_S8x1024x1_0_1),
    TRef.unary (TRef.of (T := ⟨S8x1024x1, .f32⟩) main_call0_v3) (TRef.of (T := ⟨S8x1024x8192, .f32⟩) main_call0_v4) (broadcastInDim S8x1024x8192 ![0, 1, 2] bcast_S8x1024x1_S8x1024x8192_0_1_2),
    TRef.binary (TRef.of (T := ⟨S8x1024x8192, .f32⟩) main_v43) (TRef.of (T := ⟨S8x1024x8192, .f32⟩) main_call0_v4) (TRef.of (T := ⟨S8x1024x8192, .f32⟩) main_call0_v5) subf,
    TRef.unary (TRef.of (T := ⟨S8x1024x8192, .f32⟩) main_call0_v5) (TRef.of (T := ⟨S8x1024x8192, .f32⟩) main_call0_v6) Host.exp,
    TRef.nullary (TRef.of (T := ⟨S_, .f32⟩) main_call0_cst_1) (constant S_ .f32 0x00000000#32),
    TRef.binary (TRef.of (T := ⟨S8x1024x8192, .f32⟩) main_call0_v6) (TRef.of (T := ⟨S_, .f32⟩) main_call0_cst_1) (TRef.of (T := ⟨S8x1024, .f32⟩) main_call0_v7) (fun x v => Host.reduceAdd x v reducesTo_S8x1024x8192_S8x1024_d2 h_S_),
    TRef.unary (TRef.of (T := ⟨S8x1024, .f32⟩) main_call0_v7) (TRef.of (T := ⟨S8x1024x1, .f32⟩) main_call0_v8) (broadcastInDim S8x1024x1 ![0, 1] bcast_S8x1024_S8x1024x1_0_1),
    TRef.unary (TRef.of (T := ⟨S8x1024x1, .f32⟩) main_call0_v8) (TRef.of (T := ⟨S8x1024x1, .f32⟩) main_call0_v9) Host.log,
    TRef.unary (TRef.of (T := ⟨S8x1024x1, .f32⟩) main_call0_v9) (TRef.of (T := ⟨S8x1024x8192, .f32⟩) main_call0_v10) (broadcastInDim S8x1024x8192 ![0, 1, 2] bcast_S8x1024x1_S8x1024x8192_0_1_2),
    TRef.binary (TRef.of (T := ⟨S8x1024x8192, .f32⟩) main_call0_v5) (TRef.of (T := ⟨S8x1024x8192, .f32⟩) main_call0_v10) (TRef.of (T := ⟨S8x1024x8192, .f32⟩) main_v44) subf ]

/-- The look-up of the target's entry: 23 operations, ending with `main_v46`. -/
abbrev opsC2 : List (HloOp τ sig (Elt F)) :=
  [ unary main_arg1 main_v45 (broadcastInDim S8x1024x1 ![0, 1] bcast_S8x1024_S8x1024x1_0_1 : (⟨S8x1024, .i32⟩ : BufTy).Contents (Elt F) → (⟨S8x1024x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8x1024x1, .i32⟩) main_call1_v0) (broadcastInDim S8x1024x1 ![] bcast_S_S8x1024x1),
    TRef.binary (TRef.of (T := ⟨S8x1024x1, .i32⟩) main_v45) (TRef.of (T := ⟨S8x1024x1, .i32⟩) main_call1_v0) (TRef.of (T := ⟨S8x1024x1, .i1⟩) main_call1_v1) (cmpi .slt),
    TRef.nullary (TRef.of (T := ⟨S_, .i32⟩) main_call1_c_0) (constantI S_ 32 8192#32),
    TRef.unary (TRef.of (T := ⟨S_, .i32⟩) main_call1_c_0) (TRef.of (T := ⟨S8x1024x1, .i32⟩) main_call1_v2) (broadcastInDim S8x1024x1 ![] bcast_S_S8x1024x1),
    TRef.binary (TRef.of (T := ⟨S8x1024x1, .i32⟩) main_v45) (TRef.of (T := ⟨S8x1024x1, .i32⟩) main_call1_v2) (TRef.of (T := ⟨S8x1024x1, .i32⟩) main_call1_v3) addi,
    TRef.ternary (TRef.of (T := ⟨S8x1024x1, .i1⟩) main_call1_v1) (TRef.of (T := ⟨S8x1024x1, .i32⟩) main_call1_v3) (TRef.of (T := ⟨S8x1024x1, .i32⟩) main_v45) (TRef.of (T := ⟨S8x1024x1, .i32⟩) main_call1_v4) select,
    TRef.reshape (TRef.of (T := ⟨S8x1024x1, .i32⟩) main_call1_v4) (TRef.of (T := ⟨S8x1024x1x1, .i32⟩) main_call1_v5) rfl shapeCasts_S8x1024x1_S8x1024x1x1,
    TRef.nullary (TRef.of (T := ⟨S1, .i32⟩) main_call1_c_1) (constantI S1 32 8191#32),
    TRef.nullary (TRef.of (T := ⟨S_, .i32⟩) main_call1_c_2) (constantI S_ 32 0#32),
    TRef.unary (TRef.of (T := ⟨S_, .i32⟩) main_call1_c_2) (TRef.of (T := ⟨S8x1024x1x1, .i32⟩) main_call1_v6) (broadcastInDim S8x1024x1x1 ![] bcast_S_S8x1024x1x1),
    TRef.binary (TRef.of (T := ⟨S8x1024x1x1, .i32⟩) main_call1_v5) (TRef.of (T := ⟨S8x1024x1x1, .i32⟩) main_call1_v6) (TRef.of (T := ⟨S8x1024x1x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S8x1024x1x1, .i32⟩) main_call1_v9) (broadcastInDim S8x1024x1x1 ![0, 1, 2, 3] bcast_S1x1x1x1_S8x1024x1x1_0_1_2_3),
    TRef.binary (TRef.of (T := ⟨S8x1024x1x1, .i32⟩) main_call1_v5) (TRef.of (T := ⟨S8x1024x1x1, .i32⟩) main_call1_v9) (TRef.of (T := ⟨S8x1024x1x1, .i1⟩) main_call1_v10) (cmpi .sle),
    TRef.binary (TRef.of (T := ⟨S8x1024x1x1, .i1⟩) main_call1_v7) (TRef.of (T := ⟨S8x1024x1x1, .i1⟩) main_call1_v10) (TRef.of (T := ⟨S8x1024x1x1, .i1⟩) main_call1_v11) andi,
    TRef.nullary (TRef.of (T := ⟨S_, .i1⟩) main_call1_c_3) (constantI S_ 1 1#1),
    TRef.binary (TRef.of (T := ⟨S8x1024x1x1, .i1⟩) main_call1_v11) (TRef.of (T := ⟨S_, .i1⟩) main_call1_c_3) (TRef.of (T := ⟨S8x1024x1, .i1⟩) main_call1_v12) (fun x v => Host.reduce IntOp.andi x v reducesTo_S8x1024x1x1_S8x1024x1_d3 h_S_),
    TRef.binary (TRef.of (T := ⟨S8x1024x8192, .f32⟩) main_v44) (TRef.of (T := ⟨S8x1024x1x1, .i32⟩) main_call1_v5) (TRef.of (T := ⟨S8x1024x1, .f32⟩) main_call1_v13) (fun x i => Host.gather gather_S8x1024x8192_S8x1024x1x1_S8x1024x1_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S8x1024x1, .f32⟩) main_call1_v14) (broadcastInDim S8x1024x1 ![] bcast_S_S8x1024x1),
    TRef.ternary (TRef.of (T := ⟨S8x1024x1, .i1⟩) main_call1_v12) (TRef.of (T := ⟨S8x1024x1, .f32⟩) main_call1_v13) (TRef.of (T := ⟨S8x1024x1, .f32⟩) main_call1_v14) (TRef.of (T := ⟨S8x1024x1, .f32⟩) main_v46) select ]

/-- The masked mean: 14 operations, ending with `main_v56`. -/
abbrev opsC3 : List (HloOp τ sig (Elt F)) :=
  [ reshape main_v46 main_v47 rfl shapeCasts_S8x1024x1_S8x1024,
    unary main_v47 main_v48 (Host.negf : (⟨S8x1024, .f32⟩ : BufTy).Contents (Elt F) → (⟨S8x1024, .f32⟩ : BufTy).Contents (Elt F)),
    nullary main_c_1 (constantI S_ 32 0#32),
    unary main_c_1 main_v49 (broadcastInDim S8x1024 ![] bcast_S_S8x1024 : (⟨S_, .i32⟩ : BufTy).Contents (Elt F) → (⟨S8x1024, .i32⟩ : BufTy).Contents (Elt F)),
    binary main_arg1 main_v49 main_v50 (cmpi .ne : (⟨S8x1024, .i32⟩ : BufTy).Contents (Elt F) → (⟨S8x1024, .i32⟩ : BufTy).Contents (Elt F) → (⟨S8x1024, .i1⟩ : BufTy).Contents (Elt F)),
    unary main_v50 main_v51 (uitofp .f32 : (⟨S8x1024, .i1⟩ : BufTy).Contents (Elt F) → (⟨S8x1024, .f32⟩ : BufTy).Contents (Elt F)),
    binary main_v48 main_v51 main_v52 (mulf : (⟨S8x1024, .f32⟩ : BufTy).Contents (Elt F) → (⟨S8x1024, .f32⟩ : BufTy).Contents (Elt F) → (⟨S8x1024, .f32⟩ : BufTy).Contents (Elt F)),
    nullary main_cst (constant S_ .f32 0x00000000#32),
    binary main_v52 main_cst main_v53 ((fun x v => Host.reduceAdd x v reducesTo_S8x1024_S_d0_1 h_S_) : (⟨S8x1024, .f32⟩ : BufTy).Contents (Elt F) → (⟨S_, .f32⟩ : BufTy).Contents (Elt F) → (⟨S_, .f32⟩ : BufTy).Contents (Elt F)),
    nullary main_cst_2 (constant S_ .f32 0x00000000#32),
    binary main_v51 main_cst_2 main_v54 ((fun x v => Host.reduceAdd x v reducesTo_S8x1024_S_d0_1 h_S_) : (⟨S8x1024, .f32⟩ : BufTy).Contents (Elt F) → (⟨S_, .f32⟩ : BufTy).Contents (Elt F) → (⟨S_, .f32⟩ : BufTy).Contents (Elt F)),
    nullary main_cst_3 (constant S_ .f32 0x3F800000#32),
    binary main_v54 main_cst_3 main_v55 (maximumf : (⟨S_, .f32⟩ : BufTy).Contents (Elt F) → (⟨S_, .f32⟩ : BufTy).Contents (Elt F) → (⟨S_, .f32⟩ : BufTy).Contents (Elt F)),
    binary main_v53 main_v55 main_v56 (Host.divf : (⟨S_, .f32⟩ : BufTy).Contents (Elt F) → (⟨S_, .f32⟩ : BufTy).Contents (Elt F) → (⟨S_, .f32⟩ : BufTy).Contents (Elt F)) ]

theorem opsC_cut : (opsC : List (HloOp τ sig (Elt F))) = opsC1 ++ (opsC2 ++ opsC3) := rfl

/-- Contents moved to a reference's own type and back are the contents. -/
theorem ofBuf_toBuf {T : BufTy} (x : TRef sig T) (v : T.Contents (Elt F)) : x.ofBuf (x.toBuf v) = v := by
  obtain ⟨r, h, hd, hu⟩ := x
  subst h
  rfl

/-! ## The three stretches, from any contents -/

set_option maxRecDepth 8192 in
/-- The log-soft-max stretch reads the logits. -/
theorem C1_out (V : Valuation τ sig (Elt F)) :
    after opsC1 V (Proc.devRef .tc main_v44) = lsmR (V (Proc.devRef .tc main_v43)) := by
  after_results_simp
  simp only [ofBuf_toBuf]
  rfl

theorem C1_keeps_arg1 (V : Valuation τ sig (Elt F)) :
    after opsC1 V (Proc.devRef .tc main_arg1) = V (Proc.devRef .tc main_arg1) := by
  after_results_simp

theorem C1_keeps_v43 (V : Valuation τ sig (Elt F)) :
    after opsC1 V (Proc.devRef .tc main_v43) = V (Proc.devRef .tc main_v43) := by
  after_results_simp

set_option maxRecDepth 65536 in
/-- The look-up stretch reads the log-soft-max and the target words. -/
theorem C2_out (V : Valuation τ sig (Elt F)) :
    after opsC2 V (Proc.devRef .tc main_v46)
      = pickR (V (Proc.devRef .tc main_v44)) (ixR (V (Proc.devRef .tc main_arg1))) := by
  after_results_simp
  simp only [ofBuf_toBuf]
  rfl

theorem C2_keeps_arg1 (V : Valuation τ sig (Elt F)) :
    after opsC2 V (Proc.devRef .tc main_arg1) = V (Proc.devRef .tc main_arg1) := by
  after_results_simp

theorem C2_keeps_v43 (V : Valuation τ sig (Elt F)) :
    after opsC2 V (Proc.devRef .tc main_v43) = V (Proc.devRef .tc main_v43) := by
  after_results_simp

set_option maxRecDepth 8192 in
/-- The masked-mean stretch reads the picked entries and the target words. -/
theorem C3_out (V : Valuation τ sig (Elt F)) :
    after opsC3 V (Proc.devRef .tc main_v56)
      = meanR (V (Proc.devRef .tc main_v46)) (maskR (V (Proc.devRef .tc main_arg1))) := by
  after_results_simp
  rfl

theorem C3_keeps_v43 (V : Valuation τ sig (Elt F)) :
    after opsC3 V (Proc.devRef .tc main_v43) = V (Proc.devRef .tc main_v43) := by
  after_results_simp

/-! ## The whole stretch after the logits -/

/-- From any contents, the 52 operations leave the loss of the logits and the target words found there. -/
theorem C_out (V : Valuation τ sig (Elt F)) :
    after opsC V (Proc.devRef .tc main_v56) = lossR (V (Proc.devRef .tc main_v43)) (V (Proc.devRef .tc main_arg1)) := by
  rw [opsC_cut, after_app, after_app, C3_out, C2_out, C2_keeps_arg1, C1_out, C1_keeps_arg1]
  rfl

/-- They do not write the logits. -/
theorem C_keeps_v43 (V : Valuation τ sig (Elt F)) :
    after opsC V (Proc.devRef .tc main_v43) = V (Proc.devRef .tc main_v43) := by
  rw [opsC_cut, after_app, after_app, C3_keeps_v43, C2_keeps_v43, C1_keeps_v43]

set_option maxRecDepth 8192 in
/-- The generated term of the loss is that function of the generated term of the logits and the target words. -/
theorem res56_eq (m : (ℓ : Loc nD τ sig) → Buf (Elt F) ℓ) (c : Dev nD) :
    res_main_v56 m c = lossR (res_main_v43 m c) (m ((c.tc : Thread nD τ).loc main_arg1)) := by
  unfold res_main_v56 lossR meanR pickR lsmR lsmOfShift shiftR ixR wrapR maskR
  rfl

/-! ## The two results after all the operations -/

theorem logits_at (m : (ℓ : Loc nD τ sig) → Buf (Elt F) ℓ) (c : Dev nD) :
    after ops (launchContents m c) (Proc.devRef .tc main_v43) = res_main_v43 m c := by
  rw [ops_cut, after_app, after_app, C_keeps_v43]; exact logitsAB m c
theorem loss_at (m : (ℓ : Loc nD τ sig) → Buf (Elt F) ℓ) (c : Dev nD) :
    after ops (launchContents m c) (Proc.devRef .tc main_v56) = res_main_v56 m c := by
  rw [ops_cut, after_app, after_app, C_out, logitsAB, arg1AB, res56_eq]

/-! ## The run -/

set_option maxRecDepth 8192 in
set_option maxHeartbeats 4000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43) = res_main_v43 m c
      ∧ r.2.mem ((c.tc : Thread nD τ).loc main_v56) = res_main_v56 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v43).trans (logits_at m c),
      (h c main_v56).trans (loss_at m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RunH

end
-- ==== Proof.lean ====
/-
  The certificate of a four-layer toy transformer with a fused cross-entropy head against its plain reference.

  Both programs compute, for token ids idx and targets g (words in [0, 8192), which the precondition states
  beside the finiteness of the four float arguments):
      x₀ = wte[idx];   x_{l+1}[t, ·] = x_l[t, ·] · wm[l]ᵀ + x_l[1, ·] · wv[l]ᵀ   (l = 0 … 3);
      z = x₄ · lm_wᵀ   (the first result);
      loss = Σ_{b,t} (−log_softmax(z[b,t])[g[b,t]]) · [g[b,t] ≠ 0]  /  max (Σ_{b,t} [g[b,t] ≠ 0]) 1   (the second).
  The kernel runs the layers in one pipelined region (a scratch block carried along the layer axis and reset at
  each batch row) and the projection with an online soft-max in a second (a running maximum started at a finite
  constant, a running sum of exponentials and the accumulated target logit carried along the 32 blocks of
  columns). Format changes are the identity over the extended reals, and the sums are the same sums, so the
  logits agree term by term; for the loss, m + log Σ exp (z − m) does not depend on the real shift m, which
  makes the online form equal to the reference's maximum-shifted one whatever the starting constant. Outside
  the stated ranges the two programs differ (an out-of-range look-up fills with a junk value on one side and
  clamps on the other; a negative target wraps in the reference and matches no column in the kernel), which is
  why the ranges are part of the precondition.

  The frames: each program's run (Proof/K/Whole.lean and Proof/KI/Whole.lean for the kernel at the two
  instances, Proof/RefRunHand.lean for the reference) ends with the argument arrays as launched.
-/
import proofs.«401600_j86689619903517_2_alg».proof.Defs
import proofs.«401600_j86689619903517_2_alg».proof.Proof.Gen.Kernel
import proofs.«401600_j86689619903517_2_alg».proof.Proof.Gen.KernelIdeal
import proofs.«401600_j86689619903517_2_alg».proof.Proof.Gen.ReferenceIdeal
import proofs.«401600_j86689619903517_2_alg».proof.Proof.Gen.Pre_finite_inputs
import proofs.«401600_j86689619903517_2_alg».proof.Proof.K.Whole
import proofs.«401600_j86689619903517_2_alg».proof.Proof.KI.Whole
import proofs.«401600_j86689619903517_2_alg».proof.Proof.Pre
import proofs.«401600_j86689619903517_2_alg».proof.Proof.Spec
import proofs.«401600_j86689619903517_2_alg».proof.Proof.KI.Host
import proofs.«401600_j86689619903517_2_alg».proof.Proof.Ref
import proofs.«401600_j86689619903517_2_alg».proof.Proof.RefRunHand
import Idealize.ShloMosaic.Lib.ValueIdx

noncomputable section

namespace Cert.Proof

open Idealize.ShloMosaic Idealize.ShloMosaic.TcCoe Idealize.SL.Sem Idealize.ShloMosaic.ValueIdx

/-- The word-level kernel runs to the end, faults nowhere and leaves its arguments as launched. -/
theorem frame_kernel : Cert.frame_Kernel := fun m ρ _ => Cert.Kernel.Whole.frame (F := Bits) m ρ

/-- So does the kernel read over the extended reals. -/
theorem frame_kernelIdeal : Cert.frame_KernelIdeal := fun m ρ _ => Cert.KernelIdeal.Whole.frame (F := Ideal) m ρ

/-- So does the reference: its run with the two results dropped. -/
theorem frame_referenceIdeal : Cert.frame_ReferenceIdeal := fun m ρ _ =>
  (θ_run Cert.ReferenceIdeal.defs _ _).mono (fun _ h c => (h c).2.2) (Cert.ReferenceIdeal.RunH.run (F := Ideal) m ρ)

/-- From memories that agree on the six arguments, under the precondition (every float finite, every token id
    and every target in [0, 8192)), both programs end with the same logits — the four layers of the embedded
    tokens, projected — and the same loss: the kernel's online log-sum-exp over 32 blocks of columns is the
    reference's log-softmax, the finite start of its running maximum cancelling over the reals. -/
theorem algebraic : Cert.algebraic_KernelIdeal_ReferenceIdeal := by
  intro m ρ m' ρ' hpre hagree
  refine ⟨fun c => Cert.KernelIdeal.Whole.W6 m c (Proc.devRef .tc Cert.KernelIdeal.main_v6_0),
    fun c => Cert.KernelIdeal.Whole.W6 m c (Proc.devRef .tc Cert.KernelIdeal.main_v10), ?_, ?_⟩
  · exact Cert.KernelIdeal.Whole.run_of (F := Ideal) m ρ (fun s h c =>
      ⟨h c _ (Cert.KernelIdeal.Whole.mem_uc Cert.KernelIdeal.main_v6_0 (by decide)),
       h c _ (Cert.KernelIdeal.Whole.mem_uc Cert.KernelIdeal.main_v10 (by decide)),
       (h c _ (Cert.KernelIdeal.Whole.mem_uc Cert.KernelIdeal.main_arg0 (by decide))).trans (Cert.KernelIdeal.Whole.W6_main_arg0 m c),
       (h c _ (Cert.KernelIdeal.Whole.mem_uc Cert.KernelIdeal.main_arg1 (by decide))).trans (Cert.KernelIdeal.Whole.W6_main_arg1 m c),
       (h c _ (Cert.KernelIdeal.Whole.mem_uc Cert.KernelIdeal.main_arg2 (by decide))).trans (Cert.KernelIdeal.Whole.W6_main_arg2 m c),
       (h c _ (Cert.KernelIdeal.Whole.mem_uc Cert.KernelIdeal.main_arg3 (by decide))).trans (Cert.KernelIdeal.Whole.W6_main_arg3 m c),
       (h c _ (Cert.KernelIdeal.Whole.mem_uc Cert.KernelIdeal.main_arg4 (by decide))).trans (Cert.KernelIdeal.Whole.W6_main_arg4 m c),
       (h c _ (Cert.KernelIdeal.Whole.mem_uc Cert.KernelIdeal.main_arg5 (by decide))).trans (Cert.KernelIdeal.Whole.W6_main_arg5 m c)⟩)
  · refine (θ_run Cert.ReferenceIdeal.defs _ _).mono (fun _ h c => ⟨(h c).1.trans ?_, (h c).2.1.trans ?_, (h c).2.2⟩)
      (Cert.ReferenceIdeal.RunH.run (F := Ideal) m' ρ')
    · obtain ⟨-, -, -, -, hidx, -⟩ := Cert.Proof.PreFacts.pre_facts _ _ _ _ _ _ (hpre c)
      obtain ⟨e0, e1, e2, e3, e4, e5⟩ := hagree c
      funext i
      obtain ⟨b, t, v, rfl⟩ : ∃ (b : Fin 8) (t : Fin 1024) (v : Fin 8192), i = ix3 b t v := ⟨i 0, i 1, i 2, eq_ix3 i⟩
      refine (Cert.ReferenceIdeal.RefValue.ref_logits m' c (by rw [e0]; exact hidx) b t v).trans ?_
      rw [e0, e2, e3, e4, e5]
      exact (Cert.KernelIdeal.HostValue.kernel_logits m c hidx b t v).symm
    · obtain ⟨hwte, hwv, hwm, hlm, hidx, htg⟩ := Cert.Proof.PreFacts.pre_facts _ _ _ _ _ _ (hpre c)
      obtain ⟨e0, e1, e2, e3, e4, e5⟩ := hagree c
      funext i
      refine (Cert.ReferenceIdeal.RefValue.ref_loss m' c (by rw [e0]; exact hidx) (by rw [e1]; exact htg) i).trans ?_
      rw [e0, e1, e2, e3, e4, e5]
      exact (Cert.KernelIdeal.HostValue.kernel_loss m c hwte hwv hwm hlm hidx htg i).symm

/-- The certificate: the three frames, the (empty) idealization ledger, and the equivalence over the extended reals. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
